-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![4096, 512]⟩ (Layout.meshBlock [2, 2, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S1024x512 : Shape := ⟨2, ![1024, 512]⟩
abbrev S6x2x128x512 : Shape := ⟨4, ![6, 2, 128, 512]⟩
abbrev S6x2 : Shape := ⟨2, ![6, 2]⟩
abbrev S_ : Shape := ⟨0, ![]⟩
abbrev S1x1 : Shape := ⟨2, ![1, 1]⟩
abbrev S1x1x128x512 : Shape := ⟨4, ![1, 1, 128, 512]⟩
abbrev S128x512 : Shape := ⟨2, ![128, 512]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S6x2x128x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 2 → Bool
  | ⟨0, _⟩ => false
  | ⟨1, _⟩ => true
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 2 26 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_18 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_17 : BitVec 32 := 8#32
  let v33 : BitVec 32 := Scalar.muli v2 c8_i32_17
  let v34 : BitVec 32 := Scalar.addi c0_i32_18 v33
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_19 : BitVec 32 := 4#32
  let v35 : BitVec 32 := Scalar.muli v5 c4_i32_19
  let v36 : BitVec 32 := Scalar.addi v34 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_8 : BitVec 32 := 4#32
  let v20 : BitVec 32 := Scalar.addi v8 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_20 : BitVec 32 := 1#32
  let v37 : BitVec 32 := Scalar.muli v31 c1_i32_20
  let v38 : BitVec 32 := Scalar.addi v36 v37
  v38.toNat
def k0_dev2 (d0 : Dev nD) : Nat :=
  let c0_i32_23 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_22 : BitVec 32 := 8#32
  let v39 : BitVec 32 := Scalar.muli v2 c8_i32_22
  let v40 : BitVec 32 := Scalar.addi c0_i32_23 v39
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_24 : BitVec 32 := 4#32
  let v41 : BitVec 32 := Scalar.muli v5 c4_i32_24
  let v42 : BitVec 32 := Scalar.addi v40 v41
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_25 : BitVec 32 := 1#32
  let v43 : BitVec 32 := Scalar.muli v19 c1_i32_25
  let v44 : BitVec 32 := Scalar.addi v42 v43
  v44.toNat
def k0_off1 (d0 : Dev nD) (c4_i32_30 : BitVec 32) (c0_i32_31 : BitVec 32) (c0_i32_38 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v48 : BitVec 32 := Scalar.addi v8 c4_i32_30
  let v49 : BitVec 32 := Scalar.subi v48 c0_i32_31
  let c4_i32_32 : BitVec 32 := 4#32
  let c0_i32_33 : BitVec 32 := 0#32
  let v50 : BitVec 1 := Scalar.cmpi .eq c4_i32_32 c0_i32_33
  let c1_i32_34 : BitVec 32 := 1#32
  let v51 : BitVec 32 := Scalar.select v50 c1_i32_34 c4_i32_32
  let v52 : BitVec 32 := Scalar.remsi v49 v51
  let c0_i32_36 : BitVec 32 := 0#32
  let v54 : BitVec 1 := Scalar.cmpi .slt v52 c0_i32_36
  let c0_i32_37 : BitVec 32 := 0#32
  let v55 : BitVec 1 := Scalar.cmpi .slt v51 c0_i32_37
  let v56 : BitVec 1 := Scalar.xori v54 v55
  let c0_i32_35 : BitVec 32 := 0#32
  let v53 : BitVec 1 := Scalar.cmpi .ne v52 c0_i32_35
  let v57 : BitVec 1 := Scalar.andi v56 v53
  let v58 : BitVec 32 := Scalar.addi v52 v51
  let v59 : BitVec 32 := Scalar.select v57 v58 v52
  let c256_i32 : BitVec 32 := 256#32
  let v60 : BitVec 32 := Scalar.muli v59 c256_i32
  let v61 : BitVec 32 := Scalar.addi v60 c0_i32_38
  let c0_i32_51 : BitVec 32 := 0#32
  ![v61.toNat, 0]
def k0_off1_at (r : Fin 12) : BitVec 32 × BitVec 32 × BitVec 32 :=
  if r.val < 6 then
    if r.val < 3 then
      if r.val < 1 then
        (4#32, 0#32, 0#32)
      else
        if r.val < 2 then
          (4#32, 0#32, 128#32)
        else
          (4#32, 1#32, 0#32)
    else
      if r.val < 4 then
        (4#32, 1#32, 128#32)
      else
        if r.val < 5 then
          (4#32, 2#32, 0#32)
        else
          (4#32, 2#32, 128#32)
  else
    if r.val < 9 then
      if r.val < 7 then
        (8#32, 3#32, 0#32)
      else
        if r.val < 8 then
          (8#32, 3#32, 128#32)
        else
          (8#32, 4#32, 0#32)
    else
      if r.val < 10 then
        (8#32, 4#32, 128#32)
      else
        if r.val < 11 then
          (8#32, 5#32, 0#32)
        else
          (8#32, 5#32, 128#32)
def k0_dev3 (d0 : Dev nD) : Nat :=
  let c0_i32_46 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_45 : BitVec 32 := 8#32
  let v62 : BitVec 32 := Scalar.muli v2 c8_i32_45
  let v63 : BitVec 32 := Scalar.addi c0_i32_46 v62
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_47 : BitVec 32 := 4#32
  let v64 : BitVec 32 := Scalar.muli v5 c4_i32_47
  let v65 : BitVec 32 := Scalar.addi v63 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_48 : BitVec 32 := 1#32
  let v66 : BitVec 32 := Scalar.muli v19 c1_i32_48
  let v67 : BitVec 32 := Scalar.addi v65 v66
  v67.toNat
def k0_dev4 (d0 : Dev nD) : Nat :=
  let c0_i32_68 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_67 : BitVec 32 := 8#32
  let v89 : BitVec 32 := Scalar.muli v2 c8_i32_67
  let v90 : BitVec 32 := Scalar.addi c0_i32_68 v89
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_69 : BitVec 32 := 4#32
  let v91 : BitVec 32 := Scalar.muli v5 c4_i32_69
  let v92 : BitVec 32 := Scalar.addi v90 v91
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_70 : BitVec 32 := 1#32
  let v93 : BitVec 32 := Scalar.muli v19 c1_i32_70
  let v94 : BitVec 32 := Scalar.addi v92 v93
  v94.toNat
def k0_off2 (d0 : Dev nD) (c0_i32_88 : BitVec 32) (c0_i32_97 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_87 : BitVec 32 := 4#32
  let v113 : BitVec 32 := Scalar.addi v8 c4_i32_87
  let v114 : BitVec 32 := Scalar.subi v113 c0_i32_88
  let c1_i32_89 : BitVec 32 := 1#32
  let v115 : BitVec 32 := Scalar.subi v114 c1_i32_89
  let c4_i32_90 : BitVec 32 := 4#32
  let c0_i32_91 : BitVec 32 := 0#32
  let v116 : BitVec 1 := Scalar.cmpi .eq c4_i32_90 c0_i32_91
  let c1_i32_92 : BitVec 32 := 1#32
  let v117 : BitVec 32 := Scalar.select v116 c1_i32_92 c4_i32_90
  let v118 : BitVec 32 := Scalar.remsi v115 v117
  let c0_i32_94 : BitVec 32 := 0#32
  let v120 : BitVec 1 := Scalar.cmpi .slt v118 c0_i32_94
  let c0_i32_95 : BitVec 32 := 0#32
  let v121 : BitVec 1 := Scalar.cmpi .slt v117 c0_i32_95
  let v122 : BitVec 1 := Scalar.xori v120 v121
  let c0_i32_93 : BitVec 32 := 0#32
  let v119 : BitVec 1 := Scalar.cmpi .ne v118 c0_i32_93
  let v123 : BitVec 1 := Scalar.andi v122 v119
  let v124 : BitVec 32 := Scalar.addi v118 v117
  let v125 : BitVec 32 := Scalar.select v123 v124 v118
  let c256_i32_96 : BitVec 32 := 256#32
  let v126 : BitVec 32 := Scalar.muli v125 c256_i32_96
  let v127 : BitVec 32 := Scalar.addi v126 c0_i32_97
  let v128 : Index := Scalar.indexCast v127
  let c0_98 : Index := 0#32
  ![v128.toNat, 0]
def k0_dev5 (d0 : Dev nD) : Nat :=
  let c0_i32_121 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_120 : BitVec 32 := 8#32
  let v150 : BitVec 32 := Scalar.muli v2 c8_i32_120
  let v151 : BitVec 32 := Scalar.addi c0_i32_121 v150
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_122 : BitVec 32 := 4#32
  let v152 : BitVec 32 := Scalar.muli v5 c4_i32_122
  let v153 : BitVec 32 := Scalar.addi v151 v152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_123 : BitVec 32 := 1#32
  let v154 : BitVec 32 := Scalar.muli v19 c1_i32_123
  let v155 : BitVec 32 := Scalar.addi v153 v154
  v155.toNat
def k0_dev6 (d0 : Dev nD) : Nat :=
  let c0_i32_173 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_172 : BitVec 32 := 8#32
  let v211 : BitVec 32 := Scalar.muli v2 c8_i32_172
  let v212 : BitVec 32 := Scalar.addi c0_i32_173 v211
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_174 : BitVec 32 := 4#32
  let v213 : BitVec 32 := Scalar.muli v5 c4_i32_174
  let v214 : BitVec 32 := Scalar.addi v212 v213
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_175 : BitVec 32 := 1#32
  let v215 : BitVec 32 := Scalar.muli v19 c1_i32_175
  let v216 : BitVec 32 := Scalar.addi v214 v215
  v216.toNat
def k0_dev7 (d0 : Dev nD) : Nat :=
  let c0_i32_226 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_225 : BitVec 32 := 8#32
  let v272 : BitVec 32 := Scalar.muli v2 c8_i32_225
  let v273 : BitVec 32 := Scalar.addi c0_i32_226 v272
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_227 : BitVec 32 := 4#32
  let v274 : BitVec 32 := Scalar.muli v5 c4_i32_227
  let v275 : BitVec 32 := Scalar.addi v273 v274
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_228 : BitVec 32 := 1#32
  let v276 : BitVec 32 := Scalar.muli v19 c1_i32_228
  let v277 : BitVec 32 := Scalar.addi v275 v276
  v277.toNat
def k0_dev8 (d0 : Dev nD) : Nat :=
  let c0_i32_279 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_278 : BitVec 32 := 8#32
  let v333 : BitVec 32 := Scalar.muli v2 c8_i32_278
  let v334 : BitVec 32 := Scalar.addi c0_i32_279 v333
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_280 : BitVec 32 := 4#32
  let v335 : BitVec 32 := Scalar.muli v5 c4_i32_280
  let v336 : BitVec 32 := Scalar.addi v334 v335
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_281 : BitVec 32 := 1#32
  let v337 : BitVec 32 := Scalar.muli v19 c1_i32_281
  let v338 : BitVec 32 := Scalar.addi v336 v337
  v338.toNat
def k0_dev9 (d0 : Dev nD) : Nat :=
  let c0_i32_330 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_329 : BitVec 32 := 8#32
  let v394 : BitVec 32 := Scalar.muli v2 c8_i32_329
  let v395 : BitVec 32 := Scalar.addi c0_i32_330 v394
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_331 : BitVec 32 := 4#32
  let v396 : BitVec 32 := Scalar.muli v5 c4_i32_331
  let v397 : BitVec 32 := Scalar.addi v395 v396
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_332 : BitVec 32 := 1#32
  let v398 : BitVec 32 := Scalar.muli v19 c1_i32_332
  let v399 : BitVec 32 := Scalar.addi v397 v398
  v399.toNat
def k0_dev10 (d0 : Dev nD) : Nat :=
  let c0_i32_383 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_382 : BitVec 32 := 8#32
  let v455 : BitVec 32 := Scalar.muli v2 c8_i32_382
  let v456 : BitVec 32 := Scalar.addi c0_i32_383 v455
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_384 : BitVec 32 := 4#32
  let v457 : BitVec 32 := Scalar.muli v5 c4_i32_384
  let v458 : BitVec 32 := Scalar.addi v456 v457
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_385 : BitVec 32 := 1#32
  let v459 : BitVec 32 := Scalar.muli v19 c1_i32_385
  let v460 : BitVec 32 := Scalar.addi v458 v459
  v460.toNat
def k0_off3 (d0 : Dev nD) (c3_i32_404 : BitVec 32) (c0_i32_425 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_402 : BitVec 32 := 4#32
  let v479 : BitVec 32 := Scalar.addi v8 c4_i32_402
  let c3_i32_403 : BitVec 32 := 3#32
  let v480 : BitVec 32 := Scalar.addi v479 c3_i32_403
  let v481 : BitVec 32 := Scalar.subi v480 c3_i32_404
  let c4_i32_405 : BitVec 32 := 4#32
  let c0_i32_406 : BitVec 32 := 0#32
  let v482 : BitVec 1 := Scalar.cmpi .eq c4_i32_405 c0_i32_406
  let c1_i32_407 : BitVec 32 := 1#32
  let v483 : BitVec 32 := Scalar.select v482 c1_i32_407 c4_i32_405
  let v484 : BitVec 32 := Scalar.remsi v481 v483
  let c0_i32_409 : BitVec 32 := 0#32
  let v486 : BitVec 1 := Scalar.cmpi .slt v484 c0_i32_409
  let c0_i32_410 : BitVec 32 := 0#32
  let v487 : BitVec 1 := Scalar.cmpi .slt v483 c0_i32_410
  let v488 : BitVec 1 := Scalar.xori v486 v487
  let c0_i32_408 : BitVec 32 := 0#32
  let v485 : BitVec 1 := Scalar.cmpi .ne v484 c0_i32_408
  let v489 : BitVec 1 := Scalar.andi v488 v485
  let v490 : BitVec 32 := Scalar.addi v484 v483
  let v491 : BitVec 32 := Scalar.select v489 v490 v484
  let c256_i32_424 : BitVec 32 := 256#32
  let v499 : BitVec 32 := Scalar.muli v491 c256_i32_424
  let v500 : BitVec 32 := Scalar.addi v499 c0_i32_425
  let v501 : Index := Scalar.indexCast v500
  let c0_426 : Index := 0#32
  ![v501.toNat, 0]
def k0_dev11 (d0 : Dev nD) : Nat :=
  let c0_i32_444 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_443 : BitVec 32 := 8#32
  let v517 : BitVec 32 := Scalar.muli v2 c8_i32_443
  let v518 : BitVec 32 := Scalar.addi c0_i32_444 v517
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_445 : BitVec 32 := 4#32
  let v519 : BitVec 32 := Scalar.muli v5 c4_i32_445
  let v520 : BitVec 32 := Scalar.addi v518 v519
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_446 : BitVec 32 := 1#32
  let v521 : BitVec 32 := Scalar.muli v19 c1_i32_446
  let v522 : BitVec 32 := Scalar.addi v520 v521
  v522.toNat
def k0_dev12 (d0 : Dev nD) : Nat :=
  let c0_i32_506 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_505 : BitVec 32 := 8#32
  let v579 : BitVec 32 := Scalar.muli v2 c8_i32_505
  let v580 : BitVec 32 := Scalar.addi c0_i32_506 v579
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_507 : BitVec 32 := 4#32
  let v581 : BitVec 32 := Scalar.muli v5 c4_i32_507
  let v582 : BitVec 32 := Scalar.addi v580 v581
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_508 : BitVec 32 := 1#32
  let v583 : BitVec 32 := Scalar.muli v19 c1_i32_508
  let v584 : BitVec 32 := Scalar.addi v582 v583
  v584.toNat
def k0_dev13 (d0 : Dev nD) : Nat :=
  let c0_i32_566 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_565 : BitVec 32 := 8#32
  let v641 : BitVec 32 := Scalar.muli v2 c8_i32_565
  let v642 : BitVec 32 := Scalar.addi c0_i32_566 v641
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_567 : BitVec 32 := 4#32
  let v643 : BitVec 32 := Scalar.muli v5 c4_i32_567
  let v644 : BitVec 32 := Scalar.addi v642 v643
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_568 : BitVec 32 := 1#32
  let v645 : BitVec 32 := Scalar.muli v19 c1_i32_568
  let v646 : BitVec 32 := Scalar.addi v644 v645
  v646.toNat
def k0_dev14 (d0 : Dev nD) : Nat :=
  let c0_i32_628 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_627 : BitVec 32 := 8#32
  let v703 : BitVec 32 := Scalar.muli v2 c8_i32_627
  let v704 : BitVec 32 := Scalar.addi c0_i32_628 v703
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_629 : BitVec 32 := 4#32
  let v705 : BitVec 32 := Scalar.muli v5 c4_i32_629
  let v706 : BitVec 32 := Scalar.addi v704 v705
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_630 : BitVec 32 := 1#32
  let v707 : BitVec 32 := Scalar.muli v19 c1_i32_630
  let v708 : BitVec 32 := Scalar.addi v706 v707
  v708.toNat
def k0_dev15 (d0 : Dev nD) : Nat :=
  let c0_i32_773_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_772_r0 : BitVec 32 := 8#32
  let v817_r0 : BitVec 32 := Scalar.muli v2 c8_i32_772_r0
  let v818_r0 : BitVec 32 := Scalar.addi c0_i32_773_r0 v817_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_774_r0 : BitVec 32 := 4#32
  let v819_r0 : BitVec 32 := Scalar.muli v5 c4_i32_774_r0
  let v820_r0 : BitVec 32 := Scalar.addi v818_r0 v819_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_8 : BitVec 32 := 4#32
  let v20 : BitVec 32 := Scalar.addi v8 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_775_r0 : BitVec 32 := 1#32
  let v821_r0 : BitVec 32 := Scalar.muli v31 c1_i32_775_r0
  let v822_r0 : BitVec 32 := Scalar.addi v820_r0 v821_r0
  v822_r0.toNat
def k0_dev16 (d0 : Dev nD) : Nat :=
  let c0_i32_778_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_777_r0 : BitVec 32 := 8#32
  let v823_r0 : BitVec 32 := Scalar.muli v2 c8_i32_777_r0
  let v824_r0 : BitVec 32 := Scalar.addi c0_i32_778_r0 v823_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_779_r0 : BitVec 32 := 4#32
  let v825_r0 : BitVec 32 := Scalar.muli v5 c4_i32_779_r0
  let v826_r0 : BitVec 32 := Scalar.addi v824_r0 v825_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_780_r0 : BitVec 32 := 1#32
  let v827_r0 : BitVec 32 := Scalar.muli v19 c1_i32_780_r0
  let v828_r0 : BitVec 32 := Scalar.addi v826_r0 v827_r0
  v828_r0.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S6x2_S1x1_0_0 : ∀ a, (![0, 0] : Fin 2 → Nat) a + S1x1.size a ≤ S6x2.size a
  squeezes_S1x1_S_ : S1x1.Squeezes S_
  inb_S6x2x128x512_S1x1x128x512_0_0_0_0 : ∀ a, (![0, 0, 0, 0] : Fin 4 → Nat) a + S1x1x128x512.size a ≤ S6x2x128x512.size a
  squeezes_S1x1x128x512_S128x512 : S1x1x128x512.Squeezes S128x512
  inb_S6x2_S1x1_0_1 : ∀ a, (![0, 1] : Fin 2 → Nat) a + S1x1.size a ≤ S6x2.size a
  inb_S6x2x128x512_S1x1x128x512_0_1_0_0 : ∀ a, (![0, 1, 0, 0] : Fin 4 → Nat) a + S1x1x128x512.size a ≤ S6x2x128x512.size a
  h_S128x512 : 0 < S128x512.numel
  shapeCasts_S128x512_S128x512 : S128x512.ShapeCasts S128x512
  h_S1x1x128x512 : 0 < S1x1x128x512.numel
  shapeCasts_S1x1x128x512_S128x512 : S1x1x128x512.ShapeCasts S128x512
  inb_S6x2_S1x1_1_0 : ∀ a, (![1, 0] : Fin 2 → Nat) a + S1x1.size a ≤ S6x2.size a
  inb_S6x2x128x512_S1x1x128x512_1_0_0_0 : ∀ a, (![1, 0, 0, 0] : Fin 4 → Nat) a + S1x1x128x512.size a ≤ S6x2x128x512.size a
  inb_S6x2_S1x1_1_1 : ∀ a, (![1, 1] : Fin 2 → Nat) a + S1x1.size a ≤ S6x2.size a
  inb_S6x2x128x512_S1x1x128x512_1_1_0_0 : ∀ a, (![1, 1, 0, 0] : Fin 4 → Nat) a + S1x1x128x512.size a ≤ S6x2x128x512.size a
  inb_S6x2_S1x1_2_0 : ∀ a, (![2, 0] : Fin 2 → Nat) a + S1x1.size a ≤ S6x2.size a
  inb_S6x2x128x512_S1x1x128x512_2_0_0_0 : ∀ a, (![2, 0, 0, 0] : Fin 4 → Nat) a + S1x1x128x512.size a ≤ S6x2x128x512.size a
  inb_S6x2_S1x1_2_1 : ∀ a, (![2, 1] : Fin 2 → Nat) a + S1x1.size a ≤ S6x2.size a
  inb_S6x2x128x512_S1x1x128x512_2_1_0_0 : ∀ a, (![2, 1, 0, 0] : Fin 4 → Nat) a + S1x1x128x512.size a ≤ S6x2x128x512.size a
  inb_S6x2_S1x1_3_0 : ∀ a, (![3, 0] : Fin 2 → Nat) a + S1x1.size a ≤ S6x2.size a
  inb_S6x2x128x512_S1x1x128x512_3_0_0_0 : ∀ a, (![3, 0, 0, 0] : Fin 4 → Nat) a + S1x1x128x512.size a ≤ S6x2x128x512.size a
  inb_S6x2_S1x1_3_1 : ∀ a, (![3, 1] : Fin 2 → Nat) a + S1x1.size a ≤ S6x2.size a
  inb_S6x2x128x512_S1x1x128x512_3_1_0_0 : ∀ a, (![3, 1, 0, 0] : Fin 4 → Nat) a + S1x1x128x512.size a ≤ S6x2x128x512.size a
  inb_S6x2_S1x1_4_0 : ∀ a, (![4, 0] : Fin 2 → Nat) a + S1x1.size a ≤ S6x2.size a
  inb_S6x2x128x512_S1x1x128x512_4_0_0_0 : ∀ a, (![4, 0, 0, 0] : Fin 4 → Nat) a + S1x1x128x512.size a ≤ S6x2x128x512.size a
  inb_S6x2_S1x1_4_1 : ∀ a, (![4, 1] : Fin 2 → Nat) a + S1x1.size a ≤ S6x2.size a
  inb_S6x2x128x512_S1x1x128x512_4_1_0_0 : ∀ a, (![4, 1, 0, 0] : Fin 4 → Nat) a + S1x1x128x512.size a ≤ S6x2x128x512.size a
  inb_S6x2_S1x1_5_0 : ∀ a, (![5, 0] : Fin 2 → Nat) a + S1x1.size a ≤ S6x2.size a
  inb_S6x2x128x512_S1x1x128x512_5_0_0_0 : ∀ a, (![5, 0, 0, 0] : Fin 4 → Nat) a + S1x1x128x512.size a ≤ S6x2x128x512.size a
  inb_S6x2_S1x1_5_1 : ∀ a, (![5, 1] : Fin 2 → Nat) a + S1x1.size a ≤ S6x2.size a
  inb_S6x2x128x512_S1x1x128x512_5_1_0_0 : ∀ a, (![5, 1, 0, 0] : Fin 4 → Nat) a + S1x1x128x512.size a ≤ S6x2x128x512.size a
  hcc0_scoped0 : 1 + S_.numel ≤ 2
  hcc0_scratch1 : 2 + S6x2.numel ≤ 26
  hcc0_scratch2 : 14 + S6x2.numel ≤ 26
  k0_dev1_lt : ∀ d0 : Dev nD, (k0_dev1 d0) < nD
  k0_dev2_lt : ∀ d0 : Dev nD, (k0_dev2 d0) < nD
  k0_off1_inb : ∀ d0 : Dev nD, ∀ (r : Fin 12), ∀ a, (k0_off1 d0 (k0_off1_at r).1 (k0_off1_at r).2.1 (k0_off1_at r).2.2) a + S128x512.size a ≤ S1024x512.size a
  k0_dev3_lt : ∀ d0 : Dev nD, (k0_dev3 d0) < nD
  k0_dev4_lt : ∀ d0 : Dev nD, (k0_dev4 d0) < nD
  k0_off2_inb : ∀ d0 : Dev nD, ∀ (r₁ : Fin 3) (r₂ : Fin 2), ∀ a, (k0_off2 d0 (BitVec.ofNat 32 r₁.val) (BitVec.ofNat 32 (128 * r₂.val))) a + S128x512.size a ≤ S1024x512.size a
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_off3_inb : ∀ d0 : Dev nD, ∀ (r₁ : Fin 3) (r₂ : Fin 2), ∀ a, (k0_off3 d0 (BitVec.ofNat 32 (3 + r₁.val)) (BitVec.ofNat 32 (128 * r₂.val))) a + S128x512.size a ≤ S1024x512.size a
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  hstage0_0 : ∀ j, (stage0_0 j).IsWhole
  hstage0_1 : ∀ j, (stage0_1 j).IsWhole

variable [Facts₀]

abbrev cc0_scoped0 : Sems sig S_ := SemArray.consecutive 1 S_ hcc0_scoped0
abbrev cc0_scratch1 : DmaSems sig S6x2 := SemArray.consecutive 2 S6x2 hcc0_scratch1
abbrev cc0_scratch2 : DmaSems sig S6x2 := SemArray.consecutive 14 S6x2 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x512 : Shape := ⟨2, ![4096, 512]⟩
abbrev S4x1024x512 : Shape := ⟨3, ![4, 1024, 512]⟩
abbrev S_ : Shape := ⟨0, ![]⟩
abbrev S1024x512 : Shape := ⟨2, ![1024, 512]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4x1024x512, .f32⟩
  | .hbm, ⟨2, _⟩ => ⟨S_, .f32⟩
  | .hbm, ⟨3, _⟩ => ⟨S1024x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S4096x512_S4x1024x512 : S4096x512.ShapeCasts S4x1024x512
  reducesTo_S4x1024x512_S1024x512_d0 : S4x1024x512.ReducesTo [0] S1024x512
  h_S_ : 0 < S_.numel

variable [Facts₀]

class Facts : Prop extends Facts₀ where

variable [Facts]
-- ==== Proof.KernelRing.lean ====
/-
  The mesh is 2 × 2 × 4, devices numbered row-major: device 8·x + 4·y + z. The all-reduce runs on the
  four rings of fixed (x, y): the right neighbour of a device is the one at z + 1 (mod 4), the left
  neighbour the one at z − 1 (mod 4). This module names the two neighbour maps, identifies the printed
  device chains with them, and gives the closed form of every row offset the kernel computes:
  chunk (z + k) mod 4 (256 rows each), half s (128 rows each).
-/
import proofs.«900718_g7700000000000719_dist_ar_v7x_xyz2x2x4_z_m1024_n512_f32_1_alg».proof.Kernel
import proofs.«900718_g7700000000000719_dist_ar_v7x_xyz2x2x4_z_m1024_n512_f32_1_alg».proof.Proof.Gen.Kernel

noncomputable section

namespace Cert.Kernel.AR

open Cert.Kernel Cert.Kernel.Gen
open Idealize.ShloMosaic Idealize.SL.Sem

/-- The position on the ring: z = id mod 4. -/
def zc (c : Dev nD) : Fin 4 := ⟨c.val % 4, Nat.mod_lt _ (by decide)⟩

/-- The right neighbour: the same (x, y), z + 1. -/
def nxt (c : Dev nD) : Dev nD := ⟨4 * (c.val / 4) + (c.val % 4 + 1) % 4, by have := c.isLt; revert this; generalize c.val = v; decide +revert⟩
/-- The left neighbour: the same (x, y), z − 1. -/
def prv (c : Dev nD) : Dev nD := ⟨4 * (c.val / 4) + (c.val % 4 + 3) % 4, by have := c.isLt; revert this; generalize c.val = v; decide +revert⟩

theorem prv_nxt (c : Dev nD) : prv (nxt c) = c := by revert c; decide
theorem nxt_prv (c : Dev nD) : nxt (prv c) = c := by revert c; decide
theorem nxt_ne_prv (c : Dev nD) : nxt c ≠ prv c := by revert c; decide
theorem nxt_ne_self (c : Dev nD) : nxt c ≠ c := by revert c; decide
theorem prv_ne_self (c : Dev nD) : prv c ≠ c := by revert c; decide
theorem zc_nxt (c : Dev nD) : zc (nxt c) = zc c + 1 := by revert c; decide
theorem zc_prv (c : Dev nD) : zc (prv c) = zc c + 3 := by revert c; decide

/-- The ring as a permutation of the devices. -/
def ring : Dev nD ≃ Dev nD := ⟨nxt, prv, prv_nxt, nxt_prv⟩

/-! ## The printed device chains -/

theorem k0_dev1_eq : ∀ c : Dev nD, k0_dev1 c = (prv c).val := by decide +kernel
theorem k0_dev2_eq : ∀ c : Dev nD, k0_dev2 c = (nxt c).val := by decide +kernel
theorem k0_dev3_eq : ∀ c : Dev nD, k0_dev3 c = (nxt c).val := by decide +kernel
theorem k0_dev4_eq : ∀ c : Dev nD, k0_dev4 c = (nxt c).val := by decide +kernel
theorem k0_dev5_eq : ∀ c : Dev nD, k0_dev5 c = (nxt c).val := by decide +kernel
theorem k0_dev6_eq : ∀ c : Dev nD, k0_dev6 c = (nxt c).val := by decide +kernel
theorem k0_dev7_eq : ∀ c : Dev nD, k0_dev7 c = (nxt c).val := by decide +kernel
theorem k0_dev8_eq : ∀ c : Dev nD, k0_dev8 c = (nxt c).val := by decide +kernel
theorem k0_dev9_eq : ∀ c : Dev nD, k0_dev9 c = (nxt c).val := by decide +kernel
theorem k0_dev10_eq : ∀ c : Dev nD, k0_dev10 c = (nxt c).val := by decide +kernel
theorem k0_dev11_eq : ∀ c : Dev nD, k0_dev11 c = (nxt c).val := by decide +kernel
theorem k0_dev12_eq : ∀ c : Dev nD, k0_dev12 c = (nxt c).val := by decide +kernel
theorem k0_dev13_eq : ∀ c : Dev nD, k0_dev13 c = (nxt c).val := by decide +kernel
theorem k0_dev14_eq : ∀ c : Dev nD, k0_dev14 c = (nxt c).val := by decide +kernel
theorem k0_dev15_eq : ∀ c : Dev nD, k0_dev15 c = (prv c).val := by decide +kernel
theorem k0_dev16_eq : ∀ c : Dev nD, k0_dev16 c = (nxt c).val := by decide +kernel

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = nxt c := Fin.ext (k0_dev4_eq c)
theorem dev5_eq (c : Dev nD) : (⟨k0_dev5 c, k0_dev5_lt c⟩ : Dev nD) = nxt c := Fin.ext (k0_dev5_eq c)
theorem dev6_eq (c : Dev nD) : (⟨k0_dev6 c, k0_dev6_lt c⟩ : Dev nD) = nxt c := Fin.ext (k0_dev6_eq c)
theorem dev7_eq (c : Dev nD) : (⟨k0_dev7 c, k0_dev7_lt c⟩ : Dev nD) = nxt c := Fin.ext (k0_dev7_eq c)
theorem dev8_eq (c : Dev nD) : (⟨k0_dev8 c, k0_dev8_lt c⟩ : Dev nD) = nxt c := Fin.ext (k0_dev8_eq c)
theorem dev9_eq (c : Dev nD) : (⟨k0_dev9 c, k0_dev9_lt c⟩ : Dev nD) = nxt c := Fin.ext (k0_dev9_eq c)
theorem dev10_eq (c : Dev nD) : (⟨k0_dev10 c, k0_dev10_lt c⟩ : Dev nD) = nxt c := Fin.ext (k0_dev10_eq c)
theorem dev11_eq (c : Dev nD) : (⟨k0_dev11 c, k0_dev11_lt c⟩ : Dev nD) = nxt c := Fin.ext (k0_dev11_eq c)
theorem dev12_eq (c : Dev nD) : (⟨k0_dev12 c, k0_dev12_lt c⟩ : Dev nD) = nxt c := Fin.ext (k0_dev12_eq c)
theorem dev13_eq (c : Dev nD) : (⟨k0_dev13 c, k0_dev13_lt c⟩ : Dev nD) = nxt c := Fin.ext (k0_dev13_eq c)
theorem dev14_eq (c : Dev nD) : (⟨k0_dev14 c, k0_dev14_lt c⟩ : Dev nD) = nxt c := Fin.ext (k0_dev14_eq c)
theorem dev15_eq (c : Dev nD) : (⟨k0_dev15 c, k0_dev15_lt c⟩ : Dev nD) = prv c := Fin.ext (k0_dev15_eq c)
theorem dev16_eq (c : Dev nD) : (⟨k0_dev16 c, k0_dev16_lt c⟩ : Dev nD) = nxt c := Fin.ext (k0_dev16_eq c)

/-! ## Row offsets: chunk j (256 rows), half s (128 rows) -/

/-- The first row of half `s` of chunk `j`. -/
def rowOff (j : Fin 4) (s : Fin 2) : Nat := 256 * j.val + 128 * s.val
/-- The offsets of that block of 128 rows in the [1024, 512] array. -/
def off (j : Fin 4) (s : Fin 2) : Fin 2 → Nat := ![rowOff j s, 0]

theorem off_inb (j : Fin 4) (s : Fin 2) : ∀ a, off j s a + S128x512.size a ≤ S1024x512.size a := by
  revert j s; decide

/-- Step `h` sends chunk z + `srcK h`: z, z − 1, z − 2 while reducing, then z + 1, z, z − 1 while gathering. -/
def srcK : Fin 6 → Fin 4
  | 0 => 0 | 1 => 3 | 2 => 2 | 3 => 1 | 4 => 0 | 5 => 3
/-- What arrives at step `g` goes to chunk z + `dstK g`. -/
def dstK : Fin 6 → Fin 4
  | 0 => 3 | 1 => 2 | 2 => 1 | 3 => 0 | 4 => 3 | 5 => 2

/-- The printed offsets of the block a sending step reads (steps 0 … 2 and 3 … 5 are printed over different constants), -/
theorem off1_lo : ∀ (c : Dev nD) (h : Fin 3) (s : Fin 2),
    k0_off1 c 4#32 (BitVec.ofNat 32 h.val) (BitVec.ofNat 32 (128 * s.val)) = off (zc c + srcK ⟨h.val, by omega⟩) s := by decide +kernel
theorem off1_hi : ∀ (c : Dev nD) (h : Fin 3) (s : Fin 2),
    k0_off1 c 8#32 (BitVec.ofNat 32 (3 + h.val)) (BitVec.ofNat 32 (128 * s.val)) = off (zc c + srcK ⟨3 + h.val, by omega⟩) s := by decide +kernel
/-- of the block an accumulation (arrival 0 … 2) goes to, -/
theorem off2_eq : ∀ (c : Dev nD) (g : Fin 3) (s : Fin 2),
    k0_off2 c (BitVec.ofNat 32 g.val) (BitVec.ofNat 32 (128 * s.val)) = off (zc c + dstK ⟨g.val, by omega⟩) s := by decide +kernel
/-- and of the block a copy (arrival 3 … 5) goes to. -/
theorem off3_eq : ∀ (c : Dev nD) (g : Fin 3) (s : Fin 2),
    k0_off3 c (BitVec.ofNat 32 (3 + g.val)) (BitVec.ofNat 32 (128 * s.val)) = off (zc c + dstK ⟨3 + g.val, by omega⟩) s := by decide +kernel

end Cert.Kernel.AR

end
-- ==== Proof.KernelCells.lean ====
/-
  The buffers and semaphores of the ring all-reduce, named once.
  The result's staging buffer [1024, 512] is read as four chunks of 256 rows, each in two halves of
  128 rows: block (j, s). The landing buffer [6, 2, 128, 512] has one slot per (step, half).
  Per device the protocol runs on 26 semaphores: the entry handshake's (shared with every kernel
  of this collective id), one departure and one arrival semaphore per slot, and the exit handshake's.
-/
import proofs.«900718_g7700000000000719_dist_ar_v7x_xyz2x2x4_z_m1024_n512_f32_1_alg».proof.Proof.KernelRing
import Idealize.ShloMosaic.Lib.Pipeline.Launch
import Idealize.ShloMosaic.Lib.Pipeline.Kit
import Mathlib.Tactic.DeriveFintype

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Buffers -/

/-- The staging buffers of the input and of the result, and the landing buffer. -/
abbrev xM : Memref sig .tc .vmem S1024x512 .f32 := Memref.whole cc0_stg0_0
abbrev oM : Memref sig .tc .vmem S1024x512 .f32 := Memref.whole cc0_stg1_0
abbrev rM : Memref sig .tc .vmem S6x2x128x512 .f32 := Memref.whole cc0_scratch0

/-- Block (j, s) of the result: rows 256 j + 128 s … + 128. -/
abbrev oRect (j : Fin 4) (s : Fin 2) : Rect S1024x512 := Rect.unit (s := S1024x512) (off j s) S128x512.size (off_inb j s)
abbrev oB (j : Fin 4) (s : Fin 2) : Memref sig .tc .vmem S128x512 .f32 := oM.slice (oRect j s) (fun _ => rfl)

/-- Slot (h, s) of the landing buffer. -/
def sOff (h : Fin 6) (s : Fin 2) : Fin 4 → Nat := ![h.val, s.val, 0, 0]
theorem sOff_inb (h : Fin 6) (s : Fin 2) : ∀ a, sOff h s a + S1x1x128x512.size a ≤ S6x2x128x512.size a := by
  revert h s; decide
abbrev sRect (h : Fin 6) (s : Fin 2) : Rect S6x2x128x512 := Rect.unit (s := S6x2x128x512) (sOff h s) S1x1x128x512.size (sOff_inb h s)
abbrev slot4 (h : Fin 6) (s : Fin 2) : Memref sig .tc .vmem S1x1x128x512 .f32 := rM.slice (sRect h s) (fun _ => rfl)
abbrev slot (h : Fin 6) (s : Fin 2) : Memref sig .tc .vmem S128x512 .f32 := (slot4 h s).squeeze S128x512 squeezes_S1x1x128x512_S128x512

/-! ## Semaphores -/

/-- The entry handshake's semaphore (the runtime's, of collective id 0) and the exit handshake's. -/
abbrev barS : Sem sig := (SemArray.scalar (sig.barrier 0 rfl) : Sems sig S_).sem
abbrev exitS : Sem sig := (cc0_scoped0 : Sems sig S_).sem

def qOff (h : Fin 6) (s : Fin 2) : Fin 2 → Nat := ![h.val, s.val]
theorem qOff_inb (h : Fin 6) (s : Fin 2) : ∀ a, qOff h s a + S1x1.size a ≤ S6x2.size a := by revert h s; decide
/-- The departure and the arrival semaphore of slot (h, s). -/
def sendS (h : Fin 6) (s : Fin 2) : DmaSem sig :=
  ((cc0_scratch1.slice (Rect.unit (s := S6x2) (qOff h s) S1x1.size (qOff_inb h s))).squeeze S_ squeezes_S1x1_S_).sem
def recvS (h : Fin 6) (s : Fin 2) : DmaSem sig :=
  ((cc0_scratch2.slice (Rect.unit (s := S6x2) (qOff h s) S1x1.size (qOff_inb h s))).squeeze S_ squeezes_S1x1_S_).sem

theorem sendS_val : ∀ (h : Fin 6) (s : Fin 2), (sendS h s).val = 2 + (2 * h.val + s.val) := by decide
theorem recvS_val : ∀ (h : Fin 6) (s : Fin 2), (recvS h s).val = 14 + (2 * h.val + s.val) := by decide

/-- The kinds of cell a device has. -/
inductive CK : Type
  | bar | send (h : Fin 6) (s : Fin 2) | recv (h : Fin 6) (s : Fin 2) | exit
  deriving DecidableEq, Fintype

/-- Which semaphore each is. -/
def csem : CK → SemLoc sig
  | .bar => .reg barS
  | .send h s => .dma (sendS h s)
  | .recv h s => .dma (recvS h s)
  | .exit => .reg exitS

theorem csem_injective : Function.Injective csem := by decide

abbrev kcell (ck : Dev nD × CK) : GSem nD τ sig := ((ck.1 : Thread nD τ), csem ck.2)
abbrev barCell (c : Dev nD) : GSem nD τ sig := kcell (c, .bar)
abbrev sendCell (c : Dev nD) (h : Fin 6) (s : Fin 2) : GSem nD τ sig := kcell (c, .send h s)
abbrev recvCell (c : Dev nD) (h : Fin 6) (s : Fin 2) : GSem nD τ sig := kcell (c, .recv h s)
abbrev exitCell (c : Dev nD) : GSem nD τ sig := kcell (c, .exit)

theorem kcell_injective : Function.Injective (kcell : Dev nD × CK → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

/-- What one slot's transfer credits. -/
abbrev Ncr : ℕ := (slot 0 0).view.dmaCredit
theorem Ncr_pos : 0 < Ncr := View.dmaCredit_pos _ (by decide)
theorem slot_credit (h : Fin 6) (s : Fin 2) : (slot h s).view.dmaCredit = Ncr := rfl

end Cert.Kernel.AR

end
-- ==== Proof.KernelVals.lean ====
/-
  What the ring moves. Device c starts from its block x_c (1024 rows); the result buffer is first a
  copy of it. In the three reduce steps a device adds what arrives from its left neighbour to one of
  its own blocks and passes the sum on; after them chunk z + 1 holds the sum over the ring. In the
  three gather steps it passes on, unchanged, what it received. `V h c s` is half `s` of what device
  `c` sends at step `h` (and `V 6` what it receives last); `outAt c` the result buffer at the end.
-/
import proofs.«900718_g7700000000000719_dist_ar_v7x_xyz2x2x4_z_m1024_n512_f32_1_alg».proof.Proof.KernelCells
import proofs.«900718_g7700000000000719_dist_ar_v7x_xyz2x2x4_z_m1024_n512_f32_1_alg».proof.Proof.Gen.Kernel.Skeleton
import Idealize.ShloMosaic.Lib.ValueIdx

noncomputable section

namespace Cert.Kernel.AR

open Cert.Kernel Cert.Kernel.Gen
open Idealize.ShloMosaic Idealize.ShloMosaic.TcCoe
open Idealize.SL.Sem

variable {F : FTy → Type} [FloatOps F]
variable (m : (ℓ : Loc nD τ sig) → Buf (Elt F) ℓ)

/-- One block of 128 rows. -/
abbrev Blk (F : FTy → Type) : Type := S128x512.Idx → Elt F .f32

/-- Device `c`'s input block as staged, and the result buffer after the first copy. -/
def xin (c : Dev nD) : (cc0_stg0_0 : Ref sig .tc).ty.Contents (Elt F) :=
  (win0_0.blk (0 : Fin 1)).view.read (Elt F) (m ((c : Thread nD τ).loc main_arg0))
def out0 (c : Dev nD) : (cc0_stg1_0 : Ref sig .tc).ty.Contents (Elt F) := k0_pay1 (xin m c)

/-- Half `s` of chunk `j` of that copy. -/
def xblk (c : Dev nD) (j : Fin 4) (s : Fin 2) : Blk F := fun i => out0 m c ((oRect j s).emb i)

/-- A block plus what arrived (the kernel's `+=`). -/
def accV (a : Blk F) (w : Blk F) : Blk F := addf (shapeCast S128x512 a shapeCasts_S128x512_S128x512) w

/-- What device `c` sends at steps 0 … 5, and receives at the last step. -/
def V0 (c : Dev nD) (s : Fin 2) : Blk F := xblk m c (zc c) s
def V1 (c : Dev nD) (s : Fin 2) : Blk F := accV (xblk m c (zc c + 3) s) (V0 m (prv c) s)
def V2 (c : Dev nD) (s : Fin 2) : Blk F := accV (xblk m c (zc c + 2) s) (V1 m (prv c) s)
def V3 (c : Dev nD) (s : Fin 2) : Blk F := accV (xblk m c (zc c + 1) s) (V2 m (prv c) s)
def V4 (c : Dev nD) (s : Fin 2) : Blk F := V3 m (prv c) s
def V5 (c : Dev nD) (s : Fin 2) : Blk F := V4 m (prv c) s
def V6 (c : Dev nD) (s : Fin 2) : Blk F := V5 m (prv c) s

/-- Step `h`'s departure, by number. -/
def sentV (h : Fin 6) (c : Dev nD) (s : Fin 2) : Blk F :=
  match h with
  | 0 => V0 m c s | 1 => V1 m c s | 2 => V2 m c s | 3 => V3 m c s | 4 => V4 m c s | 5 => V5 m c s

/-- What chunk z + k of device `c` holds at the end. -/
def finV (c : Dev nD) (k : Fin 4) (s : Fin 2) : Blk F :=
  match k with
  | 0 => V4 m c s | 1 => V3 m c s | 2 => V6 m c s | 3 => V5 m c s

/-- The result buffer at the end: block (j, s) is `finV c (j − z) s`. -/
def outAt (c : Dev nD) : (cc0_stg1_0 : Ref sig .tc).ty.Contents (Elt F) := fun i =>
  have h0 : (i 0).val < 1024 := (i 0).isLt
  finV m c (⟨(i 0).val / 256, by omega⟩ - zc c) ⟨(i 0).val % 256 / 128, by omega⟩
    (ValueIdx.ix2 (⟨(i 0).val % 128, Nat.mod_lt _ (by decide)⟩ : Fin 128) (i 1))

end Cert.Kernel.AR

end
-- ==== Proof.KernelSched.lean ====
/-
  The protocol, as rounds of duties on each device's 26 semaphores. Every semaphore has ONE round.
  The entry and the exit handshake: two duties of one unit each, paid by the left (duty `false`) and the
  right (duty `true`) neighbour; the right neighbour's entry signal hands over its whole landing buffer.
  A departure semaphore: one duty, paid by the device's own copy, handing back the block that was read.
  An arrival semaphore: one duty, paid by the left neighbour's copy, handing over the slot holding what
  that neighbour sent.
-/
import proofs.«900718_g7700000000000719_dist_ar_v7x_xyz2x2x4_z_m1024_n512_f32_1_alg».proof.Proof.KernelVals
import Idealize.ShloMosaic.Lib.Tactic

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the ring's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The payloads -/

/-- Device `c`'s landing buffer, whole, at contents `f`. -/
def scrPts (c : Dev nD) (f : Buf (Elt F) ((rM : Memref sig .tc .vmem S6x2x128x512 .f32).view.loc (c : Thread nD τ))) : sProp 𝕄 :=
  (rM : Memref sig .tc .vmem S6x2x128x512 .f32).view.loc (c : Thread nD τ) ↦[(rM : Memref sig .tc .vmem S6x2x128x512 .f32).view.set]{fullShare} f

omit [FloatOps F] in
theorem scr_set : (rM : Memref sig .tc .vmem S6x2x128x512 .f32).view.set = Finset.univ := View.set_whole _
omit [FloatOps F] in
theorem scrPts_eq (c : Dev nD) (f : Buf (Elt F) ((c : Thread nD τ).loc cc0_scratch0)) :
    scrPts c f = (((c : Thread nD τ).loc cc0_scratch0) ↦{fullShare} f : sProp 𝕄) := by unfold scrPts; rw [scr_set]

/-- The right neighbour's entry signal hands `c` that neighbour's landing buffer. -/
def barPay (c : Dev nD) : sProp 𝕄 := iprop(∃ f, scrPts (nxt c) f)
/-- The departure of step `h`, half `s`: the block read, back, holding what was sent. -/
def sendPay (c : Dev nD) (h : Fin 6) (s : Fin 2) : sProp 𝕄 :=
  owns (c : Thread nD τ) (oB (zc c + srcK h) s) fullShare (sentV m h c s)
/-- The arrival: the slot, holding what the left neighbour sent. -/
def recvPay (c : Dev nD) (h : Fin 6) (s : Fin 2) : sProp 𝕄 :=
  owns (c : Thread nD τ) (slot h s) fullShare (sentV m h (prv c) s)

/-! ## The schedule -/

/-- The cell kind a semaphore is, if any. -/
def ckOf (sm : SemLoc sig) : Option CK := if h : ∃ k, csem k = sm then some h.choose else none
theorem ckOf_csem (k : CK) : ckOf (csem k) = some k := by
  unfold ckOf
  have h : ∃ k', csem k' = csem k := ⟨k, rfl⟩
  rw [dif_pos h]
  exact congrArg some (csem_injective h.choose_spec)

def dutiesK : CK → Finset Bool
  | .bar => Finset.univ | .exit => Finset.univ | .send _ _ => {false} | .recv _ _ => {false}
def amountK : CK → ℕ
  | .bar => 1 | .exit => 1 | .send _ _ => Ncr | .recv _ _ => Ncr
def payK (c : Dev nD) : CK → Bool → sProp 𝕄
  | .bar, true => barPay c
  | .bar, false => iprop(emp)
  | .exit, _ => iprop(emp)
  | .send h s, _ => sendPay m c h s
  | .recv h s, _ => recvPay m c h s

theorem amountK_pos (k : CK) : 0 < amountK k := by
  cases k <;> first | exact Nat.one_pos | exact Ncr_pos

def ringRd : Rounds.Schedule (GSem nD τ sig) Bool 𝕄 where
  duties g r := if r = 0 ∧ g.1.2 = .tc then (match ckOf g.2 with | some k => dutiesK k | none => ∅) else ∅
  unitless _ := False
  amount g _ _ := match ckOf g.2 with | some k => amountK k | none => 1
  payload g _ d := match ckOf g.2 with | some k => payK m g.1.1 k d | none => iprop(emp)
  amount_pos g _ _ _ := by
    cases h : ckOf g.2 with
    | none => exact Nat.one_pos
    | some k => exact amountK_pos k

instance payK_storable (c : Dev nD) (k : CK) (d : Bool) : BI.Storable (upEmb : UEmb _ 𝕄) (payK m c k d) := by
  cases k <;> cases d <;> unfold payK <;> (try unfold barPay sendPay recvPay scrPts) <;> infer_instance

instance ringRd_payload_storable (g : GSem nD τ sig) (r : ℕ) (d : Bool) :
    BI.Storable (upEmb : UEmb _ 𝕄) ((ringRd (F := F) m).payload g r d) := by
  show BI.Storable upEmb (match ckOf g.2 with | some k => payK m g.1.1 k d | none => iprop(emp))
  cases ckOf g.2 <;> infer_instance

section Tables
variable (c : Dev nD) (k : CK)

theorem duties_at : (ringRd (F := F) m).duties (kcell (c, k)) 0 = dutiesK k := by
  dsimp only [ringRd]; rw [if_pos ⟨rfl, rfl⟩, ckOf_csem]
theorem duties_later (g : GSem nD τ sig) : ∀ r, 1 ≤ r → (ringRd (F := F) m).duties g r = ∅ :=
  fun r hr => by dsimp only [ringRd]; rw [if_neg fun h => by omega]
theorem amount_at (d : Bool) : (ringRd (F := F) m).amount (kcell (c, k)) 0 d = amountK k := by
  dsimp only [ringRd]; rw [ckOf_csem]
theorem payload_at (d : Bool) : (ringRd (F := F) m).payload (kcell (c, k)) 0 d = payK m c k d := by
  dsimp only [ringRd]; rw [ckOf_csem]

/-- The units a cell's round expects: two for a handshake, a slot's credit for a transfer. -/
def expK : CK → ℕ
  | .bar => 2 | .exit => 2 | .send _ _ => Ncr | .recv _ _ => Ncr

theorem expect_at : (ringRd (F := F) m).expect (kcell (c, k)) 0 = expK k := by
  unfold Schedule.expect Schedule.amountOf
  rw [duties_at, Finset.sum_congr rfl fun d _ => amount_at m c k d]
  cases k <;> simp [dutiesK, amountK, expK]

/-- The rest of a handshake's round, no duty taken: the left neighbour's nothing and the right neighbour's payload. -/
theorem rest_two (hk : dutiesK k = Finset.univ) :
    bigSep ((ringRd (F := F) m).duties (kcell (c, k)) 0 \ ∅) (fun d => (ringRd (F := F) m).payload (kcell (c, k)) 0 d)
      = iprop(payK m c k false ∗ payK m c k true) := by
  rw [Finset.sdiff_empty, duties_at, hk, bigSep_univ_eq_bigSepL [false, true] (by decide) (by decide), bigSepL_cons_cons, bigSepL_singleton,
    payload_at, payload_at]
  rfl
/-- The rest of a transfer cell's round: its one payload. -/
theorem rest_one (hk : dutiesK k = {false}) :
    bigSep ((ringRd (F := F) m).duties (kcell (c, k)) 0 \ ∅) (fun d => (ringRd (F := F) m).payload (kcell (c, k)) 0 d)
      = payK m c k false := by
  rw [Finset.sdiff_empty, duties_at, hk, bigSep_singleton, payload_at]

end Tables

end Cert.Kernel.AR

end
-- ==== Proof.KernelInv.lean ====
/-
  What a device owes its neighbours, in the order it pays; the levels that make every wait safe;
  the ghost state a device runs from; and the pipeline's proof data.
  A device pays sixteen dues in program order: the two entry signals (left, right), the twelve transfers
  into the right neighbour's slots, the two exit signals (left, right). Levels: a departure semaphore 0,
  the entry handshake 1, arrival semaphore (h, s) 2 + 2h + s, the exit handshake 14: at every wait the
  semaphore waited on lies strictly below every semaphore still owed.
-/
import proofs.«900718_g7700000000000719_dist_ar_v7x_xyz2x2x4_z_m1024_n512_f32_1_alg».proof.Proof.KernelSched

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The dues, in program order -/

/-- To whom (`true`: the right neighbour, `false`: the left) and on which of its cells. -/
def dueK : List (Bool × CK) :=
  [(false, .bar), (true, .bar),
   (true, .recv 0 0), (true, .recv 0 1), (true, .recv 1 0), (true, .recv 1 1), (true, .recv 2 0), (true, .recv 2 1),
   (true, .recv 3 0), (true, .recv 3 1), (true, .recv 4 0), (true, .recv 4 1), (true, .recv 5 0), (true, .recv 5 1),
   (false, .exit), (true, .exit)]

def dueCell (c : Dev nD) (p : Bool × CK) : GSem nD τ sig := kcell (cond p.1 (nxt c) (prv c), p.2)
def dueT (c : Dev nD) (p : Bool × CK) : CellTallies nD τ sig Unit := tallyAt (dueCell c p) () (amountK p.2)

/-- The sum of a list of dues, the FIRST due outermost (the next payment peels it). -/
def owedTail : List (CellTallies nD τ sig Unit) → CellTallies nD τ sig Unit
  | [] => 0
  | d :: ds => owedTail ds + d

/-- What device `c` still owes after its first `n` payments. -/
def owedFrom (c : Dev nD) (n : ℕ) : CellTallies nD τ sig Unit := owedTail ((dueK.drop n).map (dueT c))
def O₀ (c : Dev nD) : CellTallies nD τ sig Unit := owedFrom c 0

theorem owedFrom_done (c : Dev nD) : owedFrom c 16 = 0 := rfl

/-! ## Levels -/

def lvK : CK → ℕ
  | .bar => 1 | .send _ _ => 0 | .recv h s => 2 + 2 * h.val + s.val | .exit => 14

def L (g : GSem nD τ sig) : Finset Unit := if g.1.2 = .tc then {()} else ∅
def lv (g : GSem nD τ sig) (_ : Unit) : ℕ := match ckOf g.2 with | some k => lvK k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : CK) (u : Unit) : lv (kcell (c, k)) u = lvK k := by unfold lv; rw [ckOf_csem]

theorem owedTail_pos {l : List (CellTallies nD τ sig Unit)} {g : GSem nD τ sig} {u : Unit} (h : 0 < owedTail l g u) :
    ∃ d ∈ l, 0 < d g u := by
  induction l with
  | nil => exact absurd h (Nat.lt_irrefl 0)
  | cons d ds ih =>
    rcases Pipeline.add_pos_cases h with h | h
    · obtain ⟨d', hd', h'⟩ := ih h; exact ⟨d', List.mem_cons_of_mem _ hd', h'⟩
    · exact ⟨d, List.mem_cons_self, h⟩

/-- Where what is still owed after `n` payments is positive, it is on the cell of one of the dues still open. -/
theorem owedFrom_pos {c : Dev nD} {n : ℕ} {g : GSem nD τ sig} {u : Unit} (hpos : 0 < owedFrom c n g u) :
    ∃ p ∈ dueK.drop n, g = dueCell c p := by
  obtain ⟨d, hd, hdpos⟩ := owedTail_pos hpos
  obtain ⟨p, hp, rfl⟩ := List.mem_map.mp hd
  exact ⟨p, hp, (Pipeline.tallyAt_pos hdpos).1⟩

/-- Every due is on a cell of positive level. -/
theorem dueK_lvK_pos : ∀ p ∈ dueK, 0 < lvK p.2 := by decide

/-- A due's cell is a cell of a device, so its one index is listed, -/
theorem mem_L_dueCell (c : Dev nD) (p : Bool × CK) (u : Unit) : u ∈ L (dueCell c p) := by
  unfold dueCell
  rw [L_tc]
  exact Finset.mem_singleton.mpr rfl
/-- and its level is that of the due's kind. -/
theorem lv_dueCell (c : Dev nD) (p : Bool × CK) (u : Unit) : lv (dueCell c p) u = lvK p.2 := lv_kcell _ _ _

/-- A wait on the device's own cell of kind `k` after `n` payments: allowed when every due still open is on a cell of a higher level. -/
theorem mayWait_from (c : Dev nD) (k : CK) (n : ℕ) (h : ∀ p ∈ dueK.drop n, lvK k < lvK p.2) :
    (levAts L lv : sProp 𝕄) ⊢ MayWait (c : Thread nD τ) (csem k) () (owedFrom c n) := by
  refine Pipeline.mayWait_of_levAts (by rw [L_tc]; exact Finset.mem_singleton_self ()) ?_
  intro g u hpos
  obtain ⟨p, hp, rfl⟩ := owedFrom_pos hpos
  refine ⟨mem_L_dueCell c p u, ?_⟩
  have h1 : lv ((c : Thread nD τ), csem k) () = lvK k := lv_kcell c k ()
  rw [h1, lv_dueCell]
  exact h p hp

/-- The pipeline's own waits (on a staging semaphore, which is none of the ring's cells): level 0, below every due. -/
theorem mayWait_stage (c : Dev nD) (q : DmaSem sig) (hq : ckOf (.dma q) = none) (n : ℕ) :
    (levAts L lv : sProp 𝕄) ⊢ MayWait (c : Thread nD τ) (.dma q) () (owedFrom c n) := by
  refine Pipeline.mayWait_of_levAts (by rw [L_tc]; exact Finset.mem_singleton_self ()) ?_
  intro g u hpos
  obtain ⟨p, hp, rfl⟩ := owedFrom_pos hpos
  refine ⟨mem_L_dueCell c p u, ?_⟩
  have h1 : lv ((c : Thread nD τ), SemLoc.dma q) () = 0 := by
    show (match ckOf (SemLoc.dma q) with | some k => lvK k | none => 0) = 0
    rw [hq]
  rw [h1, lv_dueCell]
  exact dueK_lvK_pos p (List.mem_of_mem_drop hp)

/-! ## The kernel's own (scoped) semaphores -/

/-- The 25 semaphores scoped to the kernel: every cell but the entry handshake's. -/
inductive OK : Type
  | send (h : Fin 6) (s : Fin 2) | recv (h : Fin 6) (s : Fin 2) | exit
  deriving DecidableEq, Fintype
def OK.ck : OK → CK
  | .send h s => .send h s | .recv h s => .recv h s | .exit => .exit
def osem (k : OK) : SemLoc sig := csem k.ck

/-! ## The ghost state -/

/-- Every cell's invariant, under the names `K` the launch allocated them at, and that round 0 of every cell is reached. -/
def records (K : Dev nD × CK → ℕ) : sProp 𝕄 :=
  iprop((bigSep Finset.univ fun ck : Dev nD × CK => cellInv ER (ringRd m) (K ck) (kcell ck))
    ∗ bigSep Finset.univ fun ck : Dev nD × CK => reached ER (kcell ck) 0)

instance records_persistent (K : Dev nD × CK → ℕ) : BI.Persistent (records m K) := by unfold records; infer_instance

theorem inv_at' (K : Dev nD × CK → ℕ) (ck : Dev nD × CK) :
    (bigSep Finset.univ fun ck : Dev nD × CK => (cellInv ER (ringRd m) (K ck) (kcell ck) : sProp 𝕄)) ⊢ cellInv ER (ringRd m) (K ck) (kcell ck) :=
  bigSep_elim (Finset.mem_univ ck)
theorem reached_at' (ck : Dev nD × CK) :
    (bigSep Finset.univ fun ck : Dev nD × CK => (reached ER (kcell ck) 0 : sProp 𝕄)) ⊢ reached ER (kcell ck) 0 :=
  bigSep_elim (Finset.mem_univ ck)
theorem inv_at (K : Dev nD × CK → ℕ) (ck : Dev nD × CK) : records m K ⊢ cellInv ER (ringRd m) (K ck) (kcell ck) := by
  unfold records; iintro ⟨HI, -⟩; iapply (inv_at' m K ck); iexact HI
theorem reached_at (K : Dev nD × CK → ℕ) (ck : Dev nD × CK) : records m K ⊢ (reached ER (kcell ck) 0 : sProp 𝕄) := by
  unfold records; iintro ⟨-, HR⟩; iapply (reached_at' (F := F) ck); iexact HR

/-- The device's position on each of its 26 cells: nothing consumed. -/
def posAll (c : Dev nD) : sProp 𝕄 :=
  iprop(atPos ER (barCell c) 0 ∅ 0
    ∗ (bigSep Finset.univ fun hs : Fin 6 × Fin 2 => atPos ER (sendCell c hs.1 hs.2) 0 ∅ 0)
    ∗ (bigSep Finset.univ fun hs : Fin 6 × Fin 2 => atPos ER (recvCell c hs.1 hs.2) 0 ∅ 0)
    ∗ atPos ER (exitCell c) 0 ∅ 0)

/-- The tokens of the duties the device pays: its neighbours' handshake duties, the right neighbour's arrivals, its own departures. -/
def payToks (c : Dev nD) : sProp 𝕄 :=
  iprop(dutyTok ER (barCell (prv c)) 0 true ∗ dutyTok ER (barCell (nxt c)) 0 false
    ∗ (bigSep Finset.univ fun hs : Fin 6 × Fin 2 => dutyTok ER (recvCell (nxt c) hs.1 hs.2) 0 false)
    ∗ (bigSep Finset.univ fun hs : Fin 6 × Fin 2 => dutyTok ER (sendCell c hs.1 hs.2) 0 false)
    ∗ dutyTok ER (exitCell (prv c)) 0 true ∗ dutyTok ER (exitCell (nxt c)) 0 false)

def ghost (K : Dev nD × CK → ℕ) (c : Dev nD) : sProp 𝕄 := iprop(records m K ∗ posAll c ∗ payToks c)

/-- The credit the launch deals the device for what its neighbours owe it. -/
def creds (c : Dev nD) : sProp 𝕄 :=
  iprop(cred (tallyAt (barCell c) () 2)
    ∗ (bigSep Finset.univ fun hs : Fin 6 × Fin 2 => cred (tallyAt (recvCell c hs.1 hs.2) () Ncr))
    ∗ cred (tallyAt (exitCell c) () 2))

def start (c : Dev nD) : sProp 𝕄 := iprop((∃ K, ghost m K c) ∗ creds c ∗ levAts L lv)

def Φ₀ (c : Dev nD) : sProp 𝕄 := iprop(start m c ∗ ∃ f, scrPts c f)
/-- After the body: the landing buffer (at whatever it holds) and the 25 own cells closed, their counters at zero. -/
def Φ₁ (c : Dev nD) : sProp 𝕄 := iprop((∃ f, scrPts c f) ∗ Pipeline.ownSems0 osem c)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := m ((cfg0.win w).arr.view.loc (c : Thread nD τ))
  after w _ := match w with
    | ⟨0, _⟩ => xin m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

/-! ## The body lemma's two ends -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × CK → ℕ) (c : Dev nD) : sProp 𝕄 :=
  iprop((ghost m K c ∗ creds c ∗ levAts L lv ∗ ∃ f, scrPts c f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xin m c) ∗ stg c cc0_stg1_0 (outAt m c))

end Cert.Kernel.AR

end
-- ==== Proof.KernelTiles.lean ====
/-
  The result's staging buffer [1024, 512] is the disjoint union of its eight blocks of 128 rows
  (chunk j, half s: rows 256 j + 128 s … + 128), and the landing buffer [6, 2, 128, 512] the disjoint
  union of its twelve slots (step h, half s). Read on block (j, s), the result buffer at the end is
  what chunk j holds there: the value `finV c (j − z) s`.
-/
import proofs.«900718_g7700000000000719_dist_ar_v7x_xyz2x2x4_z_m1024_n512_f32_1_alg».proof.Proof.KernelVals

noncomputable section

namespace Cert.Kernel.AR

open Cert.Kernel Cert.Kernel.Gen
open Idealize.ShloMosaic Idealize.ShloMosaic.TcCoe
open Idealize.SL.Sem

variable {F : FTy → Type} [FloatOps F]

/-! ## The eight blocks of the result buffer -/

/-- Two different blocks have disjoint row ranges: their first rows are different multiples of 128. -/
theorem oRect_disjoint : ∀ t t' : Fin 4 × Fin 2, t ≠ t' →
    Disjoint (oRect t.1 t.2).set (oRect t'.1 t'.2).set := by
  rintro ⟨j, s⟩ ⟨j', s'⟩ hne
  have hjs : j.val ≠ j'.val ∨ s.val ≠ s'.val := by
    by_cases hj : j.val = j'.val
    · exact Or.inr fun e => hne (Prod.ext (Fin.ext hj) (Fin.ext e))
    · exact Or.inl hj
  refine Rect.unit_disjoint (0 : Fin 2) ?_
  show rowOff j s + 128 ≤ rowOff j' s' ∨ rowOff j' s' + 128 ≤ rowOff j s
  unfold rowOff
  omega

/-- Row r lies in block (r / 256, r % 256 / 128). -/
theorem oRect_cover :
    (Finset.univ : Finset (Fin 4 × Fin 2)).biUnion (fun t => (oRect t.1 t.2).set) = Finset.univ := by
  ext i
  simp only [Finset.mem_biUnion, Finset.mem_univ, true_and, iff_true]
  have h0 : (i 0).val < 1024 := (i 0).isLt
  have h1 : (i 1).val < 512 := (i 1).isLt
  refine ⟨(⟨(i 0).val / 256, by omega⟩, ⟨(i 0).val % 256 / 128, by omega⟩), ?_⟩
  rw [Rect.mem_set_unit]
  intro a
  match a with
  | ⟨0, _⟩ =>
    show rowOff ⟨(i 0).val / 256, _⟩ ⟨(i 0).val % 256 / 128, _⟩ ≤ (i 0).val
      ∧ (i 0).val < rowOff ⟨(i 0).val / 256, _⟩ ⟨(i 0).val % 256 / 128, _⟩ + 128
    unfold rowOff
    simp only []
    omega
  | ⟨1, _⟩ =>
    show 0 ≤ (i 1).val ∧ (i 1).val < 0 + 512
    omega

/-! ## The twelve slots of the landing buffer -/

/-- Two different slots differ in the step or in the half, and each is one coordinate thick there. -/
theorem sRect_disjoint : ∀ t t' : Fin 6 × Fin 2, t ≠ t' →
    Disjoint (sRect t.1 t.2).set (sRect t'.1 t'.2).set := by
  rintro ⟨h, s⟩ ⟨h', s'⟩ hne
  by_cases hh : h.val = h'.val
  · have hs : s.val ≠ s'.val := fun e => hne (Prod.ext (Fin.ext hh) (Fin.ext e))
    refine Rect.unit_disjoint (1 : Fin 4) ?_
    show s.val + 1 ≤ s'.val ∨ s'.val + 1 ≤ s.val
    omega
  · refine Rect.unit_disjoint (0 : Fin 4) ?_
    show h.val + 1 ≤ h'.val ∨ h'.val + 1 ≤ h.val
    omega

/-- An element of the landing buffer lies in the slot named by its first two coordinates. -/
theorem sRect_cover :
    (Finset.univ : Finset (Fin 6 × Fin 2)).biUnion (fun t => (sRect t.1 t.2).set) = Finset.univ := by
  ext i
  simp only [Finset.mem_biUnion, Finset.mem_univ, true_and, iff_true]
  have h0 : (i 0).val < 6 := (i 0).isLt
  have h1 : (i 1).val < 2 := (i 1).isLt
  have h2 : (i 2).val < 128 := (i 2).isLt
  have h3 : (i 3).val < 512 := (i 3).isLt
  refine ⟨(⟨(i 0).val, h0⟩, ⟨(i 1).val, h1⟩), ?_⟩
  rw [Rect.mem_set_unit]
  intro a
  match a with
  | ⟨0, _⟩ =>
    show (i 0).val ≤ (i 0).val ∧ (i 0).val < (i 0).val + 1
    omega
  | ⟨1, _⟩ =>
    show (i 1).val ≤ (i 1).val ∧ (i 1).val < (i 1).val + 1
    omega
  | ⟨2, _⟩ =>
    show 0 ≤ (i 2).val ∧ (i 2).val < 0 + 128
    omega
  | ⟨3, _⟩ =>
    show 0 ≤ (i 3).val ∧ (i 3).val < 0 + 512
    omega

/-! ## The result buffer read on a block -/

/-- The final value depends only on the chunk, the half and the element. -/
theorem finV_congr (m : (ℓ : Loc nD τ sig) → Buf (Elt F) ℓ) (c : Dev nD) {k k' : Fin 4} {s s' : Fin 2}
    {x x' : S128x512.Idx} (hk : k = k') (hs : s = s') (hx : x = x') :
    finV m c k s x = finV m c k' s' x' := by
  subst hk hs hx
  rfl

/-- Row 256 j + 128 s + r with r < 128 has chunk j, half s and row r within the block. -/
theorem outAt_block (m : (ℓ : Loc nD τ sig) → Buf (Elt F) ℓ) (c : Dev nD) (j : Fin 4) (s : Fin 2) :
    (fun i => outAt m c ((oRect j s).emb i)) = finV m c (j - zc c) s := by
  funext i
  have hi0 : (i 0).val < 128 := (i 0).isLt
  unfold outAt
  refine finV_congr m c (congrArg (· - zc c) (Fin.ext ?_)) (Fin.ext ?_) ?_
  · show (rowOff j s + 1 * (i 0).val) / 256 = j.val
    unfold rowOff
    omega
  · show (rowOff j s + 1 * (i 0).val) % 256 / 128 = s.val
    unfold rowOff
    omega
  · funext a
    match a with
    | ⟨0, _⟩ =>
      refine Fin.ext ?_
      show (rowOff j s + 1 * (i 0).val) % 128 = (i 0).val
      unfold rowOff
      omega
    | ⟨1, _⟩ =>
      refine Fin.ext ?_
      show 0 + 1 * (i 1).val = (i 1).val
      omega

end Cert.Kernel.AR

end
-- ==== Proof.KernelSplit.lean ====
/-
  The result buffer [1024, 512] is held as its eight blocks of 128 rows, a landing buffer [6, 2, 128, 512] as
  its twelve slots: the vocabulary for that, the cutting and the joining, and the big conjunctions over blocks,
  slots and the kernel's own cells written out.
-/
import proofs.«900718_g7700000000000719_dist_ar_v7x_xyz2x2x4_z_m1024_n512_f32_1_alg».proof.Proof.KernelInv
import proofs.«900718_g7700000000000719_dist_ar_v7x_xyz2x2x4_z_m1024_n512_f32_1_alg».proof.Proof.KernelTiles

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-! ## Vocabulary -/

/-- Device `c` holds block (j, s) of its result buffer, reading `X` there. -/
abbrev blk (c : Dev nD) (j : Fin 4) (s : Fin 2) (X : Blk F) : sProp 𝕄 := owns (c : Thread nD τ) (oB j s) fullShare X
/-- Device `c`'s slot (h, s) holds `X`; -/
abbrev slotHas (c : Dev nD) (h : Fin 6) (s : Fin 2) (X : Blk F) : sProp 𝕄 := owns (c : Thread nD τ) (slot h s) fullShare X
/-- the slot at whatever it holds. -/
def slotAny (c : Dev nD) (h : Fin 6) (s : Fin 2) : sProp 𝕄 :=
  iprop(∃ fd, (slot h s).view.loc (c : Thread nD τ) ↦[(slot h s).view.set]{fullShare} fd)

theorem slotAny_of_has (c : Dev nD) (h : Fin 6) (s : Fin 2) (X : Blk F) : slotHas c h s X ⊢ (slotAny c h s : sProp 𝕄) := by
  unfold slotAny
  show owns (c : Thread nD τ) (slot h s) fullShare X ⊢ _
  unfold owns
  iintro ⟨%f, -, H⟩
  iexists f
  iexact H

/-- A whole staging buffer held at `X`, in the two spellings. -/
theorem stg_out_iff (c : Dev nD) (X : (cc0_stg1_0 : Ref sig .tc).ty.Contents (Elt F)) :
    (stg c cc0_stg1_0 X : sProp 𝕄) = owns (c : Thread nD τ) oM fullShare X := by
  exact (owns_whole_eq (c : Thread nD τ) cc0_stg1_0 fullShare X).symm
theorem stg_in_iff (c : Dev nD) (X : (cc0_stg0_0 : Ref sig .tc).ty.Contents (Elt F)) :
    (stg c cc0_stg0_0 X : sProp 𝕄) = owns (c : Thread nD τ) xM fullShare X := by
  exact (owns_whole_eq (c : Thread nD τ) cc0_stg0_0 fullShare X).symm

/-! ## Eight blocks, twelve slots, twenty-five own cells: the big conjunctions written out -/

/-- The eight blocks, listed from chunk `z` on. -/
theorem bigSep_blocks (z : Fin 4) (Φ : Fin 4 → Fin 2 → sProp 𝕄) :
    bigSep Finset.univ (fun t : Fin 4 × Fin 2 => Φ t.1 t.2)
      = iprop(Φ (z + 0) 0 ∗ Φ (z + 0) 1 ∗ Φ (z + 1) 0 ∗ Φ (z + 1) 1 ∗ Φ (z + 2) 0 ∗ Φ (z + 2) 1 ∗ Φ (z + 3) 0 ∗ Φ (z + 3) 1) := by
  rw [bigSep_univ_eq_bigSepL
    [(z + 0, 0), (z + 0, 1), (z + 1, 0), (z + 1, 1), (z + 2, 0), (z + 2, 1), (z + 3, 0), (z + 3, 1)]
    (by revert z; decide) (by revert z; decide)]
  rfl
/-- The twelve (step, half) pairs, in order. -/
theorem bigSep_slots (Φ : Fin 6 → Fin 2 → sProp 𝕄) :
    bigSep Finset.univ (fun t : Fin 6 × Fin 2 => Φ t.1 t.2)
      = iprop(Φ 0 0 ∗ Φ 0 1 ∗ Φ 1 0 ∗ Φ 1 1 ∗ Φ 2 0 ∗ Φ 2 1 ∗ Φ 3 0 ∗ Φ 3 1 ∗ Φ 4 0 ∗ Φ 4 1 ∗ Φ 5 0 ∗ Φ 5 1) := by
  rw [bigSep_univ_eq_bigSepL
    [(0, 0), (0, 1), (1, 0), (1, 1), (2, 0), (2, 1), (3, 0), (3, 1), (4, 0), (4, 1), (5, 0), (5, 1)]
    (by decide) (by decide)]
  rfl
/-- The own cells as a sum: the twelve departures, the twelve arrivals, the exit handshake. -/
def okSum : (Fin 6 × Fin 2) ⊕ ((Fin 6 × Fin 2) ⊕ Unit) ≃ OK where
  toFun
    | .inl t => .send t.1 t.2
    | .inr (.inl t) => .recv t.1 t.2
    | .inr (.inr _) => .exit
  invFun
    | .send h s => .inl (h, s)
    | .recv h s => .inr (.inl (h, s))
    | .exit => .inr (.inr ())
  left_inv := by rintro (t | t | t) <;> rfl
  right_inv := by rintro (_ | _ | _) <;> rfl

/-- The kernel's own cells: the departures, the arrivals, the exit handshake. -/
theorem bigSep_own (Φ : OK → sProp 𝕄) :
    bigSep Finset.univ Φ
      = iprop((bigSep Finset.univ fun t : Fin 6 × Fin 2 => Φ (.send t.1 t.2)) ∗ (bigSep Finset.univ fun t : Fin 6 × Fin 2 => Φ (.recv t.1 t.2)) ∗ Φ .exit) := by
  rw [bigSep_univ_equiv okSum Φ, bigSep_univ_sum, bigSep_univ_sum, bigSep_univ_of_subsingleton ()]
  rfl

/-! ## Cutting and joining -/

/-- The result buffer held at `X` is its eight blocks, each at its part of `X`; and back. -/
theorem out_split (c : Dev nD) (X : (cc0_stg1_0 : Ref sig .tc).ty.Contents (Elt F)) :
    (owns (c : Thread nD τ) oM fullShare X : sProp 𝕄)
      ⊢ bigSep Finset.univ fun t : Fin 4 × Fin 2 => blk c t.1 t.2 (fun i => X ((oRect t.1 t.2).emb i)) := by
  exact owns_rects (c : Thread nD τ) oM fullShare (fun t : Fin 4 × Fin 2 => oRect t.1 t.2) (fun _ _ => rfl)
    oRect_disjoint oRect_cover X
theorem out_join (c : Dev nD) (X : (cc0_stg1_0 : Ref sig .tc).ty.Contents (Elt F)) :
    (bigSep Finset.univ fun t : Fin 4 × Fin 2 => blk c t.1 t.2 (fun i => X ((oRect t.1 t.2).emb i)))
      ⊢ (owns (c : Thread nD τ) oM fullShare X : sProp 𝕄) := by
  exact owns_of_rects (c : Thread nD τ) oM fullShare (fun t : Fin 4 × Fin 2 => oRect t.1 t.2) (fun _ _ => rfl)
    oRect_disjoint oRect_cover X
/-- A slot's elements are those of its rectangle of the landing buffer. -/
theorem slot_set (h : Fin 6) (s : Fin 2) :
    (slot h s).view.set = ((rM : Memref sig .tc .vmem S6x2x128x512 .f32).view.slice (sRect h s)).set :=
  Memref.set_view_squeeze (slot4 h s) squeezes_S1x1x128x512_S128x512

/-- The four-dimensional slot held at any contents is the slot held at whatever it holds. -/
theorem slotAny_of_slot4 (c : Dev nD) (h : Fin 6) (s : Fin 2) (X : S1x1x128x512.Idx → Elt F .f32) :
    (owns (c : Thread nD τ) (slot4 h s) fullShare X : sProp 𝕄) ⊢ slotAny c h s := by
  unfold slotAny owns
  iintro ⟨%f, -, H⟩
  iexists f
  rw [slot_set]
  iexact H

/-- Different slots have no element in common, -/
theorem slot_set_disjoint (t t' : Fin 6 × Fin 2) (htt : t ≠ t') :
    Disjoint (slot t.1 t.2).view.set (slot t'.1 t'.2).view.set := by
  rw [slot_set, slot_set, View.set_slice, View.set_slice]
  exact (Finset.disjoint_map _).mpr (sRect_disjoint t t' htt)

/-- and the twelve slots make up the landing buffer. -/
theorem slot_set_cover :
    (Finset.univ : Finset (Fin 6 × Fin 2)).biUnion (fun t => (slot t.1 t.2).view.set)
      = (rM : Memref sig .tc .vmem S6x2x128x512 .f32).view.set := by
  ext i
  constructor
  · intro hi
    obtain ⟨t, -, hi⟩ := Finset.mem_biUnion.mp hi
    rw [slot_set] at hi
    exact View.set_slice_subset _ _ hi
  · intro hi
    rw [View.set, Finset.mem_map] at hi
    obtain ⟨x, -, rfl⟩ := hi
    obtain ⟨t, -, hx⟩ := Finset.mem_biUnion.mp (sRect_cover.symm ▸ Finset.mem_univ x)
    exact Finset.mem_biUnion.mpr ⟨t, Finset.mem_univ _, by rw [slot_set, View.set_slice]; exact Finset.mem_map_of_mem _ hx⟩

/-- The landing buffer at contents `f` is its twelve slots, each at whatever it holds. -/
theorem scr_split_at (c : Dev nD) (f : Buf (Elt F) ((rM : Memref sig .tc .vmem S6x2x128x512 .f32).view.loc (c : Thread nD τ))) :
    (scrPts c f : sProp 𝕄) ⊢ bigSep Finset.univ fun t : Fin 6 × Fin 2 => slotAny c t.1 t.2 := by
  unfold scrPts
  rw [pointsTo_rects (c : Thread nD τ) rM fullShare (fun t : Fin 6 × Fin 2 => sRect t.1 t.2) (fun _ _ => rfl)
    sRect_disjoint sRect_cover f]
  exact bigSep_mono fun t _ => slotAny_of_slot4 c t.1 t.2 _

/-- A landing buffer at whatever it holds is its twelve slots, each at whatever it holds; and back. -/
theorem scr_split (c : Dev nD) : (iprop(∃ f, scrPts c f) : sProp 𝕄) ⊢ bigSep Finset.univ fun t : Fin 6 × Fin 2 => slotAny c t.1 t.2 := by
  iintro ⟨%f, H⟩
  iapply (scr_split_at c f)
  iexact H
theorem scr_join (c : Dev nD) : (bigSep Finset.univ fun t : Fin 6 × Fin 2 => (slotAny c t.1 t.2 : sProp 𝕄)) ⊢ iprop(∃ f, scrPts c f) := by
  refine (bigSep_exists_pi (Y := fun _ => Buf (Elt F) ((rM : Memref sig .tc .vmem S6x2x128x512 .f32).view.loc (c : Thread nD τ)))
    Finset.univ (fun (t : Fin 6 × Fin 2) fd =>
      ((rM : Memref sig .tc .vmem S6x2x128x512 .f32).view.loc (c : Thread nD τ) ↦[(slot t.1 t.2).view.set]{fullShare} fd : sProp 𝕄))).trans ?_
  iintro ⟨%fs, H⟩
  ihave H' := (pointsTo_biUnion_join Finset.univ (fun t : Fin 6 × Fin 2 => (slot t.1 t.2).view.set) fs
    (fun _ => Classical.arbitrary _) (fun t _ t' _ htt => slot_set_disjoint t t' htt)) $$ H
  icases H' with ⟨%g, -, H⟩
  iexists g
  unfold scrPts
  rw [← slot_set_cover]
  iexact H

end Cert.Kernel.AR

end
-- ==== Proof.KernelSteps.lean ====
/-
  The protocol's steps, each once, at a symbolic device, step and half: the four handshake signals and the
  two handshake waits; a transfer of a block of the result into the right neighbour's slot; the wait for an
  arrival (the slot comes back holding what the left neighbour sent); the wait for a departure (the block
  that was read comes back); and closing the kernel's own cells.
-/
import proofs.«900718_g7700000000000719_dist_ar_v7x_xyz2x2x4_z_m1024_n512_f32_1_alg».proof.Proof.KernelSplit

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-- Every due is on a cell of positive level: a departure semaphore (level 0) lies below all of them. -/
theorem lvK_due_pos : ∀ p ∈ dueK, 0 < lvK p.2 := by decide

/-- One own cell, consumed to the end of its one round, closes: its counter is the device's again, at zero. -/
theorem close_one (c : Dev nD) (k : OK) :
    iprop(records m K ∗ atPos ER (kcell (c, k.ck)) 1 ∅ 0) ⊢ (|={Set.univ}=> semVal ((c : Thread nD τ), osem k) 0 : sProp 𝕄) := by
  iintro ⟨#Hrec, Hat⟩
  iapply (Rounds.cell_close ER (ringRd m) (Set.mem_univ (K (c, k.ck))) (fun h => h) (R := 1) (duties_later m (kcell (c, k.ck))))
  isplitr; · iapply (inv_at m K (c, k.ck)); iexact Hrec
  iexact Hat

/-! ## What is owed, step by step -/

theorem owedFrom_send (c : Dev nD) (h : Fin 6) (s : Fin 2) :
    owedFrom c (2 + 2 * h.val + s.val) = owedFrom c (2 + 2 * h.val + s.val + 1) + tallyAt (recvCell (nxt c) h s) () Ncr := by
  fin_cases h <;> fin_cases s <;> rfl

/-! ## The steps -/

section Steps
variable {α : Type} {Q : α → sProp (MT nD τ sig Unit (Elt F) ℕ UU ℕ)} {kont : PUnit → Prog (TpuEff nD τ sig (Elt F) Λ₀ .tc) α}

/-- The entry signal to the left neighbour: it hands over this device's whole landing buffer. -/
theorem wp_sig_bar_prv (c n : Dev nD) (hn : n = prv c) (k' : ℕ) (hk' : 1 = k') (W : Waits sig Unit) :
    iprop(records m K ∗ owes (c : Thread nD τ) (owedFrom c 0) W ∗ dutyTok ER (barCell (prv c)) 0 true ∗ (∃ f, scrPts c f))
      ⊢ iprop((owes (c : Thread nD τ) (owedFrom c 1) W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (Dev.tc n : Thread nD τ) barS k') kont) Q) := by
  subst hn hk'
  iintro ⟨#Hrec, HO, Htok, Hscr⟩ Hk
  iapply (Rounds.wp_signal 𝒱₀ ER (ringRd m) (c : Thread nD τ) none (dst := (prv c : Thread nD τ)) (sem := barS) (κ := K (prv c, .bar))
    (r := 0) (d := true) (k' := 1) (by rw [show (ringRd (F := F) m).duties ((prv c : Thread nD τ), .reg barS) 0 = dutiesK .bar from duties_at m (prv c) .bar]; exact Finset.mem_univ _)
    (amount_at m (prv c) .bar true) () (O₀ := owedFrom c 0) (owedFrom c 1) rfl (W := W)) $$ [HO Htok Hscr]
  · isplitr; · iapply (inv_at m K (prv c, .bar)); iexact Hrec
    isplitl [HO]; · iexact HO
    isplitl [Htok]; · iexact Htok
    isplitl [Hscr]
    · rw [show (ringRd (F := F) m).payload ((prv c : Thread nD τ), .reg barS) 0 true = payK m (prv c) .bar true from payload_at m (prv c) .bar true]
      unfold payK barPay; rw [nxt_prv]; iexact Hscr
    · iapply (reached_at m K (prv c, .bar)); iexact Hrec
  iexact Hk
/-- The entry signal to the right neighbour: nothing to hand over. -/
theorem wp_sig_bar_nxt (c n : Dev nD) (hn : n = nxt c) (k' : ℕ) (hk' : 1 = k') (W : Waits sig Unit) :
    iprop(records m K ∗ owes (c : Thread nD τ) (owedFrom c 1) W ∗ dutyTok ER (barCell (nxt c)) 0 false)
      ⊢ iprop((owes (c : Thread nD τ) (owedFrom c 2) W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (Dev.tc n : Thread nD τ) barS k') kont) Q) := by
  subst hn hk'
  iintro ⟨#Hrec, HO, Htok⟩ Hk
  iapply (Rounds.wp_signal 𝒱₀ ER (ringRd m) (c : Thread nD τ) none (dst := (nxt c : Thread nD τ)) (sem := barS) (κ := K (nxt c, .bar))
    (r := 0) (d := false) (k' := 1) (by rw [show (ringRd (F := F) m).duties ((nxt c : Thread nD τ), .reg barS) 0 = dutiesK .bar from duties_at m (nxt c) .bar]; exact Finset.mem_univ _)
    (amount_at m (nxt c) .bar false) () (O₀ := owedFrom c 1) (owedFrom c 2) rfl (W := W)) $$ [HO Htok]
  · isplitr; · iapply (inv_at m K (nxt c, .bar)); iexact Hrec
    isplitl [HO]; · iexact HO
    isplitl [Htok]; · iexact Htok
    isplitr
    · rw [show (ringRd (F := F) m).payload ((nxt c : Thread nD τ), .reg barS) 0 false = payK m (nxt c) .bar false from payload_at m (nxt c) .bar false]
      unfold payK; iempintro
    · iapply (reached_at m K (nxt c, .bar)); iexact Hrec
  iexact Hk
/-- The two exit signals. -/
theorem wp_sig_exit_prv (c n : Dev nD) (hn : n = prv c) (k' : ℕ) (hk' : 1 = k') (W : Waits sig Unit) :
    iprop(records m K ∗ owes (c : Thread nD τ) (owedFrom c 14) W ∗ dutyTok ER (exitCell (prv c)) 0 true)
      ⊢ iprop((owes (c : Thread nD τ) (owedFrom c 15) W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (Dev.tc n : Thread nD τ) exitS k') kont) Q) := by
  subst hn hk'
  iintro ⟨#Hrec, HO, Htok⟩ Hk
  iapply (Rounds.wp_signal 𝒱₀ ER (ringRd m) (c : Thread nD τ) none (dst := (prv c : Thread nD τ)) (sem := exitS) (κ := K (prv c, .exit))
    (r := 0) (d := true) (k' := 1) (by rw [show (ringRd (F := F) m).duties ((prv c : Thread nD τ), .reg exitS) 0 = dutiesK .exit from duties_at m (prv c) .exit]; exact Finset.mem_univ _)
    (amount_at m (prv c) .exit true) () (O₀ := owedFrom c 14) (owedFrom c 15) rfl (W := W)) $$ [HO Htok]
  · isplitr; · iapply (inv_at m K (prv c, .exit)); iexact Hrec
    isplitl [HO]; · iexact HO
    isplitl [Htok]; · iexact Htok
    isplitr
    · rw [show (ringRd (F := F) m).payload ((prv c : Thread nD τ), .reg exitS) 0 true = payK m (prv c) .exit true from payload_at m (prv c) .exit true]
      unfold payK; iempintro
    · iapply (reached_at m K (prv c, .exit)); iexact Hrec
  iexact Hk
theorem wp_sig_exit_nxt (c n : Dev nD) (hn : n = nxt c) (k' : ℕ) (hk' : 1 = k') (W : Waits sig Unit) :
    iprop(records m K ∗ owes (c : Thread nD τ) (owedFrom c 15) W ∗ dutyTok ER (exitCell (nxt c)) 0 false)
      ⊢ iprop((owes (c : Thread nD τ) (owedFrom c 16) W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (Dev.tc n : Thread nD τ) exitS k') kont) Q) := by
  subst hn hk'
  iintro ⟨#Hrec, HO, Htok⟩ Hk
  iapply (Rounds.wp_signal 𝒱₀ ER (ringRd m) (c : Thread nD τ) none (dst := (nxt c : Thread nD τ)) (sem := exitS) (κ := K (nxt c, .exit))
    (r := 0) (d := false) (k' := 1) (by rw [show (ringRd (F := F) m).duties ((nxt c : Thread nD τ), .reg exitS) 0 = dutiesK .exit from duties_at m (nxt c) .exit]; exact Finset.mem_univ _)
    (amount_at m (nxt c) .exit false) () (O₀ := owedFrom c 15) (owedFrom c 16) rfl (W := W)) $$ [HO Htok]
  · isplitr; · iapply (inv_at m K (nxt c, .exit)); iexact Hrec
    isplitl [HO]; · iexact HO
    isplitl [Htok]; · iexact Htok
    isplitr
    · rw [show (ringRd (F := F) m).payload ((nxt c : Thread nD τ), .reg exitS) 0 false = payK m (nxt c) .exit false from payload_at m (nxt c) .exit false]
      unfold payK; iempintro
    · iapply (reached_at m K (nxt c, .exit)); iexact Hrec
  iexact Hk

/-- The entry wait for both neighbours: the right neighbour's landing buffer comes with it. -/
theorem wp_wait_bar (c : Dev nD) (k' : ℕ) (hk' : 2 = k') (W : Waits sig Unit) :
    iprop(records m K ∗ cred (tallyAt (barCell c) () 2) ∗ owes (c : Thread nD τ) (owedFrom c 2) W ∗ levAts L lv ∗ atPos ER (barCell c) 0 ∅ 0)
      ⊢ iprop(((owes (c : Thread nD τ) (owedFrom c 2) (insert (SemLoc.reg barS, ()) W) ∗ atPos ER (barCell c) 1 ∅ 0 ∗ (∃ f, scrPts (nxt c) f))
            -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS k') kont) Q) := by
  subst hk'
  have hrest : bigSep ((ringRd (F := F) m).duties ((c : Thread nD τ), SemLoc.reg barS) 0 \ ∅)
      (fun d => (ringRd (F := F) m).payload ((c : Thread nD τ), SemLoc.reg barS) 0 d) = iprop(payK m c .bar false ∗ payK m c .bar true) :=
    rest_two m c .bar rfl
  iintro ⟨#Hrec, Hc, HO, Hlev, Hat⟩ Hk
  iapply (Rounds.wp_wait_rest_token 𝒱₀ ER (ringRd m) (c : Thread nD τ) none (κ := K (c, .bar)) (sm := .reg barS) (k' := 2)
      (wpE_semWait_eq 𝒱₀ (c : Thread nD τ) none Set.univ) (Set.mem_univ _) () (O := owedFrom c 2) (W := W) (R := 0) (m := 0) (T := ∅)
      (by rw [show (ringRd (F := F) m).expect ((c : Thread nD τ), .reg barS) 0 = expK .bar from expect_at m c .bar]; rfl)) $$ [Hc HO Hlev Hat]
  · isplitr; · iapply (inv_at m K (c, .bar)); iexact Hrec
    isplitl [Hc]; · iexact Hc
    isplitl [HO]; · iexact HO
    isplitl [Hlev]; · iapply (mayWait_from c .bar 2 (by decide)); iexact Hlev
    iexact Hat
  iintro ⟨HO, Hat, -, Hpay⟩
  ihave Hp := (Entails.of_eq hrest) $$ Hpay
  icases Hp with ⟨-, Hscr⟩
  iapply Hk
  isplitl [HO]; · iexact HO
  isplitl [Hat]; · iexact Hat
  unfold payK barPay; iexact Hscr
/-- The exit wait for both neighbours, owing nothing any more. -/
theorem wp_wait_exit (c : Dev nD) (k' : ℕ) (hk' : 2 = k') (W : Waits sig Unit) :
    iprop(records m K ∗ cred (tallyAt (exitCell c) () 2) ∗ owes (c : Thread nD τ) (owedFrom c 16) W ∗ atPos ER (exitCell c) 0 ∅ 0)
      ⊢ iprop(((owes (c : Thread nD τ) (owedFrom c 16) (insert (SemLoc.reg exitS, ()) W) ∗ atPos ER (exitCell c) 1 ∅ 0)
            -∗ wp frame (wpE (defs₀ (F := F)) 𝒱₀ (c : Thread nD τ) none) Set.univ (kont ⟨⟩) Q)
          -∗ wp frame (wpE (defs₀ (F := F)) 𝒱₀ (c : Thread nD τ) none) Set.univ (.op (.semWait exitS k') kont) Q) := by
  subst hk'
  iintro ⟨#Hrec, Hc, HO, Hat⟩ Hk
  iapply (Rounds.wp_wait_rest_token 𝒱₀ ER (ringRd m) (c : Thread nD τ) none (κ := K (c, .exit)) (sm := .reg exitS) (k' := 2)
      (wpE_semWait_eq 𝒱₀ (c : Thread nD τ) none Set.univ) (Set.mem_univ _) () (O := owedFrom c 16) (W := W) (R := 0) (m := 0) (T := ∅)
      (by rw [show (ringRd (F := F) m).expect ((c : Thread nD τ), .reg exitS) 0 = expK .exit from expect_at m c .exit]; rfl)) $$ [Hc HO Hat]
  · isplitr; · iapply (inv_at m K (c, .exit)); iexact Hrec
    isplitl [Hc]; · iexact Hc
    isplitl [HO]; · iexact HO
    isplitr; · rw [owedFrom_done, MayWait_zero]; iempintro
    iexact Hat
  iintro ⟨HO, Hat, -, -⟩
  iapply Hk
  isplitl [HO]; · iexact HO
  iexact Hat

/-- Step `h`, half `s`: the block of chunk z + srcK h, holding what step `h` sends, into the right neighbour's slot. -/
theorem wp_ringsend (c n : Dev nD) (hn : n = nxt c) (h : Fin 6) (s : Fin 2)
    (src : Memref sig .tc .vmem S128x512 .f32) (hsrc' : src = oB (zc c + srcK h) s)
    (dst : Memref sig .tc .vmem S128x512 .f32) (hdst' : dst = slot h s)
    (sS : DmaSem sig) (hsS : sS = sendS h s) (sR : DmaSem sig) (hsR : sR = recvS h s)
    {hsc : (dst : Memref sig (Dev.tc n : Thread nD τ).2.kind .vmem S128x512 .f32).view.ref.isScScratch = false}
    {hsrc : src.view.WordExact} {hdst : dst.view.WordExact}
    {hsem : DmaTarget.Typed .vmem (.dma sR) (.remote (Dev.tc n : Thread nD τ) dst (.dma sS) hsc)}
    (nn : ℕ) (hnn : nn = 2 + 2 * h.val + s.val) (W : Waits sig Unit) :
    iprop(records m K ∗ blk c (zc c + srcK h) s (sentV m h c s) ∗ slotAny (nxt c) h s
        ∗ owes (c : Thread nD τ) (owedFrom c nn) W ∗ dutyTok ER (sendCell c h s) 0 false ∗ dutyTok ER (recvCell (nxt c) h s) 0 false)
      ⊢ iprop(((cred (tallyAt (sendCell c h s) () Ncr) ∗ owes (c : Thread nD τ) (owedFrom c (nn + 1)) W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) kont) Q) := by
  subst hn hsrc' hdst' hsS hsR hnn
  unfold blk slotAny owns
  iintro ⟨#Hrec, Hblk, Hslot, HO, HtS, HtR⟩ Hk
  icases Hblk with ⟨%fs, %hfs, Hsrc⟩
  icases Hslot with ⟨%fd, Hdst⟩
  have hp1 : ((oB (zc c + srcK h) s).view.loc (c : Thread nD τ) ↦[(oB (zc c + srcK h) s).view.set]{fullShare} fs : sProp 𝕄)
      ⊢ (ringRd (F := F) m).payload ((c : Thread nD τ), SemLoc.dma (sendS h s)) 0 false := by
    refine (owns_intro (c : Thread nD τ) (oB (zc c + srcK h) s) fullShare fs).trans (Entails.of_eq ?_)
    rw [hfs]; exact (payload_at m c (.send h s) false).symm
  have hp2 : ((slot h s).view.loc (nxt c : Thread nD τ) ↦[(slot h s).view.set]{fullShare}
        ((slot h s).view.write (Elt F) fd ((oB (zc c + srcK h) s).view.read (Elt F) fs) Finset.univ) : sProp 𝕄)
      ⊢ (ringRd (F := F) m).payload ((nxt c : Thread nD τ), SemLoc.dma (recvS h s)) 0 false := by
    refine (owns_intro (nxt c : Thread nD τ) (slot h s) fullShare _).trans (Entails.of_eq ?_)
    rw [View.read_write_univ, hfs]
    refine Eq.trans ?_ (payload_at m (nxt c) (.recv h s) false).symm
    show _ = recvPay m (nxt c) h s
    unfold recvPay; rw [prv_nxt]
  iapply (Rounds.wp_send_pointsTo 𝒱₀ ER (ringRd m) (c : Thread nD τ) none (c' := (nxt c : Thread nD τ))
      (src := oB (zc c + srcK h) s) (dst := slot h s) (sS := SemLoc.dma (sendS h s)) (sem := SemLoc.dma (recvS h s)) (q := fullShare) (fs := fs) (fd := fd)
      (κ₁ := K (c, .send h s)) (κ₂ := K (nxt c, .recv h s)) (r₁ := 0) (r₂ := 0) (d₁ := false) (d₂ := false)
      (by rw [show (ringRd (F := F) m).duties ((c : Thread nD τ), .dma (sendS h s)) 0 = dutiesK (.send h s) from duties_at m c (.send h s)]; exact Finset.mem_singleton_self _)
      (by rw [show (ringRd (F := F) m).duties ((nxt c : Thread nD τ), .dma (recvS h s)) 0 = dutiesK (.recv h s) from duties_at m (nxt c) (.recv h s)]; exact Finset.mem_singleton_self _)
      () () Ncr rfl (amount_at m c (.send h s) false) (amount_at m (nxt c) (.recv h s) false)
      (O₀ := owedFrom c (2 + 2 * h.val + s.val)) (owedFrom c (2 + 2 * h.val + s.val + 1)) (owedFrom_send c h s) (W := W) hp1 hp2)
    $$ [Hsrc Hdst HO HtS HtR]
  · isplitr; · iapply (inv_at m K (c, .send h s)); iexact Hrec
    isplitr; · iapply (inv_at m K (nxt c, .recv h s)); iexact Hrec
    isplitl [Hsrc]; · iexact Hsrc
    isplitl [Hdst]; · iexact Hdst
    isplitl [HO]; · iexact HO
    isplitl [HtS]; · iexact HtS
    isplitr; · iapply (reached_at m K (c, .send h s)); iexact Hrec
    isplitl [HtR]; · iexact HtR
    iapply (reached_at m K (nxt c, .recv h s)); iexact Hrec
  iexact Hk

/-- The wait for arrival (g, s): the slot comes back holding what the left neighbour sent at step `g`. -/
theorem wp_recvwait (c : Dev nD) (g : Fin 6) (s : Fin 2) (sR : DmaSem sig) (hsR : sR = recvS g s)
    {sp' : Space} {s' : Shape} {e' : EltTy} (src : Memref sig .tc sp' s' e') (dst : Memref sig .tc .vmem S128x512 .f32) (hd : dst.view.dmaCredit = Ncr)
    {hsrc : src.view.WordExact} {hdst : dst.view.WordExact}
    (nn : ℕ) (hlev : ∀ p ∈ dueK.drop nn, lvK (.recv g s) < lvK p.2) (W : Waits sig Unit) :
    iprop(records m K ∗ cred (tallyAt (recvCell c g s) () Ncr) ∗ owes (c : Thread nD τ) (owedFrom c nn) W ∗ levAts L lv ∗ atPos ER (recvCell c g s) 0 ∅ 0)
      ⊢ iprop(((owes (c : Thread nD τ) (owedFrom c nn) (insert (SemLoc.dma (recvS g s), ()) W) ∗ atPos ER (recvCell c g s) 1 ∅ 0
              ∗ slotHas c g s (sentV m g (prv c) s))
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sR src dst hsrc hdst) kont) Q) := by
  subst hsR
  have hrest : bigSep ((ringRd (F := F) m).duties ((c : Thread nD τ), SemLoc.dma (recvS g s)) 0 \ ∅)
      (fun d => (ringRd (F := F) m).payload ((c : Thread nD τ), SemLoc.dma (recvS g s)) 0 d) = payK m c (.recv g s) false :=
    rest_one m c (.recv g s) rfl
  iintro ⟨#Hrec, Hc, HO, Hlev, Hat⟩ Hk
  iapply (Rounds.wp_wait_rest_token 𝒱₀ ER (ringRd m) (c : Thread nD τ) none (κ := K (c, .recv g s)) (sm := .dma (recvS g s)) (k' := dst.view.dmaCredit)
      (wpE_waitDma2_eq 𝒱₀ (c : Thread nD τ) none Set.univ) (Set.mem_univ _) () (O := owedFrom c nn) (W := W) (R := 0) (m := 0) (T := ∅)
      (by rw [hd, Nat.zero_add, show (ringRd (F := F) m).expect ((c : Thread nD τ), .dma (recvS g s)) 0 = expK (.recv g s) from expect_at m c (.recv g s)]; rfl))
    $$ [Hc HO Hlev Hat]
  · isplitr; · iapply (inv_at m K (c, .recv g s)); iexact Hrec
    isplitl [Hc]; · rw [hd]; iexact Hc
    isplitl [HO]; · iexact HO
    isplitl [Hlev]; · iapply (mayWait_from c (.recv g s) nn hlev); iexact Hlev
    iexact Hat
  iintro ⟨HO, Hat, -, Hpay⟩
  ihave Hp := (Entails.of_eq hrest) $$ Hpay
  iapply Hk
  isplitl [HO]; · iexact HO
  isplitl [Hat]; · iexact Hat
  unfold payK recvPay; iexact Hp

/-- The wait for departure (h, s): the block that was read comes back, holding what was sent. -/
theorem wp_sendwait (c : Dev nD) (h : Fin 6) (s : Fin 2) (sS : DmaSem sig) (hsS : sS = sendS h s)
    {sp' : Space} {s' : Shape} {e' : EltTy} (src : Memref sig .tc sp' s' e') (dst : Memref sig .tc .vmem S128x512 .f32) (hd : dst.view.dmaCredit = Ncr)
    {hsrc : src.view.WordExact} {hdst : dst.view.WordExact}
    (nn : ℕ) (W : Waits sig Unit) :
    iprop(records m K ∗ cred (tallyAt (sendCell c h s) () Ncr) ∗ owes (c : Thread nD τ) (owedFrom c nn) W ∗ levAts L lv ∗ atPos ER (sendCell c h s) 0 ∅ 0)
      ⊢ iprop(((owes (c : Thread nD τ) (owedFrom c nn) (insert (SemLoc.dma (sendS h s), ()) W) ∗ atPos ER (sendCell c h s) 1 ∅ 0
              ∗ blk c (zc c + srcK h) s (sentV m h c s))
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sS src dst hsrc hdst) kont) Q) := by
  subst hsS
  have hrest : bigSep ((ringRd (F := F) m).duties ((c : Thread nD τ), SemLoc.dma (sendS h s)) 0 \ ∅)
      (fun d => (ringRd (F := F) m).payload ((c : Thread nD τ), SemLoc.dma (sendS h s)) 0 d) = payK m c (.send h s) false :=
    rest_one m c (.send h s) rfl
  iintro ⟨#Hrec, Hc, HO, Hlev, Hat⟩ Hk
  iapply (Rounds.wp_wait_rest_token 𝒱₀ ER (ringRd m) (c : Thread nD τ) none (κ := K (c, .send h s)) (sm := .dma (sendS h s)) (k' := dst.view.dmaCredit)
      (wpE_waitDma2_eq 𝒱₀ (c : Thread nD τ) none Set.univ) (Set.mem_univ _) () (O := owedFrom c nn) (W := W) (R := 0) (m := 0) (T := ∅)
      (by rw [hd, Nat.zero_add, show (ringRd (F := F) m).expect ((c : Thread nD τ), .dma (sendS h s)) 0 = expK (.send h s) from expect_at m c (.send h s)]; rfl))
    $$ [Hc HO Hlev Hat]
  · isplitr; · iapply (inv_at m K (c, .send h s)); iexact Hrec
    isplitl [Hc]; · rw [hd]; iexact Hc
    isplitl [HO]; · iexact HO
    isplitl [Hlev]
    · iapply (mayWait_from c (.send h s) nn fun p hp => lvK_due_pos p (List.mem_of_mem_drop hp)); iexact Hlev
    iexact Hat
  iintro ⟨HO, Hat, -, Hpay⟩
  ihave Hp := (Entails.of_eq hrest) $$ Hpay
  iapply Hk
  isplitl [HO]; · iexact HO
  isplitl [Hat]; · iexact Hat
  unfold payK sendPay; iexact Hp

end Steps

/-- Every own cell consumed to the end of its one round: the 25 counters are the device's again, at zero. -/
theorem close_own (c : Dev nD) :
    iprop(records m K ∗ bigSep Finset.univ fun k : OK => atPos ER (kcell (c, k.ck)) 1 ∅ 0)
      ⊢ (|={Set.univ}=> Pipeline.ownSems0 osem c : sProp 𝕄) := by
  unfold Pipeline.ownSems0
  refine BIBase.Entails.trans ?_ (bigSep_fupd Finset.univ _)
  exact ((sep_mono_left (bigSep_of_persistent Finset.univ (records m K))).trans (Entails.of_eq (bigSep_sep _ _ _).symm)).trans
    (bigSep_mono fun k _ => close_one m K c k)

#print axioms owedFrom_send
#print axioms wp_sig_bar_prv
#print axioms wp_sig_bar_nxt
#print axioms wp_sig_exit_prv
#print axioms wp_sig_exit_nxt
#print axioms wp_wait_bar
#print axioms wp_wait_exit
#print axioms wp_ringsend
#print axioms wp_recvwait
#print axioms wp_sendwait
#print axioms close_own

end Cert.Kernel.AR

end
-- ==== Proof.KernelMid.lean ====
/-
  The body in two halves. The cut is after the three reduce steps, right after the departure of step 3
  (ten payments made): every block of the result buffer is then lent to a transfer in flight, the arrivals
  of steps 0 … 2 have been consumed, those of steps 3 … 5 are still to come, no departure has been waited for.
  `tail16` is the second half of the program (the printed parts 16 … 28 and the exit wait), `Mid` what the
  device holds at the cut.
-/
import proofs.«900718_g7700000000000719_dist_ar_v7x_xyz2x2x4_z_m1024_n512_f32_1_alg».proof.Proof.KernelSteps

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-- The second half of the body on device `d0`: the gather steps, the last departure waits, the exit handshake.
    The words `v2 … v31` are the device's mesh coordinates and neighbours' positions as the first part computed them;
    no memory operation of this half reads them. -/
def tail16 (d0 : Dev nD) (v2 v5 v8 v19 v31 : BitVec 32) : Prog (TpuEff nD τ sig (Elt F) Λ₀ .tc) PUnit := do
  let v491 : BitVec 32 ← k0_part16 (Memref.whole cc0_stg0_0) (Memref.isWhole_whole _) (Memref.whole cc0_stg1_0) (Memref.isWhole_whole _) (Memref.whole cc0_scratch0) (Memref.isWhole_whole _) cc0_scratch1 cc0_scratch2 cc0_scoped0 d0 v2 v5 v8 v19
  k0_part17 (Memref.whole cc0_stg0_0) (Memref.isWhole_whole _) (Memref.whole cc0_stg1_0) (Memref.isWhole_whole _) (Memref.whole cc0_scratch0) (Memref.isWhole_whole _) cc0_scratch1 cc0_scratch2 cc0_scoped0 d0 v2 v5 v8 v19 v491
  let v553 : BitVec 32 ← k0_part18 (Memref.whole cc0_stg0_0) (Memref.isWhole_whole _) (Memref.whole cc0_stg1_0) (Memref.isWhole_whole _) (Memref.whole cc0_scratch0) (Memref.isWhole_whole _) cc0_scratch1 cc0_scratch2 cc0_scoped0 d0 v2 v5 v8 v19
  k0_part19 (Memref.whole cc0_stg0_0) (Memref.isWhole_whole _) (Memref.whole cc0_stg1_0) (Memref.isWhole_whole _) (Memref.whole cc0_scratch0) (Memref.isWhole_whole _) cc0_scratch1 cc0_scratch2 cc0_scoped0 d0 v2 v5 v8 v19 v553
  let v615 : BitVec 32 ← k0_part20 (Memref.whole cc0_stg0_0) (Memref.isWhole_whole _) (Memref.whole cc0_stg1_0) (Memref.isWhole_whole _) (Memref.whole cc0_scratch0) (Memref.isWhole_whole _) cc0_scratch1 cc0_scratch2 cc0_scoped0 d0 v2 v5 v8 v19
  let ⟨v641, c0_i32_566⟩ : Σ' (v641 : BitVec 32), BitVec 32 ← k0_part21 (Memref.whole cc0_stg0_0) (Memref.isWhole_whole _) (Memref.whole cc0_stg1_0) (Memref.isWhole_whole _) (Memref.whole cc0_scratch0) (Memref.isWhole_whole _) cc0_scratch1 cc0_scratch2 cc0_scoped0 d0 v2 v8 v615
  let ⟨v669, v670, v671, v672, c0_i32_593⟩ : Σ' (v669 : BitVec 32) (v670 : BitVec 32) (v671 : BitVec 1) (v672 : BitVec 1), BitVec 32 ← k0_part22 (Memref.whole cc0_stg0_0) (Memref.isWhole_whole _) (Memref.whole cc0_stg1_0) (Memref.isWhole_whole _) (Memref.whole cc0_scratch0) (Memref.isWhole_whole _) cc0_scratch1 cc0_scratch2 cc0_scoped0 d0 v2 v5 v8 v19 v641 c0_i32_566
  k0_part23 (Memref.whole cc0_stg0_0) (Memref.isWhole_whole _) (Memref.whole cc0_stg1_0) (Memref.isWhole_whole _) (Memref.whole cc0_scratch0) (Memref.isWhole_whole _) cc0_scratch1 cc0_scratch2 cc0_scoped0 d0 v8 v669 v670 v671 v672 c0_i32_593
  let ⟨v729, c4_i32_650, v730⟩ : Σ' (v729 : BitVec 32) (c4_i32_650 : BitVec 32), BitVec 1 ← k0_part24 (Memref.whole cc0_stg0_0) (Memref.isWhole_whole _) (Memref.whole cc0_stg1_0) (Memref.isWhole_whole _) (Memref.whole cc0_scratch0) (Memref.isWhole_whole _) cc0_scratch1 cc0_scratch2 cc0_scoped0 d0 v2 v5 v8 v19
  k0_part25 (Memref.whole cc0_stg0_0) (Memref.isWhole_whole _) (Memref.whole cc0_stg1_0) (Memref.isWhole_whole _) (Memref.whole cc0_scratch0) (Memref.isWhole_whole _) cc0_scratch1 cc0_scratch2 cc0_scoped0 d0 v2 v5 v19 v729 c4_i32_650 v730
  k0_part26 (Memref.whole cc0_stg0_0) (Memref.isWhole_whole _) (Memref.whole cc0_stg1_0) (Memref.isWhole_whole _) (Memref.whole cc0_scratch0) (Memref.isWhole_whole _) cc0_scratch1 cc0_scratch2 cc0_scoped0 d0 v8
  k0_part27 (Memref.whole cc0_stg0_0) (Memref.isWhole_whole _) (Memref.whole cc0_stg1_0) (Memref.isWhole_whole _) (Memref.whole cc0_scratch0) (Memref.isWhole_whole _) cc0_scratch1 cc0_scratch2 cc0_scoped0 d0
  k0_part28 (Memref.whole cc0_stg0_0) (Memref.isWhole_whole _) (Memref.whole cc0_stg1_0) (Memref.isWhole_whole _) (Memref.whole cc0_scratch0) (Memref.isWhole_whole _) cc0_scratch1 cc0_scratch2 cc0_scoped0 d0 v2 v5 v19 v31
  semWaitWord (cc0_scoped0 : Sems sig S_).sem 2#32 hamt_2
  pure ⟨⟩

/-- What device `c` holds at the cut. -/
def Mid (c : Dev nD) : sProp 𝕄 :=
  iprop(records m K ∗ levAts L lv ∗ (∃ W, owes (c : Thread nD τ) (owedFrom c 10) W)
    -- positions: the entry handshake and the arrivals of steps 0 … 2 consumed, everything else untouched
    ∗ atPos ER (barCell c) 1 ∅ 0
    ∗ (atPos ER (recvCell c 0 0) 1 ∅ 0 ∗ atPos ER (recvCell c 0 1) 1 ∅ 0 ∗ atPos ER (recvCell c 1 0) 1 ∅ 0
        ∗ atPos ER (recvCell c 1 1) 1 ∅ 0 ∗ atPos ER (recvCell c 2 0) 1 ∅ 0 ∗ atPos ER (recvCell c 2 1) 1 ∅ 0)
    ∗ (atPos ER (recvCell c 3 0) 0 ∅ 0 ∗ atPos ER (recvCell c 3 1) 0 ∅ 0 ∗ atPos ER (recvCell c 4 0) 0 ∅ 0
        ∗ atPos ER (recvCell c 4 1) 0 ∅ 0 ∗ atPos ER (recvCell c 5 0) 0 ∅ 0 ∗ atPos ER (recvCell c 5 1) 0 ∅ 0)
    ∗ (bigSep Finset.univ fun hs : Fin 6 × Fin 2 => atPos ER (sendCell c hs.1 hs.2) 0 ∅ 0)
    ∗ atPos ER (exitCell c) 0 ∅ 0
    -- credit: for the arrivals still to come, for the eight departures in flight, for the exit handshake
    ∗ (cred (tallyAt (recvCell c 3 0) () Ncr) ∗ cred (tallyAt (recvCell c 3 1) () Ncr) ∗ cred (tallyAt (recvCell c 4 0) () Ncr)
        ∗ cred (tallyAt (recvCell c 4 1) () Ncr) ∗ cred (tallyAt (recvCell c 5 0) () Ncr) ∗ cred (tallyAt (recvCell c 5 1) () Ncr))
    ∗ (cred (tallyAt (sendCell c 0 0) () Ncr) ∗ cred (tallyAt (sendCell c 0 1) () Ncr) ∗ cred (tallyAt (sendCell c 1 0) () Ncr)
        ∗ cred (tallyAt (sendCell c 1 1) () Ncr) ∗ cred (tallyAt (sendCell c 2 0) () Ncr) ∗ cred (tallyAt (sendCell c 2 1) () Ncr)
        ∗ cred (tallyAt (sendCell c 3 0) () Ncr) ∗ cred (tallyAt (sendCell c 3 1) () Ncr))
    ∗ cred (tallyAt (exitCell c) () 2)
    -- tokens: the four transfers and the two exit signals still to pay
    ∗ (dutyTok ER (recvCell (nxt c) 4 0) 0 false ∗ dutyTok ER (recvCell (nxt c) 4 1) 0 false
        ∗ dutyTok ER (recvCell (nxt c) 5 0) 0 false ∗ dutyTok ER (recvCell (nxt c) 5 1) 0 false)
    ∗ (dutyTok ER (sendCell c 4 0) 0 false ∗ dutyTok ER (sendCell c 4 1) 0 false
        ∗ dutyTok ER (sendCell c 5 0) 0 false ∗ dutyTok ER (sendCell c 5 1) 0 false)
    ∗ dutyTok ER (exitCell (prv c)) 0 true ∗ dutyTok ER (exitCell (nxt c)) 0 false
    -- buffers: its own slots of steps 0 … 2 (read, still held), the right neighbour's slots of steps 4, 5, the input staging buffer
    ∗ (slotAny c 0 0 ∗ slotAny c 0 1 ∗ slotAny c 1 0 ∗ slotAny c 1 1 ∗ slotAny c 2 0 ∗ slotAny c 2 1)
    ∗ (slotAny (nxt c) 4 0 ∗ slotAny (nxt c) 4 1 ∗ slotAny (nxt c) 5 0 ∗ slotAny (nxt c) 5 1)
    ∗ stg c cc0_stg0_0 (xin m c))

end Cert.Kernel.AR

end
-- ==== Proof.KernelFront.lean ====
/-
  The first half of the body: the entry handshake (the landing buffer goes to the left neighbour, the right
  neighbour's comes back), the copy of the input into the result buffer and its cutting into eight blocks, the
  departures of steps 0 … 3 and, after each arrival of steps 0 … 2, the sum of the block and what arrived.
-/
import proofs.«900718_g7700000000000719_dist_ar_v7x_xyz2x2x4_z_m1024_n512_f32_1_alg».proof.Proof.KernelMid
import Idealize.ShloMosaic.Lib.Tactic

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (K : Dev nD × CK → ℕ)

/-! ## The schedule's tables at each kind of cell -/

attribute [local sl_rounds] duties_at amount_at payload_at expect_at
attribute [local sl_canon] dev1_eq dev2_eq dev3_eq dev4_eq dev5_eq dev6_eq dev7_eq dev8_eq dev9_eq dev10_eq dev11_eq dev12_eq dev13_eq dev14_eq dev15_eq dev16_eq

private theorem dutiesK_bar : dutiesK .bar = {false, true} := by decide
private theorem payK_bar_f (c : Dev nD) : payK m c .bar false = (iprop(emp) : sProp 𝕄) := rfl
private theorem payK_bar_t (c : Dev nD) : payK m c .bar true = (iprop(∃ f, scrPts (nxt c) f) : sProp 𝕄) := rfl
private theorem dutiesK_send (h : Fin 6) (s : Fin 2) : dutiesK (.send h s) = {false} := rfl
private theorem dutiesK_recv (h : Fin 6) (s : Fin 2) : dutiesK (.recv h s) = {false} := rfl
private theorem amountK_send (h : Fin 6) (s : Fin 2) : amountK (.send h s) = Ncr := rfl
private theorem amountK_recv (h : Fin 6) (s : Fin 2) : amountK (.recv h s) = Ncr := rfl
private theorem expK_send (h : Fin 6) (s : Fin 2) : expK (.send h s) = Ncr := rfl
private theorem expK_recv (h : Fin 6) (s : Fin 2) : expK (.recv h s) = Ncr := rfl
private theorem payK_send (c : Dev nD) (h : Fin 6) (s : Fin 2) (d : Bool) : payK m c (.send h s) d = blk c (zc c + srcK h) s (sentV m h c s) := rfl
private theorem payK_recv (c : Dev nD) (h : Fin 6) (s : Fin 2) (d : Bool) : payK m c (.recv h s) d = slotHas c h s (sentV m h (prv c) s) := rfl

attribute [local sl_rounds] dutiesK_bar payK_bar_f payK_bar_t dutiesK_send dutiesK_recv amountK_send amountK_recv expK_send expK_recv payK_send payK_recv

/-- The records at each kind of cell, under the cell's own name. -/
private theorem inv_bar (c : Dev nD) : records m K ⊢ cellInv ER (ringRd m) (K (c, .bar)) (barCell c) := inv_at m K (c, .bar)
private theorem inv_send (c : Dev nD) (h : Fin 6) (s : Fin 2) : records m K ⊢ cellInv ER (ringRd m) (K (c, .send h s)) (sendCell c h s) := inv_at m K (c, .send h s)
private theorem inv_recv (c : Dev nD) (h : Fin 6) (s : Fin 2) : records m K ⊢ cellInv ER (ringRd m) (K (c, .recv h s)) (recvCell c h s) := inv_at m K (c, .recv h s)
private theorem reached_bar (c : Dev nD) : records m K ⊢ (reached ER (barCell c) 0 : sProp 𝕄) := reached_at m K (c, .bar)
private theorem reached_send (c : Dev nD) (h : Fin 6) (s : Fin 2) : records m K ⊢ (reached ER (sendCell c h s) 0 : sProp 𝕄) := reached_at m K (c, .send h s)
private theorem reached_recv (c : Dev nD) (h : Fin 6) (s : Fin 2) : records m K ⊢ (reached ER (recvCell c h s) 0 : sProp 𝕄) := reached_at m K (c, .recv h s)

/-- After the whole copy the result buffer reads the input block, cast. -/
private theorem out0_of_copy (c : Dev nD) (fx : BufTy.Contents (Elt F) (xM : Memref sig .tc .vmem S1024x512 .f32).view.ty)
    (fo : BufTy.Contents (Elt F) (oM : Memref sig .tc .vmem S1024x512 .f32).view.ty)
    (hfx : View.read (Elt F) (xM : Memref sig .tc .vmem S1024x512 .f32).view fx = xin m c) :
    View.read (Elt F) (oM : Memref sig .tc .vmem S1024x512 .f32).view
      ((oM : Memref sig .tc .vmem S1024x512 .f32).view.writes (Elt F) fo
        [⟨Rect.unit (s := S1024x512) ![0, 0] S1024x512.size inb_S1024x512_S1024x512_0_0,
          k0_pay1 (View.readAt (Elt F) (xM : Memref sig .tc .vmem S1024x512 .f32).view
            (Rect.unit (s := S1024x512) ![0, 0] S1024x512.size inb_S1024x512_S1024x512_0_0).toLoadRect fx)⟩])
      = out0 m c := by
  have hz : (![0, 0] : Fin 2 → Nat) = fun _ => 0 := by funext a; fin_cases a <;> rfl
  have h1 : View.readAt (Elt F) (xM : Memref sig .tc .vmem S1024x512 .f32).view
      (Rect.unit (s := S1024x512) ![0, 0] S1024x512.size inb_S1024x512_S1024x512_0_0).toLoadRect fx = xin m c :=
    (Memref.readAt_unit_zero (Elt F) cc0_stg0_0 hz inb_S1024x512_S1024x512_0_0 fx).trans hfx
  rw [h1, View.writes_singleton]
  exact Memref.write_access_unit_zero_univ (Elt F) cc0_stg1_0 hz inb_S1024x512_S1024x512_0_0 fo _

/-- A load of block (j, s) through the whole result buffer, at offsets that are the block's. -/
private theorem wp_ld_blk {α : Type} {Q : α → sProp 𝕄} (c : Dev nD) (j : Fin 4) (s : Fin 2) (X : Blk F)
    (o : Fin 2 → Nat) (ho : o = off j s) (inb : ∀ a, o a + S128x512.size a ≤ S1024x512.size a)
    {hl : (oM : Memref sig .tc .vmem S1024x512 .f32).view.LoadsAt (Rect.unit (s := S1024x512) o S128x512.size inb).toLoadRect}
    {kont : Blk F → Prog (TpuEff nD τ sig (Elt F) Λ₀ .tc) α} :
    (blk c j s X : sProp 𝕄) ⊢ iprop((blk c j s X -∗ wp frame (wpE (defs₀ (F := F)) 𝒱₀ (c : Thread nD τ) none) Set.univ (kont X) Q)
       -∗ wp frame (wpE (defs₀ (F := F)) 𝒱₀ (c : Thread nD τ) none) Set.univ
            (.op (.load oM (Rect.unit (s := S1024x512) o S128x512.size inb).toLoadRect hl) kont) Q) := by
  subst ho
  unfold blk owns
  iintro ⟨%f, %hf, H⟩ Hk
  iapply (wp_load 𝒱₀ (c : Thread nD τ) none Set.univ (m := oM) (S := (oB j s).view.set) ?_) $$ H
  · exact (View.set_slice _ _).ge
  iintro H
  rw [show View.readAt (Elt F) (oM : Memref sig .tc .vmem S1024x512 .f32).view (Rect.unit (s := S1024x512) (off j s) S128x512.size inb).toLoadRect f = X from hf]
  iapply Hk
  iexists f
  isplitr
  · ipureintro; exact hf
  iexact H

/-- A store of a whole block (j, s) through the whole result buffer: the block then reads what was stored. -/
private theorem wp_st_blk {α : Type} {Q : α → sProp 𝕄} (c : Dev nD) (j : Fin 4) (s : Fin 2) (X : Blk F)
    (o : Fin 2 → Nat) (ho : o = off j s) (inb : ∀ a, o a + S128x512.size a ≤ S1024x512.size a)
    (w : Blk F) (Y : Blk F) (hw : w = Y)
    {hx : ((oM : Memref sig .tc .vmem S1024x512 .f32).access (Rect.unit (s := S1024x512) o S128x512.size inb)).Stores Finset.univ}
    {hm : (Finset.univ : Finset (Rect.unit (s := S1024x512) o S128x512.size inb).shape.Idx) = Finset.univ ∨ ∀ a, (Rect.unit (s := S1024x512) o S128x512.size inb).stride a = 1}
    {kont : PUnit → Prog (TpuEff nD τ sig (Elt F) Λ₀ .tc) α} :
    (blk c j s X : sProp 𝕄) ⊢ iprop((blk c j s Y -∗ wp frame (wpE (defs₀ (F := F)) 𝒱₀ (c : Thread nD τ) none) Set.univ (kont ⟨⟩) Q)
       -∗ wp frame (wpE (defs₀ (F := F)) 𝒱₀ (c : Thread nD τ) none) Set.univ
            (.op (.store oM (Rect.unit (s := S1024x512) o S128x512.size inb) w Finset.univ hx hm) kont) Q) := by
  subst ho; subst hw
  unfold blk owns
  iintro ⟨%f, %hf, H⟩ Hk
  iapply (wp_store 𝒱₀ (c : Thread nD τ) none Set.univ (m := oM) (r := Rect.unit (s := S1024x512) (off j s) S128x512.size inb) (Mk := Finset.univ) (S := (oB j s).view.set) ?_) $$ H
  · exact Finset.Subset.refl _
  iintro H
  iapply Hk
  iexists (View.write (Elt F) ((oM : Memref sig .tc .vmem S1024x512 .f32).access (Rect.unit (s := S1024x512) (off j s) S128x512.size inb)) f w Finset.univ)
  isplitr
  · ipureintro; exact View.read_write_univ _ _
  iexact H

/-- A load of slot (h, s) through the whole landing buffer: its squeezed reading is what the slot holds. -/
private theorem wp_ld_slot {α : Type} {Q : α → sProp 𝕄} (c : Dev nD) (h : Fin 6) (s : Fin 2) (X : Blk F)
    (o : Fin 4 → Nat) (ho : o = sOff h s) (inb : ∀ a, o a + S1x1x128x512.size a ≤ S6x2x128x512.size a)
    {hl : (rM : Memref sig .tc .vmem S6x2x128x512 .f32).view.LoadsAt (Rect.unit (s := S6x2x128x512) o S1x1x128x512.size inb).toLoadRect}
    {kont : Vec F S1x1x128x512 .f32 → Prog (TpuEff nD τ sig (Elt F) Λ₀ .tc) α} :
    (slotHas c h s X : sProp 𝕄) ⊢ iprop((∀ v : Vec F S1x1x128x512 .f32, ⌜shapeCast S128x512 v shapeCasts_S1x1x128x512_S128x512 = X⌝ -∗ slotHas c h s X
          -∗ wp frame (wpE (defs₀ (F := F)) 𝒱₀ (c : Thread nD τ) none) Set.univ (kont v) Q)
       -∗ wp frame (wpE (defs₀ (F := F)) 𝒱₀ (c : Thread nD τ) none) Set.univ
            (.op (.load rM (Rect.unit (s := S6x2x128x512) o S1x1x128x512.size inb).toLoadRect hl) kont) Q) := by
  subst ho
  unfold slotHas owns
  iintro ⟨%f, %hf, H⟩ Hk
  iapply (wp_load 𝒱₀ (c : Thread nD τ) none Set.univ (m := rM) (S := (slot h s).view.set) ?_) $$ H
  · rw [Memref.set_view_squeeze]; exact (View.set_slice _ _).ge
  iintro H
  iapply Hk $$ %(View.readAt (Elt F) (rM : Memref sig .tc .vmem S6x2x128x512 .f32).view (Rect.unit (s := S6x2x128x512) (sOff h s) S1x1x128x512.size inb).toLoadRect f) %hf [H]
  iexists f
  isplitr
  · ipureintro; exact hf
  iexact H

/-- Go on to the next memory operation: through returns, printed parts and pure words. -/
local macro "sl_next" : tactic => `(tactic| first | rw [Prog.bind_lift] | sl_exec | skip)

set_option maxHeartbeats 1600000 in
/-- From the body's start to the cut. -/
theorem front_half (c : Dev nD) (Kt : PUnit → sProp 𝕄) :
    iprop(bodyPre m K c ∗ (∀ v2, ∀ v5, ∀ v8, ∀ v19, ∀ v31, Mid m K c -∗ wp frame (wpE (defs₀ (F := F)) 𝒱₀ c none) Set.univ (tail16 (F := F) c v2 v5 v8 v19 v31) Kt))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2 cc0_scoped0) Kt := by
  simp only [cc0_body_eq_skeleton]; unfold cc0_body_skel
  obtain ⟨f2, f5, f8, f19, f31, f34, hp1⟩ : ∃ f2 f5 f8 f19 f31 f34 : Dev nD → BitVec 32,
      k0_part1 (F := F) (Memref.whole cc0_stg0_0) (Memref.isWhole_whole _) (Memref.whole cc0_stg1_0) (Memref.isWhole_whole _)
        (Memref.whole cc0_scratch0) (Memref.isWhole_whole _) cc0_scratch1 cc0_scratch2 cc0_scoped0
      = Prog.op .deviceId (fun d0 => Prog.ret ⟨d0, f2 d0, f5 d0, f8 d0, f19 d0, f31 d0, SemArray.scalar (sig.barrier 0 rfl), f34 d0⟩) :=
    ⟨_, _, _, _, _, _, rfl⟩
  rw [hp1]
  simp only [Prog.bind_op, Prog.bind_ret, wp_deviceId]
  generalize f2 c = w2; generalize f5 c = w5; generalize f8 c = w8; generalize f19 c = w19; generalize f31 c = w31; generalize f34 c = w34
  clear hp1 f2 f5 f8 f19 f31 f34
  show _ ⊢ wp _ _ _ (k0_part2 _ _ _ _ _ _ _ _ _ c w2 w5 w8 w19 w31 _ w34 >>= fun _ =>
      k0_part3 _ _ _ _ _ _ _ _ _ c w2 w5 w8 w19 >>= fun x3 =>
      k0_part4 _ _ _ _ _ _ _ _ _ c w2 w5 w8 w19 x3.1 x3.2 >>= fun x4 =>
      k0_part5 _ _ _ _ _ _ _ _ _ c w2 w5 w8 w19 x4.1 x4.2 >>= fun _ =>
      k0_part6 _ _ _ _ _ _ _ _ _ c w2 w5 w8 w19 >>= fun v188 =>
      k0_part7 _ _ _ _ _ _ _ _ _ c w2 w5 w8 w19 v188 >>= fun _ =>
      k0_part8 _ _ _ _ _ _ _ _ _ c w2 w5 w8 w19 >>= fun x8 =>
      k0_part9 _ _ _ _ _ _ _ _ _ c w2 w5 w8 w19 x8.1 x8.2 >>= fun _ =>
      k0_part10 _ _ _ _ _ _ _ _ _ c w2 w5 w8 w19 >>= fun x10 =>
      k0_part11 _ _ _ _ _ _ _ _ _ c w2 w5 w8 w19 x10.1 x10.2 >>= fun _ =>
      k0_part12 _ _ _ _ _ _ _ _ _ c w2 w5 w8 w19 >>= fun x12 =>
      k0_part13 _ _ _ _ _ _ _ _ _ c w2 w5 w8 w19 x12.1 x12.2.1 x12.2.2 >>= fun _ =>
      k0_part14 _ _ _ _ _ _ _ _ _ c w2 w5 w8 w19 >>= fun v438 =>
      k0_part15 _ _ _ _ _ _ _ _ _ c w2 w5 w8 w19 v438 >>= fun _ =>
      tail16 (F := F) c w2 w5 w8 w19 w31) Kt
  generalize htl : tail16 (F := F) c w2 w5 w8 w19 w31 = tl
  simp only [k0_part2_eq_skeleton, k0_part3_eq_skeleton, k0_part4_eq_skeleton, k0_part5_eq_skeleton, k0_part6_eq_skeleton, k0_part7_eq_skeleton,
    k0_part8_eq_skeleton, k0_part9_eq_skeleton, k0_part10_eq_skeleton, k0_part11_eq_skeleton, k0_part12_eq_skeleton, k0_part13_eq_skeleton,
    k0_part14_eq_skeleton, k0_part15_eq_skeleton]
  unfold bodyPre ghost posAll payToks creds
  iintro ⟨⟨⟨⟨#Hrec, ⟨HaB, HaS, HaR, HaE⟩, ⟨HtBp, HtBn, HtR, HtS, HtEp, HtEn⟩⟩, ⟨HcB, HcR, HcE⟩, #Hlev, Hscr⟩, Ho, Hx, Hout⟩, Hk⟩
  unfold Dat.owesAt Pipeline.owesWithin
  icases Ho with ⟨%W, %hW, HO⟩
  icases Hx with ⟨%dx, Hx⟩
  icases Hout with ⟨%dout, Hout⟩
  ihave Hx := (Entails.of_eq (stg_in_iff (F := F) c _)) $$ Hx
  ihave Hout := (Entails.of_eq (stg_out_iff (F := F) c _)) $$ Hout
  unfold owns
  icases Hx with ⟨%fx, %hfx, Hx⟩
  icases Hout with ⟨%fo, %hfo, Hout⟩
  rw [show (dats m 0 c).owed t₀.castSucc = owedFrom c 0 from rfl]
  have hfetch : (cfg0.win 0).fetch t₀ = true := by decide +kernel
  have hx : (dats m 0 c).before 0 t₀ dx = xin m c := by
    unfold Dat.before; rw [if_pos hfetch]; rfl
  rw [hx] at hfx
  clear hx hfetch hfo dout dx
  -- the entry handshake and the whole copy
  ihave #HIbp := (inv_bar m K (prv c)) $$ Hrec
  ihave #HRbp := (reached_bar m K (prv c)) $$ Hrec
  ihave #HIbn := (inv_bar m K (nxt c)) $$ Hrec
  ihave #HRbn := (reached_bar m K (nxt c)) $$ Hrec
  ihave #HIb := (inv_bar m K c) $$ Hrec
  rw [show owedFrom c 0 = owedFrom c 2 + tallyAt (barCell (nxt c)) () 1 + tallyAt (barCell (prv c)) () 1 from rfl]
  ihave Hscr := (Entails.of_eq (show (iprop(∃ f, scrPts c f) : sProp 𝕄) = iprop(∃ f, scrPts (nxt (prv c)) f) from by rw [nxt_prv])) $$ Hscr
  have hmwB : (levAts L lv : sProp 𝕄) ⊢ MayWait (c : Thread nD τ) (SemLoc.reg barS) () (owedFrom c 2) :=
    mayWait_from (F := F) c .bar 2 (by decide)
  sl_exec
  -- the result buffer, now the input's copy, as its eight blocks
  ihave Hout := (owns_intro (c : Thread nD τ) oM fullShare _) $$ Hout
  rw [out0_of_copy m c fx fo hfx]
  ihave Hblks := (out_split (F := F) c (out0 m c)) $$ Hout
  ihave Hblks := (Entails.of_eq (bigSep_blocks (zc c) (fun j s => (blk c j s (fun i => out0 m c ((oRect j s).emb i)) : sProp 𝕄)))) $$ Hblks
  icases Hblks with ⟨HB00, HB01, HB10, HB11, HB20, HB21, HB30, HB31⟩
  -- the right neighbour's landing buffer, as its twelve slots
  ihave HslN := (scr_split (F := F) (nxt c)) $$ [HaB_pay1]
  · iexists _; iexact HaB_pay1
  ihave HslN := (Entails.of_eq (bigSep_slots (fun h s => (slotAny (nxt c) h s : sProp 𝕄)))) $$ HslN
  icases HslN with ⟨HN00, HN01, HN10, HN11, HN20, HN21, HN30, HN31, HN40, HN41, HN50, HN51⟩
  -- the tokens, positions and credits, slot by slot
  ihave HtR := (Entails.of_eq (bigSep_slots (fun h s => (dutyTok ER (recvCell (nxt c) h s) 0 false : sProp 𝕄)))) $$ HtR
  icases HtR with ⟨HtR00, HtR01, HtR10, HtR11, HtR20, HtR21, HtR30, HtR31, HtR40, HtR41, HtR50, HtR51⟩
  ihave HtS := (Entails.of_eq (bigSep_slots (fun h s => (dutyTok ER (sendCell c h s) 0 false : sProp 𝕄)))) $$ HtS
  icases HtS with ⟨HtS00, HtS01, HtS10, HtS11, HtS20, HtS21, HtS30, HtS31, HtS40, HtS41, HtS50, HtS51⟩
  ihave HaR := (Entails.of_eq (bigSep_slots (fun h s => (atPos ER (recvCell c h s) 0 ∅ 0 : sProp 𝕄)))) $$ HaR
  icases HaR with ⟨HaR00, HaR01, HaR10, HaR11, HaR20, HaR21, HaR30, HaR31, HaR40, HaR41, HaR50, HaR51⟩
  ihave HcR := (Entails.of_eq (bigSep_slots (fun h s => (cred (tallyAt (recvCell c h s) () Ncr) : sProp 𝕄)))) $$ HcR
  icases HcR with ⟨HcR00, HcR01, HcR10, HcR11, HcR20, HcR21, HcR30, HcR31, HcR40, HcR41, HcR50, HcR51⟩
  have e0 : zc c + 0 = zc c := Fin.add_zero _
  ihave HB00 := (Entails.of_eq (show (blk c (zc c + 0) 0 (fun i => out0 m c ((oRect (zc c + 0) 0).emb i)) : sProp 𝕄) = blk c (zc c + srcK 0) 0 (sentV m 0 c 0) from by
    show _ = blk c (zc c + 0) 0 (sentV m 0 c 0); rw [e0]; rfl)) $$ HB00
  ihave HB01 := (Entails.of_eq (show (blk c (zc c + 0) 1 (fun i => out0 m c ((oRect (zc c + 0) 1).emb i)) : sProp 𝕄) = blk c (zc c + srcK 0) 1 (sentV m 0 c 1) from by
    show _ = blk c (zc c + 0) 1 (sentV m 0 c 1); rw [e0]; rfl)) $$ HB01
  -- step 0 departs: chunk z, both halves
  iapply (wp_ringsend m K c _ (dev3_eq c) 0 0 _ (Memref.slice_unit_congr _ (off1_lo c 0 0) _ _ _ _) _ rfl _ rfl _ rfl 2 rfl _) $$ [HB00 HN00 HO HtS00 HtR00]
  · isplitr; · iexact Hrec
    isplitl [HB00]; · iexact HB00
    isplitl [HN00]; · iexact HN00
    isplitl [HO]; · iexact HO
    isplitl [HtS00]; · iexact HtS00
    iexact HtR00
  iintro ⟨HcS00, HO⟩
  rw [show owedFrom c (2 + 1) = owedFrom c 3 from rfl]
  sl_exec
  iapply (wp_ringsend m K c _ (dev4_eq c) 0 1 _ (Memref.slice_unit_congr _ (off1_lo c 0 1) _ _ _ _) _ rfl _ rfl _ rfl 3 rfl _) $$ [HB01 HN01 HO HtS01 HtR01]
  · isplitr; · iexact Hrec
    isplitl [HB01]; · iexact HB01
    isplitl [HN01]; · iexact HN01
    isplitl [HO]; · iexact HO
    isplitl [HtS01]; · iexact HtS01
    iexact HtR01
  iintro ⟨HcS01, HO⟩
  rw [show owedFrom c (3 + 1) = owedFrom c 4 from rfl]
  -- arrival (0, 0): chunk z + 3, half 0, takes it
  ihave #HIr00 := (inv_recv m K c 0 0) $$ Hrec
  have hmw00 : (levAts L lv : sProp 𝕄) ⊢ MayWait (c : Thread nD τ) (SemLoc.dma (recvS 0 0)) () (owedFrom c 4) :=
    mayWait_from (F := F) c (.recv 0 0) 4 (by decide)
  sl_exec
  iapply (wp_ld_blk c (zc c + 3) 0 _ _ (off2_eq c 0 0) _) $$ HB30
  iintro HB30
  sl_next
  iapply (wp_ld_slot c 0 0 _ _ rfl _) $$ HaR00_pay1
  iintro %v00 %hv00 HS00
  sl_next
  iapply (wp_ld_blk c (zc c + 3) 0 _ _ (off2_eq c 0 0) _) $$ HB30
  iintro HB30
  sl_next
  iapply (wp_st_blk c (zc c + 3) 0 _ _ (off2_eq c 0 0) _ _ (sentV m 1 c 0)
    (by show accV (xblk m c (zc c + 3) 0) (shapeCast S128x512 v00 shapeCasts_S1x1x128x512_S128x512) = _; rw [hv00]; rfl)) $$ HB30
  iintro HB30
  sl_next
  iapply (wp_ringsend m K c _ (dev5_eq c) 1 0 _ (Memref.slice_unit_congr _ (off1_lo c 1 0) _ _ _ _) _ rfl _ rfl _ rfl 4 rfl _) $$ [HB30 HN10 HO HtS10 HtR10]
  · isplitr; · iexact Hrec
    isplitl [HB30]; · iexact HB30
    isplitl [HN10]; · iexact HN10
    isplitl [HO]; · iexact HO
    isplitl [HtS10]; · iexact HtS10
    iexact HtR10
  iintro ⟨HcS10, HO⟩
  rw [show owedFrom c (4 + 1) = owedFrom c 5 from rfl]
  -- arrival (0, 1): chunk z + 3, half 1, takes it
  ihave #HIr01 := (inv_recv m K c 0 1) $$ Hrec
  have hmw01 : (levAts L lv : sProp 𝕄) ⊢ MayWait (c : Thread nD τ) (SemLoc.dma (recvS 0 1)) () (owedFrom c 5) :=
    mayWait_from (F := F) c (.recv 0 1) 5 (by decide)
  sl_exec
  iapply (wp_ld_blk c (zc c + 3) 1 _ _ (off2_eq c 0 1) _) $$ HB31
  iintro HB31
  sl_next
  iapply (wp_ld_slot c 0 1 _ _ rfl _) $$ HaR01_pay1
  iintro %v01 %hv01 HS01
  sl_next
  iapply (wp_ld_blk c (zc c + 3) 1 _ _ (off2_eq c 0 1) _) $$ HB31
  iintro HB31
  sl_next
  iapply (wp_st_blk c (zc c + 3) 1 _ _ (off2_eq c 0 1) _ _ (sentV m 1 c 1)
    (by show accV (xblk m c (zc c + 3) 1) (shapeCast S128x512 v01 shapeCasts_S1x1x128x512_S128x512) = _; rw [hv01]; rfl)) $$ HB31
  iintro HB31
  sl_next
  iapply (wp_ringsend m K c _ (dev6_eq c) 1 1 _ (Memref.slice_unit_congr _ (off1_lo c 1 1) _ _ _ _) _ rfl _ rfl _ rfl 5 rfl _) $$ [HB31 HN11 HO HtS11 HtR11]
  · isplitr; · iexact Hrec
    isplitl [HB31]; · iexact HB31
    isplitl [HN11]; · iexact HN11
    isplitl [HO]; · iexact HO
    isplitl [HtS11]; · iexact HtS11
    iexact HtR11
  iintro ⟨HcS11, HO⟩
  rw [show owedFrom c (5 + 1) = owedFrom c 6 from rfl]
  -- arrival (1, 0): chunk z + 2, half 0, takes it
  ihave #HIr10 := (inv_recv m K c 1 0) $$ Hrec
  have hmw10 : (levAts L lv : sProp 𝕄) ⊢ MayWait (c : Thread nD τ) (SemLoc.dma (recvS 1 0)) () (owedFrom c 6) :=
    mayWait_from (F := F) c (.recv 1 0) 6 (by decide)
  sl_exec
  iapply (wp_ld_blk c (zc c + 2) 0 _ _ (off2_eq c 1 0) _) $$ HB20
  iintro HB20
  sl_next
  iapply (wp_ld_slot c 1 0 _ _ rfl _) $$ HaR10_pay1
  iintro %v10 %hv10 HS10
  sl_next
  iapply (wp_ld_blk c (zc c + 2) 0 _ _ (off2_eq c 1 0) _) $$ HB20
  iintro HB20
  sl_next
  iapply (wp_st_blk c (zc c + 2) 0 _ _ (off2_eq c 1 0) _ _ (sentV m 2 c 0)
    (by show accV (xblk m c (zc c + 2) 0) (shapeCast S128x512 v10 shapeCasts_S1x1x128x512_S128x512) = _; rw [hv10]; rfl)) $$ HB20
  iintro HB20
  sl_next
  iapply (wp_ringsend m K c _ (dev7_eq c) 2 0 _ (Memref.slice_unit_congr _ (off1_lo c 2 0) _ _ _ _) _ rfl _ rfl _ rfl 6 rfl _) $$ [HB20 HN20 HO HtS20 HtR20]
  · isplitr; · iexact Hrec
    isplitl [HB20]; · iexact HB20
    isplitl [HN20]; · iexact HN20
    isplitl [HO]; · iexact HO
    isplitl [HtS20]; · iexact HtS20
    iexact HtR20
  iintro ⟨HcS20, HO⟩
  rw [show owedFrom c (6 + 1) = owedFrom c 7 from rfl]
  -- arrival (1, 1): chunk z + 2, half 1, takes it
  ihave #HIr11 := (inv_recv m K c 1 1) $$ Hrec
  have hmw11 : (levAts L lv : sProp 𝕄) ⊢ MayWait (c : Thread nD τ) (SemLoc.dma (recvS 1 1)) () (owedFrom c 7) :=
    mayWait_from (F := F) c (.recv 1 1) 7 (by decide)
  sl_exec
  iapply (wp_ld_blk c (zc c + 2) 1 _ _ (off2_eq c 1 1) _) $$ HB21
  iintro HB21
  sl_next
  iapply (wp_ld_slot c 1 1 _ _ rfl _) $$ HaR11_pay1
  iintro %v11 %hv11 HS11
  sl_next
  iapply (wp_ld_blk c (zc c + 2) 1 _ _ (off2_eq c 1 1) _) $$ HB21
  iintro HB21
  sl_next
  iapply (wp_st_blk c (zc c + 2) 1 _ _ (off2_eq c 1 1) _ _ (sentV m 2 c 1)
    (by show accV (xblk m c (zc c + 2) 1) (shapeCast S128x512 v11 shapeCasts_S1x1x128x512_S128x512) = _; rw [hv11]; rfl)) $$ HB21
  iintro HB21
  sl_next
  iapply (wp_ringsend m K c _ (dev8_eq c) 2 1 _ (Memref.slice_unit_congr _ (off1_lo c 2 1) _ _ _ _) _ rfl _ rfl _ rfl 7 rfl _) $$ [HB21 HN21 HO HtS21 HtR21]
  · isplitr; · iexact Hrec
    isplitl [HB21]; · iexact HB21
    isplitl [HN21]; · iexact HN21
    isplitl [HO]; · iexact HO
    isplitl [HtS21]; · iexact HtS21
    iexact HtR21
  iintro ⟨HcS21, HO⟩
  rw [show owedFrom c (7 + 1) = owedFrom c 8 from rfl]
  -- arrival (2, 0): chunk z + 1, half 0, takes it
  ihave #HIr20 := (inv_recv m K c 2 0) $$ Hrec
  have hmw20 : (levAts L lv : sProp 𝕄) ⊢ MayWait (c : Thread nD τ) (SemLoc.dma (recvS 2 0)) () (owedFrom c 8) :=
    mayWait_from (F := F) c (.recv 2 0) 8 (by decide)
  sl_exec
  iapply (wp_ld_blk c (zc c + 1) 0 _ _ (off2_eq c 2 0) _) $$ HB10
  iintro HB10
  sl_next
  iapply (wp_ld_slot c 2 0 _ _ rfl _) $$ HaR20_pay1
  iintro %v20 %hv20 HS20
  sl_next
  iapply (wp_ld_blk c (zc c + 1) 0 _ _ (off2_eq c 2 0) _) $$ HB10
  iintro HB10
  sl_next
  iapply (wp_st_blk c (zc c + 1) 0 _ _ (off2_eq c 2 0) _ _ (sentV m 3 c 0)
    (by show accV (xblk m c (zc c + 1) 0) (shapeCast S128x512 v20 shapeCasts_S1x1x128x512_S128x512) = _; rw [hv20]; rfl)) $$ HB10
  iintro HB10
  sl_next
  iapply (wp_ringsend m K c _ (dev9_eq c) 3 0 _ (Memref.slice_unit_congr _ (off1_hi c 0 0) _ _ _ _) _ rfl _ rfl _ rfl 8 rfl _) $$ [HB10 HN30 HO HtS30 HtR30]
  · isplitr; · iexact Hrec
    isplitl [HB10]; · iexact HB10
    isplitl [HN30]; · iexact HN30
    isplitl [HO]; · iexact HO
    isplitl [HtS30]; · iexact HtS30
    iexact HtR30
  iintro ⟨HcS30, HO⟩
  rw [show owedFrom c (8 + 1) = owedFrom c 9 from rfl]
  -- arrival (2, 1): chunk z + 1, half 1, takes it
  ihave #HIr21 := (inv_recv m K c 2 1) $$ Hrec
  have hmw21 : (levAts L lv : sProp 𝕄) ⊢ MayWait (c : Thread nD τ) (SemLoc.dma (recvS 2 1)) () (owedFrom c 9) :=
    mayWait_from (F := F) c (.recv 2 1) 9 (by decide)
  sl_exec
  iapply (wp_ld_blk c (zc c + 1) 1 _ _ (off2_eq c 2 1) _) $$ HB11
  iintro HB11
  sl_next
  iapply (wp_ld_slot c 2 1 _ _ rfl _) $$ HaR21_pay1
  iintro %v21 %hv21 HS21
  sl_next
  iapply (wp_ld_blk c (zc c + 1) 1 _ _ (off2_eq c 2 1) _) $$ HB11
  iintro HB11
  sl_next
  iapply (wp_st_blk c (zc c + 1) 1 _ _ (off2_eq c 2 1) _ _ (sentV m 3 c 1)
    (by show accV (xblk m c (zc c + 1) 1) (shapeCast S128x512 v21 shapeCasts_S1x1x128x512_S128x512) = _; rw [hv21]; rfl)) $$ HB11
  iintro HB11
  sl_next
  iapply (wp_ringsend m K c _ (dev10_eq c) 3 1 _ (Memref.slice_unit_congr _ (off1_hi c 0 1) _ _ _ _) _ rfl _ rfl _ rfl 9 rfl _) $$ [HB11 HN31 HO HtS31 HtR31]
  · isplitr; · iexact Hrec
    isplitl [HB11]; · iexact HB11
    isplitl [HN31]; · iexact HN31
    isplitl [HO]; · iexact HO
    isplitl [HtS31]; · iexact HtS31
    iexact HtR31
  iintro ⟨HcS31, HO⟩
  rw [show owedFrom c (9 + 1) = owedFrom c 10 from rfl]
  -- the cut: what is held is the second half's start
  sl_step
  rw [← htl]
  ihave Hx := (owns_intro (c : Thread nD τ) xM fullShare fx) $$ Hx
  rw [hfx]
  ihave Hx := (Entails.of_eq (stg_in_iff (F := F) c (xin m c)).symm) $$ Hx
  ihave HS00 := (slotAny_of_has (F := F) c 0 0 _) $$ HS00
  ihave HS01 := (slotAny_of_has (F := F) c 0 1 _) $$ HS01
  ihave HS10 := (slotAny_of_has (F := F) c 1 0 _) $$ HS10
  ihave HS11 := (slotAny_of_has (F := F) c 1 1 _) $$ HS11
  ihave HS20 := (slotAny_of_has (F := F) c 2 0 _) $$ HS20
  ihave HS21 := (slotAny_of_has (F := F) c 2 1 _) $$ HS21
  iapply Hk $$ %w2 %w5 %w8 %w19 %w31 [-]
  unfold Mid
  isplitr; · iexact Hrec
  isplitr; · iexact Hlev
  isplitl [HO]; · iexists _; iexact HO
  isplitl [HaB]; · iexact HaB
  isplitl [HaR00 HaR01 HaR10 HaR11 HaR20 HaR21]
  · isplitl [HaR00]; · iexact HaR00
    isplitl [HaR01]; · iexact HaR01
    isplitl [HaR10]; · iexact HaR10
    isplitl [HaR11]; · iexact HaR11
    isplitl [HaR20]; · iexact HaR20
    iexact HaR21
  isplitl [HaR30 HaR31 HaR40 HaR41 HaR50 HaR51]
  · isplitl [HaR30]; · iexact HaR30
    isplitl [HaR31]; · iexact HaR31
    isplitl [HaR40]; · iexact HaR40
    isplitl [HaR41]; · iexact HaR41
    isplitl [HaR50]; · iexact HaR50
    iexact HaR51
  isplitl [HaS]; · iexact HaS
  isplitl [HaE]; · iexact HaE
  isplitl [HcR30 HcR31 HcR40 HcR41 HcR50 HcR51]
  · isplitl [HcR30]; · iexact HcR30
    isplitl [HcR31]; · iexact HcR31
    isplitl [HcR40]; · iexact HcR40
    isplitl [HcR41]; · iexact HcR41
    isplitl [HcR50]; · iexact HcR50
    iexact HcR51
  isplitl [HcS00 HcS01 HcS10 HcS11 HcS20 HcS21 HcS30 HcS31]
  · isplitl [HcS00]; · iexact HcS00
    isplitl [HcS01]; · iexact HcS01
    isplitl [HcS10]; · iexact HcS10
    isplitl [HcS11]; · iexact HcS11
    isplitl [HcS20]; · iexact HcS20
    isplitl [HcS21]; · iexact HcS21
    isplitl [HcS30]; · iexact HcS30
    iexact HcS31
  isplitl [HcE]; · iexact HcE
  isplitl [HtR40 HtR41 HtR50 HtR51]
  · isplitl [HtR40]; · iexact HtR40
    isplitl [HtR41]; · iexact HtR41
    isplitl [HtR50]; · iexact HtR50
    iexact HtR51
  isplitl [HtS40 HtS41 HtS50 HtS51]
  · isplitl [HtS40]; · iexact HtS40
    isplitl [HtS41]; · iexact HtS41
    isplitl [HtS50]; · iexact HtS50
    iexact HtS51
  isplitl [HtEp]; · iexact HtEp
  isplitl [HtEn]; · iexact HtEn
  isplitl [HS00 HS01 HS10 HS11 HS20 HS21]
  · isplitl [HS00]; · iexact HS00
    isplitl [HS01]; · iexact HS01
    isplitl [HS10]; · iexact HS10
    isplitl [HS11]; · iexact HS11
    isplitl [HS20]; · iexact HS20
    iexact HS21
  isplitl [HN40 HN41 HN50 HN51]
  · isplitl [HN40]; · iexact HN40
    isplitl [HN41]; · iexact HN41
    isplitl [HN50]; · iexact HN50
    iexact HN51
  iexact Hx

end Cert.Kernel.AR

end
-- ==== Proof.KernelBack.lean ====
/-
  The second half of the body: after each arrival of steps 3 … 5 the departure that read the block is waited
  for and the block is overwritten with what arrived; the departures of steps 4 and 5; the last six departure
  waits; the exit handshake; the own cells closed; the eight blocks and the twelve slots joined again.
-/
import proofs.«900718_g7700000000000719_dist_ar_v7x_xyz2x2x4_z_m1024_n512_f32_1_alg».proof.Proof.KernelMid
import Idealize.ShloMosaic.Lib.Tactic

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (K : Dev nD × CK → ℕ)

attribute [local sl_rounds] duties_at amount_at payload_at expect_at
attribute [local sl_canon] dev1_eq dev2_eq dev3_eq dev4_eq dev5_eq dev6_eq dev7_eq dev8_eq dev9_eq dev10_eq dev11_eq dev12_eq dev13_eq dev14_eq dev15_eq dev16_eq

private theorem dutiesK_exit : dutiesK .exit = {false, true} := by decide
private theorem payK_exit (c : Dev nD) (d : Bool) : payK m c .exit d = (iprop(emp) : sProp 𝕄) := rfl
private theorem dutiesK_send (h : Fin 6) (s : Fin 2) : dutiesK (.send h s) = {false} := rfl
private theorem dutiesK_recv (h : Fin 6) (s : Fin 2) : dutiesK (.recv h s) = {false} := rfl
private theorem amountK_send (h : Fin 6) (s : Fin 2) : amountK (.send h s) = Ncr := rfl
private theorem amountK_recv (h : Fin 6) (s : Fin 2) : amountK (.recv h s) = Ncr := rfl
private theorem expK_send (h : Fin 6) (s : Fin 2) : expK (.send h s) = Ncr := rfl
private theorem expK_recv (h : Fin 6) (s : Fin 2) : expK (.recv h s) = Ncr := rfl
private theorem payK_send (c : Dev nD) (h : Fin 6) (s : Fin 2) (d : Bool) : payK m c (.send h s) d = blk c (zc c + srcK h) s (sentV m h c s) := rfl
private theorem payK_recv (c : Dev nD) (h : Fin 6) (s : Fin 2) (d : Bool) : payK m c (.recv h s) d = slotHas c h s (sentV m h (prv c) s) := rfl

attribute [local sl_rounds] dutiesK_exit payK_exit dutiesK_send dutiesK_recv amountK_send amountK_recv expK_send expK_recv payK_send payK_recv

section Copy
variable {α : Type} {Q : α → sProp (MT nD τ sig Unit (Elt F) ℕ UU ℕ)} {kont : PUnit → Prog (TpuEff nD τ sig (Elt F) Λ₀ .tc) α}

/-- Copying a slot into a block of the result: the slot is loaded, the block is loaded (the value is not used),
    the slot's contents are stored over the block. The slot keeps what it held; the block now holds the same
    (restated at the names `j'`, `X'` the next step reads it by). -/
theorem wp_copy (c : Dev nD) (g : Fin 6) (s : Fin 2) (j : Fin 4) (X Y : Blk F) (j' : Fin 4) (X' : Blk F) (hj : j' = j) (hX : X' = X)
    (o : Fin 2 → ℕ) (ho : o = off j s) (inb : ∀ a, o a + S128x512.size a ≤ S1024x512.size a)
    (so : Fin 4 → ℕ) (hso : so = sOff g s) (sinb : ∀ a, so a + S1x1x128x512.size a ≤ S6x2x128x512.size a)
    {hl1 : (rM : Memref sig .tc .vmem S6x2x128x512 .f32).view.LoadsAt (Rect.unit (s := S6x2x128x512) so S1x1x128x512.size sinb).toLoadRect}
    {hl2 : (oM : Memref sig .tc .vmem S1024x512 .f32).view.LoadsAt (Rect.unit (s := S1024x512) o S128x512.size inb).toLoadRect}
    {hx : ((oM : Memref sig .tc .vmem S1024x512 .f32).access (Rect.unit (s := S1024x512) o S128x512.size inb)).Stores Finset.univ}
    {hm : (Finset.univ : Finset (Rect.unit (s := S1024x512) o S128x512.size inb).shape.Idx) = Finset.univ ∨ ∀ a, (Rect.unit (s := S1024x512) o S128x512.size inb).stride a = 1}
    (pay : Vec F S1x1x128x512 .f32 → FVec F S128x512 .f32) (hpay : ∀ v, pay v = shapeCast S128x512 v shapeCasts_S1x1x128x512_S128x512) :
    iprop(slotHas c g s X ∗ blk c j s Y)
      ⊢ iprop(((slotHas c g s X ∗ blk c j' s X') -∗ wp frame (wpE (defs₀ (F := F)) 𝒱₀ (c : Thread nD τ) none) Set.univ (kont ⟨⟩) Q)
          -∗ wp frame (wpE (defs₀ (F := F)) 𝒱₀ (c : Thread nD τ) none) Set.univ
            (.op (.load rM (Rect.unit (s := S6x2x128x512) so S1x1x128x512.size sinb).toLoadRect hl1) fun v =>
             .op (.load oM (Rect.unit (s := S1024x512) o S128x512.size inb).toLoadRect hl2) fun _ =>
             .op (.store oM (Rect.unit (s := S1024x512) o S128x512.size inb) (pay v) Finset.univ hx hm) kont) Q) := by
  subst ho hso hj hX
  unfold slotHas blk owns
  iintro ⟨Hs, Hb⟩ Hk
  icases Hs with ⟨%fs, %hfs, Hs⟩
  icases Hb with ⟨%fb, %hfb, Hb⟩
  sl_exec
  iapply Hk
  isplitl [Hs]
  · iexists fs
    isplitr
    · ipureintro; exact hfs
    · iexact Hs
  · iexists _
    isplitr
    swap
    · iexact Hb
    · ipureintro
      unfold wp_copy.sl.Hb_w1
      rw [hpay]
      exact (View.read_write_univ _ _).trans hfs
end Copy

/-- Every own cell at the end of its round: the 25 counters come back at zero. -/
theorem close_all (c : Dev nD) :
    iprop(records m K
        ∗ ((atPos ER (sendCell c 0 0) 1 ∅ 0 ∗ atPos ER (sendCell c 0 1) 1 ∅ 0 ∗ atPos ER (sendCell c 1 0) 1 ∅ 0 ∗ atPos ER (sendCell c 1 1) 1 ∅ 0 ∗ atPos ER (sendCell c 2 0) 1 ∅ 0 ∗ atPos ER (sendCell c 2 1) 1 ∅ 0 ∗ atPos ER (sendCell c 3 0) 1 ∅ 0 ∗ atPos ER (sendCell c 3 1) 1 ∅ 0 ∗ atPos ER (sendCell c 4 0) 1 ∅ 0 ∗ atPos ER (sendCell c 4 1) 1 ∅ 0 ∗ atPos ER (sendCell c 5 0) 1 ∅ 0 ∗ atPos ER (sendCell c 5 1) 1 ∅ 0)
          ∗ (atPos ER (recvCell c 0 0) 1 ∅ 0 ∗ atPos ER (recvCell c 0 1) 1 ∅ 0 ∗ atPos ER (recvCell c 1 0) 1 ∅ 0 ∗ atPos ER (recvCell c 1 1) 1 ∅ 0 ∗ atPos ER (recvCell c 2 0) 1 ∅ 0 ∗ atPos ER (recvCell c 2 1) 1 ∅ 0 ∗ atPos ER (recvCell c 3 0) 1 ∅ 0 ∗ atPos ER (recvCell c 3 1) 1 ∅ 0 ∗ atPos ER (recvCell c 4 0) 1 ∅ 0 ∗ atPos ER (recvCell c 4 1) 1 ∅ 0 ∗ atPos ER (recvCell c 5 0) 1 ∅ 0 ∗ atPos ER (recvCell c 5 1) 1 ∅ 0)
          ∗ atPos ER (exitCell c) 1 ∅ 0))
      ⊢ (|={Set.univ}=> Pipeline.ownSems0 osem c : sProp 𝕄) := by
  refine BIBase.Entails.trans ?_ (close_own m K c)
  rw [bigSep_own (fun k : OK => (atPos ER (kcell (c, k.ck)) 1 ∅ 0 : sProp 𝕄)),
    bigSep_slots (fun h s => (atPos ER (kcell (c, (OK.send h s).ck)) 1 ∅ 0 : sProp 𝕄)),
    bigSep_slots (fun h s => (atPos ER (kcell (c, (OK.recv h s).ck)) 1 ∅ 0 : sProp 𝕄))]
  exact .rfl

/-- The twelve slots of the device's landing buffer, six at whatever they hold and six at what arrived, make the buffer again. -/
theorem slots_join (c : Dev nD) (X30 X31 X40 X41 X50 X51 : Blk F) :
    iprop(slotAny c 0 0 ∗ slotAny c 0 1 ∗ slotAny c 1 0 ∗ slotAny c 1 1 ∗ slotAny c 2 0 ∗ slotAny c 2 1
        ∗ slotHas c 3 0 X30 ∗ slotHas c 3 1 X31 ∗ slotHas c 4 0 X40 ∗ slotHas c 4 1 X41 ∗ slotHas c 5 0 X50 ∗ slotHas c 5 1 X51)
      ⊢ (iprop(∃ f, scrPts c f) : sProp 𝕄) := by
  refine BIBase.Entails.trans ?_ (scr_join c)
  rw [bigSep_slots (fun h s => (slotAny c h s : sProp 𝕄))]
  iintro ⟨H00, H01, H10, H11, H20, H21, H30, H31, H40, H41, H50, H51⟩
  ihave H30 := (slotAny_of_has c 3 0 X30) $$ H30
  ihave H31 := (slotAny_of_has c 3 1 X31) $$ H31
  ihave H40 := (slotAny_of_has c 4 0 X40) $$ H40
  ihave H41 := (slotAny_of_has c 4 1 X41) $$ H41
  ihave H50 := (slotAny_of_has c 5 0 X50) $$ H50
  ihave H51 := (slotAny_of_has c 5 1 X51) $$ H51
  iframe

/-- The eight blocks at the end: chunk z holds what step 4 sent, chunk z + 1 what step 3 sent, chunk z + 2 what the left
    neighbour sent at step 5, chunk z + 3 what step 5 sent. Together they are the result buffer at its final contents. -/
theorem blocks_join (c : Dev nD) :
    iprop(blk c (zc c + srcK 4) 0 (sentV m 4 c 0) ∗ blk c (zc c + srcK 4) 1 (sentV m 4 c 1)
        ∗ blk c (zc c + srcK 3) 0 (sentV m 3 c 0) ∗ blk c (zc c + srcK 3) 1 (sentV m 3 c 1)
        ∗ blk c (zc c + srcK 2) 0 (sentV m 5 (prv c) 0) ∗ blk c (zc c + srcK 2) 1 (sentV m 5 (prv c) 1)
        ∗ blk c (zc c + srcK 5) 0 (sentV m 5 c 0) ∗ blk c (zc c + srcK 5) 1 (sentV m 5 c 1))
      ⊢ (stg c cc0_stg1_0 (outAt m c) : sProp 𝕄) := by
  have e : ∀ (k : Fin 4) (s : Fin 2), (fun i => outAt m c ((oRect (zc c + k) s).emb i) : Blk F) = finV m c k s := fun k s => by
    have h := outAt_block m c (zc c + k) s
    rw [add_sub_cancel_left] at h
    exact h
  rw [stg_out_iff]
  refine BIBase.Entails.trans ?_ (out_join c (outAt m c))
  rw [bigSep_blocks (zc c) (fun j s => (blk c j s (fun i => outAt m c ((oRect j s).emb i)) : sProp 𝕄))]
  simp only [e]
  exact .rfl

set_option maxHeartbeats 1600000 in
/-- From the cut to the body's end. -/
theorem back_half (c : Dev nD) (v2 v5 v8 v19 v31 : BitVec 32) (Kt : PUnit → sProp 𝕄) :
    iprop(Mid m K c ∗ (bodyPost m c -∗ Kt ⟨⟩))
      ⊢ wp frame (wpE (defs₀ (F := F)) 𝒱₀ c none) Set.univ (tail16 (F := F) c v2 v5 v8 v19 v31) Kt := by
  rw [Mid, tail16, bigSep_slots (fun h s => atPos ER (sendCell c h s) 0 ∅ 0)]
  iintro ⟨⟨#Hrec, #Hlev, ⟨%W, Howes⟩, HaBar, ⟨HaR00, HaR01, HaR10, HaR11, HaR20, HaR21⟩, ⟨HaR30, HaR31, HaR40, HaR41, HaR50, HaR51⟩,
    ⟨HaS00, HaS01, HaS10, HaS11, HaS20, HaS21, HaS30, HaS31, HaS40, HaS41, HaS50, HaS51⟩, HaX,
    ⟨HcR30, HcR31, HcR40, HcR41, HcR50, HcR51⟩, ⟨HcS00, HcS01, HcS10, HcS11, HcS20, HcS21, HcS30, HcS31⟩, HcX,
    ⟨HtR40, HtR41, HtR50, HtR51⟩, ⟨HtS40, HtS41, HtS50, HtS51⟩, HtXp, HtXn,
    ⟨Hs00, Hs01, Hs10, Hs11, Hs20, Hs21⟩, ⟨Hn40, Hn41, Hn50, Hn51⟩, Hin⟩, Hk⟩
  ihave #HIr30 := (inv_at m K (c, .recv 3 0)) $$ Hrec
  ihave #HIr31 := (inv_at m K (c, .recv 3 1)) $$ Hrec
  ihave #HIr40 := (inv_at m K (c, .recv 4 0)) $$ Hrec
  ihave #HIr41 := (inv_at m K (c, .recv 4 1)) $$ Hrec
  ihave #HIr50 := (inv_at m K (c, .recv 5 0)) $$ Hrec
  ihave #HIr51 := (inv_at m K (c, .recv 5 1)) $$ Hrec
  ihave #HIs00 := (inv_at m K (c, .send 0 0)) $$ Hrec
  ihave #HIs01 := (inv_at m K (c, .send 0 1)) $$ Hrec
  ihave #HIs10 := (inv_at m K (c, .send 1 0)) $$ Hrec
  ihave #HIs11 := (inv_at m K (c, .send 1 1)) $$ Hrec
  ihave #HIs20 := (inv_at m K (c, .send 2 0)) $$ Hrec
  ihave #HIs21 := (inv_at m K (c, .send 2 1)) $$ Hrec
  ihave #HIs30 := (inv_at m K (c, .send 3 0)) $$ Hrec
  ihave #HIs31 := (inv_at m K (c, .send 3 1)) $$ Hrec
  ihave #HIs40 := (inv_at m K (c, .send 4 0)) $$ Hrec
  ihave #HIs41 := (inv_at m K (c, .send 4 1)) $$ Hrec
  ihave #HIs50 := (inv_at m K (c, .send 5 0)) $$ Hrec
  ihave #HIs51 := (inv_at m K (c, .send 5 1)) $$ Hrec
  ihave #HIx := (inv_at m K (c, .exit)) $$ Hrec
  have hmw_r30 : (levAts L lv : sProp 𝕄) ⊢ MayWait (c : Thread nD τ) (SemLoc.dma (recvS 3 0)) () (owedFrom c 10) :=
    mayWait_from (F := F) c (.recv 3 0) 10 (by decide)
  have hmw_r31 : (levAts L lv : sProp 𝕄) ⊢ MayWait (c : Thread nD τ) (SemLoc.dma (recvS 3 1)) () (owedFrom c 11) :=
    mayWait_from (F := F) c (.recv 3 1) 11 (by decide)
  have hmw_r40 : (levAts L lv : sProp 𝕄) ⊢ MayWait (c : Thread nD τ) (SemLoc.dma (recvS 4 0)) () (owedFrom c 12) :=
    mayWait_from (F := F) c (.recv 4 0) 12 (by decide)
  have hmw_r41 : (levAts L lv : sProp 𝕄) ⊢ MayWait (c : Thread nD τ) (SemLoc.dma (recvS 4 1)) () (owedFrom c 13) :=
    mayWait_from (F := F) c (.recv 4 1) 13 (by decide)
  have hmw_r50 : (levAts L lv : sProp 𝕄) ⊢ MayWait (c : Thread nD τ) (SemLoc.dma (recvS 5 0)) () (owedFrom c 14) :=
    mayWait_from (F := F) c (.recv 5 0) 14 (by decide)
  have hmw_r51 : (levAts L lv : sProp 𝕄) ⊢ MayWait (c : Thread nD τ) (SemLoc.dma (recvS 5 1)) () (owedFrom c 14) :=
    mayWait_from (F := F) c (.recv 5 1) 14 (by decide)
  have hmw_s00 : (levAts L lv : sProp 𝕄) ⊢ MayWait (c : Thread nD τ) (SemLoc.dma (sendS 0 0)) () (owedFrom c 10) :=
    mayWait_from (F := F) c (.send 0 0) 10 (by decide)
  have hmw_s01 : (levAts L lv : sProp 𝕄) ⊢ MayWait (c : Thread nD τ) (SemLoc.dma (sendS 0 1)) () (owedFrom c 11) :=
    mayWait_from (F := F) c (.send 0 1) 11 (by decide)
  have hmw_s10 : (levAts L lv : sProp 𝕄) ⊢ MayWait (c : Thread nD τ) (SemLoc.dma (sendS 1 0)) () (owedFrom c 12) :=
    mayWait_from (F := F) c (.send 1 0) 12 (by decide)
  have hmw_s11 : (levAts L lv : sProp 𝕄) ⊢ MayWait (c : Thread nD τ) (SemLoc.dma (sendS 1 1)) () (owedFrom c 13) :=
    mayWait_from (F := F) c (.send 1 1) 13 (by decide)
  have hmw_s20 : (levAts L lv : sProp 𝕄) ⊢ MayWait (c : Thread nD τ) (SemLoc.dma (sendS 2 0)) () (owedFrom c 14) :=
    mayWait_from (F := F) c (.send 2 0) 14 (by decide)
  have hmw_s21 : (levAts L lv : sProp 𝕄) ⊢ MayWait (c : Thread nD τ) (SemLoc.dma (sendS 2 1)) () (owedFrom c 14) :=
    mayWait_from (F := F) c (.send 2 1) 14 (by decide)
  have hmw_s30 : (levAts L lv : sProp 𝕄) ⊢ MayWait (c : Thread nD τ) (SemLoc.dma (sendS 3 0)) () (owedFrom c 14) :=
    mayWait_from (F := F) c (.send 3 0) 14 (by decide)
  have hmw_s31 : (levAts L lv : sProp 𝕄) ⊢ MayWait (c : Thread nD τ) (SemLoc.dma (sendS 3 1)) () (owedFrom c 14) :=
    mayWait_from (F := F) c (.send 3 1) 14 (by decide)
  have hmw_s40 : (levAts L lv : sProp 𝕄) ⊢ MayWait (c : Thread nD τ) (SemLoc.dma (sendS 4 0)) () (owedFrom c 14) :=
    mayWait_from (F := F) c (.send 4 0) 14 (by decide)
  have hmw_s41 : (levAts L lv : sProp 𝕄) ⊢ MayWait (c : Thread nD τ) (SemLoc.dma (sendS 4 1)) () (owedFrom c 14) :=
    mayWait_from (F := F) c (.send 4 1) 14 (by decide)
  have hmw_s50 : (levAts L lv : sProp 𝕄) ⊢ MayWait (c : Thread nD τ) (SemLoc.dma (sendS 5 0)) () (owedFrom c 14) :=
    mayWait_from (F := F) c (.send 5 0) 14 (by decide)
  have hmw_s51 : (levAts L lv : sProp 𝕄) ⊢ MayWait (c : Thread nD τ) (SemLoc.dma (sendS 5 1)) () (owedFrom c 14) :=
    mayWait_from (F := F) c (.send 5 1) 14 (by decide)
  have hmw_x : (levAts L lv : sProp 𝕄) ⊢ MayWait (c : Thread nD τ) (SemLoc.reg exitS) () (owedFrom c 16) :=
    mayWait_from (F := F) c .exit 16 (by decide)
  ihave #HIxp := (inv_at m K (prv c, .exit)) $$ Hrec
  ihave #HIxn := (inv_at m K (nxt c, .exit)) $$ Hrec
  ihave #HRxp := (reached_at m K (prv c, .exit)) $$ Hrec
  ihave #HRxn := (reached_at m K (nxt c, .exit)) $$ Hrec
  simp only [k0_part16_eq_skeleton]; unfold k0_part16_skel
  sl_exec
  simp only [Prog.lift, Prog.bind_op, Prog.bind_ret, Prog.pure_eq_ret]
  iapply (wp_copy c 3 0 (zc c + srcK 0) (sentV m 3 (prv c) 0) (sentV m 0 c 0) (zc c + srcK 4) (sentV m 4 c 0) rfl rfl _ (off3_eq c 0 0) _ _ rfl _ _ (fun _ => rfl)) $$ [HaR30_pay1 HaS00_pay1]
  · iframe
  iintro ⟨Hr30, Hb30⟩
  sl_exec
  have e40 : (oM.slice (Rect.unit (s := S1024x512) (k0_off1 c 8#32 4#32 0#32) S128x512.size (k0_off1_inb c 8)) (fun _ => rfl)) = oB (zc c + srcK 4) 0 :=
    Memref.slice_unit_congr _ (off1_hi c 1 0) _ _ _ _
  iapply (wp_ringsend m K c _ (dev11_eq c) 4 0 _ e40 _ rfl _ rfl _ rfl 10 rfl _) $$ [Hb30 Hn40 Howes HtS40 HtR40]
  · iframe
    iexact Hrec
  iintro ⟨HcS40, Howes⟩
  sl_exec
  simp only [Prog.lift, Prog.bind_op, Prog.bind_ret, Prog.pure_eq_ret]
  iapply (wp_copy c 3 1 (zc c + srcK 0) (sentV m 3 (prv c) 1) (sentV m 0 c 1) (zc c + srcK 4) (sentV m 4 c 1) rfl rfl _ (off3_eq c 0 1) _ _ rfl _ _ (fun _ => rfl)) $$ [HaR31_pay1 HaS01_pay1]
  · iframe
  iintro ⟨Hr31, Hb31⟩
  sl_exec
  have e41 : (oM.slice (Rect.unit (s := S1024x512) (k0_off1 c 8#32 4#32 128#32) S128x512.size (k0_off1_inb c 9)) (fun _ => rfl)) = oB (zc c + srcK 4) 1 :=
    Memref.slice_unit_congr _ (off1_hi c 1 1) _ _ _ _
  iapply (wp_ringsend m K c _ (dev12_eq c) 4 1 _ e41 _ rfl _ rfl _ rfl 11 rfl _) $$ [Hb31 Hn41 Howes HtS41 HtR41]
  · iframe
    iexact Hrec
  iintro ⟨HcS41, Howes⟩
  sl_exec
  simp only [Prog.lift, Prog.bind_op, Prog.bind_ret, Prog.pure_eq_ret]
  iapply (wp_copy c 4 0 (zc c + srcK 1) (sentV m 4 (prv c) 0) (sentV m 1 c 0) (zc c + srcK 5) (sentV m 5 c 0) rfl rfl _ (off3_eq c 1 0) _ _ rfl _ _ (fun _ => rfl)) $$ [HaR40_pay1 HaS10_pay1]
  · iframe
  iintro ⟨Hr40, Hb40⟩
  sl_exec
  have e50 : (oM.slice (Rect.unit (s := S1024x512) (k0_off1 c 8#32 5#32 0#32) S128x512.size (k0_off1_inb c 10)) (fun _ => rfl)) = oB (zc c + srcK 5) 0 :=
    Memref.slice_unit_congr _ (off1_hi c 2 0) _ _ _ _
  iapply (wp_ringsend m K c _ (dev13_eq c) 5 0 _ e50 _ rfl _ rfl _ rfl 12 rfl _) $$ [Hb40 Hn50 Howes HtS50 HtR50]
  · iframe
    iexact Hrec
  iintro ⟨HcS50, Howes⟩
  sl_exec
  simp only [Prog.lift, Prog.bind_op, Prog.bind_ret, Prog.pure_eq_ret]
  iapply (wp_copy c 4 1 (zc c + srcK 1) (sentV m 4 (prv c) 1) (sentV m 1 c 1) (zc c + srcK 5) (sentV m 5 c 1) rfl rfl _ (off3_eq c 1 1) _ _ rfl _ _ (fun _ => rfl)) $$ [HaR41_pay1 HaS11_pay1]
  · iframe
  iintro ⟨Hr41, Hb41⟩
  sl_exec
  have e51 : (oM.slice (Rect.unit (s := S1024x512) (k0_off1 c 8#32 5#32 128#32) S128x512.size (k0_off1_inb c 11)) (fun _ => rfl)) = oB (zc c + srcK 5) 1 :=
    Memref.slice_unit_congr _ (off1_hi c 2 1) _ _ _ _
  iapply (wp_ringsend m K c _ (dev14_eq c) 5 1 _ e51 _ rfl _ rfl _ rfl 13 rfl _) $$ [Hb41 Hn51 Howes HtS51 HtR51]
  · iframe
    iexact Hrec
  iintro ⟨HcS51, Howes⟩
  sl_exec
  simp only [Prog.lift, Prog.bind_op, Prog.bind_ret, Prog.pure_eq_ret]
  iapply (wp_copy c 5 0 (zc c + srcK 2) (sentV m 5 (prv c) 0) (sentV m 2 c 0) (zc c + srcK 2) (sentV m 5 (prv c) 0) rfl rfl _ (off3_eq c 2 0) _ _ rfl _ _ (fun _ => rfl)) $$ [HaR50_pay1 HaS20_pay1]
  · iframe
  iintro ⟨Hr50, Hb50⟩
  sl_exec
  simp only [Prog.lift, Prog.bind_op, Prog.bind_ret, Prog.pure_eq_ret]
  iapply (wp_copy c 5 1 (zc c + srcK 2) (sentV m 5 (prv c) 1) (sentV m 2 c 1) (zc c + srcK 2) (sentV m 5 (prv c) 1) rfl rfl _ (off3_eq c 2 1) _ _ rfl _ _ (fun _ => rfl)) $$ [HaR51_pay1 HaS21_pay1]
  · iframe
  iintro ⟨Hr51, Hb51⟩
  sl_exec
  rw [show owedFrom c (13 + 1) = owedFrom c 16 + tallyAt (exitCell (nxt c)) () 1 + tallyAt (exitCell (prv c)) () 1 from rfl]
  sl_exec
  imod (close_all m K c) $$ [HaS00 HaS01 HaS10 HaS11 HaS20 HaS21 HaS30 HaS31 HaS40 HaS41 HaS50 HaS51 HaR00 HaR01 HaR10 HaR11 HaR20 HaR21 HaR30 HaR31 HaR40 HaR41 HaR50 HaR51 HaX] with Hown
  · iframe
    iexact Hrec
  sl_step
  iapply Hk
  unfold bodyPost Φ₁
  isplitl [Hs00 Hs01 Hs10 Hs11 Hs20 Hs21 Hr30 Hr31 Hr40 Hr41 Hr50 Hr51 Hown]
  · isplitr [Hown]
    · iapply (slots_join c _ _ _ _ _ _) $$ [Hs00 Hs01 Hs10 Hs11 Hs20 Hs21 Hr30 Hr31 Hr40 Hr41 Hr50 Hr51]
      iframe
    · iexact Hown
  isplitl [Howes]
  · iexists _
    isplitr
    swap
    · iexact Howes
    · ipureintro; exact fun _ _ => Or.inl trivial
  isplitl [Hin]
  · iexact Hin
  iapply (blocks_join m c) $$ [HaS40_pay1 HaS41_pay1 HaS30_pay1 HaS31_pay1 Hb50 Hb51 HaS50_pay1 HaS51_pay1]
  iframe

end Cert.Kernel.AR

end
-- ==== Proof.KernelBody.lean ====
/-
  One device's kernel body, run once at a symbolic device: from the ghost state, the credits, the landing
  buffer and the two staging buffers to the landing buffer, the own cells closed, the input staging buffer
  unchanged and the result staging buffer holding the ring's sum. The two halves, composed.
-/
import proofs.«900718_g7700000000000719_dist_ar_v7x_xyz2x2x4_z_m1024_n512_f32_1_alg».proof.Proof.KernelFront
import proofs.«900718_g7700000000000719_dist_ar_v7x_xyz2x2x4_z_m1024_n512_f32_1_alg».proof.Proof.KernelBack
import Idealize.ShloMosaic.Lib.Tactic

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (K : Dev nD × CK → ℕ)

/-- The body, from `bodyPre` to `bodyPost`. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2 cc0_scoped0) Kt := by
  iintro ⟨Hpre, Hk⟩
  iapply (front_half m K c Kt)
  isplitl [Hpre]; · iexact Hpre
  iintro %v2 %v5 %v8 %v19 %v31 HMid
  iapply (back_half m K c v2 v5 v8 v19 v31 Kt)
  isplitl [HMid]; · iexact HMid
  iexact Hk

end Cert.Kernel.AR

end
-- ==== Proof.KernelCreds.lean ====
/-
  The credit a device is dealt at launch: one token for each unit its two ring neighbours owe it — the entry
  handshake's two units, each arrival's transfer, the exit handshake's two units. Every device owes the same sixteen
  dues to its neighbours, so summed over the ring each device is owed exactly what it waits for.
-/
import proofs.«900718_g7700000000000719_dist_ar_v7x_xyz2x2x4_z_m1024_n512_f32_1_alg».proof.Proof.KernelInv
import Idealize.ShloMosaic.Lib.Tactic
import Idealize.ShloMosaic.Lib.Pipeline.Launch

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

/-- What every device owes, written out: sixteen one-cell tallies, the last due innermost. -/
theorem O₀_eq : (O₀ : Dev nD → CellTallies nD τ sig Unit) = fun d =>
    0 + tallyAt (exitCell (nxt d)) () 1 + tallyAt (exitCell (prv d)) () 1
      + tallyAt (recvCell (nxt d) 5 1) () Ncr + tallyAt (recvCell (nxt d) 5 0) () Ncr
      + tallyAt (recvCell (nxt d) 4 1) () Ncr + tallyAt (recvCell (nxt d) 4 0) () Ncr
      + tallyAt (recvCell (nxt d) 3 1) () Ncr + tallyAt (recvCell (nxt d) 3 0) () Ncr
      + tallyAt (recvCell (nxt d) 2 1) () Ncr + tallyAt (recvCell (nxt d) 2 0) () Ncr
      + tallyAt (recvCell (nxt d) 1 1) () Ncr + tallyAt (recvCell (nxt d) 1 0) () Ncr
      + tallyAt (recvCell (nxt d) 0 1) () Ncr + tallyAt (recvCell (nxt d) 0 0) () Ncr
      + tallyAt (barCell (nxt d)) () 1 + tallyAt (barCell (prv d)) () 1 := by
  funext d; rfl

/-- Every device owing `n` on its right neighbour's cell of kind `k`, each device is dealt `n` on its own cell of that
    kind (from its left neighbour); -/
theorem cred_from_prv (k : CK) (n : ℕ) (c : Dev nD) :
    (Pipeline.launchCred (fun d => tallyAt (kcell (nxt d, k)) () n) c : sProp 𝕄) ⊢ cred (tallyAt (kcell (c, k)) () n) :=
  Pipeline.launchCred_tallyAt (csem k) nxt prv nxt_prv prv_nxt () n c
/-- and the same for what every device owes its left neighbour (dealt from the right neighbour). -/
theorem cred_from_nxt (k : CK) (n : ℕ) (c : Dev nD) :
    (Pipeline.launchCred (fun d => tallyAt (kcell (prv d, k)) () n) c : sProp 𝕄) ⊢ cred (tallyAt (kcell (c, k)) () n) :=
  Pipeline.launchCred_tallyAt (csem k) prv nxt prv_nxt nxt_prv () n c

/-- Two units on one cell are one credit of two. -/
theorem cred_two (g : GSem nD τ sig) : iprop(cred (tallyAt g () 1) ∗ cred (tallyAt g () 1)) ⊢ (cred (tallyAt g () 2) : sProp 𝕄) :=
  (cred_add _ _).2.trans (Entails.of_eq (by rw [tallyAt_add]))

/-- The twelve (step, half) pairs, in order. -/
theorem bigSep_pairs (Φ : Fin 6 × Fin 2 → sProp 𝕄) :
    bigSep Finset.univ Φ = iprop(Φ (0, 0) ∗ Φ (0, 1) ∗ Φ (1, 0) ∗ Φ (1, 1) ∗ Φ (2, 0) ∗ Φ (2, 1) ∗ Φ (3, 0) ∗ Φ (3, 1)
      ∗ Φ (4, 0) ∗ Φ (4, 1) ∗ Φ (5, 0) ∗ Φ (5, 1)) := by
  rw [bigSep_univ_eq_bigSepL [(0, 0), (0, 1), (1, 0), (1, 1), (2, 0), (2, 1), (3, 0), (3, 1), (4, 0), (4, 1), (5, 0), (5, 1)] (by decide) (by decide)]
  rfl

/-- The launch credit under the sixteen dues is the device's waits' credit. -/
theorem creds_of_launch (c : Dev nD) : (Pipeline.launchCred O₀ c : sProp 𝕄) ⊢ creds c := by
  rw [O₀_eq]
  simp only [Pipeline.launchCred_add, Pipeline.launchCred_zero]
  unfold creds
  rw [bigSep_pairs]
  iintro ⟨⟨⟨⟨⟨⟨⟨⟨⟨⟨⟨⟨⟨⟨⟨⟨-, HxN⟩, HxP⟩, H51⟩, H50⟩, H41⟩, H40⟩, H31⟩, H30⟩, H21⟩, H20⟩, H11⟩, H10⟩, H01⟩, H00⟩, HbN⟩, HbP⟩
  isplitl [HbN HbP]
  · iapply (cred_two (barCell c))
    isplitl [HbN]
    · iapply (cred_from_prv .bar 1 c); iexact HbN
    · iapply (cred_from_nxt .bar 1 c); iexact HbP
  isplitr [HxN HxP]
  · isplitl [H00]; · iapply (cred_from_prv (.recv 0 0) Ncr c); iexact H00
    isplitl [H01]; · iapply (cred_from_prv (.recv 0 1) Ncr c); iexact H01
    isplitl [H10]; · iapply (cred_from_prv (.recv 1 0) Ncr c); iexact H10
    isplitl [H11]; · iapply (cred_from_prv (.recv 1 1) Ncr c); iexact H11
    isplitl [H20]; · iapply (cred_from_prv (.recv 2 0) Ncr c); iexact H20
    isplitl [H21]; · iapply (cred_from_prv (.recv 2 1) Ncr c); iexact H21
    isplitl [H30]; · iapply (cred_from_prv (.recv 3 0) Ncr c); iexact H30
    isplitl [H31]; · iapply (cred_from_prv (.recv 3 1) Ncr c); iexact H31
    isplitl [H40]; · iapply (cred_from_prv (.recv 4 0) Ncr c); iexact H40
    isplitl [H41]; · iapply (cred_from_prv (.recv 4 1) Ncr c); iexact H41
    isplitl [H50]; · iapply (cred_from_prv (.recv 5 0) Ncr c); iexact H50
    iapply (cred_from_prv (.recv 5 1) Ncr c); iexact H51
  · iapply (cred_two (exitCell c))
    isplitl [HxN]
    · iapply (cred_from_prv .exit 1 c); iexact HxN
    · iapply (cred_from_nxt .exit 1 c); iexact HxP

#print axioms creds_of_launch

end Cert.Kernel.AR

end
-- ==== Proof.KernelFinal.lean ====
/-
  The arrays after the run: the input array is never written; the result array is written once, whole, with
  what the body left in the result's staging buffer.
-/
import proofs.«900718_g7700000000000719_dist_ar_v7x_xyz2x2x4_z_m1024_n512_f32_1_alg».proof.Proof.KernelInv
import Idealize.ShloMosaic.Lib.Tactic

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-- The input array at the end is the input array. -/
theorem finalA_in (c : Dev nD) : (dats m 0 c).arrAt (0 : Fin 2) cfg0.N = m ((c.tc : Thread nD τ).loc main_arg0) := by
  exact (dats m 0 c).arrAt_in (0 : Fin 2) rfl _

/-- The result array at the end is the ring's sum, as the body left it in the staging buffer. -/
theorem finalA_out (c : Dev nD) : (dats m 0 c).arrAt (1 : Fin 2) cfg0.N = outAt m c := by
  -- the one point of the run writes the result back,
  have hfl : (cfg0.win 1).flush t₀ = true := by decide
  show (dats m 0 c).arrAt (1 : Fin 2) ((t₀ : Fin cfg0.N).val + 1) = outAt m c
  rw [Dat.arrAt_succ, if_pos hfl]
  -- and its block is the whole array at offset zero, so the write replaces the contents by what the body left
  exact Memref.write_access_unit_zero_univ (Elt F) main_v1 (funext fun a => Nat.zero_mul _) _ _ _

end Cert.Kernel.AR

end
-- ==== Proof.KernelLaunch.lean ====
/-
  The launch: sixteen devices, each running the body once. The ring's ghost state (26 cells a device, their
  duty tokens dealt to the payers around the ring), the credit each device is dealt for what its neighbours owe
  it, the levels; then the run: every weakly fair interleaving of the sixteen kernels terminates, nothing
  faults, every device's result array ends holding the ring's sum and its input array is unchanged.
-/
import proofs.«900718_g7700000000000719_dist_ar_v7x_xyz2x2x4_z_m1024_n512_f32_1_alg».proof.Proof.KernelBody
import proofs.«900718_g7700000000000719_dist_ar_v7x_xyz2x2x4_z_m1024_n512_f32_1_alg».proof.Proof.KernelCreds
import proofs.«900718_g7700000000000719_dist_ar_v7x_xyz2x2x4_z_m1024_n512_f32_1_alg».proof.Proof.KernelFinal
import proofs.«900718_g7700000000000719_dist_ar_v7x_xyz2x2x4_z_m1024_n512_f32_1_alg».proof.Proof.Gen.Kernel.Launch
import proofs.«900718_g7700000000000719_dist_ar_v7x_xyz2x2x4_z_m1024_n512_f32_1_alg».proof.Proof.Gen.Kernel.Points
import Idealize.ShloMosaic.Lib.Pipeline.Launch
import Idealize.ShloMosaic.Lib.Pipeline.Kit
import Idealize.ShloMosaic.Lib.Tactic

noncomputable section

namespace Cert.Kernel.AR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (K : Dev nD × CK → ℕ)

variable (ρ : Dev nD → PrngReg)

/-! ## The body obligation -/

omit [FloatOps F] in
/-- The two windows conjoined one by one. -/
theorem bigSep_W (Φ : Fin cfg0.W → sProp 𝕄) : bigSep Finset.univ Φ = iprop(Φ (0 : Fin 2) ∗ Φ (1 : Fin 2)) := bigSep_W0 Φ

omit [FloatOps F] in
/-- A whole buffer held at `X`, in the two spellings. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

set_option maxRecDepth 4000 in
/-- What the one point starts from: the invariant before it, what the device owes, the two staging buffers. -/
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The body obligation on device `c`: the body lemma at the names the device's ghost state was allocated at. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2 cc0_scoped0) (fun _ => bodyPost m c)
  unfold bodyPre' Φ₀ start
  iintro ⟨⟨⟨⟨%K, Hg⟩, Hcr, Hlev⟩, Hscr⟩, Ho, Hx, Hout⟩
  iapply (sound_body m K c fun _ => bodyPost m c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

/-! ## The launch -/

/-- The 25 own semaphores are scoped, distinct, and none of them a staging semaphore. -/
theorem ownSemFacts : Pipeline.OwnSemFacts cfg0.spec osem := by decide

/-- Both arrays are held whole. -/
theorem share_eq (c : Dev nD) (w : Fin cfg0.W) : (dats m 0 c).share w = fullShare := by unfold Dat.share; split <;> rfl

/-- A device's cells: the entry handshake's, the twelve departures', the twelve arrivals', the exit handshake's. -/
def ckParts : Unit ⊕ (Fin 6 × Fin 2) ⊕ (Fin 6 × Fin 2) ⊕ Unit ≃ CK where
  toFun
    | .inl _ => .bar
    | .inr (.inl hs) => .send hs.1 hs.2
    | .inr (.inr (.inl hs)) => .recv hs.1 hs.2
    | .inr (.inr (.inr _)) => .exit
  invFun
    | .bar => .inl ()
    | .send h s => .inr (.inl (h, s))
    | .recv h s => .inr (.inr (.inl (h, s)))
    | .exit => .inr (.inr (.inr ()))
  left_inv := by rintro (_ | _ | _ | _) <;> rfl
  right_inv := by rintro (_ | _ | _ | _) <;> rfl

/-- The entry handshake's cell and the kernel's own. -/
def ckOwn : Unit ⊕ OK ≃ CK where
  toFun
    | .inl _ => .bar
    | .inr k => k.ck
  invFun
    | .bar => .inl ()
    | .send h s => .inr (.send h s)
    | .recv h s => .inr (.recv h s)
    | .exit => .inr .exit
  left_inv := by rintro (_ | _ | _ | _) <;> rfl
  right_inv := by rintro (_ | _ | _ | _) <;> rfl

omit [FloatOps F] in
/-- A conjunction over a device's 26 cells, by kind. -/
theorem bigSep_CK (Φ : CK → sProp 𝕄) :
    bigSep Finset.univ Φ
      = iprop(Φ .bar ∗ (bigSep Finset.univ fun hs : Fin 6 × Fin 2 => Φ (.send hs.1 hs.2))
          ∗ (bigSep Finset.univ fun hs : Fin 6 × Fin 2 => Φ (.recv hs.1 hs.2)) ∗ Φ .exit) := by
  rw [bigSep_univ_equiv ckParts Φ, bigSep_univ_sum, bigSep_univ_sum, bigSep_univ_sum,
    bigSep_univ_of_subsingleton (), bigSep_univ_of_subsingleton ()]
  rfl

omit [FloatOps F] in
/-- The same, the entry handshake's cell apart from the 25 own. -/
theorem bigSep_CK_own (Φ : CK → sProp 𝕄) :
    bigSep Finset.univ Φ = iprop(Φ .bar ∗ bigSep Finset.univ fun k : OK => Φ k.ck) := by
  rw [bigSep_univ_equiv ckOwn Φ, bigSep_univ_sum, bigSep_univ_of_subsingleton ()]
  rfl

/-- The ring's cells: every device's 26. -/
def ringCells : Finset (GSem nD τ sig) := Finset.univ.map ⟨kcell, kcell_injective⟩

/-- The duty tokens of a device's own cells as minted: duty `false` of each of the 26 cells, duty `true` of the two
    handshake cells. -/
abbrev tokOf (cj : Dev nD × (CK ⊕ Bool)) : GSem nD τ sig × ℕ × Bool := match cj.2 with
  | .inl k => (kcell (cj.1, k), 0, false)
  | .inr false => (barCell cj.1, 0, true)
  | .inr true => (exitCell cj.1, 0, true)

theorem tokOf_injective : Function.Injective (tokOf : Dev nD × (CK ⊕ Bool) → GSem nD τ sig × ℕ × Bool) := by
  rintro ⟨c, j⟩ ⟨c', j'⟩ h
  have h1 : c = c' := by
    have := congrArg (fun x : GSem nD τ sig × ℕ × Bool => x.1.1.1) h
    rcases j with k | (_ | _) <;> rcases j' with k' | (_ | _) <;> exact this
  subst h1
  have h2 := congrArg (fun x : GSem nD τ sig × ℕ × Bool => x.2.2) h
  have h3 := congrArg (fun x : GSem nD τ sig × ℕ × Bool => x.1.2) h
  have : j = j' := by
    rcases j with k | (_ | _) <;> rcases j' with k' | (_ | _)
    · exact congrArg Sum.inl (csem_injective h3)
    · exact absurd h2 Bool.false_ne_true
    · exact absurd h2 Bool.false_ne_true
    · exact absurd h2.symm Bool.false_ne_true
    · rfl
    · exact absurd (csem_injective (a₁ := CK.bar) (a₂ := CK.exit) h3) (by decide)
    · exact absurd h2.symm Bool.false_ne_true
    · exact absurd (csem_injective (a₁ := CK.exit) (a₂ := CK.bar) h3) (by decide)
    · rfl
  subst this; rfl

/-- The ring's duty tokens: every device's 28. -/
def ringToks : Finset (GSem nD τ sig × ℕ × Bool) := Finset.univ.map ⟨tokOf, tokOf_injective⟩

/-- The launch element: the pipeline's cells and tokens, and the ring's. -/
def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun k : CK => dutyTok ER (kcell (c, k)) 0 false)
    ∗ dutyTok ER (barCell c) 0 true ∗ dutyTok ER (exitCell c) 0 true)

/-- What the launch element deals device `c`: the round state, the position and the reached-mark of each of its cells, and
    its cells' tokens. -/
def G (c : Dev nD) : sProp 𝕄 :=
  iprop((bigSep Finset.univ fun k : CK => roundState ER (ringRd m) (kcell (c, k)) 0)
    ∗ (bigSep Finset.univ fun k : CK => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
/-- A conjunction over the two duties. -/
theorem bigSep_bool (Φ : Bool → sProp 𝕄) : bigSep Finset.univ Φ = iprop(Φ false ∗ Φ true) := by
  rw [bigSep_univ_eq_bigSepL [false, true] (by decide) (by decide), bigSepL_cons_cons, bigSepL_singleton]
  rfl

/-- The ring's part of the launch element is every device's share of it. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_bool]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The entry handshake's semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's 26 counters at zero: its 25 own and the entry handshake's. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_CK_own]
  show iprop((bigSep Finset.univ fun k : OK => semVal (kcell (c, k.ck)) 0) ∗ semVal (barCell c) 0) ⊢ _
  iintro ⟨HO, HB⟩
  isplitl [HB]; · iexact HB
  iexact HO

/-- One device's cells: each one's invariant allocated, at some name, from its counter at zero and its round state. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (ringRd m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (ringRd m) (kcell (c, k)) 0)
      ⊢ (|={Set.univ}=> bigSep Finset.univ fun k : CK => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A device's ghost state from the records, its positions and the tokens it pays with. -/
theorem ghost_intro (c : Dev nD) : iprop(records m K ∗ posAll c ∗ payToks c) ⊢ G' m c := by
  unfold G' ghost
  iintro H; iexists K; iexact H

omit [FloatOps F] in
/-- The tokens dealt around the ring: a handshake cell's duty `false` to the device on its left (whose right neighbour it
    is), its duty `true` to the device on its right; an arrival cell's duty to the device on its left; a departure cell's
    stays. -/
theorem toks_around : (bigSep Finset.univ fun c : Dev nD => (toks c : sProp 𝕄)) ⊢ bigSep Finset.univ fun c : Dev nD => payToks c := by
  unfold toks payToks
  simp only [bigSep_CK, bigSep_sep']
  rw [bigSep_univ_equiv ring (fun c : Dev nD => (dutyTok ER (kcell (c, CK.bar)) 0 false : sProp 𝕄)),
    bigSep_univ_equiv ring.symm (fun c : Dev nD => (dutyTok ER (barCell c) 0 true : sProp 𝕄)),
    bigSep_univ_equiv ring (fun c : Dev nD => (bigSep Finset.univ fun hs : Fin 6 × Fin 2 => dutyTok ER (kcell (c, CK.recv hs.1 hs.2)) 0 false : sProp 𝕄)),
    bigSep_univ_equiv ring (fun c : Dev nD => (dutyTok ER (kcell (c, CK.exit)) 0 false : sProp 𝕄)),
    bigSep_univ_equiv ring.symm (fun c : Dev nD => (dutyTok ER (exitCell c) 0 true : sProp 𝕄))]
  iintro ⟨⟨HBf, HS, HR, HEf⟩, HBt, HEt⟩
  isplitl [HBt]; · iexact HBt
  isplitl [HBf]; · iexact HBf
  isplitl [HR]; · iexact HR
  isplitl [HS]; · iexact HS
  isplitl [HEt]; · iexact HEt
  iexact HEf

/-- All devices' invariants under one choice of names, the reached-marks shared, the tokens dealt around the ring. -/
theorem regroup :
    (bigSep Finset.univ fun c : Dev nD => iprop((bigSep Finset.univ fun k : CK => iprop(∃ κ : ℕ, cellInv ER (ringRd m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (ringRd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (ringRd m) κ (kcell ck) : sProp 𝕄))) $$ HI
  icases HK with ⟨%K, #HI⟩
  ihave Htk := (toks_around (F := F)) $$ Htok
  iapply (BI.bigSep_with_persistent (R := records m K) fun c _ => ghost_intro m K c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => show _ ⊢ iprop(posAll c ∗ payToks c) from Entails.of_eq (by unfold posAll; rw [bigSep_CK])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The theorem's side conditions -/

/-- What a device's body starts from, out of what the launch deals it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_of_launch (F := F) c) $$ Hcr
  imodintro
  unfold start G'
  isplitl
  · isplitl [HG]; · iexact HG
    isplitl [Hc]; · iexact Hc
    iexact Hlev
  · iempintro

/-- The invariant before the point: that and the landing buffer. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; rw [scrPts_eq]; iexact Hr

/-- The invariant after the point gives back the own counters and the landing buffer. -/
theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq]
  unfold Φ₁
  iintro ⟨⟨%f, Hr⟩, Hz⟩
  isplitr; · iempintro
  isplitl [Hz]; · iexact Hz
  iexists f; rw [← scrPts_eq]; iexact Hr

/-- The pipeline's own waits, on a staging semaphore, sit below every due. -/
theorem waits (c : Dev nD) : (levAts L lv : sProp 𝕄) ⊢ Pipeline.cellsWaits cfgs (dats m) () 0 c :=
  Pipeline.cellsWaits_intro cfgs (dats m) () 0 c fun w s t =>
    (show (dats m 0 c).owed t = owedFrom c 0 ∨ (dats m 0 c).owed t = owedFrom c 16 from by
      rcases t with ⟨_ | _, ht⟩
      · exact Or.inl rfl
      · exact Or.inr rfl).elim
      (fun h => h ▸ mayWait_stage c _ (by fin_cases w <;> fin_cases s <;> decide) 0)
      (fun h => h ▸ mayWait_stage c _ (by fin_cases w <;> fin_cases s <;> decide) 16)

/-! ### The run -/

set_option maxRecDepth 8000 in
/-- The run, with both arrays named. -/
theorem run_main : θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c => ⟨((h c).1 (1 : Fin 2)).trans (finalA_out m c), ((h c).1 (0 : Fin 2)).trans (finalA_in m c)⟩)

end Cert.Kernel.AR

end
-- ==== Proof.KernelIdealRing.lean ====
/-
  The mesh is 2 × 2 × 4, devices numbered row-major: device 8·x + 4·y + z. The all-reduce runs on the
  four rings of fixed (x, y): the right neighbour of a device is the one at z + 1 (mod 4), the left
  neighbour the one at z − 1 (mod 4). This module names the two neighbour maps, identifies the printed
  device chains with them, and gives the closed form of every row offset the kernel computes:
  chunk (z + k) mod 4 (256 rows each), half s (128 rows each).
-/
import proofs.«900718_g7700000000000719_dist_ar_v7x_xyz2x2x4_z_m1024_n512_f32_1_alg».proof.KernelIdeal
import proofs.«900718_g7700000000000719_dist_ar_v7x_xyz2x2x4_z_m1024_n512_f32_1_alg».proof.Proof.Gen.KernelIdeal

noncomputable section

namespace Cert.KernelIdeal.AR

open Cert.KernelIdeal Cert.KernelIdeal.Gen
open Idealize.ShloMosaic Idealize.SL.Sem

/-- The position on the ring: z = id mod 4. -/
def zc (c : Dev nD) : Fin 4 := ⟨c.val % 4, Nat.mod_lt _ (by decide)⟩

/-- The right neighbour: the same (x, y), z + 1. -/
def nxt (c : Dev nD) : Dev nD := ⟨4 * (c.val / 4) + (c.val % 4 + 1) % 4, by have := c.isLt; revert this; generalize c.val = v; decide +revert⟩
/-- The left neighbour: the same (x, y), z − 1. -/
def prv (c : Dev nD) : Dev nD := ⟨4 * (c.val / 4) + (c.val % 4 + 3) % 4, by have := c.isLt; revert this; generalize c.val = v; decide +revert⟩

theorem prv_nxt (c : Dev nD) : prv (nxt c) = c := by revert c; decide
theorem nxt_prv (c : Dev nD) : nxt (prv c) = c := by revert c; decide
theorem nxt_ne_prv (c : Dev nD) : nxt c ≠ prv c := by revert c; decide
theorem nxt_ne_self (c : Dev nD) : nxt c ≠ c := by revert c; decide
theorem prv_ne_self (c : Dev nD) : prv c ≠ c := by revert c; decide
theorem zc_nxt (c : Dev nD) : zc (nxt c) = zc c + 1 := by revert c; decide
theorem zc_prv (c : Dev nD) : zc (prv c) = zc c + 3 := by revert c; decide

/-- The ring as a permutation of the devices. -/
def ring : Dev nD ≃ Dev nD := ⟨nxt, prv, prv_nxt, nxt_prv⟩

/-! ## The printed device chains -/

theorem k0_dev1_eq : ∀ c : Dev nD, k0_dev1 c = (prv c).val := by decide +kernel
theorem k0_dev2_eq : ∀ c : Dev nD, k0_dev2 c = (nxt c).val := by decide +kernel
theorem k0_dev3_eq : ∀ c : Dev nD, k0_dev3 c = (nxt c).val := by decide +kernel
theorem k0_dev4_eq : ∀ c : Dev nD, k0_dev4 c = (nxt c).val := by decide +kernel
theorem k0_dev5_eq : ∀ c : Dev nD, k0_dev5 c = (nxt c).val := by decide +kernel
theorem k0_dev6_eq : ∀ c : Dev nD, k0_dev6 c = (nxt c).val := by decide +kernel
theorem k0_dev7_eq : ∀ c : Dev nD, k0_dev7 c = (nxt c).val := by decide +kernel
theorem k0_dev8_eq : ∀ c : Dev nD, k0_dev8 c = (nxt c).val := by decide +kernel
theorem k0_dev9_eq : ∀ c : Dev nD, k0_dev9 c = (nxt c).val := by decide +kernel
theorem k0_dev10_eq : ∀ c : Dev nD, k0_dev10 c = (nxt c).val := by decide +kernel
theorem k0_dev11_eq : ∀ c : Dev nD, k0_dev11 c = (nxt c).val := by decide +kernel
theorem k0_dev12_eq : ∀ c : Dev nD, k0_dev12 c = (nxt c).val := by decide +kernel
theorem k0_dev13_eq : ∀ c : Dev nD, k0_dev13 c = (nxt c).val := by decide +kernel
theorem k0_dev14_eq : ∀ c : Dev nD, k0_dev14 c = (nxt c).val := by decide +kernel
theorem k0_dev15_eq : ∀ c : Dev nD, k0_dev15 c = (prv c).val := by decide +kernel
theorem k0_dev16_eq : ∀ c : Dev nD, k0_dev16 c = (nxt c).val := by decide +kernel

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = nxt c := Fin.ext (k0_dev4_eq c)
theorem dev5_eq (c : Dev nD) : (⟨k0_dev5 c, k0_dev5_lt c⟩ : Dev nD) = nxt c := Fin.ext (k0_dev5_eq c)
theorem dev6_eq (c : Dev nD) : (⟨k0_dev6 c, k0_dev6_lt c⟩ : Dev nD) = nxt c := Fin.ext (k0_dev6_eq c)
theorem dev7_eq (c : Dev nD) : (⟨k0_dev7 c, k0_dev7_lt c⟩ : Dev nD) = nxt c := Fin.ext (k0_dev7_eq c)
theorem dev8_eq (c : Dev nD) : (⟨k0_dev8 c, k0_dev8_lt c⟩ : Dev nD) = nxt c := Fin.ext (k0_dev8_eq c)
theorem dev9_eq (c : Dev nD) : (⟨k0_dev9 c, k0_dev9_lt c⟩ : Dev nD) = nxt c := Fin.ext (k0_dev9_eq c)
theorem dev10_eq (c : Dev nD) : (⟨k0_dev10 c, k0_dev10_lt c⟩ : Dev nD) = nxt c := Fin.ext (k0_dev10_eq c)
theorem dev11_eq (c : Dev nD) : (⟨k0_dev11 c, k0_dev11_lt c⟩ : Dev nD) = nxt c := Fin.ext (k0_dev11_eq c)
theorem dev12_eq (c : Dev nD) : (⟨k0_dev12 c, k0_dev12_lt c⟩ : Dev nD) = nxt c := Fin.ext (k0_dev12_eq c)
theorem dev13_eq (c : Dev nD) : (⟨k0_dev13 c, k0_dev13_lt c⟩ : Dev nD) = nxt c := Fin.ext (k0_dev13_eq c)
theorem dev14_eq (c : Dev nD) : (⟨k0_dev14 c, k0_dev14_lt c⟩ : Dev nD) = nxt c := Fin.ext (k0_dev14_eq c)
theorem dev15_eq (c : Dev nD) : (⟨k0_dev15 c, k0_dev15_lt c⟩ : Dev nD) = prv c := Fin.ext (k0_dev15_eq c)
theorem dev16_eq (c : Dev nD) : (⟨k0_dev16 c, k0_dev16_lt c⟩ : Dev nD) = nxt c := Fin.ext (k0_dev16_eq c)

/-! ## Row offsets: chunk j (256 rows), half s (128 rows) -/

/-- The first row of half `s` of chunk `j`. -/
def rowOff (j : Fin 4) (s : Fin 2) : Nat := 256 * j.val + 128 * s.val
/-- The offsets of that block of 128 rows in the [1024, 512] array. -/
def off (j : Fin 4) (s : Fin 2) : Fin 2 → Nat := ![rowOff j s, 0]

theorem off_inb (j : Fin 4) (s : Fin 2) : ∀ a, off j s a + S128x512.size a ≤ S1024x512.size a := by
  revert j s; decide

/-- Step `h` sends chunk z + `srcK h`: z, z − 1, z − 2 while reducing, then z + 1, z, z − 1 while gathering. -/
def srcK : Fin 6 → Fin 4
  | 0 => 0 | 1 => 3 | 2 => 2 | 3 => 1 | 4 => 0 | 5 => 3
/-- What arrives at step `g` goes to chunk z + `dstK g`. -/
def dstK : Fin 6 → Fin 4
  | 0 => 3 | 1 => 2 | 2 => 1 | 3 => 0 | 4 => 3 | 5 => 2

/-- The printed offsets of the block a sending step reads (steps 0 … 2 and 3 … 5 are printed over different constants), -/
theorem off1_lo : ∀ (c : Dev nD) (h : Fin 3) (s : Fin 2),
    k0_off1 c 4#32 (BitVec.ofNat 32 h.val) (BitVec.ofNat 32 (128 * s.val)) = off (zc c + srcK ⟨h.val, by omega⟩) s := by decide +kernel
theorem off1_hi : ∀ (c : Dev nD) (h : Fin 3) (s : Fin 2),
    k0_off1 c 8#32 (BitVec.ofNat 32 (3 + h.val)) (BitVec.ofNat 32 (128 * s.val)) = off (zc c + srcK ⟨3 + h.val, by omega⟩) s := by decide +kernel
/-- of the block an accumulation (arrival 0 … 2) goes to, -/
theorem off2_eq : ∀ (c : Dev nD) (g : Fin 3) (s : Fin 2),
    k0_off2 c (BitVec.ofNat 32 g.val) (BitVec.ofNat 32 (128 * s.val)) = off (zc c + dstK ⟨g.val, by omega⟩) s := by decide +kernel
/-- and of the block a copy (arrival 3 … 5) goes to. -/
theorem off3_eq : ∀ (c : Dev nD) (g : Fin 3) (s : Fin 2),
    k0_off3 c (BitVec.ofNat 32 (3 + g.val)) (BitVec.ofNat 32 (128 * s.val)) = off (zc c + dstK ⟨3 + g.val, by omega⟩) s := by decide +kernel

end Cert.KernelIdeal.AR

end
-- ==== Proof.KernelIdealCells.lean ====
/-
  The buffers and semaphores of the ring all-reduce, named once.
  The result's staging buffer [1024, 512] is read as four chunks of 256 rows, each in two halves of
  128 rows: block (j, s). The landing buffer [6, 2, 128, 512] has one slot per (step, half).
  Per device the protocol runs on 26 semaphores: the entry handshake's (shared with every kernel
  of this collective id), one departure and one arrival semaphore per slot, and the exit handshake's.
-/
import proofs.«900718_g7700000000000719_dist_ar_v7x_xyz2x2x4_z_m1024_n512_f32_1_alg».proof.Proof.KernelIdealRing
import Idealize.ShloMosaic.Lib.Pipeline.Launch
import Idealize.ShloMosaic.Lib.Pipeline.Kit
import Mathlib.Tactic.DeriveFintype

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Buffers -/

/-- The staging buffers of the input and of the result, and the landing buffer. -/
abbrev xM : Memref sig .tc .vmem S1024x512 .f32 := Memref.whole cc0_stg0_0
abbrev oM : Memref sig .tc .vmem S1024x512 .f32 := Memref.whole cc0_stg1_0
abbrev rM : Memref sig .tc .vmem S6x2x128x512 .f32 := Memref.whole cc0_scratch0

/-- Block (j, s) of the result: rows 256 j + 128 s … + 128. -/
abbrev oRect (j : Fin 4) (s : Fin 2) : Rect S1024x512 := Rect.unit (s := S1024x512) (off j s) S128x512.size (off_inb j s)
abbrev oB (j : Fin 4) (s : Fin 2) : Memref sig .tc .vmem S128x512 .f32 := oM.slice (oRect j s) (fun _ => rfl)

/-- Slot (h, s) of the landing buffer. -/
def sOff (h : Fin 6) (s : Fin 2) : Fin 4 → Nat := ![h.val, s.val, 0, 0]
theorem sOff_inb (h : Fin 6) (s : Fin 2) : ∀ a, sOff h s a + S1x1x128x512.size a ≤ S6x2x128x512.size a := by
  revert h s; decide
abbrev sRect (h : Fin 6) (s : Fin 2) : Rect S6x2x128x512 := Rect.unit (s := S6x2x128x512) (sOff h s) S1x1x128x512.size (sOff_inb h s)
abbrev slot4 (h : Fin 6) (s : Fin 2) : Memref sig .tc .vmem S1x1x128x512 .f32 := rM.slice (sRect h s) (fun _ => rfl)
abbrev slot (h : Fin 6) (s : Fin 2) : Memref sig .tc .vmem S128x512 .f32 := (slot4 h s).squeeze S128x512 squeezes_S1x1x128x512_S128x512

/-! ## Semaphores -/

/-- The entry handshake's semaphore (the runtime's, of collective id 0) and the exit handshake's. -/
abbrev barS : Sem sig := (SemArray.scalar (sig.barrier 0 rfl) : Sems sig S_).sem
abbrev exitS : Sem sig := (cc0_scoped0 : Sems sig S_).sem

def qOff (h : Fin 6) (s : Fin 2) : Fin 2 → Nat := ![h.val, s.val]
theorem qOff_inb (h : Fin 6) (s : Fin 2) : ∀ a, qOff h s a + S1x1.size a ≤ S6x2.size a := by revert h s; decide
/-- The departure and the arrival semaphore of slot (h, s). -/
def sendS (h : Fin 6) (s : Fin 2) : DmaSem sig :=
  ((cc0_scratch1.slice (Rect.unit (s := S6x2) (qOff h s) S1x1.size (qOff_inb h s))).squeeze S_ squeezes_S1x1_S_).sem
def recvS (h : Fin 6) (s : Fin 2) : DmaSem sig :=
  ((cc0_scratch2.slice (Rect.unit (s := S6x2) (qOff h s) S1x1.size (qOff_inb h s))).squeeze S_ squeezes_S1x1_S_).sem

theorem sendS_val : ∀ (h : Fin 6) (s : Fin 2), (sendS h s).val = 2 + (2 * h.val + s.val) := by decide
theorem recvS_val : ∀ (h : Fin 6) (s : Fin 2), (recvS h s).val = 14 + (2 * h.val + s.val) := by decide

/-- The kinds of cell a device has. -/
inductive CK : Type
  | bar | send (h : Fin 6) (s : Fin 2) | recv (h : Fin 6) (s : Fin 2) | exit
  deriving DecidableEq, Fintype

/-- Which semaphore each is. -/
def csem : CK → SemLoc sig
  | .bar => .reg barS
  | .send h s => .dma (sendS h s)
  | .recv h s => .dma (recvS h s)
  | .exit => .reg exitS

theorem csem_injective : Function.Injective csem := by decide

abbrev kcell (ck : Dev nD × CK) : GSem nD τ sig := ((ck.1 : Thread nD τ), csem ck.2)
abbrev barCell (c : Dev nD) : GSem nD τ sig := kcell (c, .bar)
abbrev sendCell (c : Dev nD) (h : Fin 6) (s : Fin 2) : GSem nD τ sig := kcell (c, .send h s)
abbrev recvCell (c : Dev nD) (h : Fin 6) (s : Fin 2) : GSem nD τ sig := kcell (c, .recv h s)
abbrev exitCell (c : Dev nD) : GSem nD τ sig := kcell (c, .exit)

theorem kcell_injective : Function.Injective (kcell : Dev nD × CK → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

/-- What one slot's transfer credits. -/
abbrev Ncr : ℕ := (slot 0 0).view.dmaCredit
theorem Ncr_pos : 0 < Ncr := View.dmaCredit_pos _ (by decide)
theorem slot_credit (h : Fin 6) (s : Fin 2) : (slot h s).view.dmaCredit = Ncr := rfl

end Cert.KernelIdeal.AR

end
-- ==== Proof.KernelIdealVals.lean ====
/-
  What the ring moves. Device c starts from its block x_c (1024 rows); the result buffer is first a
  copy of it. In the three reduce steps a device adds what arrives from its left neighbour to one of
  its own blocks and passes the sum on; after them chunk z + 1 holds the sum over the ring. In the
  three gather steps it passes on, unchanged, what it received. `V h c s` is half `s` of what device
  `c` sends at step `h` (and `V 6` what it receives last); `outAt c` the result buffer at the end.
-/
import proofs.«900718_g7700000000000719_dist_ar_v7x_xyz2x2x4_z_m1024_n512_f32_1_alg».proof.Proof.KernelIdealCells
import proofs.«900718_g7700000000000719_dist_ar_v7x_xyz2x2x4_z_m1024_n512_f32_1_alg».proof.Proof.Gen.KernelIdeal.Skeleton
import Idealize.ShloMosaic.Lib.ValueIdx

noncomputable section

namespace Cert.KernelIdeal.AR

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ)

/-- One block of 128 rows. -/
abbrev Blk (F : FTy → Type) : Type := S128x512.Idx → Elt F .f32

/-- Device `c`'s input block as staged, and the result buffer after the first copy. -/
def xin (c : Dev nD) : (cc0_stg0_0 : Ref sig .tc).ty.Contents (Elt F) :=
  (win0_0.blk (0 : Fin 1)).view.read (Elt F) (m ((c : Thread nD τ).loc main_arg0))
def out0 (c : Dev nD) : (cc0_stg1_0 : Ref sig .tc).ty.Contents (Elt F) := k0_pay1 (xin m c)

/-- Half `s` of chunk `j` of that copy. -/
def xblk (c : Dev nD) (j : Fin 4) (s : Fin 2) : Blk F := fun i => out0 m c ((oRect j s).emb i)

/-- A block plus what arrived (the kernel's `+=`). -/
def accV (a : Blk F) (w : Blk F) : Blk F := addf (shapeCast S128x512 a shapeCasts_S128x512_S128x512) w

/-- What device `c` sends at steps 0 … 5, and receives at the last step. -/
def V0 (c : Dev nD) (s : Fin 2) : Blk F := xblk m c (zc c) s
def V1 (c : Dev nD) (s : Fin 2) : Blk F := accV (xblk m c (zc c + 3) s) (V0 m (prv c) s)
def V2 (c : Dev nD) (s : Fin 2) : Blk F := accV (xblk m c (zc c + 2) s) (V1 m (prv c) s)
def V3 (c : Dev nD) (s : Fin 2) : Blk F := accV (xblk m c (zc c + 1) s) (V2 m (prv c) s)
def V4 (c : Dev nD) (s : Fin 2) : Blk F := V3 m (prv c) s
def V5 (c : Dev nD) (s : Fin 2) : Blk F := V4 m (prv c) s
def V6 (c : Dev nD) (s : Fin 2) : Blk F := V5 m (prv c) s

/-- Step `h`'s departure, by number. -/
def sentV (h : Fin 6) (c : Dev nD) (s : Fin 2) : Blk F :=
  match h with
  | 0 => V0 m c s | 1 => V1 m c s | 2 => V2 m c s | 3 => V3 m c s | 4 => V4 m c s | 5 => V5 m c s

/-- What chunk z + k of device `c` holds at the end. -/
def finV (c : Dev nD) (k : Fin 4) (s : Fin 2) : Blk F :=
  match k with
  | 0 => V4 m c s | 1 => V3 m c s | 2 => V6 m c s | 3 => V5 m c s

/-- The result buffer at the end: block (j, s) is `finV c (j − z) s`. -/
def outAt (c : Dev nD) : (cc0_stg1_0 : Ref sig .tc).ty.Contents (Elt F) := fun i =>
  have h0 : (i 0).val < 1024 := (i 0).isLt
  finV m c (⟨(i 0).val / 256, by omega⟩ - zc c) ⟨(i 0).val % 256 / 128, by omega⟩
    (ValueIdx.ix2 (⟨(i 0).val % 128, Nat.mod_lt _ (by decide)⟩ : Fin 128) (i 1))

end Cert.KernelIdeal.AR

end
-- ==== Proof.KernelIdealSched.lean ====
/-
  The protocol, as rounds of duties on each device's 26 semaphores. Every semaphore has ONE round.
  The entry and the exit handshake: two duties of one unit each, paid by the left (duty `false`) and the
  right (duty `true`) neighbour; the right neighbour's entry signal hands over its whole landing buffer.
  A departure semaphore: one duty, paid by the device's own copy, handing back the block that was read.
  An arrival semaphore: one duty, paid by the left neighbour's copy, handing over the slot holding what
  that neighbour sent.
-/
import proofs.«900718_g7700000000000719_dist_ar_v7x_xyz2x2x4_z_m1024_n512_f32_1_alg».proof.Proof.KernelIdealVals
import Idealize.ShloMosaic.Lib.Tactic

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the ring's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The payloads -/

/-- Device `c`'s landing buffer, whole, at contents `f`. -/
def scrPts (c : Dev nD) (f : Buf (Elt F) ((rM : Memref sig .tc .vmem S6x2x128x512 .f32).view.loc (c : Thread nD τ))) : sProp 𝕄 :=
  (rM : Memref sig .tc .vmem S6x2x128x512 .f32).view.loc (c : Thread nD τ) ↦[(rM : Memref sig .tc .vmem S6x2x128x512 .f32).view.set]{fullShare} f

omit [FloatOps F] in
theorem scr_set : (rM : Memref sig .tc .vmem S6x2x128x512 .f32).view.set = Finset.univ := View.set_whole _
omit [FloatOps F] in
theorem scrPts_eq (c : Dev nD) (f : Buf (Elt F) ((c : Thread nD τ).loc cc0_scratch0)) :
    scrPts c f = (((c : Thread nD τ).loc cc0_scratch0) ↦{fullShare} f : sProp 𝕄) := by unfold scrPts; rw [scr_set]

/-- The right neighbour's entry signal hands `c` that neighbour's landing buffer. -/
def barPay (c : Dev nD) : sProp 𝕄 := iprop(∃ f, scrPts (nxt c) f)
/-- The departure of step `h`, half `s`: the block read, back, holding what was sent. -/
def sendPay (c : Dev nD) (h : Fin 6) (s : Fin 2) : sProp 𝕄 :=
  owns (c : Thread nD τ) (oB (zc c + srcK h) s) fullShare (sentV m h c s)
/-- The arrival: the slot, holding what the left neighbour sent. -/
def recvPay (c : Dev nD) (h : Fin 6) (s : Fin 2) : sProp 𝕄 :=
  owns (c : Thread nD τ) (slot h s) fullShare (sentV m h (prv c) s)

/-! ## The schedule -/

/-- The cell kind a semaphore is, if any. -/
def ckOf (sm : SemLoc sig) : Option CK := if h : ∃ k, csem k = sm then some h.choose else none
theorem ckOf_csem (k : CK) : ckOf (csem k) = some k := by
  unfold ckOf
  have h : ∃ k', csem k' = csem k := ⟨k, rfl⟩
  rw [dif_pos h]
  exact congrArg some (csem_injective h.choose_spec)

def dutiesK : CK → Finset Bool
  | .bar => Finset.univ | .exit => Finset.univ | .send _ _ => {false} | .recv _ _ => {false}
def amountK : CK → ℕ
  | .bar => 1 | .exit => 1 | .send _ _ => Ncr | .recv _ _ => Ncr
def payK (c : Dev nD) : CK → Bool → sProp 𝕄
  | .bar, true => barPay c
  | .bar, false => iprop(emp)
  | .exit, _ => iprop(emp)
  | .send h s, _ => sendPay m c h s
  | .recv h s, _ => recvPay m c h s

theorem amountK_pos (k : CK) : 0 < amountK k := by
  cases k <;> first | exact Nat.one_pos | exact Ncr_pos

def ringRd : Rounds.Schedule (GSem nD τ sig) Bool 𝕄 where
  duties g r := if r = 0 ∧ g.1.2 = .tc then (match ckOf g.2 with | some k => dutiesK k | none => ∅) else ∅
  unitless _ := False
  amount g _ _ := match ckOf g.2 with | some k => amountK k | none => 1
  payload g _ d := match ckOf g.2 with | some k => payK m g.1.1 k d | none => iprop(emp)
  amount_pos g _ _ _ := by
    cases h : ckOf g.2 with
    | none => exact Nat.one_pos
    | some k => exact amountK_pos k

instance payK_storable (c : Dev nD) (k : CK) (d : Bool) : BI.Storable (upEmb : UEmb _ 𝕄) (payK m c k d) := by
  cases k <;> cases d <;> unfold payK <;> (try unfold barPay sendPay recvPay scrPts) <;> infer_instance

instance ringRd_payload_storable (g : GSem nD τ sig) (r : ℕ) (d : Bool) :
    BI.Storable (upEmb : UEmb _ 𝕄) ((ringRd (F := F) m).payload g r d) := by
  show BI.Storable upEmb (match ckOf g.2 with | some k => payK m g.1.1 k d | none => iprop(emp))
  cases ckOf g.2 <;> infer_instance

section Tables
variable (c : Dev nD) (k : CK)

theorem duties_at : (ringRd (F := F) m).duties (kcell (c, k)) 0 = dutiesK k := by
  dsimp only [ringRd]; rw [if_pos ⟨rfl, rfl⟩, ckOf_csem]
theorem duties_later (g : GSem nD τ sig) : ∀ r, 1 ≤ r → (ringRd (F := F) m).duties g r = ∅ :=
  fun r hr => by dsimp only [ringRd]; rw [if_neg fun h => by omega]
theorem amount_at (d : Bool) : (ringRd (F := F) m).amount (kcell (c, k)) 0 d = amountK k := by
  dsimp only [ringRd]; rw [ckOf_csem]
theorem payload_at (d : Bool) : (ringRd (F := F) m).payload (kcell (c, k)) 0 d = payK m c k d := by
  dsimp only [ringRd]; rw [ckOf_csem]

/-- The units a cell's round expects: two for a handshake, a slot's credit for a transfer. -/
def expK : CK → ℕ
  | .bar => 2 | .exit => 2 | .send _ _ => Ncr | .recv _ _ => Ncr

theorem expect_at : (ringRd (F := F) m).expect (kcell (c, k)) 0 = expK k := by
  unfold Schedule.expect Schedule.amountOf
  rw [duties_at, Finset.sum_congr rfl fun d _ => amount_at m c k d]
  cases k <;> simp [dutiesK, amountK, expK]

/-- The rest of a handshake's round, no duty taken: the left neighbour's nothing and the right neighbour's payload. -/
theorem rest_two (hk : dutiesK k = Finset.univ) :
    bigSep ((ringRd (F := F) m).duties (kcell (c, k)) 0 \ ∅) (fun d => (ringRd (F := F) m).payload (kcell (c, k)) 0 d)
      = iprop(payK m c k false ∗ payK m c k true) := by
  rw [Finset.sdiff_empty, duties_at, hk, bigSep_univ_eq_bigSepL [false, true] (by decide) (by decide), bigSepL_cons_cons, bigSepL_singleton,
    payload_at, payload_at]
  rfl
/-- The rest of a transfer cell's round: its one payload. -/
theorem rest_one (hk : dutiesK k = {false}) :
    bigSep ((ringRd (F := F) m).duties (kcell (c, k)) 0 \ ∅) (fun d => (ringRd (F := F) m).payload (kcell (c, k)) 0 d)
      = payK m c k false := by
  rw [Finset.sdiff_empty, duties_at, hk, bigSep_singleton, payload_at]

end Tables

end Cert.KernelIdeal.AR

end
-- ==== Proof.KernelIdealInv.lean ====
/-
  What a device owes its neighbours, in the order it pays; the levels that make every wait safe;
  the ghost state a device runs from; and the pipeline's proof data.
  A device pays sixteen dues in program order: the two entry signals (left, right), the twelve transfers
  into the right neighbour's slots, the two exit signals (left, right). Levels: a departure semaphore 0,
  the entry handshake 1, arrival semaphore (h, s) 2 + 2h + s, the exit handshake 14: at every wait the
  semaphore waited on lies strictly below every semaphore still owed.
-/
import proofs.«900718_g7700000000000719_dist_ar_v7x_xyz2x2x4_z_m1024_n512_f32_1_alg».proof.Proof.KernelIdealSched

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The dues, in program order -/

/-- To whom (`true`: the right neighbour, `false`: the left) and on which of its cells. -/
def dueK : List (Bool × CK) :=
  [(false, .bar), (true, .bar),
   (true, .recv 0 0), (true, .recv 0 1), (true, .recv 1 0), (true, .recv 1 1), (true, .recv 2 0), (true, .recv 2 1),
   (true, .recv 3 0), (true, .recv 3 1), (true, .recv 4 0), (true, .recv 4 1), (true, .recv 5 0), (true, .recv 5 1),
   (false, .exit), (true, .exit)]

def dueCell (c : Dev nD) (p : Bool × CK) : GSem nD τ sig := kcell (cond p.1 (nxt c) (prv c), p.2)
def dueT (c : Dev nD) (p : Bool × CK) : CellTallies nD τ sig Unit := tallyAt (dueCell c p) () (amountK p.2)

/-- The sum of a list of dues, the FIRST due outermost (the next payment peels it). -/
def owedTail : List (CellTallies nD τ sig Unit) → CellTallies nD τ sig Unit
  | [] => 0
  | d :: ds => owedTail ds + d

/-- What device `c` still owes after its first `n` payments. -/
def owedFrom (c : Dev nD) (n : ℕ) : CellTallies nD τ sig Unit := owedTail ((dueK.drop n).map (dueT c))
def O₀ (c : Dev nD) : CellTallies nD τ sig Unit := owedFrom c 0

theorem owedFrom_done (c : Dev nD) : owedFrom c 16 = 0 := rfl

/-! ## Levels -/

def lvK : CK → ℕ
  | .bar => 1 | .send _ _ => 0 | .recv h s => 2 + 2 * h.val + s.val | .exit => 14

def L (g : GSem nD τ sig) : Finset Unit := if g.1.2 = .tc then {()} else ∅
def lv (g : GSem nD τ sig) (_ : Unit) : ℕ := match ckOf g.2 with | some k => lvK k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : CK) (u : Unit) : lv (kcell (c, k)) u = lvK k := by unfold lv; rw [ckOf_csem]

theorem owedTail_pos {l : List (CellTallies nD τ sig Unit)} {g : GSem nD τ sig} {u : Unit} (h : 0 < owedTail l g u) :
    ∃ d ∈ l, 0 < d g u := by
  induction l with
  | nil => exact absurd h (Nat.lt_irrefl 0)
  | cons d ds ih =>
    rcases Pipeline.add_pos_cases h with h | h
    · obtain ⟨d', hd', h'⟩ := ih h; exact ⟨d', List.mem_cons_of_mem _ hd', h'⟩
    · exact ⟨d, List.mem_cons_self, h⟩

/-- Where what is still owed after `n` payments is positive, it is on the cell of one of the dues still open. -/
theorem owedFrom_pos {c : Dev nD} {n : ℕ} {g : GSem nD τ sig} {u : Unit} (hpos : 0 < owedFrom c n g u) :
    ∃ p ∈ dueK.drop n, g = dueCell c p := by
  obtain ⟨d, hd, hdpos⟩ := owedTail_pos hpos
  obtain ⟨p, hp, rfl⟩ := List.mem_map.mp hd
  exact ⟨p, hp, (Pipeline.tallyAt_pos hdpos).1⟩

/-- Every due is on a cell of positive level. -/
theorem dueK_lvK_pos : ∀ p ∈ dueK, 0 < lvK p.2 := by decide

/-- A due's cell is a cell of a device, so its one index is listed, -/
theorem mem_L_dueCell (c : Dev nD) (p : Bool × CK) (u : Unit) : u ∈ L (dueCell c p) := by
  unfold dueCell
  rw [L_tc]
  exact Finset.mem_singleton.mpr rfl
/-- and its level is that of the due's kind. -/
theorem lv_dueCell (c : Dev nD) (p : Bool × CK) (u : Unit) : lv (dueCell c p) u = lvK p.2 := lv_kcell _ _ _

/-- A wait on the device's own cell of kind `k` after `n` payments: allowed when every due still open is on a cell of a higher level. -/
theorem mayWait_from (c : Dev nD) (k : CK) (n : ℕ) (h : ∀ p ∈ dueK.drop n, lvK k < lvK p.2) :
    (levAts L lv : sProp 𝕄) ⊢ MayWait (c : Thread nD τ) (csem k) () (owedFrom c n) := by
  refine Pipeline.mayWait_of_levAts (by rw [L_tc]; exact Finset.mem_singleton_self ()) ?_
  intro g u hpos
  obtain ⟨p, hp, rfl⟩ := owedFrom_pos hpos
  refine ⟨mem_L_dueCell c p u, ?_⟩
  have h1 : lv ((c : Thread nD τ), csem k) () = lvK k := lv_kcell c k ()
  rw [h1, lv_dueCell]
  exact h p hp

/-- The pipeline's own waits (on a staging semaphore, which is none of the ring's cells): level 0, below every due. -/
theorem mayWait_stage (c : Dev nD) (q : DmaSem sig) (hq : ckOf (.dma q) = none) (n : ℕ) :
    (levAts L lv : sProp 𝕄) ⊢ MayWait (c : Thread nD τ) (.dma q) () (owedFrom c n) := by
  refine Pipeline.mayWait_of_levAts (by rw [L_tc]; exact Finset.mem_singleton_self ()) ?_
  intro g u hpos
  obtain ⟨p, hp, rfl⟩ := owedFrom_pos hpos
  refine ⟨mem_L_dueCell c p u, ?_⟩
  have h1 : lv ((c : Thread nD τ), SemLoc.dma q) () = 0 := by
    show (match ckOf (SemLoc.dma q) with | some k => lvK k | none => 0) = 0
    rw [hq]
  rw [h1, lv_dueCell]
  exact dueK_lvK_pos p (List.mem_of_mem_drop hp)

/-! ## The kernel's own (scoped) semaphores -/

/-- The 25 semaphores scoped to the kernel: every cell but the entry handshake's. -/
inductive OK : Type
  | send (h : Fin 6) (s : Fin 2) | recv (h : Fin 6) (s : Fin 2) | exit
  deriving DecidableEq, Fintype
def OK.ck : OK → CK
  | .send h s => .send h s | .recv h s => .recv h s | .exit => .exit
def osem (k : OK) : SemLoc sig := csem k.ck

/-! ## The ghost state -/

/-- Every cell's invariant, under the names `K` the launch allocated them at, and that round 0 of every cell is reached. -/
def records (K : Dev nD × CK → ℕ) : sProp 𝕄 :=
  iprop((bigSep Finset.univ fun ck : Dev nD × CK => cellInv ER (ringRd m) (K ck) (kcell ck))
    ∗ bigSep Finset.univ fun ck : Dev nD × CK => reached ER (kcell ck) 0)

instance records_persistent (K : Dev nD × CK → ℕ) : BI.Persistent (records m K) := by unfold records; infer_instance

theorem inv_at' (K : Dev nD × CK → ℕ) (ck : Dev nD × CK) :
    (bigSep Finset.univ fun ck : Dev nD × CK => (cellInv ER (ringRd m) (K ck) (kcell ck) : sProp 𝕄)) ⊢ cellInv ER (ringRd m) (K ck) (kcell ck) :=
  bigSep_elim (Finset.mem_univ ck)
theorem reached_at' (ck : Dev nD × CK) :
    (bigSep Finset.univ fun ck : Dev nD × CK => (reached ER (kcell ck) 0 : sProp 𝕄)) ⊢ reached ER (kcell ck) 0 :=
  bigSep_elim (Finset.mem_univ ck)
theorem inv_at (K : Dev nD × CK → ℕ) (ck : Dev nD × CK) : records m K ⊢ cellInv ER (ringRd m) (K ck) (kcell ck) := by
  unfold records; iintro ⟨HI, -⟩; iapply (inv_at' m K ck); iexact HI
theorem reached_at (K : Dev nD × CK → ℕ) (ck : Dev nD × CK) : records m K ⊢ (reached ER (kcell ck) 0 : sProp 𝕄) := by
  unfold records; iintro ⟨-, HR⟩; iapply (reached_at' (F := F) ck); iexact HR

/-- The device's position on each of its 26 cells: nothing consumed. -/
def posAll (c : Dev nD) : sProp 𝕄 :=
  iprop(atPos ER (barCell c) 0 ∅ 0
    ∗ (bigSep Finset.univ fun hs : Fin 6 × Fin 2 => atPos ER (sendCell c hs.1 hs.2) 0 ∅ 0)
    ∗ (bigSep Finset.univ fun hs : Fin 6 × Fin 2 => atPos ER (recvCell c hs.1 hs.2) 0 ∅ 0)
    ∗ atPos ER (exitCell c) 0 ∅ 0)

/-- The tokens of the duties the device pays: its neighbours' handshake duties, the right neighbour's arrivals, its own departures. -/
def payToks (c : Dev nD) : sProp 𝕄 :=
  iprop(dutyTok ER (barCell (prv c)) 0 true ∗ dutyTok ER (barCell (nxt c)) 0 false
    ∗ (bigSep Finset.univ fun hs : Fin 6 × Fin 2 => dutyTok ER (recvCell (nxt c) hs.1 hs.2) 0 false)
    ∗ (bigSep Finset.univ fun hs : Fin 6 × Fin 2 => dutyTok ER (sendCell c hs.1 hs.2) 0 false)
    ∗ dutyTok ER (exitCell (prv c)) 0 true ∗ dutyTok ER (exitCell (nxt c)) 0 false)

def ghost (K : Dev nD × CK → ℕ) (c : Dev nD) : sProp 𝕄 := iprop(records m K ∗ posAll c ∗ payToks c)

/-- The credit the launch deals the device for what its neighbours owe it. -/
def creds (c : Dev nD) : sProp 𝕄 :=
  iprop(cred (tallyAt (barCell c) () 2)
    ∗ (bigSep Finset.univ fun hs : Fin 6 × Fin 2 => cred (tallyAt (recvCell c hs.1 hs.2) () Ncr))
    ∗ cred (tallyAt (exitCell c) () 2))

def start (c : Dev nD) : sProp 𝕄 := iprop((∃ K, ghost m K c) ∗ creds c ∗ levAts L lv)

def Φ₀ (c : Dev nD) : sProp 𝕄 := iprop(start m c ∗ ∃ f, scrPts c f)
/-- After the body: the landing buffer (at whatever it holds) and the 25 own cells closed, their counters at zero. -/
def Φ₁ (c : Dev nD) : sProp 𝕄 := iprop((∃ f, scrPts c f) ∗ Pipeline.ownSems0 osem c)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := m ((cfg0.win w).arr.view.loc (c : Thread nD τ))
  after w _ := match w with
    | ⟨0, _⟩ => xin m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

/-! ## The body lemma's two ends -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × CK → ℕ) (c : Dev nD) : sProp 𝕄 :=
  iprop((ghost m K c ∗ creds c ∗ levAts L lv ∗ ∃ f, scrPts c f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xin m c) ∗ stg c cc0_stg1_0 (outAt m c))

end Cert.KernelIdeal.AR

end
-- ==== Proof.KernelIdealTiles.lean ====
/-
  The result's staging buffer [1024, 512] is the disjoint union of its eight blocks of 128 rows
  (chunk j, half s: rows 256 j + 128 s … + 128), and the landing buffer [6, 2, 128, 512] the disjoint
  union of its twelve slots (step h, half s). Read on block (j, s), the result buffer at the end is
  what chunk j holds there: the value `finV c (j − z) s`.
-/
import proofs.«900718_g7700000000000719_dist_ar_v7x_xyz2x2x4_z_m1024_n512_f32_1_alg».proof.Proof.KernelIdealVals

noncomputable section

namespace Cert.KernelIdeal.AR

open Cert.KernelIdeal Cert.KernelIdeal.Gen
open Idealize.ShloMosaic Idealize.ShloMosaic.TcCoe
open Idealize.SL.Sem

variable {F : FTy → Type} [FloatOps F]

/-! ## The eight blocks of the result buffer -/

/-- Two different blocks have disjoint row ranges: their first rows are different multiples of 128. -/
theorem oRect_disjoint : ∀ t t' : Fin 4 × Fin 2, t ≠ t' →
    Disjoint (oRect t.1 t.2).set (oRect t'.1 t'.2).set := by
  rintro ⟨j, s⟩ ⟨j', s'⟩ hne
  have hjs : j.val ≠ j'.val ∨ s.val ≠ s'.val := by
    by_cases hj : j.val = j'.val
    · exact Or.inr fun e => hne (Prod.ext (Fin.ext hj) (Fin.ext e))
    · exact Or.inl hj
  refine Rect.unit_disjoint (0 : Fin 2) ?_
  show rowOff j s + 128 ≤ rowOff j' s' ∨ rowOff j' s' + 128 ≤ rowOff j s
  unfold rowOff
  omega

/-- Row r lies in block (r / 256, r % 256 / 128). -/
theorem oRect_cover :
    (Finset.univ : Finset (Fin 4 × Fin 2)).biUnion (fun t => (oRect t.1 t.2).set) = Finset.univ := by
  ext i
  simp only [Finset.mem_biUnion, Finset.mem_univ, true_and, iff_true]
  have h0 : (i 0).val < 1024 := (i 0).isLt
  have h1 : (i 1).val < 512 := (i 1).isLt
  refine ⟨(⟨(i 0).val / 256, by omega⟩, ⟨(i 0).val % 256 / 128, by omega⟩), ?_⟩
  rw [Rect.mem_set_unit]
  intro a
  match a with
  | ⟨0, _⟩ =>
    show rowOff ⟨(i 0).val / 256, _⟩ ⟨(i 0).val % 256 / 128, _⟩ ≤ (i 0).val
      ∧ (i 0).val < rowOff ⟨(i 0).val / 256, _⟩ ⟨(i 0).val % 256 / 128, _⟩ + 128
    unfold rowOff
    simp only []
    omega
  | ⟨1, _⟩ =>
    show 0 ≤ (i 1).val ∧ (i 1).val < 0 + 512
    omega

/-! ## The twelve slots of the landing buffer -/

/-- Two different slots differ in the step or in the half, and each is one coordinate thick there. -/
theorem sRect_disjoint : ∀ t t' : Fin 6 × Fin 2, t ≠ t' →
    Disjoint (sRect t.1 t.2).set (sRect t'.1 t'.2).set := by
  rintro ⟨h, s⟩ ⟨h', s'⟩ hne
  by_cases hh : h.val = h'.val
  · have hs : s.val ≠ s'.val := fun e => hne (Prod.ext (Fin.ext hh) (Fin.ext e))
    refine Rect.unit_disjoint (1 : Fin 4) ?_
    show s.val + 1 ≤ s'.val ∨ s'.val + 1 ≤ s.val
    omega
  · refine Rect.unit_disjoint (0 : Fin 4) ?_
    show h.val + 1 ≤ h'.val ∨ h'.val + 1 ≤ h.val
    omega

/-- An element of the landing buffer lies in the slot named by its first two coordinates. -/
theorem sRect_cover :
    (Finset.univ : Finset (Fin 6 × Fin 2)).biUnion (fun t => (sRect t.1 t.2).set) = Finset.univ := by
  ext i
  simp only [Finset.mem_biUnion, Finset.mem_univ, true_and, iff_true]
  have h0 : (i 0).val < 6 := (i 0).isLt
  have h1 : (i 1).val < 2 := (i 1).isLt
  have h2 : (i 2).val < 128 := (i 2).isLt
  have h3 : (i 3).val < 512 := (i 3).isLt
  refine ⟨(⟨(i 0).val, h0⟩, ⟨(i 1).val, h1⟩), ?_⟩
  rw [Rect.mem_set_unit]
  intro a
  match a with
  | ⟨0, _⟩ =>
    show (i 0).val ≤ (i 0).val ∧ (i 0).val < (i 0).val + 1
    omega
  | ⟨1, _⟩ =>
    show (i 1).val ≤ (i 1).val ∧ (i 1).val < (i 1).val + 1
    omega
  | ⟨2, _⟩ =>
    show 0 ≤ (i 2).val ∧ (i 2).val < 0 + 128
    omega
  | ⟨3, _⟩ =>
    show 0 ≤ (i 3).val ∧ (i 3).val < 0 + 512
    omega

/-! ## The result buffer read on a block -/

/-- The final value depends only on the chunk, the half and the element. -/
theorem finV_congr (m : (ℓ : Loc nD τ sig) → Buf (Elt F) ℓ) (c : Dev nD) {k k' : Fin 4} {s s' : Fin 2}
    {x x' : S128x512.Idx} (hk : k = k') (hs : s = s') (hx : x = x') :
    finV m c k s x = finV m c k' s' x' := by
  subst hk hs hx
  rfl

/-- Row 256 j + 128 s + r with r < 128 has chunk j, half s and row r within the block. -/
theorem outAt_block (m : (ℓ : Loc nD τ sig) → Buf (Elt F) ℓ) (c : Dev nD) (j : Fin 4) (s : Fin 2) :
    (fun i => outAt m c ((oRect j s).emb i)) = finV m c (j - zc c) s := by
  funext i
  have hi0 : (i 0).val < 128 := (i 0).isLt
  unfold outAt
  refine finV_congr m c (congrArg (· - zc c) (Fin.ext ?_)) (Fin.ext ?_) ?_
  · show (rowOff j s + 1 * (i 0).val) / 256 = j.val
    unfold rowOff
    omega
  · show (rowOff j s + 1 * (i 0).val) % 256 / 128 = s.val
    unfold rowOff
    omega
  · funext a
    match a with
    | ⟨0, _⟩ =>
      refine Fin.ext ?_
      show (rowOff j s + 1 * (i 0).val) % 128 = (i 0).val
      unfold rowOff
      omega
    | ⟨1, _⟩ =>
      refine Fin.ext ?_
      show 0 + 1 * (i 1).val = (i 1).val
      omega

end Cert.KernelIdeal.AR

end
-- ==== Proof.KernelIdealSplit.lean ====
/-
  The result buffer [1024, 512] is held as its eight blocks of 128 rows, a landing buffer [6, 2, 128, 512] as
  its twelve slots: the vocabulary for that, the cutting and the joining, and the big conjunctions over blocks,
  slots and the kernel's own cells written out.
-/
import proofs.«900718_g7700000000000719_dist_ar_v7x_xyz2x2x4_z_m1024_n512_f32_1_alg».proof.Proof.KernelIdealInv
import proofs.«900718_g7700000000000719_dist_ar_v7x_xyz2x2x4_z_m1024_n512_f32_1_alg».proof.Proof.KernelIdealTiles

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-! ## Vocabulary -/

/-- Device `c` holds block (j, s) of its result buffer, reading `X` there. -/
abbrev blk (c : Dev nD) (j : Fin 4) (s : Fin 2) (X : Blk F) : sProp 𝕄 := owns (c : Thread nD τ) (oB j s) fullShare X
/-- Device `c`'s slot (h, s) holds `X`; -/
abbrev slotHas (c : Dev nD) (h : Fin 6) (s : Fin 2) (X : Blk F) : sProp 𝕄 := owns (c : Thread nD τ) (slot h s) fullShare X
/-- the slot at whatever it holds. -/
def slotAny (c : Dev nD) (h : Fin 6) (s : Fin 2) : sProp 𝕄 :=
  iprop(∃ fd, (slot h s).view.loc (c : Thread nD τ) ↦[(slot h s).view.set]{fullShare} fd)

theorem slotAny_of_has (c : Dev nD) (h : Fin 6) (s : Fin 2) (X : Blk F) : slotHas c h s X ⊢ (slotAny c h s : sProp 𝕄) := by
  unfold slotAny
  show owns (c : Thread nD τ) (slot h s) fullShare X ⊢ _
  unfold owns
  iintro ⟨%f, -, H⟩
  iexists f
  iexact H

/-- A whole staging buffer held at `X`, in the two spellings. -/
theorem stg_out_iff (c : Dev nD) (X : (cc0_stg1_0 : Ref sig .tc).ty.Contents (Elt F)) :
    (stg c cc0_stg1_0 X : sProp 𝕄) = owns (c : Thread nD τ) oM fullShare X := by
  exact (owns_whole_eq (c : Thread nD τ) cc0_stg1_0 fullShare X).symm
theorem stg_in_iff (c : Dev nD) (X : (cc0_stg0_0 : Ref sig .tc).ty.Contents (Elt F)) :
    (stg c cc0_stg0_0 X : sProp 𝕄) = owns (c : Thread nD τ) xM fullShare X := by
  exact (owns_whole_eq (c : Thread nD τ) cc0_stg0_0 fullShare X).symm

/-! ## Eight blocks, twelve slots, twenty-five own cells: the big conjunctions written out -/

/-- The eight blocks, listed from chunk `z` on. -/
theorem bigSep_blocks (z : Fin 4) (Φ : Fin 4 → Fin 2 → sProp 𝕄) :
    bigSep Finset.univ (fun t : Fin 4 × Fin 2 => Φ t.1 t.2)
      = iprop(Φ (z + 0) 0 ∗ Φ (z + 0) 1 ∗ Φ (z + 1) 0 ∗ Φ (z + 1) 1 ∗ Φ (z + 2) 0 ∗ Φ (z + 2) 1 ∗ Φ (z + 3) 0 ∗ Φ (z + 3) 1) := by
  rw [bigSep_univ_eq_bigSepL
    [(z + 0, 0), (z + 0, 1), (z + 1, 0), (z + 1, 1), (z + 2, 0), (z + 2, 1), (z + 3, 0), (z + 3, 1)]
    (by revert z; decide) (by revert z; decide)]
  rfl
/-- The twelve (step, half) pairs, in order. -/
theorem bigSep_slots (Φ : Fin 6 → Fin 2 → sProp 𝕄) :
    bigSep Finset.univ (fun t : Fin 6 × Fin 2 => Φ t.1 t.2)
      = iprop(Φ 0 0 ∗ Φ 0 1 ∗ Φ 1 0 ∗ Φ 1 1 ∗ Φ 2 0 ∗ Φ 2 1 ∗ Φ 3 0 ∗ Φ 3 1 ∗ Φ 4 0 ∗ Φ 4 1 ∗ Φ 5 0 ∗ Φ 5 1) := by
  rw [bigSep_univ_eq_bigSepL
    [(0, 0), (0, 1), (1, 0), (1, 1), (2, 0), (2, 1), (3, 0), (3, 1), (4, 0), (4, 1), (5, 0), (5, 1)]
    (by decide) (by decide)]
  rfl
/-- The own cells as a sum: the twelve departures, the twelve arrivals, the exit handshake. -/
def okSum : (Fin 6 × Fin 2) ⊕ ((Fin 6 × Fin 2) ⊕ Unit) ≃ OK where
  toFun
    | .inl t => .send t.1 t.2
    | .inr (.inl t) => .recv t.1 t.2
    | .inr (.inr _) => .exit
  invFun
    | .send h s => .inl (h, s)
    | .recv h s => .inr (.inl (h, s))
    | .exit => .inr (.inr ())
  left_inv := by rintro (t | t | t) <;> rfl
  right_inv := by rintro (_ | _ | _) <;> rfl

/-- The kernel's own cells: the departures, the arrivals, the exit handshake. -/
theorem bigSep_own (Φ : OK → sProp 𝕄) :
    bigSep Finset.univ Φ
      = iprop((bigSep Finset.univ fun t : Fin 6 × Fin 2 => Φ (.send t.1 t.2)) ∗ (bigSep Finset.univ fun t : Fin 6 × Fin 2 => Φ (.recv t.1 t.2)) ∗ Φ .exit) := by
  rw [bigSep_univ_equiv okSum Φ, bigSep_univ_sum, bigSep_univ_sum, bigSep_univ_of_subsingleton ()]
  rfl

/-! ## Cutting and joining -/

/-- The result buffer held at `X` is its eight blocks, each at its part of `X`; and back. -/
theorem out_split (c : Dev nD) (X : (cc0_stg1_0 : Ref sig .tc).ty.Contents (Elt F)) :
    (owns (c : Thread nD τ) oM fullShare X : sProp 𝕄)
      ⊢ bigSep Finset.univ fun t : Fin 4 × Fin 2 => blk c t.1 t.2 (fun i => X ((oRect t.1 t.2).emb i)) := by
  exact owns_rects (c : Thread nD τ) oM fullShare (fun t : Fin 4 × Fin 2 => oRect t.1 t.2) (fun _ _ => rfl)
    oRect_disjoint oRect_cover X
theorem out_join (c : Dev nD) (X : (cc0_stg1_0 : Ref sig .tc).ty.Contents (Elt F)) :
    (bigSep Finset.univ fun t : Fin 4 × Fin 2 => blk c t.1 t.2 (fun i => X ((oRect t.1 t.2).emb i)))
      ⊢ (owns (c : Thread nD τ) oM fullShare X : sProp 𝕄) := by
  exact owns_of_rects (c : Thread nD τ) oM fullShare (fun t : Fin 4 × Fin 2 => oRect t.1 t.2) (fun _ _ => rfl)
    oRect_disjoint oRect_cover X
/-- A slot's elements are those of its rectangle of the landing buffer. -/
theorem slot_set (h : Fin 6) (s : Fin 2) :
    (slot h s).view.set = ((rM : Memref sig .tc .vmem S6x2x128x512 .f32).view.slice (sRect h s)).set :=
  Memref.set_view_squeeze (slot4 h s) squeezes_S1x1x128x512_S128x512

/-- The four-dimensional slot held at any contents is the slot held at whatever it holds. -/
theorem slotAny_of_slot4 (c : Dev nD) (h : Fin 6) (s : Fin 2) (X : S1x1x128x512.Idx → Elt F .f32) :
    (owns (c : Thread nD τ) (slot4 h s) fullShare X : sProp 𝕄) ⊢ slotAny c h s := by
  unfold slotAny owns
  iintro ⟨%f, -, H⟩
  iexists f
  rw [slot_set]
  iexact H

/-- Different slots have no element in common, -/
theorem slot_set_disjoint (t t' : Fin 6 × Fin 2) (htt : t ≠ t') :
    Disjoint (slot t.1 t.2).view.set (slot t'.1 t'.2).view.set := by
  rw [slot_set, slot_set, View.set_slice, View.set_slice]
  exact (Finset.disjoint_map _).mpr (sRect_disjoint t t' htt)

/-- and the twelve slots make up the landing buffer. -/
theorem slot_set_cover :
    (Finset.univ : Finset (Fin 6 × Fin 2)).biUnion (fun t => (slot t.1 t.2).view.set)
      = (rM : Memref sig .tc .vmem S6x2x128x512 .f32).view.set := by
  ext i
  constructor
  · intro hi
    obtain ⟨t, -, hi⟩ := Finset.mem_biUnion.mp hi
    rw [slot_set] at hi
    exact View.set_slice_subset _ _ hi
  · intro hi
    rw [View.set, Finset.mem_map] at hi
    obtain ⟨x, -, rfl⟩ := hi
    obtain ⟨t, -, hx⟩ := Finset.mem_biUnion.mp (sRect_cover.symm ▸ Finset.mem_univ x)
    exact Finset.mem_biUnion.mpr ⟨t, Finset.mem_univ _, by rw [slot_set, View.set_slice]; exact Finset.mem_map_of_mem _ hx⟩

/-- The landing buffer at contents `f` is its twelve slots, each at whatever it holds. -/
theorem scr_split_at (c : Dev nD) (f : Buf (Elt F) ((rM : Memref sig .tc .vmem S6x2x128x512 .f32).view.loc (c : Thread nD τ))) :
    (scrPts c f : sProp 𝕄) ⊢ bigSep Finset.univ fun t : Fin 6 × Fin 2 => slotAny c t.1 t.2 := by
  unfold scrPts
  rw [pointsTo_rects (c : Thread nD τ) rM fullShare (fun t : Fin 6 × Fin 2 => sRect t.1 t.2) (fun _ _ => rfl)
    sRect_disjoint sRect_cover f]
  exact bigSep_mono fun t _ => slotAny_of_slot4 c t.1 t.2 _

/-- A landing buffer at whatever it holds is its twelve slots, each at whatever it holds; and back. -/
theorem scr_split (c : Dev nD) : (iprop(∃ f, scrPts c f) : sProp 𝕄) ⊢ bigSep Finset.univ fun t : Fin 6 × Fin 2 => slotAny c t.1 t.2 := by
  iintro ⟨%f, H⟩
  iapply (scr_split_at c f)
  iexact H
theorem scr_join (c : Dev nD) : (bigSep Finset.univ fun t : Fin 6 × Fin 2 => (slotAny c t.1 t.2 : sProp 𝕄)) ⊢ iprop(∃ f, scrPts c f) := by
  refine (bigSep_exists_pi (Y := fun _ => Buf (Elt F) ((rM : Memref sig .tc .vmem S6x2x128x512 .f32).view.loc (c : Thread nD τ)))
    Finset.univ (fun (t : Fin 6 × Fin 2) fd =>
      ((rM : Memref sig .tc .vmem S6x2x128x512 .f32).view.loc (c : Thread nD τ) ↦[(slot t.1 t.2).view.set]{fullShare} fd : sProp 𝕄))).trans ?_
  iintro ⟨%fs, H⟩
  ihave H' := (pointsTo_biUnion_join Finset.univ (fun t : Fin 6 × Fin 2 => (slot t.1 t.2).view.set) fs
    (fun _ => Classical.arbitrary _) (fun t _ t' _ htt => slot_set_disjoint t t' htt)) $$ H
  icases H' with ⟨%g, -, H⟩
  iexists g
  unfold scrPts
  rw [← slot_set_cover]
  iexact H

end Cert.KernelIdeal.AR

end
-- ==== Proof.KernelIdealSteps.lean ====
/-
  The protocol's steps, each once, at a symbolic device, step and half: the four handshake signals and the
  two handshake waits; a transfer of a block of the result into the right neighbour's slot; the wait for an
  arrival (the slot comes back holding what the left neighbour sent); the wait for a departure (the block
  that was read comes back); and closing the kernel's own cells.
-/
import proofs.«900718_g7700000000000719_dist_ar_v7x_xyz2x2x4_z_m1024_n512_f32_1_alg».proof.Proof.KernelIdealSplit

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-- Every due is on a cell of positive level: a departure semaphore (level 0) lies below all of them. -/
theorem lvK_due_pos : ∀ p ∈ dueK, 0 < lvK p.2 := by decide

/-- One own cell, consumed to the end of its one round, closes: its counter is the device's again, at zero. -/
theorem close_one (c : Dev nD) (k : OK) :
    iprop(records m K ∗ atPos ER (kcell (c, k.ck)) 1 ∅ 0) ⊢ (|={Set.univ}=> semVal ((c : Thread nD τ), osem k) 0 : sProp 𝕄) := by
  iintro ⟨#Hrec, Hat⟩
  iapply (Rounds.cell_close ER (ringRd m) (Set.mem_univ (K (c, k.ck))) (fun h => h) (R := 1) (duties_later m (kcell (c, k.ck))))
  isplitr; · iapply (inv_at m K (c, k.ck)); iexact Hrec
  iexact Hat

/-! ## What is owed, step by step -/

theorem owedFrom_send (c : Dev nD) (h : Fin 6) (s : Fin 2) :
    owedFrom c (2 + 2 * h.val + s.val) = owedFrom c (2 + 2 * h.val + s.val + 1) + tallyAt (recvCell (nxt c) h s) () Ncr := by
  fin_cases h <;> fin_cases s <;> rfl

/-! ## The steps -/

section Steps
variable {α : Type} {Q : α → sProp (MT nD τ sig Unit (Elt F) ℕ UU ℕ)} {kont : PUnit → Prog (TpuEff nD τ sig (Elt F) Λ₀ .tc) α}

/-- The entry signal to the left neighbour: it hands over this device's whole landing buffer. -/
theorem wp_sig_bar_prv (c n : Dev nD) (hn : n = prv c) (k' : ℕ) (hk' : 1 = k') (W : Waits sig Unit) :
    iprop(records m K ∗ owes (c : Thread nD τ) (owedFrom c 0) W ∗ dutyTok ER (barCell (prv c)) 0 true ∗ (∃ f, scrPts c f))
      ⊢ iprop((owes (c : Thread nD τ) (owedFrom c 1) W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (Dev.tc n : Thread nD τ) barS k') kont) Q) := by
  subst hn hk'
  iintro ⟨#Hrec, HO, Htok, Hscr⟩ Hk
  iapply (Rounds.wp_signal 𝒱₀ ER (ringRd m) (c : Thread nD τ) none (dst := (prv c : Thread nD τ)) (sem := barS) (κ := K (prv c, .bar))
    (r := 0) (d := true) (k' := 1) (by rw [show (ringRd (F := F) m).duties ((prv c : Thread nD τ), .reg barS) 0 = dutiesK .bar from duties_at m (prv c) .bar]; exact Finset.mem_univ _)
    (amount_at m (prv c) .bar true) () (O₀ := owedFrom c 0) (owedFrom c 1) rfl (W := W)) $$ [HO Htok Hscr]
  · isplitr; · iapply (inv_at m K (prv c, .bar)); iexact Hrec
    isplitl [HO]; · iexact HO
    isplitl [Htok]; · iexact Htok
    isplitl [Hscr]
    · rw [show (ringRd (F := F) m).payload ((prv c : Thread nD τ), .reg barS) 0 true = payK m (prv c) .bar true from payload_at m (prv c) .bar true]
      unfold payK barPay; rw [nxt_prv]; iexact Hscr
    · iapply (reached_at m K (prv c, .bar)); iexact Hrec
  iexact Hk
/-- The entry signal to the right neighbour: nothing to hand over. -/
theorem wp_sig_bar_nxt (c n : Dev nD) (hn : n = nxt c) (k' : ℕ) (hk' : 1 = k') (W : Waits sig Unit) :
    iprop(records m K ∗ owes (c : Thread nD τ) (owedFrom c 1) W ∗ dutyTok ER (barCell (nxt c)) 0 false)
      ⊢ iprop((owes (c : Thread nD τ) (owedFrom c 2) W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (Dev.tc n : Thread nD τ) barS k') kont) Q) := by
  subst hn hk'
  iintro ⟨#Hrec, HO, Htok⟩ Hk
  iapply (Rounds.wp_signal 𝒱₀ ER (ringRd m) (c : Thread nD τ) none (dst := (nxt c : Thread nD τ)) (sem := barS) (κ := K (nxt c, .bar))
    (r := 0) (d := false) (k' := 1) (by rw [show (ringRd (F := F) m).duties ((nxt c : Thread nD τ), .reg barS) 0 = dutiesK .bar from duties_at m (nxt c) .bar]; exact Finset.mem_univ _)
    (amount_at m (nxt c) .bar false) () (O₀ := owedFrom c 1) (owedFrom c 2) rfl (W := W)) $$ [HO Htok]
  · isplitr; · iapply (inv_at m K (nxt c, .bar)); iexact Hrec
    isplitl [HO]; · iexact HO
    isplitl [Htok]; · iexact Htok
    isplitr
    · rw [show (ringRd (F := F) m).payload ((nxt c : Thread nD τ), .reg barS) 0 false = payK m (nxt c) .bar false from payload_at m (nxt c) .bar false]
      unfold payK; iempintro
    · iapply (reached_at m K (nxt c, .bar)); iexact Hrec
  iexact Hk
/-- The two exit signals. -/
theorem wp_sig_exit_prv (c n : Dev nD) (hn : n = prv c) (k' : ℕ) (hk' : 1 = k') (W : Waits sig Unit) :
    iprop(records m K ∗ owes (c : Thread nD τ) (owedFrom c 14) W ∗ dutyTok ER (exitCell (prv c)) 0 true)
      ⊢ iprop((owes (c : Thread nD τ) (owedFrom c 15) W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (Dev.tc n : Thread nD τ) exitS k') kont) Q) := by
  subst hn hk'
  iintro ⟨#Hrec, HO, Htok⟩ Hk
  iapply (Rounds.wp_signal 𝒱₀ ER (ringRd m) (c : Thread nD τ) none (dst := (prv c : Thread nD τ)) (sem := exitS) (κ := K (prv c, .exit))
    (r := 0) (d := true) (k' := 1) (by rw [show (ringRd (F := F) m).duties ((prv c : Thread nD τ), .reg exitS) 0 = dutiesK .exit from duties_at m (prv c) .exit]; exact Finset.mem_univ _)
    (amount_at m (prv c) .exit true) () (O₀ := owedFrom c 14) (owedFrom c 15) rfl (W := W)) $$ [HO Htok]
  · isplitr; · iapply (inv_at m K (prv c, .exit)); iexact Hrec
    isplitl [HO]; · iexact HO
    isplitl [Htok]; · iexact Htok
    isplitr
    · rw [show (ringRd (F := F) m).payload ((prv c : Thread nD τ), .reg exitS) 0 true = payK m (prv c) .exit true from payload_at m (prv c) .exit true]
      unfold payK; iempintro
    · iapply (reached_at m K (prv c, .exit)); iexact Hrec
  iexact Hk
theorem wp_sig_exit_nxt (c n : Dev nD) (hn : n = nxt c) (k' : ℕ) (hk' : 1 = k') (W : Waits sig Unit) :
    iprop(records m K ∗ owes (c : Thread nD τ) (owedFrom c 15) W ∗ dutyTok ER (exitCell (nxt c)) 0 false)
      ⊢ iprop((owes (c : Thread nD τ) (owedFrom c 16) W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (Dev.tc n : Thread nD τ) exitS k') kont) Q) := by
  subst hn hk'
  iintro ⟨#Hrec, HO, Htok⟩ Hk
  iapply (Rounds.wp_signal 𝒱₀ ER (ringRd m) (c : Thread nD τ) none (dst := (nxt c : Thread nD τ)) (sem := exitS) (κ := K (nxt c, .exit))
    (r := 0) (d := false) (k' := 1) (by rw [show (ringRd (F := F) m).duties ((nxt c : Thread nD τ), .reg exitS) 0 = dutiesK .exit from duties_at m (nxt c) .exit]; exact Finset.mem_univ _)
    (amount_at m (nxt c) .exit false) () (O₀ := owedFrom c 15) (owedFrom c 16) rfl (W := W)) $$ [HO Htok]
  · isplitr; · iapply (inv_at m K (nxt c, .exit)); iexact Hrec
    isplitl [HO]; · iexact HO
    isplitl [Htok]; · iexact Htok
    isplitr
    · rw [show (ringRd (F := F) m).payload ((nxt c : Thread nD τ), .reg exitS) 0 false = payK m (nxt c) .exit false from payload_at m (nxt c) .exit false]
      unfold payK; iempintro
    · iapply (reached_at m K (nxt c, .exit)); iexact Hrec
  iexact Hk

/-- The entry wait for both neighbours: the right neighbour's landing buffer comes with it. -/
theorem wp_wait_bar (c : Dev nD) (k' : ℕ) (hk' : 2 = k') (W : Waits sig Unit) :
    iprop(records m K ∗ cred (tallyAt (barCell c) () 2) ∗ owes (c : Thread nD τ) (owedFrom c 2) W ∗ levAts L lv ∗ atPos ER (barCell c) 0 ∅ 0)
      ⊢ iprop(((owes (c : Thread nD τ) (owedFrom c 2) (insert (SemLoc.reg barS, ()) W) ∗ atPos ER (barCell c) 1 ∅ 0 ∗ (∃ f, scrPts (nxt c) f))
            -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS k') kont) Q) := by
  subst hk'
  have hrest : bigSep ((ringRd (F := F) m).duties ((c : Thread nD τ), SemLoc.reg barS) 0 \ ∅)
      (fun d => (ringRd (F := F) m).payload ((c : Thread nD τ), SemLoc.reg barS) 0 d) = iprop(payK m c .bar false ∗ payK m c .bar true) :=
    rest_two m c .bar rfl
  iintro ⟨#Hrec, Hc, HO, Hlev, Hat⟩ Hk
  iapply (Rounds.wp_wait_rest_token 𝒱₀ ER (ringRd m) (c : Thread nD τ) none (κ := K (c, .bar)) (sm := .reg barS) (k' := 2)
      (wpE_semWait_eq 𝒱₀ (c : Thread nD τ) none Set.univ) (Set.mem_univ _) () (O := owedFrom c 2) (W := W) (R := 0) (m := 0) (T := ∅)
      (by rw [show (ringRd (F := F) m).expect ((c : Thread nD τ), .reg barS) 0 = expK .bar from expect_at m c .bar]; rfl)) $$ [Hc HO Hlev Hat]
  · isplitr; · iapply (inv_at m K (c, .bar)); iexact Hrec
    isplitl [Hc]; · iexact Hc
    isplitl [HO]; · iexact HO
    isplitl [Hlev]; · iapply (mayWait_from c .bar 2 (by decide)); iexact Hlev
    iexact Hat
  iintro ⟨HO, Hat, -, Hpay⟩
  ihave Hp := (Entails.of_eq hrest) $$ Hpay
  icases Hp with ⟨-, Hscr⟩
  iapply Hk
  isplitl [HO]; · iexact HO
  isplitl [Hat]; · iexact Hat
  unfold payK barPay; iexact Hscr
/-- The exit wait for both neighbours, owing nothing any more. -/
theorem wp_wait_exit (c : Dev nD) (k' : ℕ) (hk' : 2 = k') (W : Waits sig Unit) :
    iprop(records m K ∗ cred (tallyAt (exitCell c) () 2) ∗ owes (c : Thread nD τ) (owedFrom c 16) W ∗ atPos ER (exitCell c) 0 ∅ 0)
      ⊢ iprop(((owes (c : Thread nD τ) (owedFrom c 16) (insert (SemLoc.reg exitS, ()) W) ∗ atPos ER (exitCell c) 1 ∅ 0)
            -∗ wp frame (wpE (defs₀ (F := F)) 𝒱₀ (c : Thread nD τ) none) Set.univ (kont ⟨⟩) Q)
          -∗ wp frame (wpE (defs₀ (F := F)) 𝒱₀ (c : Thread nD τ) none) Set.univ (.op (.semWait exitS k') kont) Q) := by
  subst hk'
  iintro ⟨#Hrec, Hc, HO, Hat⟩ Hk
  iapply (Rounds.wp_wait_rest_token 𝒱₀ ER (ringRd m) (c : Thread nD τ) none (κ := K (c, .exit)) (sm := .reg exitS) (k' := 2)
      (wpE_semWait_eq 𝒱₀ (c : Thread nD τ) none Set.univ) (Set.mem_univ _) () (O := owedFrom c 16) (W := W) (R := 0) (m := 0) (T := ∅)
      (by rw [show (ringRd (F := F) m).expect ((c : Thread nD τ), .reg exitS) 0 = expK .exit from expect_at m c .exit]; rfl)) $$ [Hc HO Hat]
  · isplitr; · iapply (inv_at m K (c, .exit)); iexact Hrec
    isplitl [Hc]; · iexact Hc
    isplitl [HO]; · iexact HO
    isplitr; · rw [owedFrom_done, MayWait_zero]; iempintro
    iexact Hat
  iintro ⟨HO, Hat, -, -⟩
  iapply Hk
  isplitl [HO]; · iexact HO
  iexact Hat

/-- Step `h`, half `s`: the block of chunk z + srcK h, holding what step `h` sends, into the right neighbour's slot. -/
theorem wp_ringsend (c n : Dev nD) (hn : n = nxt c) (h : Fin 6) (s : Fin 2)
    (src : Memref sig .tc .vmem S128x512 .f32) (hsrc' : src = oB (zc c + srcK h) s)
    (dst : Memref sig .tc .vmem S128x512 .f32) (hdst' : dst = slot h s)
    (sS : DmaSem sig) (hsS : sS = sendS h s) (sR : DmaSem sig) (hsR : sR = recvS h s)
    {hsc : (dst : Memref sig (Dev.tc n : Thread nD τ).2.kind .vmem S128x512 .f32).view.ref.isScScratch = false}
    {hsrc : src.view.WordExact} {hdst : dst.view.WordExact}
    {hsem : DmaTarget.Typed .vmem (.dma sR) (.remote (Dev.tc n : Thread nD τ) dst (.dma sS) hsc)}
    (nn : ℕ) (hnn : nn = 2 + 2 * h.val + s.val) (W : Waits sig Unit) :
    iprop(records m K ∗ blk c (zc c + srcK h) s (sentV m h c s) ∗ slotAny (nxt c) h s
        ∗ owes (c : Thread nD τ) (owedFrom c nn) W ∗ dutyTok ER (sendCell c h s) 0 false ∗ dutyTok ER (recvCell (nxt c) h s) 0 false)
      ⊢ iprop(((cred (tallyAt (sendCell c h s) () Ncr) ∗ owes (c : Thread nD τ) (owedFrom c (nn + 1)) W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) kont) Q) := by
  subst hn hsrc' hdst' hsS hsR hnn
  unfold blk slotAny owns
  iintro ⟨#Hrec, Hblk, Hslot, HO, HtS, HtR⟩ Hk
  icases Hblk with ⟨%fs, %hfs, Hsrc⟩
  icases Hslot with ⟨%fd, Hdst⟩
  have hp1 : ((oB (zc c + srcK h) s).view.loc (c : Thread nD τ) ↦[(oB (zc c + srcK h) s).view.set]{fullShare} fs : sProp 𝕄)
      ⊢ (ringRd (F := F) m).payload ((c : Thread nD τ), SemLoc.dma (sendS h s)) 0 false := by
    refine (owns_intro (c : Thread nD τ) (oB (zc c + srcK h) s) fullShare fs).trans (Entails.of_eq ?_)
    rw [hfs]; exact (payload_at m c (.send h s) false).symm
  have hp2 : ((slot h s).view.loc (nxt c : Thread nD τ) ↦[(slot h s).view.set]{fullShare}
        ((slot h s).view.write (Elt F) fd ((oB (zc c + srcK h) s).view.read (Elt F) fs) Finset.univ) : sProp 𝕄)
      ⊢ (ringRd (F := F) m).payload ((nxt c : Thread nD τ), SemLoc.dma (recvS h s)) 0 false := by
    refine (owns_intro (nxt c : Thread nD τ) (slot h s) fullShare _).trans (Entails.of_eq ?_)
    rw [View.read_write_univ, hfs]
    refine Eq.trans ?_ (payload_at m (nxt c) (.recv h s) false).symm
    show _ = recvPay m (nxt c) h s
    unfold recvPay; rw [prv_nxt]
  iapply (Rounds.wp_send_pointsTo 𝒱₀ ER (ringRd m) (c : Thread nD τ) none (c' := (nxt c : Thread nD τ))
      (src := oB (zc c + srcK h) s) (dst := slot h s) (sS := SemLoc.dma (sendS h s)) (sem := SemLoc.dma (recvS h s)) (q := fullShare) (fs := fs) (fd := fd)
      (κ₁ := K (c, .send h s)) (κ₂ := K (nxt c, .recv h s)) (r₁ := 0) (r₂ := 0) (d₁ := false) (d₂ := false)
      (by rw [show (ringRd (F := F) m).duties ((c : Thread nD τ), .dma (sendS h s)) 0 = dutiesK (.send h s) from duties_at m c (.send h s)]; exact Finset.mem_singleton_self _)
      (by rw [show (ringRd (F := F) m).duties ((nxt c : Thread nD τ), .dma (recvS h s)) 0 = dutiesK (.recv h s) from duties_at m (nxt c) (.recv h s)]; exact Finset.mem_singleton_self _)
      () () Ncr rfl (amount_at m c (.send h s) false) (amount_at m (nxt c) (.recv h s) false)
      (O₀ := owedFrom c (2 + 2 * h.val + s.val)) (owedFrom c (2 + 2 * h.val + s.val + 1)) (owedFrom_send c h s) (W := W) hp1 hp2)
    $$ [Hsrc Hdst HO HtS HtR]
  · isplitr; · iapply (inv_at m K (c, .send h s)); iexact Hrec
    isplitr; · iapply (inv_at m K (nxt c, .recv h s)); iexact Hrec
    isplitl [Hsrc]; · iexact Hsrc
    isplitl [Hdst]; · iexact Hdst
    isplitl [HO]; · iexact HO
    isplitl [HtS]; · iexact HtS
    isplitr; · iapply (reached_at m K (c, .send h s)); iexact Hrec
    isplitl [HtR]; · iexact HtR
    iapply (reached_at m K (nxt c, .recv h s)); iexact Hrec
  iexact Hk

/-- The wait for arrival (g, s): the slot comes back holding what the left neighbour sent at step `g`. -/
theorem wp_recvwait (c : Dev nD) (g : Fin 6) (s : Fin 2) (sR : DmaSem sig) (hsR : sR = recvS g s)
    {sp' : Space} {s' : Shape} {e' : EltTy} (src : Memref sig .tc sp' s' e') (dst : Memref sig .tc .vmem S128x512 .f32) (hd : dst.view.dmaCredit = Ncr)
    {hsrc : src.view.WordExact} {hdst : dst.view.WordExact}
    (nn : ℕ) (hlev : ∀ p ∈ dueK.drop nn, lvK (.recv g s) < lvK p.2) (W : Waits sig Unit) :
    iprop(records m K ∗ cred (tallyAt (recvCell c g s) () Ncr) ∗ owes (c : Thread nD τ) (owedFrom c nn) W ∗ levAts L lv ∗ atPos ER (recvCell c g s) 0 ∅ 0)
      ⊢ iprop(((owes (c : Thread nD τ) (owedFrom c nn) (insert (SemLoc.dma (recvS g s), ()) W) ∗ atPos ER (recvCell c g s) 1 ∅ 0
              ∗ slotHas c g s (sentV m g (prv c) s))
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sR src dst hsrc hdst) kont) Q) := by
  subst hsR
  have hrest : bigSep ((ringRd (F := F) m).duties ((c : Thread nD τ), SemLoc.dma (recvS g s)) 0 \ ∅)
      (fun d => (ringRd (F := F) m).payload ((c : Thread nD τ), SemLoc.dma (recvS g s)) 0 d) = payK m c (.recv g s) false :=
    rest_one m c (.recv g s) rfl
  iintro ⟨#Hrec, Hc, HO, Hlev, Hat⟩ Hk
  iapply (Rounds.wp_wait_rest_token 𝒱₀ ER (ringRd m) (c : Thread nD τ) none (κ := K (c, .recv g s)) (sm := .dma (recvS g s)) (k' := dst.view.dmaCredit)
      (wpE_waitDma2_eq 𝒱₀ (c : Thread nD τ) none Set.univ) (Set.mem_univ _) () (O := owedFrom c nn) (W := W) (R := 0) (m := 0) (T := ∅)
      (by rw [hd, Nat.zero_add, show (ringRd (F := F) m).expect ((c : Thread nD τ), .dma (recvS g s)) 0 = expK (.recv g s) from expect_at m c (.recv g s)]; rfl))
    $$ [Hc HO Hlev Hat]
  · isplitr; · iapply (inv_at m K (c, .recv g s)); iexact Hrec
    isplitl [Hc]; · rw [hd]; iexact Hc
    isplitl [HO]; · iexact HO
    isplitl [Hlev]; · iapply (mayWait_from c (.recv g s) nn hlev); iexact Hlev
    iexact Hat
  iintro ⟨HO, Hat, -, Hpay⟩
  ihave Hp := (Entails.of_eq hrest) $$ Hpay
  iapply Hk
  isplitl [HO]; · iexact HO
  isplitl [Hat]; · iexact Hat
  unfold payK recvPay; iexact Hp

/-- The wait for departure (h, s): the block that was read comes back, holding what was sent. -/
theorem wp_sendwait (c : Dev nD) (h : Fin 6) (s : Fin 2) (sS : DmaSem sig) (hsS : sS = sendS h s)
    {sp' : Space} {s' : Shape} {e' : EltTy} (src : Memref sig .tc sp' s' e') (dst : Memref sig .tc .vmem S128x512 .f32) (hd : dst.view.dmaCredit = Ncr)
    {hsrc : src.view.WordExact} {hdst : dst.view.WordExact}
    (nn : ℕ) (W : Waits sig Unit) :
    iprop(records m K ∗ cred (tallyAt (sendCell c h s) () Ncr) ∗ owes (c : Thread nD τ) (owedFrom c nn) W ∗ levAts L lv ∗ atPos ER (sendCell c h s) 0 ∅ 0)
      ⊢ iprop(((owes (c : Thread nD τ) (owedFrom c nn) (insert (SemLoc.dma (sendS h s), ()) W) ∗ atPos ER (sendCell c h s) 1 ∅ 0
              ∗ blk c (zc c + srcK h) s (sentV m h c s))
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sS src dst hsrc hdst) kont) Q) := by
  subst hsS
  have hrest : bigSep ((ringRd (F := F) m).duties ((c : Thread nD τ), SemLoc.dma (sendS h s)) 0 \ ∅)
      (fun d => (ringRd (F := F) m).payload ((c : Thread nD τ), SemLoc.dma (sendS h s)) 0 d) = payK m c (.send h s) false :=
    rest_one m c (.send h s) rfl
  iintro ⟨#Hrec, Hc, HO, Hlev, Hat⟩ Hk
  iapply (Rounds.wp_wait_rest_token 𝒱₀ ER (ringRd m) (c : Thread nD τ) none (κ := K (c, .send h s)) (sm := .dma (sendS h s)) (k' := dst.view.dmaCredit)
      (wpE_waitDma2_eq 𝒱₀ (c : Thread nD τ) none Set.univ) (Set.mem_univ _) () (O := owedFrom c nn) (W := W) (R := 0) (m := 0) (T := ∅)
      (by rw [hd, Nat.zero_add, show (ringRd (F := F) m).expect ((c : Thread nD τ), .dma (sendS h s)) 0 = expK (.send h s) from expect_at m c (.send h s)]; rfl))
    $$ [Hc HO Hlev Hat]
  · isplitr; · iapply (inv_at m K (c, .send h s)); iexact Hrec
    isplitl [Hc]; · rw [hd]; iexact Hc
    isplitl [HO]; · iexact HO
    isplitl [Hlev]
    · iapply (mayWait_from c (.send h s) nn fun p hp => lvK_due_pos p (List.mem_of_mem_drop hp)); iexact Hlev
    iexact Hat
  iintro ⟨HO, Hat, -, Hpay⟩
  ihave Hp := (Entails.of_eq hrest) $$ Hpay
  iapply Hk
  isplitl [HO]; · iexact HO
  isplitl [Hat]; · iexact Hat
  unfold payK sendPay; iexact Hp

end Steps

/-- Every own cell consumed to the end of its one round: the 25 counters are the device's again, at zero. -/
theorem close_own (c : Dev nD) :
    iprop(records m K ∗ bigSep Finset.univ fun k : OK => atPos ER (kcell (c, k.ck)) 1 ∅ 0)
      ⊢ (|={Set.univ}=> Pipeline.ownSems0 osem c : sProp 𝕄) := by
  unfold Pipeline.ownSems0
  refine BIBase.Entails.trans ?_ (bigSep_fupd Finset.univ _)
  exact ((sep_mono_left (bigSep_of_persistent Finset.univ (records m K))).trans (Entails.of_eq (bigSep_sep _ _ _).symm)).trans
    (bigSep_mono fun k _ => close_one m K c k)

#print axioms owedFrom_send
#print axioms wp_sig_bar_prv
#print axioms wp_sig_bar_nxt
#print axioms wp_sig_exit_prv
#print axioms wp_sig_exit_nxt
#print axioms wp_wait_bar
#print axioms wp_wait_exit
#print axioms wp_ringsend
#print axioms wp_recvwait
#print axioms wp_sendwait
#print axioms close_own

end Cert.KernelIdeal.AR

end
-- ==== Proof.KernelIdealMid.lean ====
/-
  The body in two halves. The cut is after the three reduce steps, right after the departure of step 3
  (ten payments made): every block of the result buffer is then lent to a transfer in flight, the arrivals
  of steps 0 … 2 have been consumed, those of steps 3 … 5 are still to come, no departure has been waited for.
  `tail16` is the second half of the program (the printed parts 16 … 28 and the exit wait), `Mid` what the
  device holds at the cut.
-/
import proofs.«900718_g7700000000000719_dist_ar_v7x_xyz2x2x4_z_m1024_n512_f32_1_alg».proof.Proof.KernelIdealSteps

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-- The second half of the body on device `d0`: the gather steps, the last departure waits, the exit handshake.
    The words `v2 … v31` are the device's mesh coordinates and neighbours' positions as the first part computed them;
    no memory operation of this half reads them. -/
def tail16 (d0 : Dev nD) (v2 v5 v8 v19 v31 : BitVec 32) : Prog (TpuEff nD τ sig (Elt F) Λ₀ .tc) PUnit := do
  let v491 : BitVec 32 ← k0_part16 (Memref.whole cc0_stg0_0) (Memref.isWhole_whole _) (Memref.whole cc0_stg1_0) (Memref.isWhole_whole _) (Memref.whole cc0_scratch0) (Memref.isWhole_whole _) cc0_scratch1 cc0_scratch2 cc0_scoped0 d0 v2 v5 v8 v19
  k0_part17 (Memref.whole cc0_stg0_0) (Memref.isWhole_whole _) (Memref.whole cc0_stg1_0) (Memref.isWhole_whole _) (Memref.whole cc0_scratch0) (Memref.isWhole_whole _) cc0_scratch1 cc0_scratch2 cc0_scoped0 d0 v2 v5 v8 v19 v491
  let v553 : BitVec 32 ← k0_part18 (Memref.whole cc0_stg0_0) (Memref.isWhole_whole _) (Memref.whole cc0_stg1_0) (Memref.isWhole_whole _) (Memref.whole cc0_scratch0) (Memref.isWhole_whole _) cc0_scratch1 cc0_scratch2 cc0_scoped0 d0 v2 v5 v8 v19
  k0_part19 (Memref.whole cc0_stg0_0) (Memref.isWhole_whole _) (Memref.whole cc0_stg1_0) (Memref.isWhole_whole _) (Memref.whole cc0_scratch0) (Memref.isWhole_whole _) cc0_scratch1 cc0_scratch2 cc0_scoped0 d0 v2 v5 v8 v19 v553
  let v615 : BitVec 32 ← k0_part20 (Memref.whole cc0_stg0_0) (Memref.isWhole_whole _) (Memref.whole cc0_stg1_0) (Memref.isWhole_whole _) (Memref.whole cc0_scratch0) (Memref.isWhole_whole _) cc0_scratch1 cc0_scratch2 cc0_scoped0 d0 v2 v5 v8 v19
  let ⟨v641, c0_i32_566⟩ : Σ' (v641 : BitVec 32), BitVec 32 ← k0_part21 (Memref.whole cc0_stg0_0) (Memref.isWhole_whole _) (Memref.whole cc0_stg1_0) (Memref.isWhole_whole _) (Memref.whole cc0_scratch0) (Memref.isWhole_whole _) cc0_scratch1 cc0_scratch2 cc0_scoped0 d0 v2 v8 v615
  let ⟨v669, v670, v671, v672, c0_i32_593⟩ : Σ' (v669 : BitVec 32) (v670 : BitVec 32) (v671 : BitVec 1) (v672 : BitVec 1), BitVec 32 ← k0_part22 (Memref.whole cc0_stg0_0) (Memref.isWhole_whole _) (Memref.whole cc0_stg1_0) (Memref.isWhole_whole _) (Memref.whole cc0_scratch0) (Memref.isWhole_whole _) cc0_scratch1 cc0_scratch2 cc0_scoped0 d0 v2 v5 v8 v19 v641 c0_i32_566
  k0_part23 (Memref.whole cc0_stg0_0) (Memref.isWhole_whole _) (Memref.whole cc0_stg1_0) (Memref.isWhole_whole _) (Memref.whole cc0_scratch0) (Memref.isWhole_whole _) cc0_scratch1 cc0_scratch2 cc0_scoped0 d0 v8 v669 v670 v671 v672 c0_i32_593
  let ⟨v729, c4_i32_650, v730⟩ : Σ' (v729 : BitVec 32) (c4_i32_650 : BitVec 32), BitVec 1 ← k0_part24 (Memref.whole cc0_stg0_0) (Memref.isWhole_whole _) (Memref.whole cc0_stg1_0) (Memref.isWhole_whole _) (Memref.whole cc0_scratch0) (Memref.isWhole_whole _) cc0_scratch1 cc0_scratch2 cc0_scoped0 d0 v2 v5 v8 v19
  k0_part25 (Memref.whole cc0_stg0_0) (Memref.isWhole_whole _) (Memref.whole cc0_stg1_0) (Memref.isWhole_whole _) (Memref.whole cc0_scratch0) (Memref.isWhole_whole _) cc0_scratch1 cc0_scratch2 cc0_scoped0 d0 v2 v5 v19 v729 c4_i32_650 v730
  k0_part26 (Memref.whole cc0_stg0_0) (Memref.isWhole_whole _) (Memref.whole cc0_stg1_0) (Memref.isWhole_whole _) (Memref.whole cc0_scratch0) (Memref.isWhole_whole _) cc0_scratch1 cc0_scratch2 cc0_scoped0 d0 v8
  k0_part27 (Memref.whole cc0_stg0_0) (Memref.isWhole_whole _) (Memref.whole cc0_stg1_0) (Memref.isWhole_whole _) (Memref.whole cc0_scratch0) (Memref.isWhole_whole _) cc0_scratch1 cc0_scratch2 cc0_scoped0 d0
  k0_part28 (Memref.whole cc0_stg0_0) (Memref.isWhole_whole _) (Memref.whole cc0_stg1_0) (Memref.isWhole_whole _) (Memref.whole cc0_scratch0) (Memref.isWhole_whole _) cc0_scratch1 cc0_scratch2 cc0_scoped0 d0 v2 v5 v19 v31
  semWaitWord (cc0_scoped0 : Sems sig S_).sem 2#32 hamt_2
  pure ⟨⟩

/-- What device `c` holds at the cut. -/
def Mid (c : Dev nD) : sProp 𝕄 :=
  iprop(records m K ∗ levAts L lv ∗ (∃ W, owes (c : Thread nD τ) (owedFrom c 10) W)
    -- positions: the entry handshake and the arrivals of steps 0 … 2 consumed, everything else untouched
    ∗ atPos ER (barCell c) 1 ∅ 0
    ∗ (atPos ER (recvCell c 0 0) 1 ∅ 0 ∗ atPos ER (recvCell c 0 1) 1 ∅ 0 ∗ atPos ER (recvCell c 1 0) 1 ∅ 0
        ∗ atPos ER (recvCell c 1 1) 1 ∅ 0 ∗ atPos ER (recvCell c 2 0) 1 ∅ 0 ∗ atPos ER (recvCell c 2 1) 1 ∅ 0)
    ∗ (atPos ER (recvCell c 3 0) 0 ∅ 0 ∗ atPos ER (recvCell c 3 1) 0 ∅ 0 ∗ atPos ER (recvCell c 4 0) 0 ∅ 0
        ∗ atPos ER (recvCell c 4 1) 0 ∅ 0 ∗ atPos ER (recvCell c 5 0) 0 ∅ 0 ∗ atPos ER (recvCell c 5 1) 0 ∅ 0)
    ∗ (bigSep Finset.univ fun hs : Fin 6 × Fin 2 => atPos ER (sendCell c hs.1 hs.2) 0 ∅ 0)
    ∗ atPos ER (exitCell c) 0 ∅ 0
    -- credit: for the arrivals still to come, for the eight departures in flight, for the exit handshake
    ∗ (cred (tallyAt (recvCell c 3 0) () Ncr) ∗ cred (tallyAt (recvCell c 3 1) () Ncr) ∗ cred (tallyAt (recvCell c 4 0) () Ncr)
        ∗ cred (tallyAt (recvCell c 4 1) () Ncr) ∗ cred (tallyAt (recvCell c 5 0) () Ncr) ∗ cred (tallyAt (recvCell c 5 1) () Ncr))
    ∗ (cred (tallyAt (sendCell c 0 0) () Ncr) ∗ cred (tallyAt (sendCell c 0 1) () Ncr) ∗ cred (tallyAt (sendCell c 1 0) () Ncr)
        ∗ cred (tallyAt (sendCell c 1 1) () Ncr) ∗ cred (tallyAt (sendCell c 2 0) () Ncr) ∗ cred (tallyAt (sendCell c 2 1) () Ncr)
        ∗ cred (tallyAt (sendCell c 3 0) () Ncr) ∗ cred (tallyAt (sendCell c 3 1) () Ncr))
    ∗ cred (tallyAt (exitCell c) () 2)
    -- tokens: the four transfers and the two exit signals still to pay
    ∗ (dutyTok ER (recvCell (nxt c) 4 0) 0 false ∗ dutyTok ER (recvCell (nxt c) 4 1) 0 false
        ∗ dutyTok ER (recvCell (nxt c) 5 0) 0 false ∗ dutyTok ER (recvCell (nxt c) 5 1) 0 false)
    ∗ (dutyTok ER (sendCell c 4 0) 0 false ∗ dutyTok ER (sendCell c 4 1) 0 false
        ∗ dutyTok ER (sendCell c 5 0) 0 false ∗ dutyTok ER (sendCell c 5 1) 0 false)
    ∗ dutyTok ER (exitCell (prv c)) 0 true ∗ dutyTok ER (exitCell (nxt c)) 0 false
    -- buffers: its own slots of steps 0 … 2 (read, still held), the right neighbour's slots of steps 4, 5, the input staging buffer
    ∗ (slotAny c 0 0 ∗ slotAny c 0 1 ∗ slotAny c 1 0 ∗ slotAny c 1 1 ∗ slotAny c 2 0 ∗ slotAny c 2 1)
    ∗ (slotAny (nxt c) 4 0 ∗ slotAny (nxt c) 4 1 ∗ slotAny (nxt c) 5 0 ∗ slotAny (nxt c) 5 1)
    ∗ stg c cc0_stg0_0 (xin m c))

end Cert.KernelIdeal.AR

end
-- ==== Proof.KernelIdealFront.lean ====
/-
  The first half of the body: the entry handshake (the landing buffer goes to the left neighbour, the right
  neighbour's comes back), the copy of the input into the result buffer and its cutting into eight blocks, the
  departures of steps 0 … 3 and, after each arrival of steps 0 … 2, the sum of the block and what arrived.
-/
import proofs.«900718_g7700000000000719_dist_ar_v7x_xyz2x2x4_z_m1024_n512_f32_1_alg».proof.Proof.KernelIdealMid
import Idealize.ShloMosaic.Lib.Tactic

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (K : Dev nD × CK → ℕ)

/-! ## The schedule's tables at each kind of cell -/

attribute [local sl_rounds] duties_at amount_at payload_at expect_at
attribute [local sl_canon] dev1_eq dev2_eq dev3_eq dev4_eq dev5_eq dev6_eq dev7_eq dev8_eq dev9_eq dev10_eq dev11_eq dev12_eq dev13_eq dev14_eq dev15_eq dev16_eq

private theorem dutiesK_bar : dutiesK .bar = {false, true} := by decide
private theorem payK_bar_f (c : Dev nD) : payK m c .bar false = (iprop(emp) : sProp 𝕄) := rfl
private theorem payK_bar_t (c : Dev nD) : payK m c .bar true = (iprop(∃ f, scrPts (nxt c) f) : sProp 𝕄) := rfl
private theorem dutiesK_send (h : Fin 6) (s : Fin 2) : dutiesK (.send h s) = {false} := rfl
private theorem dutiesK_recv (h : Fin 6) (s : Fin 2) : dutiesK (.recv h s) = {false} := rfl
private theorem amountK_send (h : Fin 6) (s : Fin 2) : amountK (.send h s) = Ncr := rfl
private theorem amountK_recv (h : Fin 6) (s : Fin 2) : amountK (.recv h s) = Ncr := rfl
private theorem expK_send (h : Fin 6) (s : Fin 2) : expK (.send h s) = Ncr := rfl
private theorem expK_recv (h : Fin 6) (s : Fin 2) : expK (.recv h s) = Ncr := rfl
private theorem payK_send (c : Dev nD) (h : Fin 6) (s : Fin 2) (d : Bool) : payK m c (.send h s) d = blk c (zc c + srcK h) s (sentV m h c s) := rfl
private theorem payK_recv (c : Dev nD) (h : Fin 6) (s : Fin 2) (d : Bool) : payK m c (.recv h s) d = slotHas c h s (sentV m h (prv c) s) := rfl

attribute [local sl_rounds] dutiesK_bar payK_bar_f payK_bar_t dutiesK_send dutiesK_recv amountK_send amountK_recv expK_send expK_recv payK_send payK_recv

/-- The records at each kind of cell, under the cell's own name. -/
private theorem inv_bar (c : Dev nD) : records m K ⊢ cellInv ER (ringRd m) (K (c, .bar)) (barCell c) := inv_at m K (c, .bar)
private theorem inv_send (c : Dev nD) (h : Fin 6) (s : Fin 2) : records m K ⊢ cellInv ER (ringRd m) (K (c, .send h s)) (sendCell c h s) := inv_at m K (c, .send h s)
private theorem inv_recv (c : Dev nD) (h : Fin 6) (s : Fin 2) : records m K ⊢ cellInv ER (ringRd m) (K (c, .recv h s)) (recvCell c h s) := inv_at m K (c, .recv h s)
private theorem reached_bar (c : Dev nD) : records m K ⊢ (reached ER (barCell c) 0 : sProp 𝕄) := reached_at m K (c, .bar)
private theorem reached_send (c : Dev nD) (h : Fin 6) (s : Fin 2) : records m K ⊢ (reached ER (sendCell c h s) 0 : sProp 𝕄) := reached_at m K (c, .send h s)
private theorem reached_recv (c : Dev nD) (h : Fin 6) (s : Fin 2) : records m K ⊢ (reached ER (recvCell c h s) 0 : sProp 𝕄) := reached_at m K (c, .recv h s)

/-- After the whole copy the result buffer reads the input block, cast. -/
private theorem out0_of_copy (c : Dev nD) (fx : BufTy.Contents (Elt F) (xM : Memref sig .tc .vmem S1024x512 .f32).view.ty)
    (fo : BufTy.Contents (Elt F) (oM : Memref sig .tc .vmem S1024x512 .f32).view.ty)
    (hfx : View.read (Elt F) (xM : Memref sig .tc .vmem S1024x512 .f32).view fx = xin m c) :
    View.read (Elt F) (oM : Memref sig .tc .vmem S1024x512 .f32).view
      ((oM : Memref sig .tc .vmem S1024x512 .f32).view.writes (Elt F) fo
        [⟨Rect.unit (s := S1024x512) ![0, 0] S1024x512.size inb_S1024x512_S1024x512_0_0,
          k0_pay1 (View.readAt (Elt F) (xM : Memref sig .tc .vmem S1024x512 .f32).view
            (Rect.unit (s := S1024x512) ![0, 0] S1024x512.size inb_S1024x512_S1024x512_0_0).toLoadRect fx)⟩])
      = out0 m c := by
  have hz : (![0, 0] : Fin 2 → Nat) = fun _ => 0 := by funext a; fin_cases a <;> rfl
  have h1 : View.readAt (Elt F) (xM : Memref sig .tc .vmem S1024x512 .f32).view
      (Rect.unit (s := S1024x512) ![0, 0] S1024x512.size inb_S1024x512_S1024x512_0_0).toLoadRect fx = xin m c :=
    (Memref.readAt_unit_zero (Elt F) cc0_stg0_0 hz inb_S1024x512_S1024x512_0_0 fx).trans hfx
  rw [h1, View.writes_singleton]
  exact Memref.write_access_unit_zero_univ (Elt F) cc0_stg1_0 hz inb_S1024x512_S1024x512_0_0 fo _

/-- A load of block (j, s) through the whole result buffer, at offsets that are the block's. -/
private theorem wp_ld_blk {α : Type} {Q : α → sProp 𝕄} (c : Dev nD) (j : Fin 4) (s : Fin 2) (X : Blk F)
    (o : Fin 2 → Nat) (ho : o = off j s) (inb : ∀ a, o a + S128x512.size a ≤ S1024x512.size a)
    {hl : (oM : Memref sig .tc .vmem S1024x512 .f32).view.LoadsAt (Rect.unit (s := S1024x512) o S128x512.size inb).toLoadRect}
    {kont : Blk F → Prog (TpuEff nD τ sig (Elt F) Λ₀ .tc) α} :
    (blk c j s X : sProp 𝕄) ⊢ iprop((blk c j s X -∗ wp frame (wpE (defs₀ (F := F)) 𝒱₀ (c : Thread nD τ) none) Set.univ (kont X) Q)
       -∗ wp frame (wpE (defs₀ (F := F)) 𝒱₀ (c : Thread nD τ) none) Set.univ
            (.op (.load oM (Rect.unit (s := S1024x512) o S128x512.size inb).toLoadRect hl) kont) Q) := by
  subst ho
  unfold blk owns
  iintro ⟨%f, %hf, H⟩ Hk
  iapply (wp_load 𝒱₀ (c : Thread nD τ) none Set.univ (m := oM) (S := (oB j s).view.set) ?_) $$ H
  · exact (View.set_slice _ _).ge
  iintro H
  rw [show View.readAt (Elt F) (oM : Memref sig .tc .vmem S1024x512 .f32).view (Rect.unit (s := S1024x512) (off j s) S128x512.size inb).toLoadRect f = X from hf]
  iapply Hk
  iexists f
  isplitr
  · ipureintro; exact hf
  iexact H

/-- A store of a whole block (j, s) through the whole result buffer: the block then reads what was stored. -/
private theorem wp_st_blk {α : Type} {Q : α → sProp 𝕄} (c : Dev nD) (j : Fin 4) (s : Fin 2) (X : Blk F)
    (o : Fin 2 → Nat) (ho : o = off j s) (inb : ∀ a, o a + S128x512.size a ≤ S1024x512.size a)
    (w : Blk F) (Y : Blk F) (hw : w = Y)
    {hx : ((oM : Memref sig .tc .vmem S1024x512 .f32).access (Rect.unit (s := S1024x512) o S128x512.size inb)).Stores Finset.univ}
    {hm : (Finset.univ : Finset (Rect.unit (s := S1024x512) o S128x512.size inb).shape.Idx) = Finset.univ ∨ ∀ a, (Rect.unit (s := S1024x512) o S128x512.size inb).stride a = 1}
    {kont : PUnit → Prog (TpuEff nD τ sig (Elt F) Λ₀ .tc) α} :
    (blk c j s X : sProp 𝕄) ⊢ iprop((blk c j s Y -∗ wp frame (wpE (defs₀ (F := F)) 𝒱₀ (c : Thread nD τ) none) Set.univ (kont ⟨⟩) Q)
       -∗ wp frame (wpE (defs₀ (F := F)) 𝒱₀ (c : Thread nD τ) none) Set.univ
            (.op (.store oM (Rect.unit (s := S1024x512) o S128x512.size inb) w Finset.univ hx hm) kont) Q) := by
  subst ho; subst hw
  unfold blk owns
  iintro ⟨%f, %hf, H⟩ Hk
  iapply (wp_store 𝒱₀ (c : Thread nD τ) none Set.univ (m := oM) (r := Rect.unit (s := S1024x512) (off j s) S128x512.size inb) (Mk := Finset.univ) (S := (oB j s).view.set) ?_) $$ H
  · exact Finset.Subset.refl _
  iintro H
  iapply Hk
  iexists (View.write (Elt F) ((oM : Memref sig .tc .vmem S1024x512 .f32).access (Rect.unit (s := S1024x512) (off j s) S128x512.size inb)) f w Finset.univ)
  isplitr
  · ipureintro; exact View.read_write_univ _ _
  iexact H

/-- A load of slot (h, s) through the whole landing buffer: its squeezed reading is what the slot holds. -/
private theorem wp_ld_slot {α : Type} {Q : α → sProp 𝕄} (c : Dev nD) (h : Fin 6) (s : Fin 2) (X : Blk F)
    (o : Fin 4 → Nat) (ho : o = sOff h s) (inb : ∀ a, o a + S1x1x128x512.size a ≤ S6x2x128x512.size a)
    {hl : (rM : Memref sig .tc .vmem S6x2x128x512 .f32).view.LoadsAt (Rect.unit (s := S6x2x128x512) o S1x1x128x512.size inb).toLoadRect}
    {kont : Vec F S1x1x128x512 .f32 → Prog (TpuEff nD τ sig (Elt F) Λ₀ .tc) α} :
    (slotHas c h s X : sProp 𝕄) ⊢ iprop((∀ v : Vec F S1x1x128x512 .f32, ⌜shapeCast S128x512 v shapeCasts_S1x1x128x512_S128x512 = X⌝ -∗ slotHas c h s X
          -∗ wp frame (wpE (defs₀ (F := F)) 𝒱₀ (c : Thread nD τ) none) Set.univ (kont v) Q)
       -∗ wp frame (wpE (defs₀ (F := F)) 𝒱₀ (c : Thread nD τ) none) Set.univ
            (.op (.load rM (Rect.unit (s := S6x2x128x512) o S1x1x128x512.size inb).toLoadRect hl) kont) Q) := by
  subst ho
  unfold slotHas owns
  iintro ⟨%f, %hf, H⟩ Hk
  iapply (wp_load 𝒱₀ (c : Thread nD τ) none Set.univ (m := rM) (S := (slot h s).view.set) ?_) $$ H
  · rw [Memref.set_view_squeeze]; exact (View.set_slice _ _).ge
  iintro H
  iapply Hk $$ %(View.readAt (Elt F) (rM : Memref sig .tc .vmem S6x2x128x512 .f32).view (Rect.unit (s := S6x2x128x512) (sOff h s) S1x1x128x512.size inb).toLoadRect f) %hf [H]
  iexists f
  isplitr
  · ipureintro; exact hf
  iexact H

/-- Go on to the next memory operation: through returns, printed parts and pure words. -/
local macro "sl_next" : tactic => `(tactic| first | rw [Prog.bind_lift] | sl_exec | skip)

set_option maxHeartbeats 1600000 in
/-- From the body's start to the cut. -/
theorem front_half (c : Dev nD) (Kt : PUnit → sProp 𝕄) :
    iprop(bodyPre m K c ∗ (∀ v2, ∀ v5, ∀ v8, ∀ v19, ∀ v31, Mid m K c -∗ wp frame (wpE (defs₀ (F := F)) 𝒱₀ c none) Set.univ (tail16 (F := F) c v2 v5 v8 v19 v31) Kt))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2 cc0_scoped0) Kt := by
  simp only [cc0_body_eq_skeleton]; unfold cc0_body_skel
  obtain ⟨f2, f5, f8, f19, f31, f34, hp1⟩ : ∃ f2 f5 f8 f19 f31 f34 : Dev nD → BitVec 32,
      k0_part1 (F := F) (Memref.whole cc0_stg0_0) (Memref.isWhole_whole _) (Memref.whole cc0_stg1_0) (Memref.isWhole_whole _)
        (Memref.whole cc0_scratch0) (Memref.isWhole_whole _) cc0_scratch1 cc0_scratch2 cc0_scoped0
      = Prog.op .deviceId (fun d0 => Prog.ret ⟨d0, f2 d0, f5 d0, f8 d0, f19 d0, f31 d0, SemArray.scalar (sig.barrier 0 rfl), f34 d0⟩) :=
    ⟨_, _, _, _, _, _, rfl⟩
  rw [hp1]
  simp only [Prog.bind_op, Prog.bind_ret, wp_deviceId]
  generalize f2 c = w2; generalize f5 c = w5; generalize f8 c = w8; generalize f19 c = w19; generalize f31 c = w31; generalize f34 c = w34
  clear hp1 f2 f5 f8 f19 f31 f34
  show _ ⊢ wp _ _ _ (k0_part2 _ _ _ _ _ _ _ _ _ c w2 w5 w8 w19 w31 _ w34 >>= fun _ =>
      k0_part3 _ _ _ _ _ _ _ _ _ c w2 w5 w8 w19 >>= fun x3 =>
      k0_part4 _ _ _ _ _ _ _ _ _ c w2 w5 w8 w19 x3.1 x3.2 >>= fun x4 =>
      k0_part5 _ _ _ _ _ _ _ _ _ c w2 w5 w8 w19 x4.1 x4.2 >>= fun _ =>
      k0_part6 _ _ _ _ _ _ _ _ _ c w2 w5 w8 w19 >>= fun v188 =>
      k0_part7 _ _ _ _ _ _ _ _ _ c w2 w5 w8 w19 v188 >>= fun _ =>
      k0_part8 _ _ _ _ _ _ _ _ _ c w2 w5 w8 w19 >>= fun x8 =>
      k0_part9 _ _ _ _ _ _ _ _ _ c w2 w5 w8 w19 x8.1 x8.2 >>= fun _ =>
      k0_part10 _ _ _ _ _ _ _ _ _ c w2 w5 w8 w19 >>= fun x10 =>
      k0_part11 _ _ _ _ _ _ _ _ _ c w2 w5 w8 w19 x10.1 x10.2 >>= fun _ =>
      k0_part12 _ _ _ _ _ _ _ _ _ c w2 w5 w8 w19 >>= fun x12 =>
      k0_part13 _ _ _ _ _ _ _ _ _ c w2 w5 w8 w19 x12.1 x12.2.1 x12.2.2 >>= fun _ =>
      k0_part14 _ _ _ _ _ _ _ _ _ c w2 w5 w8 w19 >>= fun v438 =>
      k0_part15 _ _ _ _ _ _ _ _ _ c w2 w5 w8 w19 v438 >>= fun _ =>
      tail16 (F := F) c w2 w5 w8 w19 w31) Kt
  generalize htl : tail16 (F := F) c w2 w5 w8 w19 w31 = tl
  simp only [k0_part2_eq_skeleton, k0_part3_eq_skeleton, k0_part4_eq_skeleton, k0_part5_eq_skeleton, k0_part6_eq_skeleton, k0_part7_eq_skeleton,
    k0_part8_eq_skeleton, k0_part9_eq_skeleton, k0_part10_eq_skeleton, k0_part11_eq_skeleton, k0_part12_eq_skeleton, k0_part13_eq_skeleton,
    k0_part14_eq_skeleton, k0_part15_eq_skeleton]
  unfold bodyPre ghost posAll payToks creds
  iintro ⟨⟨⟨⟨#Hrec, ⟨HaB, HaS, HaR, HaE⟩, ⟨HtBp, HtBn, HtR, HtS, HtEp, HtEn⟩⟩, ⟨HcB, HcR, HcE⟩, #Hlev, Hscr⟩, Ho, Hx, Hout⟩, Hk⟩
  unfold Dat.owesAt Pipeline.owesWithin
  icases Ho with ⟨%W, %hW, HO⟩
  icases Hx with ⟨%dx, Hx⟩
  icases Hout with ⟨%dout, Hout⟩
  ihave Hx := (Entails.of_eq (stg_in_iff (F := F) c _)) $$ Hx
  ihave Hout := (Entails.of_eq (stg_out_iff (F := F) c _)) $$ Hout
  unfold owns
  icases Hx with ⟨%fx, %hfx, Hx⟩
  icases Hout with ⟨%fo, %hfo, Hout⟩
  rw [show (dats m 0 c).owed t₀.castSucc = owedFrom c 0 from rfl]
  have hfetch : (cfg0.win 0).fetch t₀ = true := by decide +kernel
  have hx : (dats m 0 c).before 0 t₀ dx = xin m c := by
    unfold Dat.before; rw [if_pos hfetch]; rfl
  rw [hx] at hfx
  clear hx hfetch hfo dout dx
  -- the entry handshake and the whole copy
  ihave #HIbp := (inv_bar m K (prv c)) $$ Hrec
  ihave #HRbp := (reached_bar m K (prv c)) $$ Hrec
  ihave #HIbn := (inv_bar m K (nxt c)) $$ Hrec
  ihave #HRbn := (reached_bar m K (nxt c)) $$ Hrec
  ihave #HIb := (inv_bar m K c) $$ Hrec
  rw [show owedFrom c 0 = owedFrom c 2 + tallyAt (barCell (nxt c)) () 1 + tallyAt (barCell (prv c)) () 1 from rfl]
  ihave Hscr := (Entails.of_eq (show (iprop(∃ f, scrPts c f) : sProp 𝕄) = iprop(∃ f, scrPts (nxt (prv c)) f) from by rw [nxt_prv])) $$ Hscr
  have hmwB : (levAts L lv : sProp 𝕄) ⊢ MayWait (c : Thread nD τ) (SemLoc.reg barS) () (owedFrom c 2) :=
    mayWait_from (F := F) c .bar 2 (by decide)
  sl_exec
  -- the result buffer, now the input's copy, as its eight blocks
  ihave Hout := (owns_intro (c : Thread nD τ) oM fullShare _) $$ Hout
  rw [out0_of_copy m c fx fo hfx]
  ihave Hblks := (out_split (F := F) c (out0 m c)) $$ Hout
  ihave Hblks := (Entails.of_eq (bigSep_blocks (zc c) (fun j s => (blk c j s (fun i => out0 m c ((oRect j s).emb i)) : sProp 𝕄)))) $$ Hblks
  icases Hblks with ⟨HB00, HB01, HB10, HB11, HB20, HB21, HB30, HB31⟩
  -- the right neighbour's landing buffer, as its twelve slots
  ihave HslN := (scr_split (F := F) (nxt c)) $$ [HaB_pay1]
  · iexists _; iexact HaB_pay1
  ihave HslN := (Entails.of_eq (bigSep_slots (fun h s => (slotAny (nxt c) h s : sProp 𝕄)))) $$ HslN
  icases HslN with ⟨HN00, HN01, HN10, HN11, HN20, HN21, HN30, HN31, HN40, HN41, HN50, HN51⟩
  -- the tokens, positions and credits, slot by slot
  ihave HtR := (Entails.of_eq (bigSep_slots (fun h s => (dutyTok ER (recvCell (nxt c) h s) 0 false : sProp 𝕄)))) $$ HtR
  icases HtR with ⟨HtR00, HtR01, HtR10, HtR11, HtR20, HtR21, HtR30, HtR31, HtR40, HtR41, HtR50, HtR51⟩
  ihave HtS := (Entails.of_eq (bigSep_slots (fun h s => (dutyTok ER (sendCell c h s) 0 false : sProp 𝕄)))) $$ HtS
  icases HtS with ⟨HtS00, HtS01, HtS10, HtS11, HtS20, HtS21, HtS30, HtS31, HtS40, HtS41, HtS50, HtS51⟩
  ihave HaR := (Entails.of_eq (bigSep_slots (fun h s => (atPos ER (recvCell c h s) 0 ∅ 0 : sProp 𝕄)))) $$ HaR
  icases HaR with ⟨HaR00, HaR01, HaR10, HaR11, HaR20, HaR21, HaR30, HaR31, HaR40, HaR41, HaR50, HaR51⟩
  ihave HcR := (Entails.of_eq (bigSep_slots (fun h s => (cred (tallyAt (recvCell c h s) () Ncr) : sProp 𝕄)))) $$ HcR
  icases HcR with ⟨HcR00, HcR01, HcR10, HcR11, HcR20, HcR21, HcR30, HcR31, HcR40, HcR41, HcR50, HcR51⟩
  have e0 : zc c + 0 = zc c := Fin.add_zero _
  ihave HB00 := (Entails.of_eq (show (blk c (zc c + 0) 0 (fun i => out0 m c ((oRect (zc c + 0) 0).emb i)) : sProp 𝕄) = blk c (zc c + srcK 0) 0 (sentV m 0 c 0) from by
    show _ = blk c (zc c + 0) 0 (sentV m 0 c 0); rw [e0]; rfl)) $$ HB00
  ihave HB01 := (Entails.of_eq (show (blk c (zc c + 0) 1 (fun i => out0 m c ((oRect (zc c + 0) 1).emb i)) : sProp 𝕄) = blk c (zc c + srcK 0) 1 (sentV m 0 c 1) from by
    show _ = blk c (zc c + 0) 1 (sentV m 0 c 1); rw [e0]; rfl)) $$ HB01
  -- step 0 departs: chunk z, both halves
  iapply (wp_ringsend m K c _ (dev3_eq c) 0 0 _ (Memref.slice_unit_congr _ (off1_lo c 0 0) _ _ _ _) _ rfl _ rfl _ rfl 2 rfl _) $$ [HB00 HN00 HO HtS00 HtR00]
  · isplitr; · iexact Hrec
    isplitl [HB00]; · iexact HB00
    isplitl [HN00]; · iexact HN00
    isplitl [HO]; · iexact HO
    isplitl [HtS00]; · iexact HtS00
    iexact HtR00
  iintro ⟨HcS00, HO⟩
  rw [show owedFrom c (2 + 1) = owedFrom c 3 from rfl]
  sl_exec
  iapply (wp_ringsend m K c _ (dev4_eq c) 0 1 _ (Memref.slice_unit_congr _ (off1_lo c 0 1) _ _ _ _) _ rfl _ rfl _ rfl 3 rfl _) $$ [HB01 HN01 HO HtS01 HtR01]
  · isplitr; · iexact Hrec
    isplitl [HB01]; · iexact HB01
    isplitl [HN01]; · iexact HN01
    isplitl [HO]; · iexact HO
    isplitl [HtS01]; · iexact HtS01
    iexact HtR01
  iintro ⟨HcS01, HO⟩
  rw [show owedFrom c (3 + 1) = owedFrom c 4 from rfl]
  -- arrival (0, 0): chunk z + 3, half 0, takes it
  ihave #HIr00 := (inv_recv m K c 0 0) $$ Hrec
  have hmw00 : (levAts L lv : sProp 𝕄) ⊢ MayWait (c : Thread nD τ) (SemLoc.dma (recvS 0 0)) () (owedFrom c 4) :=
    mayWait_from (F := F) c (.recv 0 0) 4 (by decide)
  sl_exec
  iapply (wp_ld_blk c (zc c + 3) 0 _ _ (off2_eq c 0 0) _) $$ HB30
  iintro HB30
  sl_next
  iapply (wp_ld_slot c 0 0 _ _ rfl _) $$ HaR00_pay1
  iintro %v00 %hv00 HS00
  sl_next
  iapply (wp_ld_blk c (zc c + 3) 0 _ _ (off2_eq c 0 0) _) $$ HB30
  iintro HB30
  sl_next
  iapply (wp_st_blk c (zc c + 3) 0 _ _ (off2_eq c 0 0) _ _ (sentV m 1 c 0)
    (by show accV (xblk m c (zc c + 3) 0) (shapeCast S128x512 v00 shapeCasts_S1x1x128x512_S128x512) = _; rw [hv00]; rfl)) $$ HB30
  iintro HB30
  sl_next
  iapply (wp_ringsend m K c _ (dev5_eq c) 1 0 _ (Memref.slice_unit_congr _ (off1_lo c 1 0) _ _ _ _) _ rfl _ rfl _ rfl 4 rfl _) $$ [HB30 HN10 HO HtS10 HtR10]
  · isplitr; · iexact Hrec
    isplitl [HB30]; · iexact HB30
    isplitl [HN10]; · iexact HN10
    isplitl [HO]; · iexact HO
    isplitl [HtS10]; · iexact HtS10
    iexact HtR10
  iintro ⟨HcS10, HO⟩
  rw [show owedFrom c (4 + 1) = owedFrom c 5 from rfl]
  -- arrival (0, 1): chunk z + 3, half 1, takes it
  ihave #HIr01 := (inv_recv m K c 0 1) $$ Hrec
  have hmw01 : (levAts L lv : sProp 𝕄) ⊢ MayWait (c : Thread nD τ) (SemLoc.dma (recvS 0 1)) () (owedFrom c 5) :=
    mayWait_from (F := F) c (.recv 0 1) 5 (by decide)
  sl_exec
  iapply (wp_ld_blk c (zc c + 3) 1 _ _ (off2_eq c 0 1) _) $$ HB31
  iintro HB31
  sl_next
  iapply (wp_ld_slot c 0 1 _ _ rfl _) $$ HaR01_pay1
  iintro %v01 %hv01 HS01
  sl_next
  iapply (wp_ld_blk c (zc c + 3) 1 _ _ (off2_eq c 0 1) _) $$ HB31
  iintro HB31
  sl_next
  iapply (wp_st_blk c (zc c + 3) 1 _ _ (off2_eq c 0 1) _ _ (sentV m 1 c 1)
    (by show accV (xblk m c (zc c + 3) 1) (shapeCast S128x512 v01 shapeCasts_S1x1x128x512_S128x512) = _; rw [hv01]; rfl)) $$ HB31
  iintro HB31
  sl_next
  iapply (wp_ringsend m K c _ (dev6_eq c) 1 1 _ (Memref.slice_unit_congr _ (off1_lo c 1 1) _ _ _ _) _ rfl _ rfl _ rfl 5 rfl _) $$ [HB31 HN11 HO HtS11 HtR11]
  · isplitr; · iexact Hrec
    isplitl [HB31]; · iexact HB31
    isplitl [HN11]; · iexact HN11
    isplitl [HO]; · iexact HO
    isplitl [HtS11]; · iexact HtS11
    iexact HtR11
  iintro ⟨HcS11, HO⟩
  rw [show owedFrom c (5 + 1) = owedFrom c 6 from rfl]
  -- arrival (1, 0): chunk z + 2, half 0, takes it
  ihave #HIr10 := (inv_recv m K c 1 0) $$ Hrec
  have hmw10 : (levAts L lv : sProp 𝕄) ⊢ MayWait (c : Thread nD τ) (SemLoc.dma (recvS 1 0)) () (owedFrom c 6) :=
    mayWait_from (F := F) c (.recv 1 0) 6 (by decide)
  sl_exec
  iapply (wp_ld_blk c (zc c + 2) 0 _ _ (off2_eq c 1 0) _) $$ HB20
  iintro HB20
  sl_next
  iapply (wp_ld_slot c 1 0 _ _ rfl _) $$ HaR10_pay1
  iintro %v10 %hv10 HS10
  sl_next
  iapply (wp_ld_blk c (zc c + 2) 0 _ _ (off2_eq c 1 0) _) $$ HB20
  iintro HB20
  sl_next
  iapply (wp_st_blk c (zc c + 2) 0 _ _ (off2_eq c 1 0) _ _ (sentV m 2 c 0)
    (by show accV (xblk m c (zc c + 2) 0) (shapeCast S128x512 v10 shapeCasts_S1x1x128x512_S128x512) = _; rw [hv10]; rfl)) $$ HB20
  iintro HB20
  sl_next
  iapply (wp_ringsend m K c _ (dev7_eq c) 2 0 _ (Memref.slice_unit_congr _ (off1_lo c 2 0) _ _ _ _) _ rfl _ rfl _ rfl 6 rfl _) $$ [HB20 HN20 HO HtS20 HtR20]
  · isplitr; · iexact Hrec
    isplitl [HB20]; · iexact HB20
    isplitl [HN20]; · iexact HN20
    isplitl [HO]; · iexact HO
    isplitl [HtS20]; · iexact HtS20
    iexact HtR20
  iintro ⟨HcS20, HO⟩
  rw [show owedFrom c (6 + 1) = owedFrom c 7 from rfl]
  -- arrival (1, 1): chunk z + 2, half 1, takes it
  ihave #HIr11 := (inv_recv m K c 1 1) $$ Hrec
  have hmw11 : (levAts L lv : sProp 𝕄) ⊢ MayWait (c : Thread nD τ) (SemLoc.dma (recvS 1 1)) () (owedFrom c 7) :=
    mayWait_from (F := F) c (.recv 1 1) 7 (by decide)
  sl_exec
  iapply (wp_ld_blk c (zc c + 2) 1 _ _ (off2_eq c 1 1) _) $$ HB21
  iintro HB21
  sl_next
  iapply (wp_ld_slot c 1 1 _ _ rfl _) $$ HaR11_pay1
  iintro %v11 %hv11 HS11
  sl_next
  iapply (wp_ld_blk c (zc c + 2) 1 _ _ (off2_eq c 1 1) _) $$ HB21
  iintro HB21
  sl_next
  iapply (wp_st_blk c (zc c + 2) 1 _ _ (off2_eq c 1 1) _ _ (sentV m 2 c 1)
    (by show accV (xblk m c (zc c + 2) 1) (shapeCast S128x512 v11 shapeCasts_S1x1x128x512_S128x512) = _; rw [hv11]; rfl)) $$ HB21
  iintro HB21
  sl_next
  iapply (wp_ringsend m K c _ (dev8_eq c) 2 1 _ (Memref.slice_unit_congr _ (off1_lo c 2 1) _ _ _ _) _ rfl _ rfl _ rfl 7 rfl _) $$ [HB21 HN21 HO HtS21 HtR21]
  · isplitr; · iexact Hrec
    isplitl [HB21]; · iexact HB21
    isplitl [HN21]; · iexact HN21
    isplitl [HO]; · iexact HO
    isplitl [HtS21]; · iexact HtS21
    iexact HtR21
  iintro ⟨HcS21, HO⟩
  rw [show owedFrom c (7 + 1) = owedFrom c 8 from rfl]
  -- arrival (2, 0): chunk z + 1, half 0, takes it
  ihave #HIr20 := (inv_recv m K c 2 0) $$ Hrec
  have hmw20 : (levAts L lv : sProp 𝕄) ⊢ MayWait (c : Thread nD τ) (SemLoc.dma (recvS 2 0)) () (owedFrom c 8) :=
    mayWait_from (F := F) c (.recv 2 0) 8 (by decide)
  sl_exec
  iapply (wp_ld_blk c (zc c + 1) 0 _ _ (off2_eq c 2 0) _) $$ HB10
  iintro HB10
  sl_next
  iapply (wp_ld_slot c 2 0 _ _ rfl _) $$ HaR20_pay1
  iintro %v20 %hv20 HS20
  sl_next
  iapply (wp_ld_blk c (zc c + 1) 0 _ _ (off2_eq c 2 0) _) $$ HB10
  iintro HB10
  sl_next
  iapply (wp_st_blk c (zc c + 1) 0 _ _ (off2_eq c 2 0) _ _ (sentV m 3 c 0)
    (by show accV (xblk m c (zc c + 1) 0) (shapeCast S128x512 v20 shapeCasts_S1x1x128x512_S128x512) = _; rw [hv20]; rfl)) $$ HB10
  iintro HB10
  sl_next
  iapply (wp_ringsend m K c _ (dev9_eq c) 3 0 _ (Memref.slice_unit_congr _ (off1_hi c 0 0) _ _ _ _) _ rfl _ rfl _ rfl 8 rfl _) $$ [HB10 HN30 HO HtS30 HtR30]
  · isplitr; · iexact Hrec
    isplitl [HB10]; · iexact HB10
    isplitl [HN30]; · iexact HN30
    isplitl [HO]; · iexact HO
    isplitl [HtS30]; · iexact HtS30
    iexact HtR30
  iintro ⟨HcS30, HO⟩
  rw [show owedFrom c (8 + 1) = owedFrom c 9 from rfl]
  -- arrival (2, 1): chunk z + 1, half 1, takes it
  ihave #HIr21 := (inv_recv m K c 2 1) $$ Hrec
  have hmw21 : (levAts L lv : sProp 𝕄) ⊢ MayWait (c : Thread nD τ) (SemLoc.dma (recvS 2 1)) () (owedFrom c 9) :=
    mayWait_from (F := F) c (.recv 2 1) 9 (by decide)
  sl_exec
  iapply (wp_ld_blk c (zc c + 1) 1 _ _ (off2_eq c 2 1) _) $$ HB11
  iintro HB11
  sl_next
  iapply (wp_ld_slot c 2 1 _ _ rfl _) $$ HaR21_pay1
  iintro %v21 %hv21 HS21
  sl_next
  iapply (wp_ld_blk c (zc c + 1) 1 _ _ (off2_eq c 2 1) _) $$ HB11
  iintro HB11
  sl_next
  iapply (wp_st_blk c (zc c + 1) 1 _ _ (off2_eq c 2 1) _ _ (sentV m 3 c 1)
    (by show accV (xblk m c (zc c + 1) 1) (shapeCast S128x512 v21 shapeCasts_S1x1x128x512_S128x512) = _; rw [hv21]; rfl)) $$ HB11
  iintro HB11
  sl_next
  iapply (wp_ringsend m K c _ (dev10_eq c) 3 1 _ (Memref.slice_unit_congr _ (off1_hi c 0 1) _ _ _ _) _ rfl _ rfl _ rfl 9 rfl _) $$ [HB11 HN31 HO HtS31 HtR31]
  · isplitr; · iexact Hrec
    isplitl [HB11]; · iexact HB11
    isplitl [HN31]; · iexact HN31
    isplitl [HO]; · iexact HO
    isplitl [HtS31]; · iexact HtS31
    iexact HtR31
  iintro ⟨HcS31, HO⟩
  rw [show owedFrom c (9 + 1) = owedFrom c 10 from rfl]
  -- the cut: what is held is the second half's start
  sl_step
  rw [← htl]
  ihave Hx := (owns_intro (c : Thread nD τ) xM fullShare fx) $$ Hx
  rw [hfx]
  ihave Hx := (Entails.of_eq (stg_in_iff (F := F) c (xin m c)).symm) $$ Hx
  ihave HS00 := (slotAny_of_has (F := F) c 0 0 _) $$ HS00
  ihave HS01 := (slotAny_of_has (F := F) c 0 1 _) $$ HS01
  ihave HS10 := (slotAny_of_has (F := F) c 1 0 _) $$ HS10
  ihave HS11 := (slotAny_of_has (F := F) c 1 1 _) $$ HS11
  ihave HS20 := (slotAny_of_has (F := F) c 2 0 _) $$ HS20
  ihave HS21 := (slotAny_of_has (F := F) c 2 1 _) $$ HS21
  iapply Hk $$ %w2 %w5 %w8 %w19 %w31 [-]
  unfold Mid
  isplitr; · iexact Hrec
  isplitr; · iexact Hlev
  isplitl [HO]; · iexists _; iexact HO
  isplitl [HaB]; · iexact HaB
  isplitl [HaR00 HaR01 HaR10 HaR11 HaR20 HaR21]
  · isplitl [HaR00]; · iexact HaR00
    isplitl [HaR01]; · iexact HaR01
    isplitl [HaR10]; · iexact HaR10
    isplitl [HaR11]; · iexact HaR11
    isplitl [HaR20]; · iexact HaR20
    iexact HaR21
  isplitl [HaR30 HaR31 HaR40 HaR41 HaR50 HaR51]
  · isplitl [HaR30]; · iexact HaR30
    isplitl [HaR31]; · iexact HaR31
    isplitl [HaR40]; · iexact HaR40
    isplitl [HaR41]; · iexact HaR41
    isplitl [HaR50]; · iexact HaR50
    iexact HaR51
  isplitl [HaS]; · iexact HaS
  isplitl [HaE]; · iexact HaE
  isplitl [HcR30 HcR31 HcR40 HcR41 HcR50 HcR51]
  · isplitl [HcR30]; · iexact HcR30
    isplitl [HcR31]; · iexact HcR31
    isplitl [HcR40]; · iexact HcR40
    isplitl [HcR41]; · iexact HcR41
    isplitl [HcR50]; · iexact HcR50
    iexact HcR51
  isplitl [HcS00 HcS01 HcS10 HcS11 HcS20 HcS21 HcS30 HcS31]
  · isplitl [HcS00]; · iexact HcS00
    isplitl [HcS01]; · iexact HcS01
    isplitl [HcS10]; · iexact HcS10
    isplitl [HcS11]; · iexact HcS11
    isplitl [HcS20]; · iexact HcS20
    isplitl [HcS21]; · iexact HcS21
    isplitl [HcS30]; · iexact HcS30
    iexact HcS31
  isplitl [HcE]; · iexact HcE
  isplitl [HtR40 HtR41 HtR50 HtR51]
  · isplitl [HtR40]; · iexact HtR40
    isplitl [HtR41]; · iexact HtR41
    isplitl [HtR50]; · iexact HtR50
    iexact HtR51
  isplitl [HtS40 HtS41 HtS50 HtS51]
  · isplitl [HtS40]; · iexact HtS40
    isplitl [HtS41]; · iexact HtS41
    isplitl [HtS50]; · iexact HtS50
    iexact HtS51
  isplitl [HtEp]; · iexact HtEp
  isplitl [HtEn]; · iexact HtEn
  isplitl [HS00 HS01 HS10 HS11 HS20 HS21]
  · isplitl [HS00]; · iexact HS00
    isplitl [HS01]; · iexact HS01
    isplitl [HS10]; · iexact HS10
    isplitl [HS11]; · iexact HS11
    isplitl [HS20]; · iexact HS20
    iexact HS21
  isplitl [HN40 HN41 HN50 HN51]
  · isplitl [HN40]; · iexact HN40
    isplitl [HN41]; · iexact HN41
    isplitl [HN50]; · iexact HN50
    iexact HN51
  iexact Hx

end Cert.KernelIdeal.AR

end
-- ==== Proof.KernelIdealBack.lean ====
/-
  The second half of the body: after each arrival of steps 3 … 5 the departure that read the block is waited
  for and the block is overwritten with what arrived; the departures of steps 4 and 5; the last six departure
  waits; the exit handshake; the own cells closed; the eight blocks and the twelve slots joined again.
-/
import proofs.«900718_g7700000000000719_dist_ar_v7x_xyz2x2x4_z_m1024_n512_f32_1_alg».proof.Proof.KernelIdealMid
import Idealize.ShloMosaic.Lib.Tactic

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (K : Dev nD × CK → ℕ)

attribute [local sl_rounds] duties_at amount_at payload_at expect_at
attribute [local sl_canon] dev1_eq dev2_eq dev3_eq dev4_eq dev5_eq dev6_eq dev7_eq dev8_eq dev9_eq dev10_eq dev11_eq dev12_eq dev13_eq dev14_eq dev15_eq dev16_eq

private theorem dutiesK_exit : dutiesK .exit = {false, true} := by decide
private theorem payK_exit (c : Dev nD) (d : Bool) : payK m c .exit d = (iprop(emp) : sProp 𝕄) := rfl
private theorem dutiesK_send (h : Fin 6) (s : Fin 2) : dutiesK (.send h s) = {false} := rfl
private theorem dutiesK_recv (h : Fin 6) (s : Fin 2) : dutiesK (.recv h s) = {false} := rfl
private theorem amountK_send (h : Fin 6) (s : Fin 2) : amountK (.send h s) = Ncr := rfl
private theorem amountK_recv (h : Fin 6) (s : Fin 2) : amountK (.recv h s) = Ncr := rfl
private theorem expK_send (h : Fin 6) (s : Fin 2) : expK (.send h s) = Ncr := rfl
private theorem expK_recv (h : Fin 6) (s : Fin 2) : expK (.recv h s) = Ncr := rfl
private theorem payK_send (c : Dev nD) (h : Fin 6) (s : Fin 2) (d : Bool) : payK m c (.send h s) d = blk c (zc c + srcK h) s (sentV m h c s) := rfl
private theorem payK_recv (c : Dev nD) (h : Fin 6) (s : Fin 2) (d : Bool) : payK m c (.recv h s) d = slotHas c h s (sentV m h (prv c) s) := rfl

attribute [local sl_rounds] dutiesK_exit payK_exit dutiesK_send dutiesK_recv amountK_send amountK_recv expK_send expK_recv payK_send payK_recv

section Copy
variable {α : Type} {Q : α → sProp (MT nD τ sig Unit (Elt F) ℕ UU ℕ)} {kont : PUnit → Prog (TpuEff nD τ sig (Elt F) Λ₀ .tc) α}

/-- Copying a slot into a block of the result: the slot is loaded, the block is loaded (the value is not used),
    the slot's contents are stored over the block. The slot keeps what it held; the block now holds the same
    (restated at the names `j'`, `X'` the next step reads it by). -/
theorem wp_copy (c : Dev nD) (g : Fin 6) (s : Fin 2) (j : Fin 4) (X Y : Blk F) (j' : Fin 4) (X' : Blk F) (hj : j' = j) (hX : X' = X)
    (o : Fin 2 → ℕ) (ho : o = off j s) (inb : ∀ a, o a + S128x512.size a ≤ S1024x512.size a)
    (so : Fin 4 → ℕ) (hso : so = sOff g s) (sinb : ∀ a, so a + S1x1x128x512.size a ≤ S6x2x128x512.size a)
    {hl1 : (rM : Memref sig .tc .vmem S6x2x128x512 .f32).view.LoadsAt (Rect.unit (s := S6x2x128x512) so S1x1x128x512.size sinb).toLoadRect}
    {hl2 : (oM : Memref sig .tc .vmem S1024x512 .f32).view.LoadsAt (Rect.unit (s := S1024x512) o S128x512.size inb).toLoadRect}
    {hx : ((oM : Memref sig .tc .vmem S1024x512 .f32).access (Rect.unit (s := S1024x512) o S128x512.size inb)).Stores Finset.univ}
    {hm : (Finset.univ : Finset (Rect.unit (s := S1024x512) o S128x512.size inb).shape.Idx) = Finset.univ ∨ ∀ a, (Rect.unit (s := S1024x512) o S128x512.size inb).stride a = 1}
    (pay : Vec F S1x1x128x512 .f32 → FVec F S128x512 .f32) (hpay : ∀ v, pay v = shapeCast S128x512 v shapeCasts_S1x1x128x512_S128x512) :
    iprop(slotHas c g s X ∗ blk c j s Y)
      ⊢ iprop(((slotHas c g s X ∗ blk c j' s X') -∗ wp frame (wpE (defs₀ (F := F)) 𝒱₀ (c : Thread nD τ) none) Set.univ (kont ⟨⟩) Q)
          -∗ wp frame (wpE (defs₀ (F := F)) 𝒱₀ (c : Thread nD τ) none) Set.univ
            (.op (.load rM (Rect.unit (s := S6x2x128x512) so S1x1x128x512.size sinb).toLoadRect hl1) fun v =>
             .op (.load oM (Rect.unit (s := S1024x512) o S128x512.size inb).toLoadRect hl2) fun _ =>
             .op (.store oM (Rect.unit (s := S1024x512) o S128x512.size inb) (pay v) Finset.univ hx hm) kont) Q) := by
  subst ho hso hj hX
  unfold slotHas blk owns
  iintro ⟨Hs, Hb⟩ Hk
  icases Hs with ⟨%fs, %hfs, Hs⟩
  icases Hb with ⟨%fb, %hfb, Hb⟩
  sl_exec
  iapply Hk
  isplitl [Hs]
  · iexists fs
    isplitr
    · ipureintro; exact hfs
    · iexact Hs
  · iexists _
    isplitr
    swap
    · iexact Hb
    · ipureintro
      unfold wp_copy.sl.Hb_w1
      rw [hpay]
      exact (View.read_write_univ _ _).trans hfs
end Copy

/-- Every own cell at the end of its round: the 25 counters come back at zero. -/
theorem close_all (c : Dev nD) :
    iprop(records m K
        ∗ ((atPos ER (sendCell c 0 0) 1 ∅ 0 ∗ atPos ER (sendCell c 0 1) 1 ∅ 0 ∗ atPos ER (sendCell c 1 0) 1 ∅ 0 ∗ atPos ER (sendCell c 1 1) 1 ∅ 0 ∗ atPos ER (sendCell c 2 0) 1 ∅ 0 ∗ atPos ER (sendCell c 2 1) 1 ∅ 0 ∗ atPos ER (sendCell c 3 0) 1 ∅ 0 ∗ atPos ER (sendCell c 3 1) 1 ∅ 0 ∗ atPos ER (sendCell c 4 0) 1 ∅ 0 ∗ atPos ER (sendCell c 4 1) 1 ∅ 0 ∗ atPos ER (sendCell c 5 0) 1 ∅ 0 ∗ atPos ER (sendCell c 5 1) 1 ∅ 0)
          ∗ (atPos ER (recvCell c 0 0) 1 ∅ 0 ∗ atPos ER (recvCell c 0 1) 1 ∅ 0 ∗ atPos ER (recvCell c 1 0) 1 ∅ 0 ∗ atPos ER (recvCell c 1 1) 1 ∅ 0 ∗ atPos ER (recvCell c 2 0) 1 ∅ 0 ∗ atPos ER (recvCell c 2 1) 1 ∅ 0 ∗ atPos ER (recvCell c 3 0) 1 ∅ 0 ∗ atPos ER (recvCell c 3 1) 1 ∅ 0 ∗ atPos ER (recvCell c 4 0) 1 ∅ 0 ∗ atPos ER (recvCell c 4 1) 1 ∅ 0 ∗ atPos ER (recvCell c 5 0) 1 ∅ 0 ∗ atPos ER (recvCell c 5 1) 1 ∅ 0)
          ∗ atPos ER (exitCell c) 1 ∅ 0))
      ⊢ (|={Set.univ}=> Pipeline.ownSems0 osem c : sProp 𝕄) := by
  refine BIBase.Entails.trans ?_ (close_own m K c)
  rw [bigSep_own (fun k : OK => (atPos ER (kcell (c, k.ck)) 1 ∅ 0 : sProp 𝕄)),
    bigSep_slots (fun h s => (atPos ER (kcell (c, (OK.send h s).ck)) 1 ∅ 0 : sProp 𝕄)),
    bigSep_slots (fun h s => (atPos ER (kcell (c, (OK.recv h s).ck)) 1 ∅ 0 : sProp 𝕄))]
  exact .rfl

/-- The twelve slots of the device's landing buffer, six at whatever they hold and six at what arrived, make the buffer again. -/
theorem slots_join (c : Dev nD) (X30 X31 X40 X41 X50 X51 : Blk F) :
    iprop(slotAny c 0 0 ∗ slotAny c 0 1 ∗ slotAny c 1 0 ∗ slotAny c 1 1 ∗ slotAny c 2 0 ∗ slotAny c 2 1
        ∗ slotHas c 3 0 X30 ∗ slotHas c 3 1 X31 ∗ slotHas c 4 0 X40 ∗ slotHas c 4 1 X41 ∗ slotHas c 5 0 X50 ∗ slotHas c 5 1 X51)
      ⊢ (iprop(∃ f, scrPts c f) : sProp 𝕄) := by
  refine BIBase.Entails.trans ?_ (scr_join c)
  rw [bigSep_slots (fun h s => (slotAny c h s : sProp 𝕄))]
  iintro ⟨H00, H01, H10, H11, H20, H21, H30, H31, H40, H41, H50, H51⟩
  ihave H30 := (slotAny_of_has c 3 0 X30) $$ H30
  ihave H31 := (slotAny_of_has c 3 1 X31) $$ H31
  ihave H40 := (slotAny_of_has c 4 0 X40) $$ H40
  ihave H41 := (slotAny_of_has c 4 1 X41) $$ H41
  ihave H50 := (slotAny_of_has c 5 0 X50) $$ H50
  ihave H51 := (slotAny_of_has c 5 1 X51) $$ H51
  iframe

/-- The eight blocks at the end: chunk z holds what step 4 sent, chunk z + 1 what step 3 sent, chunk z + 2 what the left
    neighbour sent at step 5, chunk z + 3 what step 5 sent. Together they are the result buffer at its final contents. -/
theorem blocks_join (c : Dev nD) :
    iprop(blk c (zc c + srcK 4) 0 (sentV m 4 c 0) ∗ blk c (zc c + srcK 4) 1 (sentV m 4 c 1)
        ∗ blk c (zc c + srcK 3) 0 (sentV m 3 c 0) ∗ blk c (zc c + srcK 3) 1 (sentV m 3 c 1)
        ∗ blk c (zc c + srcK 2) 0 (sentV m 5 (prv c) 0) ∗ blk c (zc c + srcK 2) 1 (sentV m 5 (prv c) 1)
        ∗ blk c (zc c + srcK 5) 0 (sentV m 5 c 0) ∗ blk c (zc c + srcK 5) 1 (sentV m 5 c 1))
      ⊢ (stg c cc0_stg1_0 (outAt m c) : sProp 𝕄) := by
  have e : ∀ (k : Fin 4) (s : Fin 2), (fun i => outAt m c ((oRect (zc c + k) s).emb i) : Blk F) = finV m c k s := fun k s => by
    have h := outAt_block m c (zc c + k) s
    rw [add_sub_cancel_left] at h
    exact h
  rw [stg_out_iff]
  refine BIBase.Entails.trans ?_ (out_join c (outAt m c))
  rw [bigSep_blocks (zc c) (fun j s => (blk c j s (fun i => outAt m c ((oRect j s).emb i)) : sProp 𝕄))]
  simp only [e]
  exact .rfl

set_option maxHeartbeats 1600000 in
/-- From the cut to the body's end. -/
theorem back_half (c : Dev nD) (v2 v5 v8 v19 v31 : BitVec 32) (Kt : PUnit → sProp 𝕄) :
    iprop(Mid m K c ∗ (bodyPost m c -∗ Kt ⟨⟩))
      ⊢ wp frame (wpE (defs₀ (F := F)) 𝒱₀ c none) Set.univ (tail16 (F := F) c v2 v5 v8 v19 v31) Kt := by
  rw [Mid, tail16, bigSep_slots (fun h s => atPos ER (sendCell c h s) 0 ∅ 0)]
  iintro ⟨⟨#Hrec, #Hlev, ⟨%W, Howes⟩, HaBar, ⟨HaR00, HaR01, HaR10, HaR11, HaR20, HaR21⟩, ⟨HaR30, HaR31, HaR40, HaR41, HaR50, HaR51⟩,
    ⟨HaS00, HaS01, HaS10, HaS11, HaS20, HaS21, HaS30, HaS31, HaS40, HaS41, HaS50, HaS51⟩, HaX,
    ⟨HcR30, HcR31, HcR40, HcR41, HcR50, HcR51⟩, ⟨HcS00, HcS01, HcS10, HcS11, HcS20, HcS21, HcS30, HcS31⟩, HcX,
    ⟨HtR40, HtR41, HtR50, HtR51⟩, ⟨HtS40, HtS41, HtS50, HtS51⟩, HtXp, HtXn,
    ⟨Hs00, Hs01, Hs10, Hs11, Hs20, Hs21⟩, ⟨Hn40, Hn41, Hn50, Hn51⟩, Hin⟩, Hk⟩
  ihave #HIr30 := (inv_at m K (c, .recv 3 0)) $$ Hrec
  ihave #HIr31 := (inv_at m K (c, .recv 3 1)) $$ Hrec
  ihave #HIr40 := (inv_at m K (c, .recv 4 0)) $$ Hrec
  ihave #HIr41 := (inv_at m K (c, .recv 4 1)) $$ Hrec
  ihave #HIr50 := (inv_at m K (c, .recv 5 0)) $$ Hrec
  ihave #HIr51 := (inv_at m K (c, .recv 5 1)) $$ Hrec
  ihave #HIs00 := (inv_at m K (c, .send 0 0)) $$ Hrec
  ihave #HIs01 := (inv_at m K (c, .send 0 1)) $$ Hrec
  ihave #HIs10 := (inv_at m K (c, .send 1 0)) $$ Hrec
  ihave #HIs11 := (inv_at m K (c, .send 1 1)) $$ Hrec
  ihave #HIs20 := (inv_at m K (c, .send 2 0)) $$ Hrec
  ihave #HIs21 := (inv_at m K (c, .send 2 1)) $$ Hrec
  ihave #HIs30 := (inv_at m K (c, .send 3 0)) $$ Hrec
  ihave #HIs31 := (inv_at m K (c, .send 3 1)) $$ Hrec
  ihave #HIs40 := (inv_at m K (c, .send 4 0)) $$ Hrec
  ihave #HIs41 := (inv_at m K (c, .send 4 1)) $$ Hrec
  ihave #HIs50 := (inv_at m K (c, .send 5 0)) $$ Hrec
  ihave #HIs51 := (inv_at m K (c, .send 5 1)) $$ Hrec
  ihave #HIx := (inv_at m K (c, .exit)) $$ Hrec
  have hmw_r30 : (levAts L lv : sProp 𝕄) ⊢ MayWait (c : Thread nD τ) (SemLoc.dma (recvS 3 0)) () (owedFrom c 10) :=
    mayWait_from (F := F) c (.recv 3 0) 10 (by decide)
  have hmw_r31 : (levAts L lv : sProp 𝕄) ⊢ MayWait (c : Thread nD τ) (SemLoc.dma (recvS 3 1)) () (owedFrom c 11) :=
    mayWait_from (F := F) c (.recv 3 1) 11 (by decide)
  have hmw_r40 : (levAts L lv : sProp 𝕄) ⊢ MayWait (c : Thread nD τ) (SemLoc.dma (recvS 4 0)) () (owedFrom c 12) :=
    mayWait_from (F := F) c (.recv 4 0) 12 (by decide)
  have hmw_r41 : (levAts L lv : sProp 𝕄) ⊢ MayWait (c : Thread nD τ) (SemLoc.dma (recvS 4 1)) () (owedFrom c 13) :=
    mayWait_from (F := F) c (.recv 4 1) 13 (by decide)
  have hmw_r50 : (levAts L lv : sProp 𝕄) ⊢ MayWait (c : Thread nD τ) (SemLoc.dma (recvS 5 0)) () (owedFrom c 14) :=
    mayWait_from (F := F) c (.recv 5 0) 14 (by decide)
  have hmw_r51 : (levAts L lv : sProp 𝕄) ⊢ MayWait (c : Thread nD τ) (SemLoc.dma (recvS 5 1)) () (owedFrom c 14) :=
    mayWait_from (F := F) c (.recv 5 1) 14 (by decide)
  have hmw_s00 : (levAts L lv : sProp 𝕄) ⊢ MayWait (c : Thread nD τ) (SemLoc.dma (sendS 0 0)) () (owedFrom c 10) :=
    mayWait_from (F := F) c (.send 0 0) 10 (by decide)
  have hmw_s01 : (levAts L lv : sProp 𝕄) ⊢ MayWait (c : Thread nD τ) (SemLoc.dma (sendS 0 1)) () (owedFrom c 11) :=
    mayWait_from (F := F) c (.send 0 1) 11 (by decide)
  have hmw_s10 : (levAts L lv : sProp 𝕄) ⊢ MayWait (c : Thread nD τ) (SemLoc.dma (sendS 1 0)) () (owedFrom c 12) :=
    mayWait_from (F := F) c (.send 1 0) 12 (by decide)
  have hmw_s11 : (levAts L lv : sProp 𝕄) ⊢ MayWait (c : Thread nD τ) (SemLoc.dma (sendS 1 1)) () (owedFrom c 13) :=
    mayWait_from (F := F) c (.send 1 1) 13 (by decide)
  have hmw_s20 : (levAts L lv : sProp 𝕄) ⊢ MayWait (c : Thread nD τ) (SemLoc.dma (sendS 2 0)) () (owedFrom c 14) :=
    mayWait_from (F := F) c (.send 2 0) 14 (by decide)
  have hmw_s21 : (levAts L lv : sProp 𝕄) ⊢ MayWait (c : Thread nD τ) (SemLoc.dma (sendS 2 1)) () (owedFrom c 14) :=
    mayWait_from (F := F) c (.send 2 1) 14 (by decide)
  have hmw_s30 : (levAts L lv : sProp 𝕄) ⊢ MayWait (c : Thread nD τ) (SemLoc.dma (sendS 3 0)) () (owedFrom c 14) :=
    mayWait_from (F := F) c (.send 3 0) 14 (by decide)
  have hmw_s31 : (levAts L lv : sProp 𝕄) ⊢ MayWait (c : Thread nD τ) (SemLoc.dma (sendS 3 1)) () (owedFrom c 14) :=
    mayWait_from (F := F) c (.send 3 1) 14 (by decide)
  have hmw_s40 : (levAts L lv : sProp 𝕄) ⊢ MayWait (c : Thread nD τ) (SemLoc.dma (sendS 4 0)) () (owedFrom c 14) :=
    mayWait_from (F := F) c (.send 4 0) 14 (by decide)
  have hmw_s41 : (levAts L lv : sProp 𝕄) ⊢ MayWait (c : Thread nD τ) (SemLoc.dma (sendS 4 1)) () (owedFrom c 14) :=
    mayWait_from (F := F) c (.send 4 1) 14 (by decide)
  have hmw_s50 : (levAts L lv : sProp 𝕄) ⊢ MayWait (c : Thread nD τ) (SemLoc.dma (sendS 5 0)) () (owedFrom c 14) :=
    mayWait_from (F := F) c (.send 5 0) 14 (by decide)
  have hmw_s51 : (levAts L lv : sProp 𝕄) ⊢ MayWait (c : Thread nD τ) (SemLoc.dma (sendS 5 1)) () (owedFrom c 14) :=
    mayWait_from (F := F) c (.send 5 1) 14 (by decide)
  have hmw_x : (levAts L lv : sProp 𝕄) ⊢ MayWait (c : Thread nD τ) (SemLoc.reg exitS) () (owedFrom c 16) :=
    mayWait_from (F := F) c .exit 16 (by decide)
  ihave #HIxp := (inv_at m K (prv c, .exit)) $$ Hrec
  ihave #HIxn := (inv_at m K (nxt c, .exit)) $$ Hrec
  ihave #HRxp := (reached_at m K (prv c, .exit)) $$ Hrec
  ihave #HRxn := (reached_at m K (nxt c, .exit)) $$ Hrec
  simp only [k0_part16_eq_skeleton]; unfold k0_part16_skel
  sl_exec
  simp only [Prog.lift, Prog.bind_op, Prog.bind_ret, Prog.pure_eq_ret]
  iapply (wp_copy c 3 0 (zc c + srcK 0) (sentV m 3 (prv c) 0) (sentV m 0 c 0) (zc c + srcK 4) (sentV m 4 c 0) rfl rfl _ (off3_eq c 0 0) _ _ rfl _ _ (fun _ => rfl)) $$ [HaR30_pay1 HaS00_pay1]
  · iframe
  iintro ⟨Hr30, Hb30⟩
  sl_exec
  have e40 : (oM.slice (Rect.unit (s := S1024x512) (k0_off1 c 8#32 4#32 0#32) S128x512.size (k0_off1_inb c 8)) (fun _ => rfl)) = oB (zc c + srcK 4) 0 :=
    Memref.slice_unit_congr _ (off1_hi c 1 0) _ _ _ _
  iapply (wp_ringsend m K c _ (dev11_eq c) 4 0 _ e40 _ rfl _ rfl _ rfl 10 rfl _) $$ [Hb30 Hn40 Howes HtS40 HtR40]
  · iframe
    iexact Hrec
  iintro ⟨HcS40, Howes⟩
  sl_exec
  simp only [Prog.lift, Prog.bind_op, Prog.bind_ret, Prog.pure_eq_ret]
  iapply (wp_copy c 3 1 (zc c + srcK 0) (sentV m 3 (prv c) 1) (sentV m 0 c 1) (zc c + srcK 4) (sentV m 4 c 1) rfl rfl _ (off3_eq c 0 1) _ _ rfl _ _ (fun _ => rfl)) $$ [HaR31_pay1 HaS01_pay1]
  · iframe
  iintro ⟨Hr31, Hb31⟩
  sl_exec
  have e41 : (oM.slice (Rect.unit (s := S1024x512) (k0_off1 c 8#32 4#32 128#32) S128x512.size (k0_off1_inb c 9)) (fun _ => rfl)) = oB (zc c + srcK 4) 1 :=
    Memref.slice_unit_congr _ (off1_hi c 1 1) _ _ _ _
  iapply (wp_ringsend m K c _ (dev12_eq c) 4 1 _ e41 _ rfl _ rfl _ rfl 11 rfl _) $$ [Hb31 Hn41 Howes HtS41 HtR41]
  · iframe
    iexact Hrec
  iintro ⟨HcS41, Howes⟩
  sl_exec
  simp only [Prog.lift, Prog.bind_op, Prog.bind_ret, Prog.pure_eq_ret]
  iapply (wp_copy c 4 0 (zc c + srcK 1) (sentV m 4 (prv c) 0) (sentV m 1 c 0) (zc c + srcK 5) (sentV m 5 c 0) rfl rfl _ (off3_eq c 1 0) _ _ rfl _ _ (fun _ => rfl)) $$ [HaR40_pay1 HaS10_pay1]
  · iframe
  iintro ⟨Hr40, Hb40⟩
  sl_exec
  have e50 : (oM.slice (Rect.unit (s := S1024x512) (k0_off1 c 8#32 5#32 0#32) S128x512.size (k0_off1_inb c 10)) (fun _ => rfl)) = oB (zc c + srcK 5) 0 :=
    Memref.slice_unit_congr _ (off1_hi c 2 0) _ _ _ _
  iapply (wp_ringsend m K c _ (dev13_eq c) 5 0 _ e50 _ rfl _ rfl _ rfl 12 rfl _) $$ [Hb40 Hn50 Howes HtS50 HtR50]
  · iframe
    iexact Hrec
  iintro ⟨HcS50, Howes⟩
  sl_exec
  simp only [Prog.lift, Prog.bind_op, Prog.bind_ret, Prog.pure_eq_ret]
  iapply (wp_copy c 4 1 (zc c + srcK 1) (sentV m 4 (prv c) 1) (sentV m 1 c 1) (zc c + srcK 5) (sentV m 5 c 1) rfl rfl _ (off3_eq c 1 1) _ _ rfl _ _ (fun _ => rfl)) $$ [HaR41_pay1 HaS11_pay1]
  · iframe
  iintro ⟨Hr41, Hb41⟩
  sl_exec
  have e51 : (oM.slice (Rect.unit (s := S1024x512) (k0_off1 c 8#32 5#32 128#32) S128x512.size (k0_off1_inb c 11)) (fun _ => rfl)) = oB (zc c + srcK 5) 1 :=
    Memref.slice_unit_congr _ (off1_hi c 2 1) _ _ _ _
  iapply (wp_ringsend m K c _ (dev14_eq c) 5 1 _ e51 _ rfl _ rfl _ rfl 13 rfl _) $$ [Hb41 Hn51 Howes HtS51 HtR51]
  · iframe
    iexact Hrec
  iintro ⟨HcS51, Howes⟩
  sl_exec
  simp only [Prog.lift, Prog.bind_op, Prog.bind_ret, Prog.pure_eq_ret]
  iapply (wp_copy c 5 0 (zc c + srcK 2) (sentV m 5 (prv c) 0) (sentV m 2 c 0) (zc c + srcK 2) (sentV m 5 (prv c) 0) rfl rfl _ (off3_eq c 2 0) _ _ rfl _ _ (fun _ => rfl)) $$ [HaR50_pay1 HaS20_pay1]
  · iframe
  iintro ⟨Hr50, Hb50⟩
  sl_exec
  simp only [Prog.lift, Prog.bind_op, Prog.bind_ret, Prog.pure_eq_ret]
  iapply (wp_copy c 5 1 (zc c + srcK 2) (sentV m 5 (prv c) 1) (sentV m 2 c 1) (zc c + srcK 2) (sentV m 5 (prv c) 1) rfl rfl _ (off3_eq c 2 1) _ _ rfl _ _ (fun _ => rfl)) $$ [HaR51_pay1 HaS21_pay1]
  · iframe
  iintro ⟨Hr51, Hb51⟩
  sl_exec
  rw [show owedFrom c (13 + 1) = owedFrom c 16 + tallyAt (exitCell (nxt c)) () 1 + tallyAt (exitCell (prv c)) () 1 from rfl]
  sl_exec
  imod (close_all m K c) $$ [HaS00 HaS01 HaS10 HaS11 HaS20 HaS21 HaS30 HaS31 HaS40 HaS41 HaS50 HaS51 HaR00 HaR01 HaR10 HaR11 HaR20 HaR21 HaR30 HaR31 HaR40 HaR41 HaR50 HaR51 HaX] with Hown
  · iframe
    iexact Hrec
  sl_step
  iapply Hk
  unfold bodyPost Φ₁
  isplitl [Hs00 Hs01 Hs10 Hs11 Hs20 Hs21 Hr30 Hr31 Hr40 Hr41 Hr50 Hr51 Hown]
  · isplitr [Hown]
    · iapply (slots_join c _ _ _ _ _ _) $$ [Hs00 Hs01 Hs10 Hs11 Hs20 Hs21 Hr30 Hr31 Hr40 Hr41 Hr50 Hr51]
      iframe
    · iexact Hown
  isplitl [Howes]
  · iexists _
    isplitr
    swap
    · iexact Howes
    · ipureintro; exact fun _ _ => Or.inl trivial
  isplitl [Hin]
  · iexact Hin
  iapply (blocks_join m c) $$ [HaS40_pay1 HaS41_pay1 HaS30_pay1 HaS31_pay1 Hb50 Hb51 HaS50_pay1 HaS51_pay1]
  iframe

end Cert.KernelIdeal.AR

end
-- ==== Proof.KernelIdealBody.lean ====
/-
  One device's kernel body, run once at a symbolic device: from the ghost state, the credits, the landing
  buffer and the two staging buffers to the landing buffer, the own cells closed, the input staging buffer
  unchanged and the result staging buffer holding the ring's sum. The two halves, composed.
-/
import proofs.«900718_g7700000000000719_dist_ar_v7x_xyz2x2x4_z_m1024_n512_f32_1_alg».proof.Proof.KernelIdealFront
import proofs.«900718_g7700000000000719_dist_ar_v7x_xyz2x2x4_z_m1024_n512_f32_1_alg».proof.Proof.KernelIdealBack
import Idealize.ShloMosaic.Lib.Tactic

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (K : Dev nD × CK → ℕ)

/-- The body, from `bodyPre` to `bodyPost`. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2 cc0_scoped0) Kt := by
  iintro ⟨Hpre, Hk⟩
  iapply (front_half m K c Kt)
  isplitl [Hpre]; · iexact Hpre
  iintro %v2 %v5 %v8 %v19 %v31 HMid
  iapply (back_half m K c v2 v5 v8 v19 v31 Kt)
  isplitl [HMid]; · iexact HMid
  iexact Hk

end Cert.KernelIdeal.AR

end
-- ==== Proof.KernelIdealCreds.lean ====
/-
  The credit a device is dealt at launch: one token for each unit its two ring neighbours owe it — the entry
  handshake's two units, each arrival's transfer, the exit handshake's two units. Every device owes the same sixteen
  dues to its neighbours, so summed over the ring each device is owed exactly what it waits for.
-/
import proofs.«900718_g7700000000000719_dist_ar_v7x_xyz2x2x4_z_m1024_n512_f32_1_alg».proof.Proof.KernelIdealInv
import Idealize.ShloMosaic.Lib.Tactic
import Idealize.ShloMosaic.Lib.Pipeline.Launch

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

/-- What every device owes, written out: sixteen one-cell tallies, the last due innermost. -/
theorem O₀_eq : (O₀ : Dev nD → CellTallies nD τ sig Unit) = fun d =>
    0 + tallyAt (exitCell (nxt d)) () 1 + tallyAt (exitCell (prv d)) () 1
      + tallyAt (recvCell (nxt d) 5 1) () Ncr + tallyAt (recvCell (nxt d) 5 0) () Ncr
      + tallyAt (recvCell (nxt d) 4 1) () Ncr + tallyAt (recvCell (nxt d) 4 0) () Ncr
      + tallyAt (recvCell (nxt d) 3 1) () Ncr + tallyAt (recvCell (nxt d) 3 0) () Ncr
      + tallyAt (recvCell (nxt d) 2 1) () Ncr + tallyAt (recvCell (nxt d) 2 0) () Ncr
      + tallyAt (recvCell (nxt d) 1 1) () Ncr + tallyAt (recvCell (nxt d) 1 0) () Ncr
      + tallyAt (recvCell (nxt d) 0 1) () Ncr + tallyAt (recvCell (nxt d) 0 0) () Ncr
      + tallyAt (barCell (nxt d)) () 1 + tallyAt (barCell (prv d)) () 1 := by
  funext d; rfl

/-- Every device owing `n` on its right neighbour's cell of kind `k`, each device is dealt `n` on its own cell of that
    kind (from its left neighbour); -/
theorem cred_from_prv (k : CK) (n : ℕ) (c : Dev nD) :
    (Pipeline.launchCred (fun d => tallyAt (kcell (nxt d, k)) () n) c : sProp 𝕄) ⊢ cred (tallyAt (kcell (c, k)) () n) :=
  Pipeline.launchCred_tallyAt (csem k) nxt prv nxt_prv prv_nxt () n c
/-- and the same for what every device owes its left neighbour (dealt from the right neighbour). -/
theorem cred_from_nxt (k : CK) (n : ℕ) (c : Dev nD) :
    (Pipeline.launchCred (fun d => tallyAt (kcell (prv d, k)) () n) c : sProp 𝕄) ⊢ cred (tallyAt (kcell (c, k)) () n) :=
  Pipeline.launchCred_tallyAt (csem k) prv nxt prv_nxt nxt_prv () n c

/-- Two units on one cell are one credit of two. -/
theorem cred_two (g : GSem nD τ sig) : iprop(cred (tallyAt g () 1) ∗ cred (tallyAt g () 1)) ⊢ (cred (tallyAt g () 2) : sProp 𝕄) :=
  (cred_add _ _).2.trans (Entails.of_eq (by rw [tallyAt_add]))

/-- The twelve (step, half) pairs, in order. -/
theorem bigSep_pairs (Φ : Fin 6 × Fin 2 → sProp 𝕄) :
    bigSep Finset.univ Φ = iprop(Φ (0, 0) ∗ Φ (0, 1) ∗ Φ (1, 0) ∗ Φ (1, 1) ∗ Φ (2, 0) ∗ Φ (2, 1) ∗ Φ (3, 0) ∗ Φ (3, 1)
      ∗ Φ (4, 0) ∗ Φ (4, 1) ∗ Φ (5, 0) ∗ Φ (5, 1)) := by
  rw [bigSep_univ_eq_bigSepL [(0, 0), (0, 1), (1, 0), (1, 1), (2, 0), (2, 1), (3, 0), (3, 1), (4, 0), (4, 1), (5, 0), (5, 1)] (by decide) (by decide)]
  rfl

/-- The launch credit under the sixteen dues is the device's waits' credit. -/
theorem creds_of_launch (c : Dev nD) : (Pipeline.launchCred O₀ c : sProp 𝕄) ⊢ creds c := by
  rw [O₀_eq]
  simp only [Pipeline.launchCred_add, Pipeline.launchCred_zero]
  unfold creds
  rw [bigSep_pairs]
  iintro ⟨⟨⟨⟨⟨⟨⟨⟨⟨⟨⟨⟨⟨⟨⟨⟨-, HxN⟩, HxP⟩, H51⟩, H50⟩, H41⟩, H40⟩, H31⟩, H30⟩, H21⟩, H20⟩, H11⟩, H10⟩, H01⟩, H00⟩, HbN⟩, HbP⟩
  isplitl [HbN HbP]
  · iapply (cred_two (barCell c))
    isplitl [HbN]
    · iapply (cred_from_prv .bar 1 c); iexact HbN
    · iapply (cred_from_nxt .bar 1 c); iexact HbP
  isplitr [HxN HxP]
  · isplitl [H00]; · iapply (cred_from_prv (.recv 0 0) Ncr c); iexact H00
    isplitl [H01]; · iapply (cred_from_prv (.recv 0 1) Ncr c); iexact H01
    isplitl [H10]; · iapply (cred_from_prv (.recv 1 0) Ncr c); iexact H10
    isplitl [H11]; · iapply (cred_from_prv (.recv 1 1) Ncr c); iexact H11
    isplitl [H20]; · iapply (cred_from_prv (.recv 2 0) Ncr c); iexact H20
    isplitl [H21]; · iapply (cred_from_prv (.recv 2 1) Ncr c); iexact H21
    isplitl [H30]; · iapply (cred_from_prv (.recv 3 0) Ncr c); iexact H30
    isplitl [H31]; · iapply (cred_from_prv (.recv 3 1) Ncr c); iexact H31
    isplitl [H40]; · iapply (cred_from_prv (.recv 4 0) Ncr c); iexact H40
    isplitl [H41]; · iapply (cred_from_prv (.recv 4 1) Ncr c); iexact H41
    isplitl [H50]; · iapply (cred_from_prv (.recv 5 0) Ncr c); iexact H50
    iapply (cred_from_prv (.recv 5 1) Ncr c); iexact H51
  · iapply (cred_two (exitCell c))
    isplitl [HxN]
    · iapply (cred_from_prv .exit 1 c); iexact HxN
    · iapply (cred_from_nxt .exit 1 c); iexact HxP

#print axioms creds_of_launch

end Cert.KernelIdeal.AR

end
-- ==== Proof.KernelIdealFinal.lean ====
/-
  The arrays after the run: the input array is never written; the result array is written once, whole, with
  what the body left in the result's staging buffer.
-/
import proofs.«900718_g7700000000000719_dist_ar_v7x_xyz2x2x4_z_m1024_n512_f32_1_alg».proof.Proof.KernelIdealInv
import Idealize.ShloMosaic.Lib.Tactic

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-- The input array at the end is the input array. -/
theorem finalA_in (c : Dev nD) : (dats m 0 c).arrAt (0 : Fin 2) cfg0.N = m ((c.tc : Thread nD τ).loc main_arg0) := by
  exact (dats m 0 c).arrAt_in (0 : Fin 2) rfl _

/-- The result array at the end is the ring's sum, as the body left it in the staging buffer. -/
theorem finalA_out (c : Dev nD) : (dats m 0 c).arrAt (1 : Fin 2) cfg0.N = outAt m c := by
  -- the one point of the run writes the result back,
  have hfl : (cfg0.win 1).flush t₀ = true := by decide
  show (dats m 0 c).arrAt (1 : Fin 2) ((t₀ : Fin cfg0.N).val + 1) = outAt m c
  rw [Dat.arrAt_succ, if_pos hfl]
  -- and its block is the whole array at offset zero, so the write replaces the contents by what the body left
  exact Memref.write_access_unit_zero_univ (Elt F) main_v1 (funext fun a => Nat.zero_mul _) _ _ _

end Cert.KernelIdeal.AR

end
-- ==== Proof.KernelIdealLaunch.lean ====
/-
  The launch: sixteen devices, each running the body once. The ring's ghost state (26 cells a device, their
  duty tokens dealt to the payers around the ring), the credit each device is dealt for what its neighbours owe
  it, the levels; then the run: every weakly fair interleaving of the sixteen kernels terminates, nothing
  faults, every device's result array ends holding the ring's sum and its input array is unchanged.
-/
import proofs.«900718_g7700000000000719_dist_ar_v7x_xyz2x2x4_z_m1024_n512_f32_1_alg».proof.Proof.KernelIdealBody
import proofs.«900718_g7700000000000719_dist_ar_v7x_xyz2x2x4_z_m1024_n512_f32_1_alg».proof.Proof.KernelIdealCreds
import proofs.«900718_g7700000000000719_dist_ar_v7x_xyz2x2x4_z_m1024_n512_f32_1_alg».proof.Proof.KernelIdealFinal
import proofs.«900718_g7700000000000719_dist_ar_v7x_xyz2x2x4_z_m1024_n512_f32_1_alg».proof.Proof.Gen.KernelIdeal.Launch
import proofs.«900718_g7700000000000719_dist_ar_v7x_xyz2x2x4_z_m1024_n512_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (K : Dev nD × CK → ℕ)

variable (ρ : Dev nD → PrngReg)

/-! ## The body obligation -/

omit [FloatOps F] in
/-- The two windows conjoined one by one. -/
theorem bigSep_W (Φ : Fin cfg0.W → sProp 𝕄) : bigSep Finset.univ Φ = iprop(Φ (0 : Fin 2) ∗ Φ (1 : Fin 2)) := bigSep_W0 Φ

omit [FloatOps F] in
/-- A whole buffer held at `X`, in the two spellings. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

set_option maxRecDepth 4000 in
/-- What the one point starts from: the invariant before it, what the device owes, the two staging buffers. -/
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The body obligation on device `c`: the body lemma at the names the device's ghost state was allocated at. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2 cc0_scoped0) (fun _ => bodyPost m c)
  unfold bodyPre' Φ₀ start
  iintro ⟨⟨⟨⟨%K, Hg⟩, Hcr, Hlev⟩, Hscr⟩, Ho, Hx, Hout⟩
  iapply (sound_body m K c fun _ => bodyPost m c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

/-! ## The launch -/

/-- The 25 own semaphores are scoped, distinct, and none of them a staging semaphore. -/
theorem ownSemFacts : Pipeline.OwnSemFacts cfg0.spec osem := by decide

/-- Both arrays are held whole. -/
theorem share_eq (c : Dev nD) (w : Fin cfg0.W) : (dats m 0 c).share w = fullShare := by unfold Dat.share; split <;> rfl

/-- A device's cells: the entry handshake's, the twelve departures', the twelve arrivals', the exit handshake's. -/
def ckParts : Unit ⊕ (Fin 6 × Fin 2) ⊕ (Fin 6 × Fin 2) ⊕ Unit ≃ CK where
  toFun
    | .inl _ => .bar
    | .inr (.inl hs) => .send hs.1 hs.2
    | .inr (.inr (.inl hs)) => .recv hs.1 hs.2
    | .inr (.inr (.inr _)) => .exit
  invFun
    | .bar => .inl ()
    | .send h s => .inr (.inl (h, s))
    | .recv h s => .inr (.inr (.inl (h, s)))
    | .exit => .inr (.inr (.inr ()))
  left_inv := by rintro (_ | _ | _ | _) <;> rfl
  right_inv := by rintro (_ | _ | _ | _) <;> rfl

/-- The entry handshake's cell and the kernel's own. -/
def ckOwn : Unit ⊕ OK ≃ CK where
  toFun
    | .inl _ => .bar
    | .inr k => k.ck
  invFun
    | .bar => .inl ()
    | .send h s => .inr (.send h s)
    | .recv h s => .inr (.recv h s)
    | .exit => .inr .exit
  left_inv := by rintro (_ | _ | _ | _) <;> rfl
  right_inv := by rintro (_ | _ | _ | _) <;> rfl

omit [FloatOps F] in
/-- A conjunction over a device's 26 cells, by kind. -/
theorem bigSep_CK (Φ : CK → sProp 𝕄) :
    bigSep Finset.univ Φ
      = iprop(Φ .bar ∗ (bigSep Finset.univ fun hs : Fin 6 × Fin 2 => Φ (.send hs.1 hs.2))
          ∗ (bigSep Finset.univ fun hs : Fin 6 × Fin 2 => Φ (.recv hs.1 hs.2)) ∗ Φ .exit) := by
  rw [bigSep_univ_equiv ckParts Φ, bigSep_univ_sum, bigSep_univ_sum, bigSep_univ_sum,
    bigSep_univ_of_subsingleton (), bigSep_univ_of_subsingleton ()]
  rfl

omit [FloatOps F] in
/-- The same, the entry handshake's cell apart from the 25 own. -/
theorem bigSep_CK_own (Φ : CK → sProp 𝕄) :
    bigSep Finset.univ Φ = iprop(Φ .bar ∗ bigSep Finset.univ fun k : OK => Φ k.ck) := by
  rw [bigSep_univ_equiv ckOwn Φ, bigSep_univ_sum, bigSep_univ_of_subsingleton ()]
  rfl

/-- The ring's cells: every device's 26. -/
def ringCells : Finset (GSem nD τ sig) := Finset.univ.map ⟨kcell, kcell_injective⟩

/-- The duty tokens of a device's own cells as minted: duty `false` of each of the 26 cells, duty `true` of the two
    handshake cells. -/
abbrev tokOf (cj : Dev nD × (CK ⊕ Bool)) : GSem nD τ sig × ℕ × Bool := match cj.2 with
  | .inl k => (kcell (cj.1, k), 0, false)
  | .inr false => (barCell cj.1, 0, true)
  | .inr true => (exitCell cj.1, 0, true)

theorem tokOf_injective : Function.Injective (tokOf : Dev nD × (CK ⊕ Bool) → GSem nD τ sig × ℕ × Bool) := by
  rintro ⟨c, j⟩ ⟨c', j'⟩ h
  have h1 : c = c' := by
    have := congrArg (fun x : GSem nD τ sig × ℕ × Bool => x.1.1.1) h
    rcases j with k | (_ | _) <;> rcases j' with k' | (_ | _) <;> exact this
  subst h1
  have h2 := congrArg (fun x : GSem nD τ sig × ℕ × Bool => x.2.2) h
  have h3 := congrArg (fun x : GSem nD τ sig × ℕ × Bool => x.1.2) h
  have : j = j' := by
    rcases j with k | (_ | _) <;> rcases j' with k' | (_ | _)
    · exact congrArg Sum.inl (csem_injective h3)
    · exact absurd h2 Bool.false_ne_true
    · exact absurd h2 Bool.false_ne_true
    · exact absurd h2.symm Bool.false_ne_true
    · rfl
    · exact absurd (csem_injective (a₁ := CK.bar) (a₂ := CK.exit) h3) (by decide)
    · exact absurd h2.symm Bool.false_ne_true
    · exact absurd (csem_injective (a₁ := CK.exit) (a₂ := CK.bar) h3) (by decide)
    · rfl
  subst this; rfl

/-- The ring's duty tokens: every device's 28. -/
def ringToks : Finset (GSem nD τ sig × ℕ × Bool) := Finset.univ.map ⟨tokOf, tokOf_injective⟩

/-- The launch element: the pipeline's cells and tokens, and the ring's. -/
def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun k : CK => dutyTok ER (kcell (c, k)) 0 false)
    ∗ dutyTok ER (barCell c) 0 true ∗ dutyTok ER (exitCell c) 0 true)

/-- What the launch element deals device `c`: the round state, the position and the reached-mark of each of its cells, and
    its cells' tokens. -/
def G (c : Dev nD) : sProp 𝕄 :=
  iprop((bigSep Finset.univ fun k : CK => roundState ER (ringRd m) (kcell (c, k)) 0)
    ∗ (bigSep Finset.univ fun k : CK => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
/-- A conjunction over the two duties. -/
theorem bigSep_bool (Φ : Bool → sProp 𝕄) : bigSep Finset.univ Φ = iprop(Φ false ∗ Φ true) := by
  rw [bigSep_univ_eq_bigSepL [false, true] (by decide) (by decide), bigSepL_cons_cons, bigSepL_singleton]
  rfl

/-- The ring's part of the launch element is every device's share of it. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_bool]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The entry handshake's semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's 26 counters at zero: its 25 own and the entry handshake's. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_CK_own]
  show iprop((bigSep Finset.univ fun k : OK => semVal (kcell (c, k.ck)) 0) ∗ semVal (barCell c) 0) ⊢ _
  iintro ⟨HO, HB⟩
  isplitl [HB]; · iexact HB
  iexact HO

/-- One device's cells: each one's invariant allocated, at some name, from its counter at zero and its round state. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (ringRd m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (ringRd m) (kcell (c, k)) 0)
      ⊢ (|={Set.univ}=> bigSep Finset.univ fun k : CK => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A device's ghost state from the records, its positions and the tokens it pays with. -/
theorem ghost_intro (c : Dev nD) : iprop(records m K ∗ posAll c ∗ payToks c) ⊢ G' m c := by
  unfold G' ghost
  iintro H; iexists K; iexact H

omit [FloatOps F] in
/-- The tokens dealt around the ring: a handshake cell's duty `false` to the device on its left (whose right neighbour it
    is), its duty `true` to the device on its right; an arrival cell's duty to the device on its left; a departure cell's
    stays. -/
theorem toks_around : (bigSep Finset.univ fun c : Dev nD => (toks c : sProp 𝕄)) ⊢ bigSep Finset.univ fun c : Dev nD => payToks c := by
  unfold toks payToks
  simp only [bigSep_CK, bigSep_sep']
  rw [bigSep_univ_equiv ring (fun c : Dev nD => (dutyTok ER (kcell (c, CK.bar)) 0 false : sProp 𝕄)),
    bigSep_univ_equiv ring.symm (fun c : Dev nD => (dutyTok ER (barCell c) 0 true : sProp 𝕄)),
    bigSep_univ_equiv ring (fun c : Dev nD => (bigSep Finset.univ fun hs : Fin 6 × Fin 2 => dutyTok ER (kcell (c, CK.recv hs.1 hs.2)) 0 false : sProp 𝕄)),
    bigSep_univ_equiv ring (fun c : Dev nD => (dutyTok ER (kcell (c, CK.exit)) 0 false : sProp 𝕄)),
    bigSep_univ_equiv ring.symm (fun c : Dev nD => (dutyTok ER (exitCell c) 0 true : sProp 𝕄))]
  iintro ⟨⟨HBf, HS, HR, HEf⟩, HBt, HEt⟩
  isplitl [HBt]; · iexact HBt
  isplitl [HBf]; · iexact HBf
  isplitl [HR]; · iexact HR
  isplitl [HS]; · iexact HS
  isplitl [HEt]; · iexact HEt
  iexact HEf

/-- All devices' invariants under one choice of names, the reached-marks shared, the tokens dealt around the ring. -/
theorem regroup :
    (bigSep Finset.univ fun c : Dev nD => iprop((bigSep Finset.univ fun k : CK => iprop(∃ κ : ℕ, cellInv ER (ringRd m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (ringRd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (ringRd m) κ (kcell ck) : sProp 𝕄))) $$ HI
  icases HK with ⟨%K, #HI⟩
  ihave Htk := (toks_around (F := F)) $$ Htok
  iapply (BI.bigSep_with_persistent (R := records m K) fun c _ => ghost_intro m K c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => show _ ⊢ iprop(posAll c ∗ payToks c) from Entails.of_eq (by unfold posAll; rw [bigSep_CK])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The theorem's side conditions -/

/-- What a device's body starts from, out of what the launch deals it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_of_launch (F := F) c) $$ Hcr
  imodintro
  unfold start G'
  isplitl
  · isplitl [HG]; · iexact HG
    isplitl [Hc]; · iexact Hc
    iexact Hlev
  · iempintro

/-- The invariant before the point: that and the landing buffer. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; rw [scrPts_eq]; iexact Hr

/-- The invariant after the point gives back the own counters and the landing buffer. -/
theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq]
  unfold Φ₁
  iintro ⟨⟨%f, Hr⟩, Hz⟩
  isplitr; · iempintro
  isplitl [Hz]; · iexact Hz
  iexists f; rw [← scrPts_eq]; iexact Hr

/-- The pipeline's own waits, on a staging semaphore, sit below every due. -/
theorem waits (c : Dev nD) : (levAts L lv : sProp 𝕄) ⊢ Pipeline.cellsWaits cfgs (dats m) () 0 c :=
  Pipeline.cellsWaits_intro cfgs (dats m) () 0 c fun w s t =>
    (show (dats m 0 c).owed t = owedFrom c 0 ∨ (dats m 0 c).owed t = owedFrom c 16 from by
      rcases t with ⟨_ | _, ht⟩
      · exact Or.inl rfl
      · exact Or.inr rfl).elim
      (fun h => h ▸ mayWait_stage c _ (by fin_cases w <;> fin_cases s <;> decide) 0)
      (fun h => h ▸ mayWait_stage c _ (by fin_cases w <;> fin_cases s <;> decide) 16)

/-! ### The run -/

set_option maxRecDepth 8000 in
/-- The run, with both arrays named. -/
theorem run_main : θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c => ⟨((h c).1 (1 : Fin 2)).trans (finalA_out m c), ((h c).1 (0 : Fin 2)).trans (finalA_in m c)⟩)

end Cert.KernelIdeal.AR

end
-- ==== Proof.Bridge.lean ====
/-
  The bridge from the ring's values to the reference, at the extended reals.
  Device c = 8x + 4y + z holds block z (1024 rows) of the whole array X : [4096, 512]. The staged block is the
  block itself, and the first copy into the result buffer is a cast between equal shapes: the identity. An
  accumulation is the sum of the two blocks, element by element. Round one ring the four devices' blocks are the
  four blocks of X, so after the three reduce steps chunk z + 1 of a device holds, at row r and column l of the
  chunk's half, the sum over k < 4 of X[1024 k + 256 (z + 1) + 128 s + r, l], in the order the ring met them;
  addition of extended reals is commutative and associative, so this is the sum in the order of k. The gather
  steps pass these sums on unchanged, and every chunk j of every device ends as the sum over k of
  X[1024 k + 256 j + …]: the result at (row, column) is the sum over k of X[1024 k + row, column]. The reference
  reshapes X to [4, 1024, 512] and sums over the first axis from the constant 0: the same sum.
-/
import proofs.«900718_g7700000000000719_dist_ar_v7x_xyz2x2x4_z_m1024_n512_f32_1_alg».proof.Proof.KernelIdealVals
import proofs.«900718_g7700000000000719_dist_ar_v7x_xyz2x2x4_z_m1024_n512_f32_1_alg».proof.Proof.Gen.ReferenceIdeal.Read
import Idealize.ShloMosaic.Lib.Layout
import Idealize.ShloMosaic.PureOps.Ideal.Laws
import Idealize.ShloMosaic.Lib.ValueIdx
import Idealize.ShloMosaic.Lib.Pipeline.Value
import Mathlib.Tactic.Abel

noncomputable section

namespace Cert.Bridge

open Idealize.ShloMosaic Idealize.ShloMosaic.TcCoe Idealize.SL.Sem Cert.KernelIdeal Cert.KernelIdeal.AR
open Cert.KernelIdeal.Gen

variable (m : (ℓ : Loc nD τ sig) → Buf (Elt Ideal) ℓ)

open Idealize.ShloMosaic.ValueIdx

/-- The whole array's type, and entry (r, col) of it with the coordinates given as naturals (zero outside the array). -/
abbrev Whole : Type := (⟨Cert.ReferenceIdeal.S4096x512, .f32⟩ : BufTy).Contents (Elt Ideal)

def G (X : Whole) (r col : Nat) : EReal :=
  if h : r < 4096 ∧ col < 512 then X (ix2 (⟨r, h.1⟩ : Fin 4096) (⟨col, h.2⟩ : Fin 512)) else 0

theorem X_eq_G (X : Whole) (j : Cert.ReferenceIdeal.S4096x512.Idx) : (X j : EReal) = G X (j 0).val (j 1).val := by
  unfold G
  rw [dif_pos ⟨(j 0).isLt, (j 1).isLt⟩]
  exact congrArg X (eq_ix2 j)

/-! ## The ring's positions -/

theorem meshLin_z : ∀ c : Dev nD, Layout.meshLin [2, 2, 4] c.val [2] = (zc c).val := by decide

/-- Four terms taken round the ring from any position are all four. -/
theorem sum_ring4 {M : Type} [AddCommMonoid M] (f : Fin 4 → M) (z : Fin 4) :
    f z + (f (z + 3) + (f (z + 2) + f (z + 1))) = ∑ k : Fin 4, f k := by
  rw [Fin.sum_univ_four]
  match z with
  | 0 => show f 0 + (f 3 + (f 2 + f 1)) = f 0 + f 1 + f 2 + f 3; abel
  | 1 => show f 1 + (f 0 + (f 3 + f 2)) = f 0 + f 1 + f 2 + f 3; abel
  | 2 => show f 2 + (f 1 + (f 0 + f 3)) = f 0 + f 1 + f 2 + f 3; abel
  | 3 => show f 3 + (f 2 + (f 1 + f 0)) = f 0 + f 1 + f 2 + f 3; abel

variable (X : Whole)
variable (hx : ∀ c : Dev nD, m ((c : Thread nD τ).loc main_arg0) = Layout.blockN ⟨2, ![1024, 512]⟩ ⟨2, ![4096, 512]⟩ (Layout.meshBlock [2, 2, 4] ![[2], []] c) X)

/-! ## The staged block and the first copy, at an index -/

theorem xin_eq (c : Dev nD) : xin (F := Ideal) m c = m ((c : Thread nD τ).loc main_arg0) := by
  unfold xin
  exact Memref.read_access_unit_zero (Elt Ideal) main_arg0 (off := fun a => 0 * S1024x512.size a)
    (funext fun a => Nat.zero_mul _) _ _

theorem out0_eq (c : Dev nD) : out0 (F := Ideal) m c = m ((c : Thread nD τ).loc main_arg0) := by
  unfold out0 k0_pay1
  rw [shapeCast_self, xin_eq]

include hx in
theorem arg_apply (c : Dev nD) (i : S1024x512.Idx) :
    (m ((c : Thread nD τ).loc main_arg0) i : EReal) = G X ((zc c).val * 1024 + (i 0).val) (i 1).val := by
  rw [hx c]
  refine (X_eq_G X _).trans ?_
  show G X (Layout.meshLin [2, 2, 4] c.val [2] * 1024 + (i 0).val) (0 * 512 + (i 1).val) = _
  rw [meshLin_z c, Nat.zero_mul, Nat.zero_add]

include hx in
theorem out0_apply (c : Dev nD) (i : S1024x512.Idx) :
    (out0 (F := Ideal) m c i : EReal) = G X ((zc c).val * 1024 + (i 0).val) (i 1).val := by
  rw [out0_eq]
  exact arg_apply m X hx c i

include hx in
/-- Half `s` of chunk `j` of device `c`'s block: rows 1024 z + 256 j + 128 s + … of the whole array. -/
theorem xblk_apply (c : Dev nD) (j : Fin 4) (s : Fin 2) (i : S128x512.Idx) :
    (xblk (F := Ideal) m c j s i : EReal)
      = G X ((zc c).val * 1024 + (256 * j.val + 128 * s.val + (i 0).val)) (i 1).val := by
  unfold xblk
  refine (out0_apply m X hx c _).trans ?_
  show G X ((zc c).val * 1024 + (rowOff j s + 1 * (i 0).val)) (0 + 1 * (i 1).val) = _
  unfold rowOff
  rw [Nat.one_mul, Nat.one_mul, Nat.zero_add]

/-! ## The accumulation at an index -/

theorem accV_apply (a w : Blk Ideal) (i : S128x512.Idx) :
    (accV (F := Ideal) a w i : EReal) = (a i : EReal) + (w i : EReal) := by
  unfold accV
  rw [shapeCast_self]
  rfl

/-- The entries of the whole array that meet in one element of a block: one row of each device's block. -/
def term (X : Whole) (R col : Nat) (z : Fin 4) : EReal := G X (z.val * 1024 + R) col

include hx in
theorem xblk_term (c : Dev nD) (j : Fin 4) (s : Fin 2) (i : S128x512.Idx) :
    (xblk (F := Ideal) m c j s i : EReal) = term X (256 * j.val + 128 * s.val + (i 0).val) (i 1).val (zc c) :=
  xblk_apply m X hx c j s i

theorem fin4_a : ∀ z : Fin 4, z + 3 + 2 = z + 1 := by decide
theorem fin4_b : ∀ z : Fin 4, z + 3 + 3 + 3 = z + 1 := by decide
theorem fin4_c : ∀ z : Fin 4, z + 3 + 3 = z + 2 := by decide
theorem fin4_d : ∀ z : Fin 4, z + 2 + 3 = z + 1 := by decide

theorem zc_prv2 (c : Dev nD) : zc (prv (prv c)) = zc c + 2 := by rw [zc_prv, zc_prv, fin4_c]
theorem zc_prv3 (c : Dev nD) : zc (prv (prv (prv c))) = zc c + 1 := by rw [zc_prv, zc_prv, zc_prv, fin4_b]

include hx in
/-- After the three reduce steps chunk z + 1 holds the sum over the ring. -/
theorem V3_apply (c : Dev nD) (s : Fin 2) (i : S128x512.Idx) :
    (V3 (F := Ideal) m c s i : EReal)
      = ∑ k : Fin 4, term X (256 * (zc c + 1).val + 128 * s.val + (i 0).val) (i 1).val k := by
  unfold V3
  rw [accV_apply]
  unfold V2
  rw [accV_apply]
  unfold V1
  rw [accV_apply]
  unfold V0
  rw [xblk_term m X hx, xblk_term m X hx, xblk_term m X hx, xblk_term m X hx]
  rw [zc_prv3, zc_prv2, zc_prv, fin4_a, fin4_d]
  exact sum_ring4 (M := EReal) (term X (256 * (zc c + 1).val + 128 * s.val + (i 0).val) (i 1).val) (zc c)

/-! ## The result buffer at the end -/

theorem fin4_k0 : ∀ z : Fin 4, z + 3 + 1 = z + 0 := by decide
theorem fin4_k2 : ∀ z : Fin 4, z + 3 + 3 + 3 + 1 = z + 2 := by decide
theorem fin4_k3 : ∀ z : Fin 4, z + 3 + 3 + 1 = z + 3 := by decide
theorem fin4_sub : ∀ z j : Fin 4, z + (j - z) = j := by decide

include hx in
/-- Chunk z + k of device `c` ends holding the ring's sum of that chunk. -/
theorem finV_apply (c : Dev nD) (k : Fin 4) (s : Fin 2) (i : S128x512.Idx) :
    (finV (F := Ideal) m c k s i : EReal)
      = ∑ z : Fin 4, term X (256 * (zc c + k).val + 128 * s.val + (i 0).val) (i 1).val z := by
  match k with
  | 0 =>
    show (V4 (F := Ideal) m c s i : EReal) = _
    unfold V4
    rw [V3_apply m X hx, zc_prv, fin4_k0]
  | 1 =>
    show (V3 (F := Ideal) m c s i : EReal) = _
    rw [V3_apply m X hx]
  | 2 =>
    show (V6 (F := Ideal) m c s i : EReal) = _
    unfold V6 V5 V4
    rw [V3_apply m X hx, zc_prv, zc_prv, zc_prv, fin4_k2]
  | 3 =>
    show (V5 (F := Ideal) m c s i : EReal) = _
    unfold V5 V4
    rw [V3_apply m X hx, zc_prv, zc_prv, fin4_k3]

include hx in
theorem outAt_apply (c : Dev nD) (i : S1024x512.Idx) :
    (outAt (F := Ideal) m c i : EReal) = ∑ z : Fin 4, term X (i 0).val (i 1).val z := by
  unfold outAt
  refine (finV_apply m X hx c _ _ _).trans ?_
  rw [fin4_sub]
  refine Finset.sum_congr rfl fun z _ => ?_
  have h0 : (i 0).val < 1024 := (i 0).isLt
  show term X (256 * ((i 0).val / 256) + 128 * ((i 0).val % 256 / 128) + (i 0).val % 128) (i 1).val z = _
  have e : 256 * ((i 0).val / 256) + 128 * ((i 0).val % 256 / 128) + (i 0).val % 128 = (i 0).val := by omega
  rw [e]

/-! ## The reference at an index -/

theorem ref_apply (i : Cert.ReferenceIdeal.S1024x512.Idx) :
    (Cert.ReferenceIdeal.Read.val_main_v1 (F := Ideal) X i : EReal) = ∑ z : Fin 4, term X (i 0).val (i 1).val z := by
  rw [Cert.ReferenceIdeal.Read.val_main_v1_apply, Cert.ReferenceIdeal.Read.val_main_cst_apply]
  show Ideal.ofBits .f32 0x00000000#32 + _ = _
  rw [Ideal.ofBits_zero_f32, zero_add]
  refine Finset.sum_congr rfl fun z _ => ?_
  rw [Cert.ReferenceIdeal.Read.val_main_v0_apply]
  refine (X_eq_G X _).trans ?_
  have h0 : (i 0).val < 1024 := (i 0).isLt
  have h1 : (i 1).val < 512 := (i 1).isLt
  have hz : z.val < 4 := z.isLt
  show G X (((z.val * 1024 + (i 0).val) * 512 + (i 1).val) / 512) (((z.val * 1024 + (i 0).val) * 512 + (i 1).val) % 512) = G X (z.val * 1024 + (i 0).val) (i 1).val
  have e0 : ((z.val * 1024 + (i 0).val) * 512 + (i 1).val) / 512 = z.val * 1024 + (i 0).val := by omega
  have e1 : ((z.val * 1024 + (i 0).val) * 512 + (i 1).val) % 512 = (i 1).val := by omega
  rw [e0, e1]

/-! ## The bridge -/

theorem outAt_eq_ref (m : (ℓ : Loc nD τ sig) → Buf (Elt Ideal) ℓ) (X : (⟨Cert.ReferenceIdeal.S4096x512, .f32⟩ : BufTy).Contents (Elt Ideal))
    (hx : ∀ c : Dev nD, m ((c : Thread nD τ).loc main_arg0) = Layout.blockN ⟨2, ![1024, 512]⟩ ⟨2, ![4096, 512]⟩ (Layout.meshBlock [2, 2, 4] ![[2], []] c) X)
    (c : Dev nD) : outAt (F := Ideal) m c = Cert.ReferenceIdeal.Read.val_main_v1 (F := Ideal) X := by
  funext i
  exact (outAt_apply m X hx c i).trans (ref_apply X i).symm

end Cert.Bridge

end
-- ==== Proof.RefValue.lean ====
/-
  The reference sums the four blocks of 1024 rows of the whole [4096, 512] array.
-/
import proofs.«900718_g7700000000000719_dist_ar_v7x_xyz2x2x4_z_m1024_n512_f32_1_alg».proof.Proof.Gen.ReferenceIdeal.Run
import proofs.«900718_g7700000000000719_dist_ar_v7x_xyz2x2x4_z_m1024_n512_f32_1_alg».proof.Proof.Gen.ReferenceIdeal.Read

noncomputable section

namespace Cert.ReferenceIdeal.RefValue

end Cert.ReferenceIdeal.RefValue

end
-- ==== Proof.lean ====
/-
  The certificate. A ring all-reduce over the z axis of a 2 × 2 × 4 mesh: every device starts from its block of
  1024 rows of the whole array (the four devices of a ring hold the four blocks); three reduce steps pass partial
  sums to the right neighbour, chunk by chunk, and three gather steps pass the finished chunks on, so that every
  device ends with the sum of the four blocks — what the one-device reference computes by reshaping the whole
  array to [4, 1024, 512] and summing over the first axis. Over the extended reals the ring's order of addition
  does not matter (addition there is commutative and associative); no finiteness is used.
  Each program's frame is its run with the values dropped; the idealization rewrote nothing, so `preserves` is
  trivial; `algebraic` is the idealized kernel's run on the sixteen devices next to the reference's run on one.
-/
import proofs.«900718_g7700000000000719_dist_ar_v7x_xyz2x2x4_z_m1024_n512_f32_1_alg».proof.Defs
import proofs.«900718_g7700000000000719_dist_ar_v7x_xyz2x2x4_z_m1024_n512_f32_1_alg».proof.Proof.Gen.Kernel
import proofs.«900718_g7700000000000719_dist_ar_v7x_xyz2x2x4_z_m1024_n512_f32_1_alg».proof.Proof.Gen.Kernel.Skeleton
import proofs.«900718_g7700000000000719_dist_ar_v7x_xyz2x2x4_z_m1024_n512_f32_1_alg».proof.Proof.Gen.Kernel.Launch
import proofs.«900718_g7700000000000719_dist_ar_v7x_xyz2x2x4_z_m1024_n512_f32_1_alg».proof.Proof.Gen.Kernel.Points
import proofs.«900718_g7700000000000719_dist_ar_v7x_xyz2x2x4_z_m1024_n512_f32_1_alg».proof.Proof.Gen.Kernel.Frame
import proofs.«900718_g7700000000000719_dist_ar_v7x_xyz2x2x4_z_m1024_n512_f32_1_alg».proof.Proof.Gen.KernelIdeal
import proofs.«900718_g7700000000000719_dist_ar_v7x_xyz2x2x4_z_m1024_n512_f32_1_alg».proof.Proof.Gen.KernelIdeal.Skeleton
import proofs.«900718_g7700000000000719_dist_ar_v7x_xyz2x2x4_z_m1024_n512_f32_1_alg».proof.Proof.Gen.KernelIdeal.Launch
import proofs.«900718_g7700000000000719_dist_ar_v7x_xyz2x2x4_z_m1024_n512_f32_1_alg».proof.Proof.Gen.KernelIdeal.Points
import proofs.«900718_g7700000000000719_dist_ar_v7x_xyz2x2x4_z_m1024_n512_f32_1_alg».proof.Proof.Gen.KernelIdeal.Frame
import proofs.«900718_g7700000000000719_dist_ar_v7x_xyz2x2x4_z_m1024_n512_f32_1_alg».proof.Proof.Gen.ReferenceIdeal
import proofs.«900718_g7700000000000719_dist_ar_v7x_xyz2x2x4_z_m1024_n512_f32_1_alg».proof.Proof.Gen.Pre_finite_inputs_Kernel
import proofs.«900718_g7700000000000719_dist_ar_v7x_xyz2x2x4_z_m1024_n512_f32_1_alg».proof.Proof.Gen.Pre_finite_inputs_ReferenceIdeal
import proofs.«900718_g7700000000000719_dist_ar_v7x_xyz2x2x4_z_m1024_n512_f32_1_alg».proof.Proof.KernelLaunch
import proofs.«900718_g7700000000000719_dist_ar_v7x_xyz2x2x4_z_m1024_n512_f32_1_alg».proof.Proof.KernelIdealLaunch
import proofs.«900718_g7700000000000719_dist_ar_v7x_xyz2x2x4_z_m1024_n512_f32_1_alg».proof.Proof.Bridge
import proofs.«900718_g7700000000000719_dist_ar_v7x_xyz2x2x4_z_m1024_n512_f32_1_alg».proof.Proof.RefValue
import Idealize.ShloMosaic.Adequacy
import Idealize.ShloMosaic.Init

noncomputable section

namespace Cert.Proof

open Idealize.ShloMosaic Idealize.SL.Sem

/-- The word-level kernel runs and leaves its input blocks unchanged. -/
theorem frame_Kernel : @Cert.frame_Kernel Cert.Kernel.Gen.facts Cert.Pre_finite_inputs_Kernel.Gen.facts :=
  fun m g _ => (θ_run (Cert.Kernel.defs (F := Bits)) _ _).mono (fun _ h c => (h c).2) (Cert.Kernel.AR.run_main (F := Bits) m g)

/-- The idealized kernel likewise. -/
theorem frame_KernelIdeal : @Cert.frame_KernelIdeal Cert.KernelIdeal.Gen.facts Cert.Pre_finite_inputs_Kernel.Gen.facts :=
  fun m g _ => (θ_run (Cert.KernelIdeal.defs (F := Ideal)) _ _).mono (fun _ h c => (h c).2) (Cert.KernelIdeal.AR.run_main (F := Ideal) m g)

/-- The reference runs and leaves the whole array unchanged. -/
theorem frame_ReferenceIdeal : @Cert.frame_ReferenceIdeal Cert.ReferenceIdeal.Gen.facts Cert.Pre_finite_inputs_ReferenceIdeal.Gen.facts :=
  fun m g _ => (θ_run (Cert.ReferenceIdeal.defs (F := Ideal)) _ _).mono (fun _ h c => (h c).2) (Cert.ReferenceIdeal.Value.run (F := Ideal) m g)

/-- Every device's result is the reference's: the sum of the four blocks. -/
theorem algebraic : @Cert.algebraic_KernelIdeal_ReferenceIdeal Cert.KernelIdeal.Gen.facts Cert.ReferenceIdeal.Gen.facts Cert.Pre_finite_inputs_Kernel.Gen.facts :=
  fun m g m' g' _ hagree =>
    ⟨Cert.ReferenceIdeal.Read.val_main_v1 (F := Ideal) (m' (((0 : Dev Cert.ReferenceIdeal.nD).tc : Thread Cert.ReferenceIdeal.nD Cert.ReferenceIdeal.τ).loc Cert.ReferenceIdeal.main_arg0)),
      (θ_run (Cert.KernelIdeal.defs (F := Ideal)) _ _).mono
        (fun _ h c => ⟨((h c).1).trans (Cert.Bridge.outAt_eq_ref m _ hagree c), (h c).2⟩)
        (Cert.KernelIdeal.AR.run_main (F := Ideal) m g),
      (θ_run (Cert.ReferenceIdeal.defs (F := Ideal)) _ _).mono
        (fun _ h => ⟨((h 0).1).trans (Cert.ReferenceIdeal.Read.val_main_v1_eq _), (h 0).2⟩)
        (Cert.ReferenceIdeal.Value.run (F := Ideal) m' g')⟩

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_Kernel, frame_KernelIdeal, frame_ReferenceIdeal, trivial, algebraic⟩

end Cert.Proof

end
